-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x4096x2048 : Shape := ⟨3, ![1, 4096, 2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel

variable [Facts]

def fn {F : FTy → Type} [FloatOps F] (main_arg0 : FVec F S1x4096x2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  main_v3
-- ==== Pre_finite_inputs_ReferenceIdeal.lean ====
abbrev S2x4096x2048 : Shape := ⟨3, ![2, 4096, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel

variable [Facts]

def fn {F : FTy → Type} [FloatOps F] (main_arg0 : FVec F S2x4096x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  main_v3
-- ==== Kernel.lean ====
abbrev S1x4096x2048 : Shape := ⟨3, ![1, 4096, 2048]⟩
abbrev S4096x1024 : Shape := ⟨2, ![4096, 1024]⟩
abbrev S4096x512 : Shape := ⟨2, ![4096, 512]⟩
abbrev S2x512x512 : Shape := ⟨3, ![2, 512, 512]⟩
abbrev S8 : Shape := ⟨1, ![8]⟩
abbrev S2 : Shape := ⟨1, ![2]⟩
abbrev S1 : Shape := ⟨1, ![1]⟩
abbrev S_ : Shape := ⟨0, ![]⟩
abbrev S1x512x512 : Shape := ⟨3, ![1, 512, 512]⟩
abbrev S512x512 : Shape := ⟨2, ![512, 512]⟩

abbrev nBuf : Space → Nat
  | .hbm => 2
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S2x512x512, .f32⟩
  | .local _ .vmem, ⟨5, _⟩ => ⟨S2x512x512, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c0_i32 : BitVec 32 := 0#32
  let c0_i32_12 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1024_i32 : BitVec 32 := 1024#32
  let v9 : BitVec 32 := Scalar.muli v8 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v9 v10
  ![0, 0, v11.toNat]
def k0_off2 (d0 : Dev nD) : Fin 3 → Nat :=
  let c0_i32_13 : BitVec 32 := 0#32
  let c512_i32_18 : BitVec 32 := 512#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1024_i32 : BitVec 32 := 1024#32
  let v9 : BitVec 32 := Scalar.muli v8 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v9 v10
  ![0, 512, v11.toNat]
def k0_off3 (d0 : Dev nD) : Fin 3 → Nat :=
  let c0_i32_19 : BitVec 32 := 0#32
  let c0_i32_24 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v12 : BitVec 32 := Scalar.muli v5 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  ![0, 0, v14.toNat]
def k0_off4 (d0 : Dev nD) : Fin 3 → Nat :=
  let c0_i32_25 : BitVec 32 := 0#32
  let c512_i32_30 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v12 : BitVec 32 := Scalar.muli v5 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  ![0, 512, v14.toNat]
def k0_dev1 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v41 : BitVec 32 := Scalar.muli v2 c2_i32_32
  let v42 : BitVec 32 := Scalar.addi c0_i32_33 v41
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_34 : BitVec 32 := 1#32
  let v43 : BitVec 32 := Scalar.muli v6 c1_i32_34
  let v44 : BitVec 32 := Scalar.addi v42 v43
  v44.toNat
def k0_dev2 (d0 : Dev nD) : Nat :=
  let c0_i32_37 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_36 : BitVec 32 := 2#32
  let v45 : BitVec 32 := Scalar.muli v7 c2_i32_36
  let v46 : BitVec 32 := Scalar.addi c0_i32_37 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v47 : BitVec 32 := Scalar.muli v5 c1_i32_38
  let v48 : BitVec 32 := Scalar.addi v46 v47
  v48.toNat
def k0_dev3 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v61 : BitVec 32 := Scalar.muli v2 c2_i32_52
  let v62 : BitVec 32 := Scalar.addi c0_i32_53 v61
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v63 : BitVec 32 := Scalar.muli v6 c1_i32_54
  let v64 : BitVec 32 := Scalar.addi v62 v63
  v64.toNat
def k0_off5 (d0 : Dev nD) : Fin 3 → Nat :=
  let c0_i32_70 : BitVec 32 := 0#32
  let c1024_i32_75 : BitVec 32 := 1024#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1024_i32 : BitVec 32 := 1024#32
  let v9 : BitVec 32 := Scalar.muli v8 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v9 v10
  ![0, 1024, v11.toNat]
def k0_off6 (d0 : Dev nD) : Fin 3 → Nat :=
  let c0_i32_76 : BitVec 32 := 0#32
  let c1024_i32_81 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v12 : BitVec 32 := Scalar.muli v5 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  ![0, 1024, v14.toNat]
def k0_dev4 (d0 : Dev nD) : Nat :=
  let c0_i32_94 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_93 : BitVec 32 := 2#32
  let v107 : BitVec 32 := Scalar.muli v2 c2_i32_93
  let v108 : BitVec 32 := Scalar.addi c0_i32_94 v107
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_95 : BitVec 32 := 1#32
  let v109 : BitVec 32 := Scalar.muli v6 c1_i32_95
  let v110 : BitVec 32 := Scalar.addi v108 v109
  v110.toNat
def k0_off7 (d0 : Dev nD) : Fin 3 → Nat :=
  let c0_i32_111 : BitVec 32 := 0#32
  let c1536_i32 : BitVec 32 := 1536#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1024_i32 : BitVec 32 := 1024#32
  let v9 : BitVec 32 := Scalar.muli v8 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v9 v10
  ![0, 1536, v11.toNat]
def k0_off8 (d0 : Dev nD) : Fin 3 → Nat :=
  let c0_i32_116 : BitVec 32 := 0#32
  let c1536_i32_121 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v12 : BitVec 32 := Scalar.muli v5 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  ![0, 1536, v14.toNat]
def k0_dev5 (d0 : Dev nD) : Nat :=
  let c0_i32_135 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_134 : BitVec 32 := 2#32
  let v153 : BitVec 32 := Scalar.muli v2 c2_i32_134
  let v154 : BitVec 32 := Scalar.addi c0_i32_135 v153
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_136 : BitVec 32 := 1#32
  let v155 : BitVec 32 := Scalar.muli v6 c1_i32_136
  let v156 : BitVec 32 := Scalar.addi v154 v155
  v156.toNat
def k0_off9 (d0 : Dev nD) : Fin 3 → Nat :=
  let c0_i32_152 : BitVec 32 := 0#32
  let c2048_i32 : BitVec 32 := 2048#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1024_i32 : BitVec 32 := 1024#32
  let v9 : BitVec 32 := Scalar.muli v8 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v9 v10
  ![0, 2048, v11.toNat]
def k0_off10 (d0 : Dev nD) : Fin 3 → Nat :=
  let c0_i32_157 : BitVec 32 := 0#32
  let c2048_i32_162 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v12 : BitVec 32 := Scalar.muli v5 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  ![0, 2048, v14.toNat]
def k0_dev6 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v199 : BitVec 32 := Scalar.muli v2 c2_i32_174
  let v200 : BitVec 32 := Scalar.addi c0_i32_175 v199
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_176 : BitVec 32 := 1#32
  let v201 : BitVec 32 := Scalar.muli v6 c1_i32_176
  let v202 : BitVec 32 := Scalar.addi v200 v201
  v202.toNat
def k0_off11 (d0 : Dev nD) : Fin 3 → Nat :=
  let c0_i32_192 : BitVec 32 := 0#32
  let c2560_i32 : BitVec 32 := 2560#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1024_i32 : BitVec 32 := 1024#32
  let v9 : BitVec 32 := Scalar.muli v8 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v9 v10
  ![0, 2560, v11.toNat]
def k0_off12 (d0 : Dev nD) : Fin 3 → Nat :=
  let c0_i32_197 : BitVec 32 := 0#32
  let c2560_i32_202 : BitVec 32 := 2560#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v12 : BitVec 32 := Scalar.muli v5 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  ![0, 2560, v14.toNat]
def k0_dev7 (d0 : Dev nD) : Nat :=
  let c0_i32_215 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_214 : BitVec 32 := 2#32
  let v245 : BitVec 32 := Scalar.muli v2 c2_i32_214
  let v246 : BitVec 32 := Scalar.addi c0_i32_215 v245
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_216 : BitVec 32 := 1#32
  let v247 : BitVec 32 := Scalar.muli v6 c1_i32_216
  let v248 : BitVec 32 := Scalar.addi v246 v247
  v248.toNat
def k0_off13 (d0 : Dev nD) : Fin 3 → Nat :=
  let c0_i32_232 : BitVec 32 := 0#32
  let c3072_i32 : BitVec 32 := 3072#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1024_i32 : BitVec 32 := 1024#32
  let v9 : BitVec 32 := Scalar.muli v8 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v9 v10
  ![0, 3072, v11.toNat]
def k0_off14 (d0 : Dev nD) : Fin 3 → Nat :=
  let c0_i32_237 : BitVec 32 := 0#32
  let c3072_i32_242 : BitVec 32 := 3072#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v12 : BitVec 32 := Scalar.muli v5 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  ![0, 3072, v14.toNat]
def k0_dev8 (d0 : Dev nD) : Nat :=
  let c0_i32_255 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_254 : BitVec 32 := 2#32
  let v291 : BitVec 32 := Scalar.muli v2 c2_i32_254
  let v292 : BitVec 32 := Scalar.addi c0_i32_255 v291
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_256 : BitVec 32 := 1#32
  let v293 : BitVec 32 := Scalar.muli v6 c1_i32_256
  let v294 : BitVec 32 := Scalar.addi v292 v293
  v294.toNat
def k0_off15 (d0 : Dev nD) : Fin 3 → Nat :=
  let c0_i32_272 : BitVec 32 := 0#32
  let c3584_i32 : BitVec 32 := 3584#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_4 v5
  let c1024_i32 : BitVec 32 := 1024#32
  let v9 : BitVec 32 := Scalar.muli v8 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v10 : BitVec 32 := Scalar.muli v2 c512_i32
  let v11 : BitVec 32 := Scalar.addi v9 v10
  ![0, 3584, v11.toNat]
def k0_off16 (d0 : Dev nD) : Fin 3 → Nat :=
  let c0_i32_277 : BitVec 32 := 0#32
  let c3584_i32_282 : BitVec 32 := 3584#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v12 : BitVec 32 := Scalar.muli v5 c1024_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_6 : BitVec 32 := 512#32
  let v13 : BitVec 32 := Scalar.muli v2 c512_i32_6
  let v14 : BitVec 32 := Scalar.addi v12 v13
  ![0, 3584, v14.toNat]
def k0_dev9 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v337 : BitVec 32 := Scalar.muli v2 c2_i32_294
  let v338 : BitVec 32 := Scalar.addi c0_i32_295 v337
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_296 : BitVec 32 := 1#32
  let v339 : BitVec 32 := Scalar.muli v6 c1_i32_296
  let v340 : BitVec 32 := Scalar.addi v338 v339
  v340.toNat
def k0_dev10 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_323 : BitVec 32 := 2#32
  let v371 : BitVec 32 := Scalar.muli v2 c2_i32_323
  let v372 : BitVec 32 := Scalar.addi c0_i32_324 v371
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_325 : BitVec 32 := 1#32
  let v373 : BitVec 32 := Scalar.muli v6 c1_i32_325
  let v374 : BitVec 32 := Scalar.addi v372 v373
  v374.toNat
def k0_off17 (d0 : Dev nD) : Fin 2 → Nat :=
  let c0_354 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v404 : Index := Scalar.indexCast v15
  ![0, v404.toNat]
def k0_off18 (d0 : Dev nD) : Fin 2 → Nat :=
  let c0_i32_360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  ![0, v15.toNat]
def k0_dev11 (d0 : Dev nD) : Nat :=
  let c0_i32_358 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_357 : BitVec 32 := 2#32
  let v406 : BitVec 32 := Scalar.muli v7 c2_i32_357
  let v407 : BitVec 32 := Scalar.addi c0_i32_358 v406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_359 : BitVec 32 := 1#32
  let v408 : BitVec 32 := Scalar.muli v5 c1_i32_359
  let v409 : BitVec 32 := Scalar.addi v407 v408
  v409.toNat
def k0_off19 (d0 : Dev nD) : Fin 2 → Nat :=
  let c512_375 : Index := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v427 : Index := Scalar.indexCast v15
  ![512, v427.toNat]
def k0_off20 (d0 : Dev nD) : Fin 2 → Nat :=
  let c512_i32_381 : BitVec 32 := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  ![512, v15.toNat]
def k0_dev12 (d0 : Dev nD) : Nat :=
  let c0_i32_379 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_378 : BitVec 32 := 2#32
  let v429 : BitVec 32 := Scalar.muli v7 c2_i32_378
  let v430 : BitVec 32 := Scalar.addi c0_i32_379 v429
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_380 : BitVec 32 := 1#32
  let v431 : BitVec 32 := Scalar.muli v5 c1_i32_380
  let v432 : BitVec 32 := Scalar.addi v430 v431
  v432.toNat
def k0_off21 (d0 : Dev nD) : Fin 2 → Nat :=
  let c1024_396 : Index := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v450 : Index := Scalar.indexCast v15
  ![1024, v450.toNat]
def k0_off22 (d0 : Dev nD) : Fin 2 → Nat :=
  let c1024_i32_402 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  ![1024, v15.toNat]
def k0_dev13 (d0 : Dev nD) : Nat :=
  let c0_i32_400 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_399 : BitVec 32 := 2#32
  let v452 : BitVec 32 := Scalar.muli v7 c2_i32_399
  let v453 : BitVec 32 := Scalar.addi c0_i32_400 v452
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_401 : BitVec 32 := 1#32
  let v454 : BitVec 32 := Scalar.muli v5 c1_i32_401
  let v455 : BitVec 32 := Scalar.addi v453 v454
  v455.toNat
def k0_off23 (d0 : Dev nD) : Fin 2 → Nat :=
  let c1536_417 : Index := 1536#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v473 : Index := Scalar.indexCast v15
  ![1536, v473.toNat]
def k0_off24 (d0 : Dev nD) : Fin 2 → Nat :=
  let c1536_i32_423 : BitVec 32 := 1536#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  ![1536, v15.toNat]
def k0_dev14 (d0 : Dev nD) : Nat :=
  let c0_i32_421 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_420 : BitVec 32 := 2#32
  let v475 : BitVec 32 := Scalar.muli v7 c2_i32_420
  let v476 : BitVec 32 := Scalar.addi c0_i32_421 v475
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_422 : BitVec 32 := 1#32
  let v477 : BitVec 32 := Scalar.muli v5 c1_i32_422
  let v478 : BitVec 32 := Scalar.addi v476 v477
  v478.toNat
def k0_off25 (d0 : Dev nD) : Fin 2 → Nat :=
  let c2048_438 : Index := 2048#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v496 : Index := Scalar.indexCast v15
  ![2048, v496.toNat]
def k0_off26 (d0 : Dev nD) : Fin 2 → Nat :=
  let c2048_i32_444 : BitVec 32 := 2048#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  ![2048, v15.toNat]
def k0_dev15 (d0 : Dev nD) : Nat :=
  let c0_i32_442 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_441 : BitVec 32 := 2#32
  let v498 : BitVec 32 := Scalar.muli v7 c2_i32_441
  let v499 : BitVec 32 := Scalar.addi c0_i32_442 v498
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_443 : BitVec 32 := 1#32
  let v500 : BitVec 32 := Scalar.muli v5 c1_i32_443
  let v501 : BitVec 32 := Scalar.addi v499 v500
  v501.toNat
def k0_off27 (d0 : Dev nD) : Fin 2 → Nat :=
  let c2560_459 : Index := 2560#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v519 : Index := Scalar.indexCast v15
  ![2560, v519.toNat]
def k0_off28 (d0 : Dev nD) : Fin 2 → Nat :=
  let c2560_i32_465 : BitVec 32 := 2560#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  ![2560, v15.toNat]
def k0_dev16 (d0 : Dev nD) : Nat :=
  let c0_i32_463 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_462 : BitVec 32 := 2#32
  let v521 : BitVec 32 := Scalar.muli v7 c2_i32_462
  let v522 : BitVec 32 := Scalar.addi c0_i32_463 v521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_464 : BitVec 32 := 1#32
  let v523 : BitVec 32 := Scalar.muli v5 c1_i32_464
  let v524 : BitVec 32 := Scalar.addi v522 v523
  v524.toNat
def k0_off29 (d0 : Dev nD) : Fin 2 → Nat :=
  let c3072_480 : Index := 3072#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v542 : Index := Scalar.indexCast v15
  ![3072, v542.toNat]
def k0_off30 (d0 : Dev nD) : Fin 2 → Nat :=
  let c3072_i32_486 : BitVec 32 := 3072#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  ![3072, v15.toNat]
def k0_dev17 (d0 : Dev nD) : Nat :=
  let c0_i32_484 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_483 : BitVec 32 := 2#32
  let v544 : BitVec 32 := Scalar.muli v7 c2_i32_483
  let v545 : BitVec 32 := Scalar.addi c0_i32_484 v544
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_485 : BitVec 32 := 1#32
  let v546 : BitVec 32 := Scalar.muli v5 c1_i32_485
  let v547 : BitVec 32 := Scalar.addi v545 v546
  v547.toNat
def k0_off31 (d0 : Dev nD) : Fin 2 → Nat :=
  let c3584_501 : Index := 3584#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  let v565 : Index := Scalar.indexCast v15
  ![3584, v565.toNat]
def k0_off32 (d0 : Dev nD) : Fin 2 → Nat :=
  let c3584_i32_507 : BitVec 32 := 3584#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v15 : BitVec 32 := Scalar.muli v2 c512_i32_7
  ![3584, v15.toNat]
def k0_dev18 (d0 : Dev nD) : Nat :=
  let c0_i32_505 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_504 : BitVec 32 := 2#32
  let v567 : BitVec 32 := Scalar.muli v7 c2_i32_504
  let v568 : BitVec 32 := Scalar.addi c0_i32_505 v567
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_506 : BitVec 32 := 1#32
  let v569 : BitVec 32 := Scalar.muli v5 c1_i32_506
  let v570 : BitVec 32 := Scalar.addi v568 v569
  v570.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S2_S1_0 : ∀ a, (![0] : Fin 1 → Nat) a + S1.size a ≤ S2.size a
  squeezes_S1_S_ : S1.Squeezes S_
  inb_S2x512x512_S1x512x512_0_0_0 : ∀ a, (![0, 0, 0] : Fin 3 → Nat) a + S1x512x512.size a ≤ S2x512x512.size a
  squeezes_S1x512x512_S512x512 : S1x512x512.Squeezes S512x512
  inb_S2_S1_1 : ∀ a, (![1] : Fin 1 → Nat) a + S1.size a ≤ S2.size a
  inb_S2x512x512_S1x512x512_1_0_0 : ∀ a, (![1, 0, 0] : Fin 3 → Nat) a + S1x512x512.size a ≤ S2x512x512.size a
  hamt_1 : (1#32 : BitVec 32).msb = false
  hamt_2 : (2#32 : BitVec 32).msb = false
  h_S1x512x512 : 0 < S1x512x512.numel
  shapeCasts_S1x512x512_S512x512 : S1x512x512.ShapeCasts S512x512
  bitsLt_bf16_f32 : FTy.bits .bf16 < FTy.bits .f32
  inb_S4096x512_S512x512_0_0 : ∀ a, (![0, 0] : Fin 2 → Nat) a + S512x512.size a ≤ S4096x512.size a
  h_S512x512 : 0 < S512x512.numel
  shapeCasts_S512x512_S512x512 : S512x512.ShapeCasts S512x512
  packedbf16_S4096x512_S512x512_0_0 : (Rect.unit (s := S4096x512) ![0, 0] S512x512.size inb_S4096x512_S512x512_0_0).PackedRows (EltTy.packing .bf16)
  inb_S8_S1_0 : ∀ a, (![0] : Fin 1 → Nat) a + S1.size a ≤ S8.size a
  wordsbf16_S4096x512_S512x512_0_0 : (Rect.unit (s := S4096x512) ![0, 0] S512x512.size inb_S4096x512_S512x512_0_0).WholeWords (EltTy.packing .bf16)
  inb_S4096x512_S512x512_512_0 : ∀ a, (![512, 0] : Fin 2 → Nat) a + S512x512.size a ≤ S4096x512.size a
  packedbf16_S4096x512_S512x512_512_0 : (Rect.unit (s := S4096x512) ![512, 0] S512x512.size inb_S4096x512_S512x512_512_0).PackedRows (EltTy.packing .bf16)
  inb_S8_S1_1 : ∀ a, (![1] : Fin 1 → Nat) a + S1.size a ≤ S8.size a
  wordsbf16_S4096x512_S512x512_512_0 : (Rect.unit (s := S4096x512) ![512, 0] S512x512.size inb_S4096x512_S512x512_512_0).WholeWords (EltTy.packing .bf16)
  inb_S4096x512_S512x512_1024_0 : ∀ a, (![1024, 0] : Fin 2 → Nat) a + S512x512.size a ≤ S4096x512.size a
  packedbf16_S4096x512_S512x512_1024_0 : (Rect.unit (s := S4096x512) ![1024, 0] S512x512.size inb_S4096x512_S512x512_1024_0).PackedRows (EltTy.packing .bf16)
  inb_S8_S1_2 : ∀ a, (![2] : Fin 1 → Nat) a + S1.size a ≤ S8.size a
  wordsbf16_S4096x512_S512x512_1024_0 : (Rect.unit (s := S4096x512) ![1024, 0] S512x512.size inb_S4096x512_S512x512_1024_0).WholeWords (EltTy.packing .bf16)
  inb_S4096x512_S512x512_1536_0 : ∀ a, (![1536, 0] : Fin 2 → Nat) a + S512x512.size a ≤ S4096x512.size a
  packedbf16_S4096x512_S512x512_1536_0 : (Rect.unit (s := S4096x512) ![1536, 0] S512x512.size inb_S4096x512_S512x512_1536_0).PackedRows (EltTy.packing .bf16)
  inb_S8_S1_3 : ∀ a, (![3] : Fin 1 → Nat) a + S1.size a ≤ S8.size a
  wordsbf16_S4096x512_S512x512_1536_0 : (Rect.unit (s := S4096x512) ![1536, 0] S512x512.size inb_S4096x512_S512x512_1536_0).WholeWords (EltTy.packing .bf16)
  inb_S4096x512_S512x512_2048_0 : ∀ a, (![2048, 0] : Fin 2 → Nat) a + S512x512.size a ≤ S4096x512.size a
  packedbf16_S4096x512_S512x512_2048_0 : (Rect.unit (s := S4096x512) ![2048, 0] S512x512.size inb_S4096x512_S512x512_2048_0).PackedRows (EltTy.packing .bf16)
  inb_S8_S1_4 : ∀ a, (![4] : Fin 1 → Nat) a + S1.size a ≤ S8.size a
  wordsbf16_S4096x512_S512x512_2048_0 : (Rect.unit (s := S4096x512) ![2048, 0] S512x512.size inb_S4096x512_S512x512_2048_0).WholeWords (EltTy.packing .bf16)
  inb_S4096x512_S512x512_2560_0 : ∀ a, (![2560, 0] : Fin 2 → Nat) a + S512x512.size a ≤ S4096x512.size a
  packedbf16_S4096x512_S512x512_2560_0 : (Rect.unit (s := S4096x512) ![2560, 0] S512x512.size inb_S4096x512_S512x512_2560_0).PackedRows (EltTy.packing .bf16)
  inb_S8_S1_5 : ∀ a, (![5] : Fin 1 → Nat) a + S1.size a ≤ S8.size a
  wordsbf16_S4096x512_S512x512_2560_0 : (Rect.unit (s := S4096x512) ![2560, 0] S512x512.size inb_S4096x512_S512x512_2560_0).WholeWords (EltTy.packing .bf16)
  inb_S4096x512_S512x512_3072_0 : ∀ a, (![3072, 0] : Fin 2 → Nat) a + S512x512.size a ≤ S4096x512.size a
  packedbf16_S4096x512_S512x512_3072_0 : (Rect.unit (s := S4096x512) ![3072, 0] S512x512.size inb_S4096x512_S512x512_3072_0).PackedRows (EltTy.packing .bf16)
  inb_S8_S1_6 : ∀ a, (![6] : Fin 1 → Nat) a + S1.size a ≤ S8.size a
  wordsbf16_S4096x512_S512x512_3072_0 : (Rect.unit (s := S4096x512) ![3072, 0] S512x512.size inb_S4096x512_S512x512_3072_0).WholeWords (EltTy.packing .bf16)
  inb_S4096x512_S512x512_3584_0 : ∀ a, (![3584, 0] : Fin 2 → Nat) a + S512x512.size a ≤ S4096x512.size a
  packedbf16_S4096x512_S512x512_3584_0 : (Rect.unit (s := S4096x512) ![3584, 0] S512x512.size inb_S4096x512_S512x512_3584_0).PackedRows (EltTy.packing .bf16)
  inb_S8_S1_7 : ∀ a, (![7] : Fin 1 → Nat) a + S1.size a ≤ S8.size a
  wordsbf16_S4096x512_S512x512_3584_0 : (Rect.unit (s := S4096x512) ![3584, 0] S512x512.size inb_S4096x512_S512x512_3584_0).WholeWords (EltTy.packing .bf16)
  hcc0_scratch5 : 1 + S8.numel ≤ 37
  hcc0_scratch6 : 9 + S8.numel ≤ 37
  hcc0_scratch7 : 17 + S8.numel ≤ 37
  hcc0_scratch8 : 25 + S8.numel ≤ 37
  hcc0_scratch9 : 33 + S2.numel ≤ 37
  hcc0_scratch10 : 35 + S2.numel ≤ 37
  k0_off1_inb : ∀ d0 : Dev nD, ∀ a, (k0_off1 d0) a + S1x512x512.size a ≤ S1x4096x2048.size a
  k0_off2_inb : ∀ d0 : Dev nD, ∀ a, (k0_off2 d0) a + S1x512x512.size a ≤ S1x4096x2048.size a
  k0_off3_inb : ∀ d0 : Dev nD, ∀ a, (k0_off3 d0) a + S1x512x512.size a ≤ S1x4096x2048.size a
  k0_off4_inb : ∀ d0 : Dev nD, ∀ a, (k0_off4 d0) a + S1x512x512.size a ≤ S1x4096x2048.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off5_inb : ∀ d0 : Dev nD, ∀ a, (k0_off5 d0) a + S1x512x512.size a ≤ S1x4096x2048.size a
  k0_off6_inb : ∀ d0 : Dev nD, ∀ a, (k0_off6 d0) a + S1x512x512.size a ≤ S1x4096x2048.size a
  k0_dev4_lt : ∀ d0 : Dev nD, (k0_dev4 d0) < nD
  k0_off7_inb : ∀ d0 : Dev nD, ∀ a, (k0_off7 d0) a + S1x512x512.size a ≤ S1x4096x2048.size a
  k0_off8_inb : ∀ d0 : Dev nD, ∀ a, (k0_off8 d0) a + S1x512x512.size a ≤ S1x4096x2048.size a
  k0_dev5_lt : ∀ d0 : Dev nD, (k0_dev5 d0) < nD
  k0_off9_inb : ∀ d0 : Dev nD, ∀ a, (k0_off9 d0) a + S1x512x512.size a ≤ S1x4096x2048.size a
  k0_off10_inb : ∀ d0 : Dev nD, ∀ a, (k0_off10 d0) a + S1x512x512.size a ≤ S1x4096x2048.size a
  k0_dev6_lt : ∀ d0 : Dev nD, (k0_dev6 d0) < nD
  k0_off11_inb : ∀ d0 : Dev nD, ∀ a, (k0_off11 d0) a + S1x512x512.size a ≤ S1x4096x2048.size a
  k0_off12_inb : ∀ d0 : Dev nD, ∀ a, (k0_off12 d0) a + S1x512x512.size a ≤ S1x4096x2048.size a
  k0_dev7_lt : ∀ d0 : Dev nD, (k0_dev7 d0) < nD
  k0_off13_inb : ∀ d0 : Dev nD, ∀ a, (k0_off13 d0) a + S1x512x512.size a ≤ S1x4096x2048.size a
  k0_off14_inb : ∀ d0 : Dev nD, ∀ a, (k0_off14 d0) a + S1x512x512.size a ≤ S1x4096x2048.size a
  k0_dev8_lt : ∀ d0 : Dev nD, (k0_dev8 d0) < nD
  k0_off15_inb : ∀ d0 : Dev nD, ∀ a, (k0_off15 d0) a + S1x512x512.size a ≤ S1x4096x2048.size a
  k0_off16_inb : ∀ d0 : Dev nD, ∀ a, (k0_off16 d0) a + S1x512x512.size a ≤ S1x4096x2048.size a
  k0_dev9_lt : ∀ d0 : Dev nD, (k0_dev9 d0) < nD
  k0_dev10_lt : ∀ d0 : Dev nD, (k0_dev10 d0) < nD
  k0_off17_inb : ∀ d0 : Dev nD, ∀ a, (k0_off17 d0) a + S512x512.size a ≤ S4096x1024.size a
  k0_off17_packedbf16 : ∀ d0 : Dev nD, (Rect.unit (s := S4096x1024) (k0_off17 d0) S512x512.size (k0_off17_inb d0)).PackedRows (EltTy.packing .bf16)
  k0_off18_inb : ∀ d0 : Dev nD, ∀ a, (k0_off18 d0) a + S512x512.size a ≤ S4096x1024.size a
  k0_off18_wordsbf16 : ∀ d0 : Dev nD, (Rect.unit (s := S4096x1024) (k0_off18 d0) S512x512.size (k0_off18_inb d0)).WholeWords (EltTy.packing .bf16)
  k0_dev11_lt : ∀ d0 : Dev nD, (k0_dev11 d0) < nD
  k0_off19_inb : ∀ d0 : Dev nD, ∀ a, (k0_off19 d0) a + S512x512.size a ≤ S4096x1024.size a
  k0_off19_packedbf16 : ∀ d0 : Dev nD, (Rect.unit (s := S4096x1024) (k0_off19 d0) S512x512.size (k0_off19_inb d0)).PackedRows (EltTy.packing .bf16)
  k0_off20_inb : ∀ d0 : Dev nD, ∀ a, (k0_off20 d0) a + S512x512.size a ≤ S4096x1024.size a
  k0_off20_wordsbf16 : ∀ d0 : Dev nD, (Rect.unit (s := S4096x1024) (k0_off20 d0) S512x512.size (k0_off20_inb d0)).WholeWords (EltTy.packing .bf16)
  k0_dev12_lt : ∀ d0 : Dev nD, (k0_dev12 d0) < nD
  k0_off21_inb : ∀ d0 : Dev nD, ∀ a, (k0_off21 d0) a + S512x512.size a ≤ S4096x1024.size a
  k0_off21_packedbf16 : ∀ d0 : Dev nD, (Rect.unit (s := S4096x1024) (k0_off21 d0) S512x512.size (k0_off21_inb d0)).PackedRows (EltTy.packing .bf16)
  k0_off22_inb : ∀ d0 : Dev nD, ∀ a, (k0_off22 d0) a + S512x512.size a ≤ S4096x1024.size a
  k0_off22_wordsbf16 : ∀ d0 : Dev nD, (Rect.unit (s := S4096x1024) (k0_off22 d0) S512x512.size (k0_off22_inb d0)).WholeWords (EltTy.packing .bf16)
  k0_dev13_lt : ∀ d0 : Dev nD, (k0_dev13 d0) < nD
  k0_off23_inb : ∀ d0 : Dev nD, ∀ a, (k0_off23 d0) a + S512x512.size a ≤ S4096x1024.size a
  k0_off23_packedbf16 : ∀ d0 : Dev nD, (Rect.unit (s := S4096x1024) (k0_off23 d0) S512x512.size (k0_off23_inb d0)).PackedRows (EltTy.packing .bf16)
  k0_off24_inb : ∀ d0 : Dev nD, ∀ a, (k0_off24 d0) a + S512x512.size a ≤ S4096x1024.size a
  k0_off24_wordsbf16 : ∀ d0 : Dev nD, (Rect.unit (s := S4096x1024) (k0_off24 d0) S512x512.size (k0_off24_inb d0)).WholeWords (EltTy.packing .bf16)
  k0_dev14_lt : ∀ d0 : Dev nD, (k0_dev14 d0) < nD
  k0_off25_inb : ∀ d0 : Dev nD, ∀ a, (k0_off25 d0) a + S512x512.size a ≤ S4096x1024.size a
  k0_off25_packedbf16 : ∀ d0 : Dev nD, (Rect.unit (s := S4096x1024) (k0_off25 d0) S512x512.size (k0_off25_inb d0)).PackedRows (EltTy.packing .bf16)
  k0_off26_inb : ∀ d0 : Dev nD, ∀ a, (k0_off26 d0) a + S512x512.size a ≤ S4096x1024.size a
  k0_off26_wordsbf16 : ∀ d0 : Dev nD, (Rect.unit (s := S4096x1024) (k0_off26 d0) S512x512.size (k0_off26_inb d0)).WholeWords (EltTy.packing .bf16)
  k0_dev15_lt : ∀ d0 : Dev nD, (k0_dev15 d0) < nD
  k0_off27_inb : ∀ d0 : Dev nD, ∀ a, (k0_off27 d0) a + S512x512.size a ≤ S4096x1024.size a
  k0_off27_packedbf16 : ∀ d0 : Dev nD, (Rect.unit (s := S4096x1024) (k0_off27 d0) S512x512.size (k0_off27_inb d0)).PackedRows (EltTy.packing .bf16)
  k0_off28_inb : ∀ d0 : Dev nD, ∀ a, (k0_off28 d0) a + S512x512.size a ≤ S4096x1024.size a
  k0_off28_wordsbf16 : ∀ d0 : Dev nD, (Rect.unit (s := S4096x1024) (k0_off28 d0) S512x512.size (k0_off28_inb d0)).WholeWords (EltTy.packing .bf16)
  k0_dev16_lt : ∀ d0 : Dev nD, (k0_dev16 d0) < nD
  k0_off29_inb : ∀ d0 : Dev nD, ∀ a, (k0_off29 d0) a + S512x512.size a ≤ S4096x1024.size a
  k0_off29_packedbf16 : ∀ d0 : Dev nD, (Rect.unit (s := S4096x1024) (k0_off29 d0) S512x512.size (k0_off29_inb d0)).PackedRows (EltTy.packing .bf16)
  k0_off30_inb : ∀ d0 : Dev nD, ∀ a, (k0_off30 d0) a + S512x512.size a ≤ S4096x1024.size a
  k0_off30_wordsbf16 : ∀ d0 : Dev nD, (Rect.unit (s := S4096x1024) (k0_off30 d0) S512x512.size (k0_off30_inb d0)).WholeWords (EltTy.packing .bf16)
  k0_dev17_lt : ∀ d0 : Dev nD, (k0_dev17 d0) < nD
  k0_off31_inb : ∀ d0 : Dev nD, ∀ a, (k0_off31 d0) a + S512x512.size a ≤ S4096x1024.size a
  k0_off31_packedbf16 : ∀ d0 : Dev nD, (Rect.unit (s := S4096x1024) (k0_off31 d0) S512x512.size (k0_off31_inb d0)).PackedRows (EltTy.packing .bf16)
  k0_off32_inb : ∀ d0 : Dev nD, ∀ a, (k0_off32 d0) a + S512x512.size a ≤ S4096x1024.size a
  k0_off32_wordsbf16 : ∀ d0 : Dev nD, (Rect.unit (s := S4096x1024) (k0_off32 d0) S512x512.size (k0_off32_inb d0)).WholeWords (EltTy.packing .bf16)
  k0_dev18_lt : ∀ d0 : Dev nD, (k0_dev18 d0) < nD
  hstage0_0 : ∀ j, (stage0_0 j).IsWhole

variable [Facts₀]

abbrev cc0_scratch5 : DmaSems sig S8 := SemArray.consecutive 1 S8 hcc0_scratch5
abbrev cc0_scratch6 : DmaSems sig S8 := SemArray.consecutive 9 S8 hcc0_scratch6
abbrev cc0_scratch7 : DmaSems sig S8 := SemArray.consecutive 17 S8 hcc0_scratch7
abbrev cc0_scratch8 : DmaSems sig S8 := SemArray.consecutive 25 S8 hcc0_scratch8
abbrev cc0_scratch9 : DmaSems sig S2 := SemArray.consecutive 33 S2 hcc0_scratch9
abbrev cc0_scratch10 : DmaSems sig S2 := SemArray.consecutive 35 S2 hcc0_scratch10

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x4096x2048_S4096x2048_d0 : S2x4096x2048.ReducesTo [0] S4096x2048
  h_S_ : 0 < S_.numel
  bitsLt_bf16_f32 : FTy.bits .bf16 < FTy.bits .f32

variable [Facts₀]

class Facts : Prop extends Facts₀ where

variable [Facts]
-- ==== Proof.Geo.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton

import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-! ## The user algebra: the pipeline's copy, the exchange's rounds (duties named by `Bool`), the local copies' counters -/

abbrev UB : Type := URounds (GSem nD τ sig) Bool
abbrev UU : Type := UR sig nD τ × (UB × Counters)

abbrev 𝕄F (F : FTy → Type) : Type := MT nD τ sig Unit (Elt F) ℕ UU ℕ
local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER; infer_instance

abbrev 𝒱₀ : Variants := Variants.none

/-! ## The mesh: device `c` sits at `(c / 2, c % 2)`; its partner along the second axis and along the first -/

/-- The device with the other second coordinate. -/
def pY (c : Dev nD) : Dev nD := ⟨(2 * (c.val / 2) + 1) - (c.val % 2), by have h : c.val < 4 := c.isLt; show _ < 4; omega⟩
/-- The device with the other first coordinate. -/
def pX (c : Dev nD) : Dev nD := ⟨((c.val % 2) + 2) - 2 * (c.val / 2), by have h : c.val < 4 := c.isLt; show _ < 4; omega⟩

theorem pY_pY (c : Dev nD) : pY (pY c) = c := by revert c; decide
theorem pX_pX (c : Dev nD) : pX (pX c) = c := by revert c; decide
theorem pY_ne (c : Dev nD) : pY c ≠ c := by revert c; decide
theorem pX_ne (c : Dev nD) : pX c ≠ c := by revert c; decide
theorem pX_ne_pY (c : Dev nD) : pX c ≠ pY c := by revert c; decide
theorem pX_half (c : Dev nD) : (pX c).val / 2 = 1 - c.val / 2 := by revert c; decide
theorem pY_half (c : Dev nD) : (pY c).val / 2 = c.val / 2 := by revert c; decide
theorem pY_par (c : Dev nD) : (pY c).val % 2 = 1 - c.val % 2 := by revert c; decide
theorem pX_par (c : Dev nD) : (pX c).val % 2 = c.val % 2 := by revert c; decide

def eqY : Dev nD ≃ Dev nD := ⟨pY, pY, pY_pY, pY_pY⟩
def eqX : Dev nD ≃ Dev nD := ⟨pX, pX, pX_pX, pX_pX⟩

/-- The printed device chains: the two signals name the two partners, the first eight transfers the partner along the
    second axis, the last eight the partner along the first. -/
theorem dev1_eq (c : Dev nD) : (⟨k0_dev1 c, k0_dev1_lt c⟩ : Dev nD) = pY c := Fin.ext (k0_dev1_eq c)
theorem dev2_eq (c : Dev nD) : (⟨k0_dev2 c, k0_dev2_lt c⟩ : Dev nD) = pX c := Fin.ext (k0_dev2_eq c)
theorem dev3_eq (c : Dev nD) : (⟨k0_dev3 c, k0_dev3_lt c⟩ : Dev nD) = pY c := Fin.ext (k0_dev3_eq c)
theorem dev4_eq (c : Dev nD) : (⟨k0_dev4 c, k0_dev4_lt c⟩ : Dev nD) = pY c := Fin.ext (k0_dev4_eq c)
theorem dev5_eq (c : Dev nD) : (⟨k0_dev5 c, k0_dev5_lt c⟩ : Dev nD) = pY c := Fin.ext (k0_dev5_eq c)
theorem dev6_eq (c : Dev nD) : (⟨k0_dev6 c, k0_dev6_lt c⟩ : Dev nD) = pY c := Fin.ext (k0_dev6_eq c)
theorem dev7_eq (c : Dev nD) : (⟨k0_dev7 c, k0_dev7_lt c⟩ : Dev nD) = pY c := Fin.ext (k0_dev7_eq c)
theorem dev8_eq (c : Dev nD) : (⟨k0_dev8 c, k0_dev8_lt c⟩ : Dev nD) = pY c := Fin.ext (k0_dev8_eq c)
theorem dev9_eq (c : Dev nD) : (⟨k0_dev9 c, k0_dev9_lt c⟩ : Dev nD) = pY c := Fin.ext (k0_dev9_eq c)
theorem dev10_eq (c : Dev nD) : (⟨k0_dev10 c, k0_dev10_lt c⟩ : Dev nD) = pY c := Fin.ext (k0_dev10_eq c)
theorem dev11_eq (c : Dev nD) : (⟨k0_dev11 c, k0_dev11_lt c⟩ : Dev nD) = pX c := Fin.ext (k0_dev11_eq c)
theorem dev12_eq (c : Dev nD) : (⟨k0_dev12 c, k0_dev12_lt c⟩ : Dev nD) = pX c := Fin.ext (k0_dev12_eq c)
theorem dev13_eq (c : Dev nD) : (⟨k0_dev13 c, k0_dev13_lt c⟩ : Dev nD) = pX c := Fin.ext (k0_dev13_eq c)
theorem dev14_eq (c : Dev nD) : (⟨k0_dev14 c, k0_dev14_lt c⟩ : Dev nD) = pX c := Fin.ext (k0_dev14_eq c)
theorem dev15_eq (c : Dev nD) : (⟨k0_dev15 c, k0_dev15_lt c⟩ : Dev nD) = pX c := Fin.ext (k0_dev15_eq c)
theorem dev16_eq (c : Dev nD) : (⟨k0_dev16 c, k0_dev16_lt c⟩ : Dev nD) = pX c := Fin.ext (k0_dev16_eq c)
theorem dev17_eq (c : Dev nD) : (⟨k0_dev17 c, k0_dev17_lt c⟩ : Dev nD) = pX c := Fin.ext (k0_dev17_eq c)
theorem dev18_eq (c : Dev nD) : (⟨k0_dev18 c, k0_dev18_lt c⟩ : Dev nD) = pX c := Fin.ext (k0_dev18_eq c)

/-! ## The buffers and their row chunks -/

abbrev xM : Memref sig .tc .hbm S1x4096x2048 .f32 := Memref.whole main_arg0
abbrev oM : Memref sig .tc .vmem S4096x1024 .bf16 := Memref.whole cc0_stg0_0
abbrev arM : Memref sig .tc .vmem S4096x512 .bf16 := Memref.whole cc0_scratch0
abbrev sbM : Memref sig .tc .vmem S4096x512 .bf16 := Memref.whole cc0_scratch1
abbrev mbM : Memref sig .tc .vmem S4096x512 .bf16 := Memref.whole cc0_scratch2
abbrev ssM : Memref sig .tc .vmem S2x512x512 .f32 := Memref.whole cc0_scratch3
abbrev smM : Memref sig .tc .vmem S2x512x512 .f32 := Memref.whole cc0_scratch4

/-- Chunk `k` of the 4096 rows: rows `512 k … 512 k + 511`, every column. -/
def rowOff (k : Fin 8) : Fin 2 → Nat := ![512 * k.val, 0]
theorem rowOff_inb : ∀ (k : Fin 8) a, rowOff k a + S512x512.size a ≤ S4096x512.size a := by decide
theorem rowOff_words : ∀ k : Fin 8, (Rect.unit (s := S4096x512) (rowOff k) S512x512.size (rowOff_inb k)).WholeWords (EltTy.packing .bf16) := by decide

/-- Chunk `k` of the landing buffer and of the send buffer, as the transfers name them. -/
abbrev arS (k : Fin 8) : Memref sig .tc .vmem S512x512 .bf16 :=
  arM.slice (Rect.unit (s := S4096x512) (rowOff k) S512x512.size (rowOff_inb k)) (fun _ => rfl)
abbrev sbS (k : Fin 8) : Memref sig .tc .vmem S512x512 .bf16 :=
  sbM.slice (Rect.unit (s := S4096x512) (rowOff k) S512x512.size (rowOff_inb k)) (fun _ => rfl)

/-- The rectangle of the result's staging buffer device `d` computes in chunk `k`: rows of the chunk, the 512 columns from
    `512 (d / 2)`; the printed offsets of the eight second-stage transfers. -/
def outOff (d : Dev nD) : Fin 8 → (Fin 2 → Nat)
  | 0 => k0_off18 d | 1 => k0_off20 d | 2 => k0_off22 d | 3 => k0_off24 d
  | 4 => k0_off26 d | 5 => k0_off28 d | 6 => k0_off30 d | 7 => k0_off32 d
theorem outOff_eq (d : Dev nD) (k : Fin 8) : outOff d k = ![512 * k.val, 512 * (d.val / 2)] := by
  revert d k; decide +kernel
theorem outOff_inb (d : Dev nD) (k : Fin 8) : ∀ a, outOff d k a + S512x512.size a ≤ S4096x1024.size a := by
  revert d k; decide +kernel
/-- The closed form of those offsets, chunk by chunk. -/
instance closedOff_outOff_0 (d : Dev nD) : ClosedOff (outOff d 0) := ⟨![0, 512 * (d.val / 2)], by revert d; decide +kernel⟩
instance closedOff_outOff_1 (d : Dev nD) : ClosedOff (outOff d 1) := ⟨![512, 512 * (d.val / 2)], by revert d; decide +kernel⟩
instance closedOff_outOff_2 (d : Dev nD) : ClosedOff (outOff d 2) := ⟨![1024, 512 * (d.val / 2)], by revert d; decide +kernel⟩
instance closedOff_outOff_3 (d : Dev nD) : ClosedOff (outOff d 3) := ⟨![1536, 512 * (d.val / 2)], by revert d; decide +kernel⟩
instance closedOff_outOff_4 (d : Dev nD) : ClosedOff (outOff d 4) := ⟨![2048, 512 * (d.val / 2)], by revert d; decide +kernel⟩
instance closedOff_outOff_5 (d : Dev nD) : ClosedOff (outOff d 5) := ⟨![2560, 512 * (d.val / 2)], by revert d; decide +kernel⟩
instance closedOff_outOff_6 (d : Dev nD) : ClosedOff (outOff d 6) := ⟨![3072, 512 * (d.val / 2)], by revert d; decide +kernel⟩
instance closedOff_outOff_7 (d : Dev nD) : ClosedOff (outOff d 7) := ⟨![3584, 512 * (d.val / 2)], by revert d; decide +kernel⟩
abbrev oS (d : Dev nD) (k : Fin 8) : Memref sig .tc .vmem S512x512 .bf16 :=
  oM.slice (Rect.unit (s := S4096x1024) (outOff d k) S512x512.size (outOff_inb d k)) (fun _ => rfl)

/-! ## The semaphores and the cells -/

def aSs (k : Fin 8) : DmaSem sig := ⟨1 + k.val, by have h : k.val < 8 := k.isLt; show _ < 37; omega⟩
def aRs (k : Fin 8) : DmaSem sig := ⟨9 + k.val, by have h : k.val < 8 := k.isLt; show _ < 37; omega⟩
def bSs (k : Fin 8) : DmaSem sig := ⟨17 + k.val, by have h : k.val < 8 := k.isLt; show _ < 37; omega⟩
def bRs (k : Fin 8) : DmaSem sig := ⟨25 + k.val, by have h : k.val < 8 := k.isLt; show _ < 37; omega⟩
abbrev barS : Sem sig := (SemArray.scalar (sig.barrier 0 rfl) : Sems sig S_).sem

abbrev barCell (c : Dev nD) : GSem nD τ sig := ((c : Thread nD τ), .reg barS)
abbrev aSCell (c : Dev nD) (k : Fin 8) : GSem nD τ sig := ((c : Thread nD τ), .dma (aSs k))
abbrev aRCell (c : Dev nD) (k : Fin 8) : GSem nD τ sig := ((c : Thread nD τ), .dma (aRs k))
abbrev bSCell (c : Dev nD) (k : Fin 8) : GSem nD τ sig := ((c : Thread nD τ), .dma (bSs k))
abbrev bRCell (c : Dev nD) (k : Fin 8) : GSem nD τ sig := ((c : Thread nD τ), .dma (bRs k))

/-- The credit of one chunk's transfer. -/
abbrev N : ℕ := (arS 0).view.dmaCredit
theorem N_pos : 0 < N := View.dmaCredit_pos _ (by decide)

end Cert.KernelIdeal.RS

end
-- ==== Proof.Sched.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Geo
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The exchange as rounds

Every cell has one round, round 0. A device's barrier cell has two duties of one unit: `false`, paid by its partner along the
second axis, who hands over its own landing buffer chunk by chunk; `true`, paid by its partner along the first axis, who hands
over, chunk by chunk, the half of its own result buffer the device will fill. Each of the 32 transfer cells has one duty of a
chunk's credit: a send cell returns the chunk lent as source, a receive cell hands over the chunk with what has landed; both at the contents the
send buffer ends with. -/

abbrev CT512 : Type := (cc0_scratch0 : Ref sig .tc).ty.Contents (Elt F)
abbrev CT1024 : Type := (cc0_stg0_0 : Ref sig .tc).ty.Contents (Elt F)

variable (SB : Dev nD → (cc0_scratch0 : Ref sig .tc).ty.Contents (Elt F)) (OUT : Dev nD → (cc0_stg0_0 : Ref sig .tc).ty.Contents (Elt F))

/-- Chunk `k` of device `d`'s landing buffer, at some contents. -/
def arAny (d : Dev nD) (k : Fin 8) : sProp 𝕄 :=
  iprop(∃ f : Buf (Elt F) ((arS k).view.loc (d : Thread nD τ)), (arS k).view.loc (d : Thread nD τ) ↦[(arS k).view.set]{fullShare} f)
/-- Chunk `k` of device `d`'s send buffer, at some contents. -/
def sbAny (d : Dev nD) (k : Fin 8) : sProp 𝕄 :=
  iprop(∃ f : Buf (Elt F) ((sbS k).view.loc (d : Thread nD τ)), (sbS k).view.loc (d : Thread nD τ) ↦[(sbS k).view.set]{fullShare} f)
/-- Chunk `k` of device `d`'s result buffer in the columns device `o` computes, at some contents. -/
def outAny (d o : Dev nD) (k : Fin 8) : sProp 𝕄 :=
  iprop(∃ f : Buf (Elt F) ((oS o k).view.loc (d : Thread nD τ)), (oS o k).view.loc (d : Thread nD τ) ↦[(oS o k).view.set]{fullShare} f)

/-- What a device's partner along the second axis hands it at the barrier: that partner's landing buffer, all eight chunks. -/
def barPayY (o : Dev nD) : sProp 𝕄 := iprop(arAny (pY o) 0 ∗ arAny (pY o) 1 ∗ arAny (pY o) 2 ∗ arAny (pY o) 3 ∗ arAny (pY o) 4 ∗ arAny (pY o) 5 ∗ arAny (pY o) 6 ∗ arAny (pY o) 7)
/-- What its partner along the first axis hands it: the eight chunks of that partner's result buffer in the device's columns. -/
def barPayX (o : Dev nD) : sProp 𝕄 := iprop(outAny (pX o) o 0 ∗ outAny (pX o) o 1 ∗ outAny (pX o) o 2 ∗ outAny (pX o) o 3 ∗ outAny (pX o) o 4 ∗ outAny (pX o) o 5 ∗ outAny (pX o) o 6 ∗ outAny (pX o) o 7)

def aSPay (c : Dev nD) (k : Fin 8) : sProp 𝕄 :=
  (sbS k).view.loc (c : Thread nD τ) ↦[(sbS k).view.set]{fullShare} SB c
def aRPay (c : Dev nD) (k : Fin 8) : sProp 𝕄 :=
  (arS k).view.loc (c : Thread nD τ) ↦[(arS k).view.set]{fullShare} SB (pY c)
def bSPay (c : Dev nD) (k : Fin 8) : sProp 𝕄 :=
  (oS c k).view.loc (c : Thread nD τ) ↦[(oS c k).view.set]{fullShare} OUT c
def bRPay (c : Dev nD) (k : Fin 8) : sProp 𝕄 :=
  (oS (pX c) k).view.loc (c : Thread nD τ) ↦[(oS (pX c) k).view.set]{fullShare} OUT c

/-- Which of the four groups of transfer cells a DMA semaphore belongs to, and its chunk. -/
def grp (q : DmaSem sig) : Option (Fin 4 × Fin 8) :=
  if h : 1 ≤ q.val ∧ q.val ≤ 32 then some (⟨(q.val - 1) / 8, by omega⟩, ⟨(q.val - 1) % 8, Nat.mod_lt _ (by decide)⟩) else none

theorem grp_aS (k : Fin 8) : grp (aSs k) = some (0, k) := by revert k; decide
theorem grp_aR (k : Fin 8) : grp (aRs k) = some (1, k) := by revert k; decide
theorem grp_bS (k : Fin 8) : grp (bSs k) = some (2, k) := by revert k; decide
theorem grp_bR (k : Fin 8) : grp (bRs k) = some (3, k) := by revert k; decide

abbrev IsBar (g : GSem nD τ sig) : Prop := g.1.2 = .tc ∧ g.2 = .reg barS
def isXfer (g : GSem nD τ sig) : Bool := match g.1.2, g.2 with
  | .tc, .dma q => (grp q).isSome
  | _, _ => false

def dmaPay (c : Dev nD) : Fin 4 × Fin 8 → sProp 𝕄
  | (0, k) => aSPay SB c k
  | (1, k) => aRPay SB c k
  | (2, k) => bSPay OUT c k
  | (3, k) => bRPay OUT c k

def Rd : Rounds.Schedule (GSem nD τ sig) Bool 𝕄 where
  duties g r := if r = 0 ∧ IsBar g then Finset.univ else if r = 0 ∧ isXfer g = true then {false} else ∅
  unitless _ := False
  amount g _ _ := if g.2 = .reg barS then 1 else N
  payload g _ d := match g.2 with
    | .reg _ => if d then barPayX g.1.1 else barPayY g.1.1
    | .dma q => match grp q with
      | some gk => dmaPay SB OUT g.1.1 gk
      | none => iprop(emp)
  amount_pos g _ _ _ := by
    by_cases h : g.2 = .reg barS
    · rw [if_pos h]; exact Nat.one_pos
    · rw [if_neg h]; exact N_pos

instance arAny_storable (d : Dev nD) (k : Fin 8) : BI.Storable (upEmb : UEmb _ 𝕄) (arAny (F := F) d k) := by unfold arAny; infer_instance
instance sbAny_storable (d : Dev nD) (k : Fin 8) : BI.Storable (upEmb : UEmb _ 𝕄) (sbAny (F := F) d k) := by unfold sbAny; infer_instance
instance outAny_storable (d o : Dev nD) (k : Fin 8) : BI.Storable (upEmb : UEmb _ 𝕄) (outAny (F := F) d o k) := by unfold outAny; infer_instance
instance aSPay_storable (c : Dev nD) (k : Fin 8) : BI.Storable (upEmb : UEmb _ 𝕄) (aSPay (F := F) SB c k) := by unfold aSPay; infer_instance
instance aRPay_storable (c : Dev nD) (k : Fin 8) : BI.Storable (upEmb : UEmb _ 𝕄) (aRPay (F := F) SB c k) := by unfold aRPay; infer_instance
instance bSPay_storable (c : Dev nD) (k : Fin 8) : BI.Storable (upEmb : UEmb _ 𝕄) (bSPay (F := F) OUT c k) := by unfold bSPay; infer_instance
instance bRPay_storable (c : Dev nD) (k : Fin 8) : BI.Storable (upEmb : UEmb _ 𝕄) (bRPay (F := F) OUT c k) := by unfold bRPay; infer_instance
set_option synthInstance.maxHeartbeats 200000 in
instance barPayY_storable (o : Dev nD) : BI.Storable (upEmb : UEmb _ 𝕄) (barPayY (F := F) o) := by unfold barPayY; infer_instance
set_option synthInstance.maxHeartbeats 200000 in
instance barPayX_storable (o : Dev nD) : BI.Storable (upEmb : UEmb _ 𝕄) (barPayX (F := F) o) := by unfold barPayX; infer_instance
instance dmaPay_storable (c : Dev nD) (gk : Fin 4 × Fin 8) : BI.Storable (upEmb : UEmb _ 𝕄) (dmaPay (F := F) SB OUT c gk) := by
  obtain ⟨j, k⟩ := gk
  fin_cases j <;> (simp only [dmaPay]; infer_instance)

instance Rd_payload_storable (g : GSem nD τ sig) (r : ℕ) (d : Bool) :
    BI.Storable (upEmb : UEmb _ 𝕄) ((Rd (F := F) SB OUT).payload g r d) := by
  show BI.Storable upEmb (match g.2 with
    | .reg _ => if d then barPayX g.1.1 else barPayY g.1.1
    | .dma q => match grp q with
      | some gk => dmaPay SB OUT g.1.1 gk
      | none => iprop(emp))
  split
  · split <;> infer_instance
  · split <;> infer_instance

end Cert.KernelIdeal.RS

end
-- ==== Proof.Tables.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Sched
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (SB : Dev nD → (cc0_scratch0 : Ref sig .tc).ty.Contents (Elt F)) (OUT : Dev nD → (cc0_stg0_0 : Ref sig .tc).ty.Contents (Elt F))

/-! ## The schedule's tables, cell by cell -/

section Tables
variable (c : Dev nD) (k : Fin 8)

omit [FloatOps F] in
theorem not_bar_dma (q : DmaSem sig) : ¬ IsBar ((c : Thread nD τ), SemLoc.dma q) := fun h => by cases h.2
theorem isXfer_aS : isXfer (aSCell c k) = true := by show (grp (aSs k)).isSome = true; rw [grp_aS]; rfl
theorem isXfer_aR : isXfer (aRCell c k) = true := by show (grp (aRs k)).isSome = true; rw [grp_aR]; rfl
theorem isXfer_bS : isXfer (bSCell c k) = true := by show (grp (bSs k)).isSome = true; rw [grp_bS]; rfl
theorem isXfer_bR : isXfer (bRCell c k) = true := by show (grp (bRs k)).isSome = true; rw [grp_bR]; rfl

omit [FloatOps F] in
theorem duties_bar : (Rd (F := F) SB OUT).duties (barCell c) 0 = {false, true} := by
  dsimp only [Rd]; rw [if_pos ⟨rfl, rfl, rfl⟩]; decide
omit [FloatOps F] in
theorem duties_aS : (Rd (F := F) SB OUT).duties (aSCell c k) 0 = {false} := by
  dsimp only [Rd]; rw [if_neg (fun h => not_bar_dma c _ h.2)]; exact if_pos ⟨rfl, isXfer_aS c k⟩
omit [FloatOps F] in
theorem duties_aR : (Rd (F := F) SB OUT).duties (aRCell c k) 0 = {false} := by
  dsimp only [Rd]; rw [if_neg (fun h => not_bar_dma c _ h.2)]; exact if_pos ⟨rfl, isXfer_aR c k⟩
omit [FloatOps F] in
theorem duties_bS : (Rd (F := F) SB OUT).duties (bSCell c k) 0 = {false} := by
  dsimp only [Rd]; rw [if_neg (fun h => not_bar_dma c _ h.2)]; exact if_pos ⟨rfl, isXfer_bS c k⟩
omit [FloatOps F] in
theorem duties_bR : (Rd (F := F) SB OUT).duties (bRCell c k) 0 = {false} := by
  dsimp only [Rd]; rw [if_neg (fun h => not_bar_dma c _ h.2)]; exact if_pos ⟨rfl, isXfer_bR c k⟩
omit [FloatOps F] in
theorem duties_later (g : GSem nD τ sig) : ∀ r, 1 ≤ r → (Rd (F := F) SB OUT).duties g r = ∅ :=
  fun r hr => by dsimp only [Rd]; rw [if_neg fun h => by omega, if_neg fun h => by omega]

omit [FloatOps F] in
theorem amount_bar (d : Bool) : (Rd (F := F) SB OUT).amount (barCell c) 0 d = 1 := by dsimp only [Rd]; exact if_pos rfl
omit [FloatOps F] in
theorem amount_dma (q : DmaSem sig) (r : ℕ) (d : Bool) : (Rd (F := F) SB OUT).amount ((c : Thread nD τ), SemLoc.dma q) r d = N := by
  dsimp only [Rd]; exact if_neg (fun h => by cases h)
omit [FloatOps F] in
theorem amount_aS (d : Bool) : (Rd (F := F) SB OUT).amount (aSCell c k) 0 d = N := amount_dma SB OUT c _ 0 d
omit [FloatOps F] in
theorem amount_aR (d : Bool) : (Rd (F := F) SB OUT).amount (aRCell c k) 0 d = N := amount_dma SB OUT c _ 0 d
omit [FloatOps F] in
theorem amount_bS (d : Bool) : (Rd (F := F) SB OUT).amount (bSCell c k) 0 d = N := amount_dma SB OUT c _ 0 d
omit [FloatOps F] in
theorem amount_bR (d : Bool) : (Rd (F := F) SB OUT).amount (bRCell c k) 0 d = N := amount_dma SB OUT c _ 0 d

omit [FloatOps F] in
theorem expect_bar : (Rd (F := F) SB OUT).expect (barCell c) 0 = 2 := by
  unfold Schedule.expect Schedule.amountOf
  rw [duties_bar, Finset.sum_congr rfl fun d _ => amount_bar SB OUT c d]; rfl
omit [FloatOps F] in
theorem expect_aS : (Rd (F := F) SB OUT).expect (aSCell c k) 0 = N := by
  unfold Schedule.expect Schedule.amountOf; rw [duties_aS, Finset.sum_singleton, amount_aS]
omit [FloatOps F] in
theorem expect_aR : (Rd (F := F) SB OUT).expect (aRCell c k) 0 = N := by
  unfold Schedule.expect Schedule.amountOf; rw [duties_aR, Finset.sum_singleton, amount_aR]
omit [FloatOps F] in
theorem expect_bS : (Rd (F := F) SB OUT).expect (bSCell c k) 0 = N := by
  unfold Schedule.expect Schedule.amountOf; rw [duties_bS, Finset.sum_singleton, amount_bS]
omit [FloatOps F] in
theorem expect_bR : (Rd (F := F) SB OUT).expect (bRCell c k) 0 = N := by
  unfold Schedule.expect Schedule.amountOf; rw [duties_bR, Finset.sum_singleton, amount_bR]

omit [FloatOps F] in
theorem payload_barY : (Rd (F := F) SB OUT).payload (barCell c) 0 false = barPayY c := rfl
omit [FloatOps F] in
theorem payload_barX : (Rd (F := F) SB OUT).payload (barCell c) 0 true = barPayX c := rfl
omit [FloatOps F] in
theorem payload_aS (d : Bool) : (Rd (F := F) SB OUT).payload (aSCell c k) 0 d = aSPay SB c k := by
  show (match grp (aSs k) with | some gk => dmaPay SB OUT c gk | none => iprop(emp)) = _
  rw [grp_aS]; rfl
omit [FloatOps F] in
theorem payload_aR (d : Bool) : (Rd (F := F) SB OUT).payload (aRCell c k) 0 d = aRPay SB c k := by
  show (match grp (aRs k) with | some gk => dmaPay SB OUT c gk | none => iprop(emp)) = _
  rw [grp_aR]; rfl
omit [FloatOps F] in
theorem payload_bS (d : Bool) : (Rd (F := F) SB OUT).payload (bSCell c k) 0 d = bSPay OUT c k := by
  show (match grp (bSs k) with | some gk => dmaPay SB OUT c gk | none => iprop(emp)) = _
  rw [grp_bS]; rfl
omit [FloatOps F] in
theorem payload_bR (d : Bool) : (Rd (F := F) SB OUT).payload (bRCell c k) 0 d = bRPay OUT c k := by
  show (match grp (bRs k) with | some gk => dmaPay SB OUT c gk | none => iprop(emp)) = _
  rw [grp_bR]; rfl

-- The barrier payloads spelt leaf by leaf: what a device receives from each partner,
omit [FloatOps F] in
theorem payload_barY_own : (Rd (F := F) SB OUT).payload (barCell c) 0 false
    = iprop((∃ f : Buf (Elt F) ((arS 0).view.loc (pY c : Thread nD τ)), (arS 0).view.loc (pY c : Thread nD τ) ↦[(arS 0).view.set]{fullShare} f)
      ∗ (∃ f : Buf (Elt F) ((arS 1).view.loc (pY c : Thread nD τ)), (arS 1).view.loc (pY c : Thread nD τ) ↦[(arS 1).view.set]{fullShare} f)
      ∗ (∃ f : Buf (Elt F) ((arS 2).view.loc (pY c : Thread nD τ)), (arS 2).view.loc (pY c : Thread nD τ) ↦[(arS 2).view.set]{fullShare} f)
      ∗ (∃ f : Buf (Elt F) ((arS 3).view.loc (pY c : Thread nD τ)), (arS 3).view.loc (pY c : Thread nD τ) ↦[(arS 3).view.set]{fullShare} f)
      ∗ (∃ f : Buf (Elt F) ((arS 4).view.loc (pY c : Thread nD τ)), (arS 4).view.loc (pY c : Thread nD τ) ↦[(arS 4).view.set]{fullShare} f)
      ∗ (∃ f : Buf (Elt F) ((arS 5).view.loc (pY c : Thread nD τ)), (arS 5).view.loc (pY c : Thread nD τ) ↦[(arS 5).view.set]{fullShare} f)
      ∗ (∃ f : Buf (Elt F) ((arS 6).view.loc (pY c : Thread nD τ)), (arS 6).view.loc (pY c : Thread nD τ) ↦[(arS 6).view.set]{fullShare} f)
      ∗ (∃ f : Buf (Elt F) ((arS 7).view.loc (pY c : Thread nD τ)), (arS 7).view.loc (pY c : Thread nD τ) ↦[(arS 7).view.set]{fullShare} f)) := rfl
omit [FloatOps F] in
theorem payload_barX_own : (Rd (F := F) SB OUT).payload (barCell c) 0 true
    = iprop((∃ f : Buf (Elt F) ((oS c 0).view.loc (pX c : Thread nD τ)), (oS c 0).view.loc (pX c : Thread nD τ) ↦[(oS c 0).view.set]{fullShare} f)
      ∗ (∃ f : Buf (Elt F) ((oS c 1).view.loc (pX c : Thread nD τ)), (oS c 1).view.loc (pX c : Thread nD τ) ↦[(oS c 1).view.set]{fullShare} f)
      ∗ (∃ f : Buf (Elt F) ((oS c 2).view.loc (pX c : Thread nD τ)), (oS c 2).view.loc (pX c : Thread nD τ) ↦[(oS c 2).view.set]{fullShare} f)
      ∗ (∃ f : Buf (Elt F) ((oS c 3).view.loc (pX c : Thread nD τ)), (oS c 3).view.loc (pX c : Thread nD τ) ↦[(oS c 3).view.set]{fullShare} f)
      ∗ (∃ f : Buf (Elt F) ((oS c 4).view.loc (pX c : Thread nD τ)), (oS c 4).view.loc (pX c : Thread nD τ) ↦[(oS c 4).view.set]{fullShare} f)
      ∗ (∃ f : Buf (Elt F) ((oS c 5).view.loc (pX c : Thread nD τ)), (oS c 5).view.loc (pX c : Thread nD τ) ↦[(oS c 5).view.set]{fullShare} f)
      ∗ (∃ f : Buf (Elt F) ((oS c 6).view.loc (pX c : Thread nD τ)), (oS c 6).view.loc (pX c : Thread nD τ) ↦[(oS c 6).view.set]{fullShare} f)
      ∗ (∃ f : Buf (Elt F) ((oS c 7).view.loc (pX c : Thread nD τ)), (oS c 7).view.loc (pX c : Thread nD τ) ↦[(oS c 7).view.set]{fullShare} f)) := rfl
-- and what it hands each partner: its own landing buffer, and the other half of its own result buffer.
omit [FloatOps F] in
theorem payload_barY_to : (Rd (F := F) SB OUT).payload (barCell (pY c)) 0 false
    = iprop((∃ f : Buf (Elt F) ((arS 0).view.loc (c : Thread nD τ)), (arS 0).view.loc (c : Thread nD τ) ↦[(arS 0).view.set]{fullShare} f)
      ∗ (∃ f : Buf (Elt F) ((arS 1).view.loc (c : Thread nD τ)), (arS 1).view.loc (c : Thread nD τ) ↦[(arS 1).view.set]{fullShare} f)
      ∗ (∃ f : Buf (Elt F) ((arS 2).view.loc (c : Thread nD τ)), (arS 2).view.loc (c : Thread nD τ) ↦[(arS 2).view.set]{fullShare} f)
      ∗ (∃ f : Buf (Elt F) ((arS 3).view.loc (c : Thread nD τ)), (arS 3).view.loc (c : Thread nD τ) ↦[(arS 3).view.set]{fullShare} f)
      ∗ (∃ f : Buf (Elt F) ((arS 4).view.loc (c : Thread nD τ)), (arS 4).view.loc (c : Thread nD τ) ↦[(arS 4).view.set]{fullShare} f)
      ∗ (∃ f : Buf (Elt F) ((arS 5).view.loc (c : Thread nD τ)), (arS 5).view.loc (c : Thread nD τ) ↦[(arS 5).view.set]{fullShare} f)
      ∗ (∃ f : Buf (Elt F) ((arS 6).view.loc (c : Thread nD τ)), (arS 6).view.loc (c : Thread nD τ) ↦[(arS 6).view.set]{fullShare} f)
      ∗ (∃ f : Buf (Elt F) ((arS 7).view.loc (c : Thread nD τ)), (arS 7).view.loc (c : Thread nD τ) ↦[(arS 7).view.set]{fullShare} f)) := by
  rw [payload_barY_own, pY_pY]
omit [FloatOps F] in
theorem payload_barX_to : (Rd (F := F) SB OUT).payload (barCell (pX c)) 0 true
    = iprop((∃ f : Buf (Elt F) ((oS (pX c) 0).view.loc (c : Thread nD τ)), (oS (pX c) 0).view.loc (c : Thread nD τ) ↦[(oS (pX c) 0).view.set]{fullShare} f)
      ∗ (∃ f : Buf (Elt F) ((oS (pX c) 1).view.loc (c : Thread nD τ)), (oS (pX c) 1).view.loc (c : Thread nD τ) ↦[(oS (pX c) 1).view.set]{fullShare} f)
      ∗ (∃ f : Buf (Elt F) ((oS (pX c) 2).view.loc (c : Thread nD τ)), (oS (pX c) 2).view.loc (c : Thread nD τ) ↦[(oS (pX c) 2).view.set]{fullShare} f)
      ∗ (∃ f : Buf (Elt F) ((oS (pX c) 3).view.loc (c : Thread nD τ)), (oS (pX c) 3).view.loc (c : Thread nD τ) ↦[(oS (pX c) 3).view.set]{fullShare} f)
      ∗ (∃ f : Buf (Elt F) ((oS (pX c) 4).view.loc (c : Thread nD τ)), (oS (pX c) 4).view.loc (c : Thread nD τ) ↦[(oS (pX c) 4).view.set]{fullShare} f)
      ∗ (∃ f : Buf (Elt F) ((oS (pX c) 5).view.loc (c : Thread nD τ)), (oS (pX c) 5).view.loc (c : Thread nD τ) ↦[(oS (pX c) 5).view.set]{fullShare} f)
      ∗ (∃ f : Buf (Elt F) ((oS (pX c) 6).view.loc (c : Thread nD τ)), (oS (pX c) 6).view.loc (c : Thread nD τ) ↦[(oS (pX c) 6).view.set]{fullShare} f)
      ∗ (∃ f : Buf (Elt F) ((oS (pX c) 7).view.loc (c : Thread nD τ)), (oS (pX c) 7).view.loc (c : Thread nD τ) ↦[(oS (pX c) 7).view.set]{fullShare} f)) := by
  rw [payload_barX_own, pX_pX]

-- The rest of a round of which nothing is taken yet: the payloads of all its duties.
omit [FloatOps F] in
theorem rest_bar : bigSep ((Rd (F := F) SB OUT).duties (barCell c) 0 \ ∅) (fun d => (Rd (F := F) SB OUT).payload (barCell c) 0 d)
    = iprop(barPayY c ∗ barPayX c) := by
  rw [Finset.sdiff_empty, duties_bar, bigSep_eq_bigSepL_of_eq [false, true] (by decide) (by decide), bigSepL_cons_cons, bigSepL_singleton,
    payload_barY, payload_barX]
  rfl
omit [FloatOps F] in
theorem rest_aS : bigSep ((Rd (F := F) SB OUT).duties (aSCell c k) 0 \ ∅) (fun d => (Rd (F := F) SB OUT).payload (aSCell c k) 0 d)
    = aSPay SB c k := by
  rw [Finset.sdiff_empty, duties_aS, bigSep_singleton, payload_aS]
omit [FloatOps F] in
theorem rest_aR : bigSep ((Rd (F := F) SB OUT).duties (aRCell c k) 0 \ ∅) (fun d => (Rd (F := F) SB OUT).payload (aRCell c k) 0 d)
    = aRPay SB c k := by
  rw [Finset.sdiff_empty, duties_aR, bigSep_singleton, payload_aR]
omit [FloatOps F] in
theorem rest_bS : bigSep ((Rd (F := F) SB OUT).duties (bSCell c k) 0 \ ∅) (fun d => (Rd (F := F) SB OUT).payload (bSCell c k) 0 d)
    = bSPay OUT c k := by
  rw [Finset.sdiff_empty, duties_bS, bigSep_singleton, payload_bS]
omit [FloatOps F] in
theorem rest_bR : bigSep ((Rd (F := F) SB OUT).duties (bRCell c k) 0 \ ∅) (fun d => (Rd (F := F) SB OUT).payload (bRCell c k) 0 d)
    = bRPay OUT c k := by
  rw [Finset.sdiff_empty, duties_bR, bigSep_singleton, payload_bR]

-- The transfer cells' payloads spelt as the points-to assertions they are.
omit [FloatOps F] in
theorem payload_aS_pt (d : Bool) : (Rd (F := F) SB OUT).payload (aSCell c k) 0 d
    = ((sbS k).view.loc (c : Thread nD τ) ↦[(sbS k).view.set]{fullShare} SB c) := payload_aS SB OUT c k d
omit [FloatOps F] in
theorem payload_aR_pt (d : Bool) : (Rd (F := F) SB OUT).payload (aRCell c k) 0 d
    = ((arS k).view.loc (c : Thread nD τ) ↦[(arS k).view.set]{fullShare} SB (pY c)) := payload_aR SB OUT c k d
omit [FloatOps F] in
theorem payload_bS_pt (d : Bool) : (Rd (F := F) SB OUT).payload (bSCell c k) 0 d
    = ((oS c k).view.loc (c : Thread nD τ) ↦[(oS c k).view.set]{fullShare} OUT c) := payload_bS SB OUT c k d
omit [FloatOps F] in
theorem payload_bR_pt (d : Bool) : (Rd (F := F) SB OUT).payload (bRCell c k) 0 d
    = ((oS (pX c) k).view.loc (c : Thread nD τ) ↦[(oS (pX c) k).view.set]{fullShare} OUT c) := payload_bR SB OUT c k d

end Tables

end Cert.KernelIdeal.RS

end
-- ==== Proof.Owes.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Tables
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## What a device owes, in the order it pays

A device pays, in program order: a unit to each partner's barrier cell; then a chunk's credit to each of its second-axis
partner's eight receive cells of the first stage; then to each of its first-axis partner's eight receive cells of the second
stage. The tallies are summed so that each payment peels the last summand. -/

def OB8 (c : Dev nD) : CellTallies nD τ sig Unit := 0
def OB7 (c : Dev nD) : CellTallies nD τ sig Unit := OB8 c + tallyAt (bRCell (pX c) 7) () N
def OB6 (c : Dev nD) : CellTallies nD τ sig Unit := OB7 c + tallyAt (bRCell (pX c) 6) () N
def OB5 (c : Dev nD) : CellTallies nD τ sig Unit := OB6 c + tallyAt (bRCell (pX c) 5) () N
def OB4 (c : Dev nD) : CellTallies nD τ sig Unit := OB5 c + tallyAt (bRCell (pX c) 4) () N
def OB3 (c : Dev nD) : CellTallies nD τ sig Unit := OB4 c + tallyAt (bRCell (pX c) 3) () N
def OB2 (c : Dev nD) : CellTallies nD τ sig Unit := OB3 c + tallyAt (bRCell (pX c) 2) () N
def OB1 (c : Dev nD) : CellTallies nD τ sig Unit := OB2 c + tallyAt (bRCell (pX c) 1) () N
def OB0 (c : Dev nD) : CellTallies nD τ sig Unit := OB1 c + tallyAt (bRCell (pX c) 0) () N
def OA8 (c : Dev nD) : CellTallies nD τ sig Unit := OB0 c
def OA7 (c : Dev nD) : CellTallies nD τ sig Unit := OA8 c + tallyAt (aRCell (pY c) 7) () N
def OA6 (c : Dev nD) : CellTallies nD τ sig Unit := OA7 c + tallyAt (aRCell (pY c) 6) () N
def OA5 (c : Dev nD) : CellTallies nD τ sig Unit := OA6 c + tallyAt (aRCell (pY c) 5) () N
def OA4 (c : Dev nD) : CellTallies nD τ sig Unit := OA5 c + tallyAt (aRCell (pY c) 4) () N
def OA3 (c : Dev nD) : CellTallies nD τ sig Unit := OA4 c + tallyAt (aRCell (pY c) 3) () N
def OA2 (c : Dev nD) : CellTallies nD τ sig Unit := OA3 c + tallyAt (aRCell (pY c) 2) () N
def OA1 (c : Dev nD) : CellTallies nD τ sig Unit := OA2 c + tallyAt (aRCell (pY c) 1) () N
def OA0 (c : Dev nD) : CellTallies nD τ sig Unit := OA1 c + tallyAt (aRCell (pY c) 0) () N
def O₁ (c : Dev nD) : CellTallies nD τ sig Unit := OA0 c + tallyAt (barCell (pX c)) () 1
def O₀ (c : Dev nD) : CellTallies nD τ sig Unit := O₁ c + tallyAt (barCell (pY c)) () 1

/-! ## Levels: a barrier cell below the first stage's receive cells, those below the second stage's; all else at the bottom -/

def L (g : GSem nD τ sig) : Finset Unit := if g.1.2 = .tc then {()} else ∅
def lv (g : GSem nD τ sig) (_ : Unit) : ℕ := match g.2 with
  | .reg _ => 1
  | .dma q => match grp q with
    | some (1, _) => 2
    | some (3, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := rfl
theorem lv_aR (d : Dev nD) (k : Fin 8) : lv (aRCell d k) () = 2 := by
  show (match grp (aRs k) with | some (1, _) => 2 | some (3, _) => 3 | _ => 0) = 2; rw [grp_aR]; rfl
theorem lv_bR (d : Dev nD) (k : Fin 8) : lv (bRCell d k) () = 3 := by
  show (match grp (bRs k) with | some (1, _) => 2 | some (3, _) => 3 | _ => 0) = 3; rw [grp_bR]; rfl
theorem lv_aS (d : Dev nD) (k : Fin 8) : lv (aSCell d k) () = 0 := by
  show (match grp (aSs k) with | some (1, _) => 2 | some (3, _) => 3 | _ => 0) = 0; rw [grp_aS]; rfl
theorem lv_bS (d : Dev nD) (k : Fin 8) : lv (bSCell d k) () = 0 := by
  show (match grp (bSs k) with | some (1, _) => 2 | some (3, _) => 3 | _ => 0) = 0; rw [grp_bS]; rfl
theorem lv_other (d : Dev nD) (q : DmaSem sig) (hq : q.val = 0 ∨ 33 ≤ q.val) : lv ((d : Thread nD τ), SemLoc.dma q) () = 0 := by
  have : grp q = none := by
    unfold grp; rw [dif_neg]; omega
  show (match grp q with | some (1, _) => 2 | some (3, _) => 3 | _ => 0) = 0; rw [this]

/-- Every cell at which `O` is positive is a TensorCore's and has `P`. -/
def Sup (P : GSem nD τ sig → Prop) (O : CellTallies nD τ sig Unit) : Prop := ∀ g u, 0 < O g u → g.1.2 = .tc ∧ P g

theorem Sup.zero (P : GSem nD τ sig → Prop) : Sup P 0 := fun g u h => absurd h (Nat.lt_irrefl 0)
theorem Sup.add {P : GSem nD τ sig → Prop} {A : CellTallies nD τ sig Unit} (hA : Sup P A) (d : Dev nD) (sm : SemLoc sig) (n : ℕ)
    (h : P ((d : Thread nD τ), sm)) : Sup P (A + tallyAt ((d : Thread nD τ), sm) () n) := fun g u hg => by
  rw [Pi.add_apply, Finsupp.add_apply, tallyAt_apply] at hg
  by_cases hc : g = ((d : Thread nD τ), sm) ∧ u = ()
  · rw [hc.1]; exact ⟨rfl, h⟩
  · rw [if_neg hc, Nat.add_zero] at hg; exact hA g u hg
theorem Sup.mono {P Q : GSem nD τ sig → Prop} {A : CellTallies nD τ sig Unit} (hA : Sup P A) (h : ∀ g, P g → Q g) : Sup Q A :=
  fun g u hg => ⟨(hA g u hg).1, h g (hA g u hg).2⟩

theorem sup_OB8 (c : Dev nD) : Sup (fun g => 2 < lv g ()) (OB8 c) := Sup.zero _
theorem sup_OB7 (c : Dev nD) : Sup (fun g => 2 < lv g ()) (OB7 c) := Sup.add (sup_OB8 c) _ _ _ (by rw [lv_bR]; decide)
theorem sup_OB6 (c : Dev nD) : Sup (fun g => 2 < lv g ()) (OB6 c) := Sup.add (sup_OB7 c) _ _ _ (by rw [lv_bR]; decide)
theorem sup_OB5 (c : Dev nD) : Sup (fun g => 2 < lv g ()) (OB5 c) := Sup.add (sup_OB6 c) _ _ _ (by rw [lv_bR]; decide)
theorem sup_OB4 (c : Dev nD) : Sup (fun g => 2 < lv g ()) (OB4 c) := Sup.add (sup_OB5 c) _ _ _ (by rw [lv_bR]; decide)
theorem sup_OB3 (c : Dev nD) : Sup (fun g => 2 < lv g ()) (OB3 c) := Sup.add (sup_OB4 c) _ _ _ (by rw [lv_bR]; decide)
theorem sup_OB2 (c : Dev nD) : Sup (fun g => 2 < lv g ()) (OB2 c) := Sup.add (sup_OB3 c) _ _ _ (by rw [lv_bR]; decide)
theorem sup_OB1 (c : Dev nD) : Sup (fun g => 2 < lv g ()) (OB1 c) := Sup.add (sup_OB2 c) _ _ _ (by rw [lv_bR]; decide)
theorem sup_OB0 (c : Dev nD) : Sup (fun g => 2 < lv g ()) (OB0 c) := Sup.add (sup_OB1 c) _ _ _ (by rw [lv_bR]; decide)
theorem sup_OA8 (c : Dev nD) : Sup (fun g => 1 < lv g ()) (OA8 c) := (sup_OB0 c).mono fun g h => by omega
theorem sup_OA7 (c : Dev nD) : Sup (fun g => 1 < lv g ()) (OA7 c) := Sup.add (sup_OA8 c) _ _ _ (by rw [lv_aR]; decide)
theorem sup_OA6 (c : Dev nD) : Sup (fun g => 1 < lv g ()) (OA6 c) := Sup.add (sup_OA7 c) _ _ _ (by rw [lv_aR]; decide)
theorem sup_OA5 (c : Dev nD) : Sup (fun g => 1 < lv g ()) (OA5 c) := Sup.add (sup_OA6 c) _ _ _ (by rw [lv_aR]; decide)
theorem sup_OA4 (c : Dev nD) : Sup (fun g => 1 < lv g ()) (OA4 c) := Sup.add (sup_OA5 c) _ _ _ (by rw [lv_aR]; decide)
theorem sup_OA3 (c : Dev nD) : Sup (fun g => 1 < lv g ()) (OA3 c) := Sup.add (sup_OA4 c) _ _ _ (by rw [lv_aR]; decide)
theorem sup_OA2 (c : Dev nD) : Sup (fun g => 1 < lv g ()) (OA2 c) := Sup.add (sup_OA3 c) _ _ _ (by rw [lv_aR]; decide)
theorem sup_OA1 (c : Dev nD) : Sup (fun g => 1 < lv g ()) (OA1 c) := Sup.add (sup_OA2 c) _ _ _ (by rw [lv_aR]; decide)
theorem sup_OA0 (c : Dev nD) : Sup (fun g => 1 < lv g ()) (OA0 c) := Sup.add (sup_OA1 c) _ _ _ (by rw [lv_aR]; decide)
theorem sup_O₁ (c : Dev nD) : Sup (fun g => 0 < lv g ()) (O₁ c) :=
  Sup.add ((sup_OA0 c).mono fun g h => by omega) _ _ _ (by rw [lv_bar]; decide)
theorem sup_O₀ (c : Dev nD) : Sup (fun g => 0 < lv g ()) (O₀ c) :=
  Sup.add (sup_O₁ c) _ _ _ (by rw [lv_bar]; decide)

omit [FloatOps F] in
/-- A wait on a cell of level `a` is allowed while everything owed sits above `a`. -/
theorem mayWait_of_sup (c : Dev nD) (sm : SemLoc sig) (a : ℕ) (ha : lv ((c : Thread nD τ), sm) () ≤ a)
    (O : CellTallies nD τ sig Unit) (hO : Sup (fun g => a < lv g ()) O) :
    (levAts L lv : sProp 𝕄) ⊢ MayWait (c : Thread nD τ) sm () O :=
  MayOwe.of_cut (L := L) (lev := lv) a
    (fun p hp => by rw [Finset.mem_singleton.mp hp, L_tc]; exact Finset.mem_singleton_self _)
    (fun g u hg => by
      obtain ⟨⟨d, pr⟩, s⟩ := g
      have h := (hO _ u hg).1
      cases u
      show () ∈ L ((d, pr), s)
      unfold L; rw [if_pos h]; exact Finset.mem_singleton_self _)
    (fun p hp => by rw [Finset.mem_singleton.mp hp]; exact ha)
    (fun g u hg => by cases u; exact (hO g () hg).2)

end Cert.KernelIdeal.RS

end
-- ==== Proof.Vals.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Owes
import Idealize.ShloMosaic.Lib.ValueIdx
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## What the buffers end up holding, as functions of the devices' blocks of the argument

Device `d` (at mesh position `(d / 2, d % 2)`) holds the block `X d` of the argument, 4096 rows of 2048 columns. It converts to
the result's element type two bands of 512 columns: the band it sends to its second-axis partner (`SBf`), from column
`colA d`, and the band it keeps (`MBf`), from column `colM d`; the partner's sent band lands in its landing buffer; the
sum of the kept and the landed band (`ownSum`) is the half of its result it computes, and the other half is its first-axis
partner's. -/

variable (m : (ℓ : Loc nD τ sig) → Buf (Elt F) ℓ)

/-- Device `d`'s block of the argument. -/
def Xof (d : Dev nD) : S1x4096x2048.Idx → Elt F .f32 := m ((d : Thread nD τ).loc main_arg0)

def colA (d : Dev nD) : ℕ := (512 * (d.val / 2) + 1024) - 1024 * (d.val % 2)
def colM (d : Dev nD) : ℕ := 1024 * (d.val % 2) + 512 * (d.val / 2)
theorem colA_le (d : Dev nD) : colA d + 512 ≤ 2048 := by revert d; decide
theorem colM_le (d : Dev nD) : colM d + 512 ≤ 2048 := by revert d; decide
theorem colA_pY (d : Dev nD) : colA (pY d) = colM d := by revert d; decide

/-- The element of `d`'s block at row `i 0` and column `col + i 1`. -/
def xAt (d : Dev nD) (col : ℕ) (h : col + 512 ≤ 2048) (i : S4096x512.Idx) : Elt F .f32 :=
  Xof m d (ValueIdx.ix3 (0 : Fin 1) (⟨(i 0).val, (i 0).isLt⟩ : Fin 4096) (⟨col + (i 1).val, by have := (i 1).isLt; have e : S4096x512.size 1 = 512 := rfl; omega⟩ : Fin 2048))

/-- What device `d`'s send buffer ends up holding. -/
def SBf (d : Dev nD) : (cc0_scratch0 : Ref sig .tc).ty.Contents (Elt F) :=
  fun i => FloatOps.truncf .bf16 (by decide) (xAt m d (colA d) (colA_le d) i)
/-- What its buffer of the kept band ends up holding. -/
def MBf (d : Dev nD) : (cc0_scratch0 : Ref sig .tc).ty.Contents (Elt F) :=
  fun i => FloatOps.truncf .bf16 (by decide) (xAt m d (colM d) (colM_le d) i)
/-- The half of the result device `d` computes: its kept band plus what landed from its second-axis partner. -/
def ownSum (d : Dev nD) : (cc0_scratch0 : Ref sig .tc).ty.Contents (Elt F) :=
  fun i => FloatOps.addf (MBf m d i) (SBf m (pY d) i)
/-- What device `d`'s result buffer ends up holding: in the 512 columns from `512 (d / 2)` its own half, in the others its
    first-axis partner's. -/
def OUTf (d : Dev nD) : (cc0_stg0_0 : Ref sig .tc).ty.Contents (Elt F) :=
  fun i =>
    let j : S4096x512.Idx := ValueIdx.ix2 (⟨(i 0).val, (i 0).isLt⟩ : Fin 4096) (⟨(i 1).val % 512, Nat.mod_lt _ (by decide)⟩ : Fin 512)
    if (i 1).val / 512 = d.val / 2 then ownSum m d j else ownSum m (pX d) j

end Cert.KernelIdeal.RS

end
-- ==== Proof.Ctx.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Vals
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev ss0 : DmaSem sig := ((cc0_scratch9.slice (Rect.unit (s := S2) ![0] S1.size inb_S2_S1_0)).squeeze S_ squeezes_S1_S_).sem
abbrev ss1 : DmaSem sig := ((cc0_scratch9.slice (Rect.unit (s := S2) ![1] S1.size inb_S2_S1_1)).squeeze S_ squeezes_S1_S_).sem
abbrev sm0 : DmaSem sig := ((cc0_scratch10.slice (Rect.unit (s := S2) ![0] S1.size inb_S2_S1_0)).squeeze S_ squeezes_S1_S_).sem
abbrev sm1 : DmaSem sig := ((cc0_scratch10.slice (Rect.unit (s := S2) ![1] S1.size inb_S2_S1_1)).squeeze S_ squeezes_S1_S_).sem

/-! ## The exchange's ghost state on device `c`

Under the names `K` the launch allocated the cells' invariants at: the invariants of the device's own 33 cells and of the 18
cells of its partners it pays into; that round 0 of each is reached; its position at round 0 of its own cells; the tokens of
the 34 duties it pays. -/

/-- The invariants of the device's own cells: its barrier cell and its 32 transfer cells. -/
def ownInvs (K : GSem nD τ sig → ℕ) (c : Dev nD) : sProp 𝕄 :=
  iprop(cellInv ER (Rd (SBf m) (OUTf m)) (K (barCell c)) (barCell c)
    ∗ cellInv ER (Rd (SBf m) (OUTf m)) (K (aSCell c 0)) (aSCell c 0)
    ∗ cellInv ER (Rd (SBf m) (OUTf m)) (K (aRCell c 0)) (aRCell c 0)
    ∗ cellInv ER (Rd (SBf m) (OUTf m)) (K (bSCell c 0)) (bSCell c 0)
    ∗ cellInv ER (Rd (SBf m) (OUTf m)) (K (bRCell c 0)) (bRCell c 0)
    ∗ cellInv ER (Rd (SBf m) (OUTf m)) (K (aSCell c 1)) (aSCell c 1)
    ∗ cellInv ER (Rd (SBf m) (OUTf m)) (K (aRCell c 1)) (aRCell c 1)
    ∗ cellInv ER (Rd (SBf m) (OUTf m)) (K (bSCell c 1)) (bSCell c 1)
    ∗ cellInv ER (Rd (SBf m) (OUTf m)) (K (bRCell c 1)) (bRCell c 1)
    ∗ cellInv ER (Rd (SBf m) (OUTf m)) (K (aSCell c 2)) (aSCell c 2)
    ∗ cellInv ER (Rd (SBf m) (OUTf m)) (K (aRCell c 2)) (aRCell c 2)
    ∗ cellInv ER (Rd (SBf m) (OUTf m)) (K (bSCell c 2)) (bSCell c 2)
    ∗ cellInv ER (Rd (SBf m) (OUTf m)) (K (bRCell c 2)) (bRCell c 2)
    ∗ cellInv ER (Rd (SBf m) (OUTf m)) (K (aSCell c 3)) (aSCell c 3)
    ∗ cellInv ER (Rd (SBf m) (OUTf m)) (K (aRCell c 3)) (aRCell c 3)
    ∗ cellInv ER (Rd (SBf m) (OUTf m)) (K (bSCell c 3)) (bSCell c 3)
    ∗ cellInv ER (Rd (SBf m) (OUTf m)) (K (bRCell c 3)) (bRCell c 3)
    ∗ cellInv ER (Rd (SBf m) (OUTf m)) (K (aSCell c 4)) (aSCell c 4)
    ∗ cellInv ER (Rd (SBf m) (OUTf m)) (K (aRCell c 4)) (aRCell c 4)
    ∗ cellInv ER (Rd (SBf m) (OUTf m)) (K (bSCell c 4)) (bSCell c 4)
    ∗ cellInv ER (Rd (SBf m) (OUTf m)) (K (bRCell c 4)) (bRCell c 4)
    ∗ cellInv ER (Rd (SBf m) (OUTf m)) (K (aSCell c 5)) (aSCell c 5)
    ∗ cellInv ER (Rd (SBf m) (OUTf m)) (K (aRCell c 5)) (aRCell c 5)
    ∗ cellInv ER (Rd (SBf m) (OUTf m)) (K (bSCell c 5)) (bSCell c 5)
    ∗ cellInv ER (Rd (SBf m) (OUTf m)) (K (bRCell c 5)) (bRCell c 5)
    ∗ cellInv ER (Rd (SBf m) (OUTf m)) (K (aSCell c 6)) (aSCell c 6)
    ∗ cellInv ER (Rd (SBf m) (OUTf m)) (K (aRCell c 6)) (aRCell c 6)
    ∗ cellInv ER (Rd (SBf m) (OUTf m)) (K (bSCell c 6)) (bSCell c 6)
    ∗ cellInv ER (Rd (SBf m) (OUTf m)) (K (bRCell c 6)) (bRCell c 6)
    ∗ cellInv ER (Rd (SBf m) (OUTf m)) (K (aSCell c 7)) (aSCell c 7)
    ∗ cellInv ER (Rd (SBf m) (OUTf m)) (K (aRCell c 7)) (aRCell c 7)
    ∗ cellInv ER (Rd (SBf m) (OUTf m)) (K (bSCell c 7)) (bSCell c 7)
    ∗ cellInv ER (Rd (SBf m) (OUTf m)) (K (bRCell c 7)) (bRCell c 7))
/-- The invariants of the partners' cells it pays into: both barrier cells, the second-axis partner's first-stage receive
    cells, the first-axis partner's second-stage receive cells. -/
def peerInvs (K : GSem nD τ sig → ℕ) (c : Dev nD) : sProp 𝕄 :=
  iprop(cellInv ER (Rd (SBf m) (OUTf m)) (K (barCell (pY c))) (barCell (pY c))
    ∗ cellInv ER (Rd (SBf m) (OUTf m)) (K (barCell (pX c))) (barCell (pX c))
    ∗ cellInv ER (Rd (SBf m) (OUTf m)) (K (aRCell (pY c) 0)) (aRCell (pY c) 0)
    ∗ cellInv ER (Rd (SBf m) (OUTf m)) (K (bRCell (pX c) 0)) (bRCell (pX c) 0)
    ∗ cellInv ER (Rd (SBf m) (OUTf m)) (K (aRCell (pY c) 1)) (aRCell (pY c) 1)
    ∗ cellInv ER (Rd (SBf m) (OUTf m)) (K (bRCell (pX c) 1)) (bRCell (pX c) 1)
    ∗ cellInv ER (Rd (SBf m) (OUTf m)) (K (aRCell (pY c) 2)) (aRCell (pY c) 2)
    ∗ cellInv ER (Rd (SBf m) (OUTf m)) (K (bRCell (pX c) 2)) (bRCell (pX c) 2)
    ∗ cellInv ER (Rd (SBf m) (OUTf m)) (K (aRCell (pY c) 3)) (aRCell (pY c) 3)
    ∗ cellInv ER (Rd (SBf m) (OUTf m)) (K (bRCell (pX c) 3)) (bRCell (pX c) 3)
    ∗ cellInv ER (Rd (SBf m) (OUTf m)) (K (aRCell (pY c) 4)) (aRCell (pY c) 4)
    ∗ cellInv ER (Rd (SBf m) (OUTf m)) (K (bRCell (pX c) 4)) (bRCell (pX c) 4)
    ∗ cellInv ER (Rd (SBf m) (OUTf m)) (K (aRCell (pY c) 5)) (aRCell (pY c) 5)
    ∗ cellInv ER (Rd (SBf m) (OUTf m)) (K (bRCell (pX c) 5)) (bRCell (pX c) 5)
    ∗ cellInv ER (Rd (SBf m) (OUTf m)) (K (aRCell (pY c) 6)) (aRCell (pY c) 6)
    ∗ cellInv ER (Rd (SBf m) (OUTf m)) (K (bRCell (pX c) 6)) (bRCell (pX c) 6)
    ∗ cellInv ER (Rd (SBf m) (OUTf m)) (K (aRCell (pY c) 7)) (aRCell (pY c) 7)
    ∗ cellInv ER (Rd (SBf m) (OUTf m)) (K (bRCell (pX c) 7)) (bRCell (pX c) 7))
/-- Round 0 of all those cells is reached. -/
def reacheds (c : Dev nD) : sProp 𝕄 :=
  iprop(reached ER (barCell c) 0
    ∗ reached ER (aSCell c 0) 0
    ∗ reached ER (aRCell c 0) 0
    ∗ reached ER (bSCell c 0) 0
    ∗ reached ER (bRCell c 0) 0
    ∗ reached ER (aSCell c 1) 0
    ∗ reached ER (aRCell c 1) 0
    ∗ reached ER (bSCell c 1) 0
    ∗ reached ER (bRCell c 1) 0
    ∗ reached ER (aSCell c 2) 0
    ∗ reached ER (aRCell c 2) 0
    ∗ reached ER (bSCell c 2) 0
    ∗ reached ER (bRCell c 2) 0
    ∗ reached ER (aSCell c 3) 0
    ∗ reached ER (aRCell c 3) 0
    ∗ reached ER (bSCell c 3) 0
    ∗ reached ER (bRCell c 3) 0
    ∗ reached ER (aSCell c 4) 0
    ∗ reached ER (aRCell c 4) 0
    ∗ reached ER (bSCell c 4) 0
    ∗ reached ER (bRCell c 4) 0
    ∗ reached ER (aSCell c 5) 0
    ∗ reached ER (aRCell c 5) 0
    ∗ reached ER (bSCell c 5) 0
    ∗ reached ER (bRCell c 5) 0
    ∗ reached ER (aSCell c 6) 0
    ∗ reached ER (aRCell c 6) 0
    ∗ reached ER (bSCell c 6) 0
    ∗ reached ER (bRCell c 6) 0
    ∗ reached ER (aSCell c 7) 0
    ∗ reached ER (aRCell c 7) 0
    ∗ reached ER (bSCell c 7) 0
    ∗ reached ER (bRCell c 7) 0
    ∗ reached ER (barCell (pY c)) 0
    ∗ reached ER (barCell (pX c)) 0
    ∗ reached ER (aRCell (pY c) 0) 0
    ∗ reached ER (bRCell (pX c) 0) 0
    ∗ reached ER (aRCell (pY c) 1) 0
    ∗ reached ER (bRCell (pX c) 1) 0
    ∗ reached ER (aRCell (pY c) 2) 0
    ∗ reached ER (bRCell (pX c) 2) 0
    ∗ reached ER (aRCell (pY c) 3) 0
    ∗ reached ER (bRCell (pX c) 3) 0
    ∗ reached ER (aRCell (pY c) 4) 0
    ∗ reached ER (bRCell (pX c) 4) 0
    ∗ reached ER (aRCell (pY c) 5) 0
    ∗ reached ER (bRCell (pX c) 5) 0
    ∗ reached ER (aRCell (pY c) 6) 0
    ∗ reached ER (bRCell (pX c) 6) 0
    ∗ reached ER (aRCell (pY c) 7) 0
    ∗ reached ER (bRCell (pX c) 7) 0)
/-- The device stands at round 0 of each of its own cells, nothing consumed. -/
def positions (c : Dev nD) : sProp 𝕄 :=
  iprop(atPos ER (barCell c) 0 ∅ 0
    ∗ atPos ER (aSCell c 0) 0 ∅ 0
    ∗ atPos ER (aRCell c 0) 0 ∅ 0
    ∗ atPos ER (bSCell c 0) 0 ∅ 0
    ∗ atPos ER (bRCell c 0) 0 ∅ 0
    ∗ atPos ER (aSCell c 1) 0 ∅ 0
    ∗ atPos ER (aRCell c 1) 0 ∅ 0
    ∗ atPos ER (bSCell c 1) 0 ∅ 0
    ∗ atPos ER (bRCell c 1) 0 ∅ 0
    ∗ atPos ER (aSCell c 2) 0 ∅ 0
    ∗ atPos ER (aRCell c 2) 0 ∅ 0
    ∗ atPos ER (bSCell c 2) 0 ∅ 0
    ∗ atPos ER (bRCell c 2) 0 ∅ 0
    ∗ atPos ER (aSCell c 3) 0 ∅ 0
    ∗ atPos ER (aRCell c 3) 0 ∅ 0
    ∗ atPos ER (bSCell c 3) 0 ∅ 0
    ∗ atPos ER (bRCell c 3) 0 ∅ 0
    ∗ atPos ER (aSCell c 4) 0 ∅ 0
    ∗ atPos ER (aRCell c 4) 0 ∅ 0
    ∗ atPos ER (bSCell c 4) 0 ∅ 0
    ∗ atPos ER (bRCell c 4) 0 ∅ 0
    ∗ atPos ER (aSCell c 5) 0 ∅ 0
    ∗ atPos ER (aRCell c 5) 0 ∅ 0
    ∗ atPos ER (bSCell c 5) 0 ∅ 0
    ∗ atPos ER (bRCell c 5) 0 ∅ 0
    ∗ atPos ER (aSCell c 6) 0 ∅ 0
    ∗ atPos ER (aRCell c 6) 0 ∅ 0
    ∗ atPos ER (bSCell c 6) 0 ∅ 0
    ∗ atPos ER (bRCell c 6) 0 ∅ 0
    ∗ atPos ER (aSCell c 7) 0 ∅ 0
    ∗ atPos ER (aRCell c 7) 0 ∅ 0
    ∗ atPos ER (bSCell c 7) 0 ∅ 0
    ∗ atPos ER (bRCell c 7) 0 ∅ 0)
/-- The tokens of the duties the device pays. -/
def payToks (c : Dev nD) : sProp 𝕄 :=
  iprop(dutyTok ER (barCell (pY c)) 0 false
    ∗ dutyTok ER (barCell (pX c)) 0 true
    ∗ dutyTok ER (aSCell c 0) 0 false
    ∗ dutyTok ER (bSCell c 0) 0 false
    ∗ dutyTok ER (aRCell (pY c) 0) 0 false
    ∗ dutyTok ER (bRCell (pX c) 0) 0 false
    ∗ dutyTok ER (aSCell c 1) 0 false
    ∗ dutyTok ER (bSCell c 1) 0 false
    ∗ dutyTok ER (aRCell (pY c) 1) 0 false
    ∗ dutyTok ER (bRCell (pX c) 1) 0 false
    ∗ dutyTok ER (aSCell c 2) 0 false
    ∗ dutyTok ER (bSCell c 2) 0 false
    ∗ dutyTok ER (aRCell (pY c) 2) 0 false
    ∗ dutyTok ER (bRCell (pX c) 2) 0 false
    ∗ dutyTok ER (aSCell c 3) 0 false
    ∗ dutyTok ER (bSCell c 3) 0 false
    ∗ dutyTok ER (aRCell (pY c) 3) 0 false
    ∗ dutyTok ER (bRCell (pX c) 3) 0 false
    ∗ dutyTok ER (aSCell c 4) 0 false
    ∗ dutyTok ER (bSCell c 4) 0 false
    ∗ dutyTok ER (aRCell (pY c) 4) 0 false
    ∗ dutyTok ER (bRCell (pX c) 4) 0 false
    ∗ dutyTok ER (aSCell c 5) 0 false
    ∗ dutyTok ER (bSCell c 5) 0 false
    ∗ dutyTok ER (aRCell (pY c) 5) 0 false
    ∗ dutyTok ER (bRCell (pX c) 5) 0 false
    ∗ dutyTok ER (aSCell c 6) 0 false
    ∗ dutyTok ER (bSCell c 6) 0 false
    ∗ dutyTok ER (aRCell (pY c) 6) 0 false
    ∗ dutyTok ER (bRCell (pX c) 6) 0 false
    ∗ dutyTok ER (aSCell c 7) 0 false
    ∗ dutyTok ER (bSCell c 7) 0 false
    ∗ dutyTok ER (aRCell (pY c) 7) 0 false
    ∗ dutyTok ER (bRCell (pX c) 7) 0 false)

instance ownInvs_persistent (K : GSem nD τ sig → ℕ) (c : Dev nD) : BI.Persistent (ownInvs m K c) := by unfold ownInvs; infer_instance
instance peerInvs_persistent (K : GSem nD τ sig → ℕ) (c : Dev nD) : BI.Persistent (peerInvs m K c) := by unfold peerInvs; infer_instance
instance reacheds_persistent (c : Dev nD) : BI.Persistent (reacheds (F := F) c) := by unfold reacheds; infer_instance

def ghost (K : GSem nD τ sig → ℕ) (c : Dev nD) : sProp 𝕄 :=
  iprop(ownInvs m K c ∗ peerInvs m K c ∗ reacheds c ∗ positions c ∗ payToks c)

/-- The credit the launch deals the device: two units on its barrier cell, a chunk's on each of its 16 receive cells. -/
def creds (c : Dev nD) : sProp 𝕄 :=
  iprop(cred (tallyAt (barCell c) () 2)
    ∗ cred (tallyAt (aRCell c 0) () N)
    ∗ cred (tallyAt (bRCell c 0) () N)
    ∗ cred (tallyAt (aRCell c 1) () N)
    ∗ cred (tallyAt (bRCell c 1) () N)
    ∗ cred (tallyAt (aRCell c 2) () N)
    ∗ cred (tallyAt (bRCell c 2) () N)
    ∗ cred (tallyAt (aRCell c 3) () N)
    ∗ cred (tallyAt (bRCell c 3) () N)
    ∗ cred (tallyAt (aRCell c 4) () N)
    ∗ cred (tallyAt (bRCell c 4) () N)
    ∗ cred (tallyAt (aRCell c 5) () N)
    ∗ cred (tallyAt (bRCell c 5) () N)
    ∗ cred (tallyAt (aRCell c 6) () N)
    ∗ cred (tallyAt (bRCell c 6) () N)
    ∗ cred (tallyAt (aRCell c 7) () N)
    ∗ cred (tallyAt (bRCell c 7) () N))

/-- What device `c` starts from: the ghost state at some names, its credit and the level facts. -/
def start (c : Dev nD) : sProp 𝕄 := iprop((∃ K, ghost m K c) ∗ creds c ∗ levAts L lv)

/-- The four semaphores of the local staging copies, at zero. -/
def locals0 (c : Dev nD) : sProp 𝕄 :=
  iprop(semVal ((c : Thread nD τ), .dma ss0) 0 ∗ semVal ((c : Thread nD τ), .dma ss1) 0
    ∗ semVal ((c : Thread nD τ), .dma sm0) 0 ∗ semVal ((c : Thread nD τ), .dma sm1) 0)
/-- The device's block of the argument, whole, as launched. -/
def xPts (c : Dev nD) : sProp 𝕄 := (((c : Thread nD τ).loc main_arg0) ↦{fullShare} m ((c : Thread nD τ).loc main_arg0))
/-- The five scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))
/-- The 32 transfer cells' counters at zero. -/
def xferSems0 (c : Dev nD) : sProp 𝕄 :=
  iprop(semVal (aSCell c 0) 0
    ∗ semVal (aSCell c 1) 0
    ∗ semVal (aSCell c 2) 0
    ∗ semVal (aSCell c 3) 0
    ∗ semVal (aSCell c 4) 0
    ∗ semVal (aSCell c 5) 0
    ∗ semVal (aSCell c 6) 0
    ∗ semVal (aSCell c 7) 0
    ∗ semVal (aRCell c 0) 0
    ∗ semVal (aRCell c 1) 0
    ∗ semVal (aRCell c 2) 0
    ∗ semVal (aRCell c 3) 0
    ∗ semVal (aRCell c 4) 0
    ∗ semVal (aRCell c 5) 0
    ∗ semVal (aRCell c 6) 0
    ∗ semVal (aRCell c 7) 0
    ∗ semVal (bSCell c 0) 0
    ∗ semVal (bSCell c 1) 0
    ∗ semVal (bSCell c 2) 0
    ∗ semVal (bSCell c 3) 0
    ∗ semVal (bSCell c 4) 0
    ∗ semVal (bSCell c 5) 0
    ∗ semVal (bSCell c 6) 0
    ∗ semVal (bSCell c 7) 0
    ∗ semVal (bRCell c 0) 0
    ∗ semVal (bRCell c 1) 0
    ∗ semVal (bRCell c 2) 0
    ∗ semVal (bRCell c 3) 0
    ∗ semVal (bRCell c 4) 0
    ∗ semVal (bRCell c 5) 0
    ∗ semVal (bRCell c 6) 0
    ∗ semVal (bRCell c 7) 0)

/-- The kernel's own (scoped) DMA semaphores, as the launch indexes them: the 32 transfer cells' (first-stage send, first-stage
    receive, second-stage send, second-stage receive, eight each) and the four of the local staging copies. -/
abbrev osem : Fin 36 → SemLoc sig := fun i => .dma ⟨i.val + 1, by have h : i.val < 36 := i.isLt; show _ < 37; omega⟩
/-- What the launch's global step leaves each device: the ghost state at some names, and its four local semaphores at zero. -/
def G' (c : Dev nD) : sProp 𝕄 := iprop((∃ K, ghost m K c) ∗ locals0 c)

/-- Before the body: the start, the local semaphores, the argument block and the scratch buffers. -/
def Φ₀ (c : Dev nD) : sProp 𝕄 := iprop(start m c ∗ locals0 c ∗ xPts m c ∗ scratch c)
/-- After it: the argument block unchanged, the scratch buffers at some contents, all 36 own semaphores at zero. -/
def Φ₁ (c : Dev nD) : sProp 𝕄 := iprop(xPts m c ∗ scratch c ∗ xferSems0 c ∗ locals0 c)

/-- The pipeline's proof data: the result's staging buffer ends at `OUTf m c`; the device owes `O₀ c` before the body and
    nothing after it. -/
def dats (_ : Fin 1) (c : Dev nD) : Dat τ (Elt F) Unit ℕ UU ℕ cfg0 c where
  A w := m ((cfg0.win w).arr.view.loc (c : Thread nD τ))
  after w _ := match w with
    | ⟨0, _⟩ => OUTf m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.RS

end
-- ==== Proof.Alloc.lean ====
import proofs.«900308_g7700000000000309_dist_rs_v7x_xy2x2_y_m4096_n1024_bf16_1_alg».proof.Proof.Ctx

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the duty tokens, indexed

A device has 33 cells: its barrier cell (`none`) and, for each of the four groups of transfers (first-stage send, first-stage
receive, second-stage send, second-stage receive) and each of the eight chunks, a transfer cell. It mints 34 duty tokens: the
barrier cell's duty `true` (`none`) and every cell's duty `false`. -/

abbrev CI : Type := Option (Fin 4 × Fin 8)
abbrev TI : Type := Option CI

def csem : CI → SemLoc sig
  | none => .reg barS
  | some (0, k) => .dma (aSs k)
  | some (1, k) => .dma (aRs k)
  | some (2, k) => .dma (bSs k)
  | some (3, k) => .dma (bRs k)

/-- The index of a semaphore among a device's cells (anything off them). -/
def ciOf : SemLoc sig → CI
  | .reg _ => none
  | .dma q => grp q

theorem ciOf_csem : ∀ i : CI, ciOf (csem i) = i
  | none => rfl
  | some (0, k) => grp_aS k
  | some (1, k) => grp_aR k
  | some (2, k) => grp_bS k
  | some (3, k) => grp_bR k

abbrev kcell (ck : Dev nD × CI) : GSem nD τ sig := ((ck.1 : Thread nD τ), csem ck.2)

theorem kcell_injective : Function.Injective (kcell : Dev nD × CI → GSem nD τ sig) := by
  rintro ⟨c, i⟩ ⟨c', i'⟩ h
  have h1 : c = c' := congrArg (fun g : GSem nD τ sig => g.1.1) h
  subst h1
  have h2 : ciOf (csem i) = ciOf (csem i') := congrArg (fun g : GSem nD τ sig => ciOf g.2) h
  rw [ciOf_csem, ciOf_csem] at h2
  subst h2; rfl

abbrev tokOf (ct : Dev nD × TI) : GSem nD τ sig × ℕ × Bool := match ct.2 with
  | none => (barCell ct.1, 0, true)
  | some i => (kcell (ct.1, i), 0, false)

theorem tokOf_injective : Function.Injective (tokOf : Dev nD × TI → GSem nD τ sig × ℕ × Bool) := by
  rintro ⟨c, t⟩ ⟨c', t'⟩ h
  rcases t with _ | i <;> rcases t' with _ | i'
  · have h1 : c = c' := congrArg (fun x : GSem nD τ sig × ℕ × Bool => x.1.1.1) h
    subst h1; rfl
  · have h' : true = false := congrArg (fun x : GSem nD τ sig × ℕ × Bool => x.2.2) h
    exact Bool.noConfusion h'
  · have h' : false = true := congrArg (fun x : GSem nD τ sig × ℕ × Bool => x.2.2) h
    exact Bool.noConfusion h'
  · have h1 := kcell_injective (congrArg (fun x : GSem nD τ sig × ℕ × Bool => x.1) h)
    cases h1; rfl

/-- All devices' 33 cells. -/
def xCells : Finset (GSem nD τ sig) := Finset.univ.map ⟨kcell, kcell_injective⟩
/-- All devices' duty tokens (34 a device). -/
def xToks : Finset (GSem nD τ sig × ℕ × Bool) := Finset.univ.map ⟨tokOf, tokOf_injective⟩

def u₀ : UU := (initOf (Pipeline.cells cfgs cellOf_inj) (Pipeline.launchToks cfgs cellOf_inj), (initOf xCells xToks, 1))

/-- The tokens device `c`'s own cells mint. -/
def toks (c : Dev nD) : sProp 𝕄 :=
  bigSep Finset.univ fun t : TI => dutyTok ER (tokOf (c, t)).1 (tokOf (c, t)).2.1 (tokOf (c, t)).2.2

/-- What the launch element deals device `c`. -/
def G (c : Dev nD) : sProp 𝕄 :=
  iprop((bigSep Finset.univ fun i : CI => roundState ER (Rd (SBf m) (OUTf m)) (kcell (c, i)) 0)
    ∗ (bigSep Finset.univ fun i : CI => iprop(atPos ER (kcell (c, i)) 0 ∅ 0 ∗ reached ER (kcell (c, i)) 0)) ∗ toks c)

theorem ownSemFacts : Pipeline.OwnSemFacts cfg0.spec osem := by decide

theorem fund_rounds : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun i : CI => Φ (kcell (c, i)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks toks; rw [bigSep_map, bigSep_univ_prod]; rfl
  iintro HX
  imod (Rounds.fund ER (Rd (SBf m) (OUTf m)) xCells xToks) $$ HX with ⟨Hst, Hr, Hat, Htok⟩
  imodintro
  ihave Hst' := (Entails.of_eq (hX fun g => roundState ER (Rd (SBf m) (OUTf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_u₀ : (ownU (u₀) : sProp 𝕄) ⊢ |={Set.univ}=> iprop(BI.own (EP (initOf (Pipeline.cells cfgs cellOf_inj) (Pipeline.launchToks cfgs cellOf_inj))) ∗ bigSep Finset.univ (G m)) := by
  have hR : (BI.own (((Emb.inl : Emb UB (UB × Counters)).trans embR) (initOf xCells xToks)) : sProp 𝕄) ⊢ |==> bigSep Finset.univ (G m) :=
    fund_rounds m
  unfold u₀
  iintro Hu
  ihave H := (ownU_pair _ _) $$ Hu
  icases H with ⟨HP, HX⟩
  ihave H2 := (own_pair_emb _ _ _) $$ HX
  icases H2 with ⟨HR, -⟩
  imod hR $$ HR with HG
  imodintro
  isplitl [HP] <;> iassumption

/-! ## The launch credit

Every device owes one tally at a cell of a partner's; the partner maps being involutions, the launch deals each device the
matching credit on its own cell. The tallies are peeled in the order they are summed. -/

omit [FloatOps F] in
theorem launchCred_peel (O : Dev nD → CellTallies nD τ sig Unit) (sm : SemLoc sig) (f : Dev nD → Dev nD) (hf : ∀ c, f (f c) = c) (n : ℕ) (c : Dev nD) :
    (Pipeline.launchCred (fun d => O d + tallyAt (((f d : Dev nD) : Thread nD τ), sm) () n) c : sProp 𝕄)
      ⊢ iprop(Pipeline.launchCred O c ∗ cred (tallyAt ((c : Thread nD τ), sm) () n)) := by
  rw [Pipeline.launchCred_add]
  exact sep_mono_right (Pipeline.launchCred_tallyAt sm f f hf hf () n c)

omit [FloatOps F] in
theorem creds_of_launch (c : Dev nD) : (Pipeline.launchCred O₀ c : sProp 𝕄) ⊢ creds c := by
  have hY : (Pipeline.launchCred O₀ c : sProp 𝕄) ⊢ iprop(Pipeline.launchCred O₁ c ∗ cred (tallyAt (barCell c) () 1)) :=
    launchCred_peel O₁ (.reg barS) pY pY_pY 1 c
  have hX : (Pipeline.launchCred O₁ c : sProp 𝕄) ⊢ iprop(Pipeline.launchCred OA0 c ∗ cred (tallyAt (barCell c) () 1)) :=
    launchCred_peel OA0 (.reg barS) pX pX_pX 1 c
  have hA0 : (Pipeline.launchCred OA0 c : sProp 𝕄) ⊢ iprop(Pipeline.launchCred OA1 c ∗ cred (tallyAt (aRCell c 0) () N)) :=
    launchCred_peel OA1 (.dma (aRs 0)) pY pY_pY N c
  have hA1 : (Pipeline.launchCred OA1 c : sProp 𝕄) ⊢ iprop(Pipeline.launchCred OA2 c ∗ cred (tallyAt (aRCell c 1) () N)) :=
    launchCred_peel OA2 (.dma (aRs 1)) pY pY_pY N c
  have hA2 : (Pipeline.launchCred OA2 c : sProp 𝕄) ⊢ iprop(Pipeline.launchCred OA3 c ∗ cred (tallyAt (aRCell c 2) () N)) :=
    launchCred_peel OA3 (.dma (aRs 2)) pY pY_pY N c
  have hA3 : (Pipeline.launchCred OA3 c : sProp 𝕄) ⊢ iprop(Pipeline.launchCred OA4 c ∗ cred (tallyAt (aRCell c 3) () N)) :=
    launchCred_peel OA4 (.dma (aRs 3)) pY pY_pY N c
  have hA4 : (Pipeline.launchCred OA4 c : sProp 𝕄) ⊢ iprop(Pipeline.launchCred OA5 c ∗ cred (tallyAt (aRCell c 4) () N)) :=
    launchCred_peel OA5 (.dma (aRs 4)) pY pY_pY N c
  have hA5 : (Pipeline.launchCred OA5 c : sProp 𝕄) ⊢ iprop(Pipeline.launchCred OA6 c ∗ cred (tallyAt (aRCell c 5) () N)) :=
    launchCred_peel OA6 (.dma (aRs 5)) pY pY_pY N c
  have hA6 : (Pipeline.launchCred OA6 c : sProp 𝕄) ⊢ iprop(Pipeline.launchCred OA7 c ∗ cred (tallyAt (aRCell c 6) () N)) :=
    launchCred_peel OA7 (.dma (aRs 6)) pY pY_pY N c
  have hA7 : (Pipeline.launchCred OA7 c : sProp 𝕄) ⊢ iprop(Pipeline.launchCred OA8 c ∗ cred (tallyAt (aRCell c 7) () N)) :=
    launchCred_peel OA8 (.dma (aRs 7)) pY pY_pY N c
  have hB0 : (Pipeline.launchCred OA8 c : sProp 𝕄) ⊢ iprop(Pipeline.launchCred OB1 c ∗ cred (tallyAt (bRCell c 0) () N)) :=
    launchCred_peel OB1 (.dma (bRs 0)) pX pX_pX N c
  have hB1 : (Pipeline.launchCred OB1 c : sProp 𝕄) ⊢ iprop(Pipeline.launchCred OB2 c ∗ cred (tallyAt (bRCell c 1) () N)) :=
    launchCred_peel OB2 (.dma (bRs 1)) pX pX_pX N c
  have hB2 : (Pipeline.launchCred OB2 c : sProp 𝕄) ⊢ iprop(Pipeline.launchCred OB3 c ∗ cred (tallyAt (bRCell c 2) () N)) :=
    launchCred_peel OB3 (.dma (bRs 2)) pX pX_pX N c
  have hB3 : (Pipeline.launchCred OB3 c : sProp 𝕄) ⊢ iprop(Pipeline.launchCred OB4 c ∗ cred (tallyAt (bRCell c 3) () N)) :=
    launchCred_peel OB4 (.dma (bRs 3)) pX pX_pX N c
  have hB4 : (Pipeline.launchCred OB4 c : sProp 𝕄) ⊢ iprop(Pipeline.launchCred OB5 c ∗ cred (tallyAt (bRCell c 4) () N)) :=
    launchCred_peel OB5 (.dma (bRs 4)) pX pX_pX N c
  have hB5 : (Pipeline.launchCred OB5 c : sProp 𝕄) ⊢ iprop(Pipeline.launchCred OB6 c ∗ cred (tallyAt (bRCell c 5) () N)) :=
    launchCred_peel OB6 (.dma (bRs 5)) pX pX_pX N c
  have hB6 : (Pipeline.launchCred OB6 c : sProp 𝕄) ⊢ iprop(Pipeline.launchCred OB7 c ∗ cred (tallyAt (bRCell c 6) () N)) :=
    launchCred_peel OB7 (.dma (bRs 6)) pX pX_pX N c
  have hB7 : (Pipeline.launchCred OB7 c : sProp 𝕄) ⊢ iprop(Pipeline.launchCred OB8 c ∗ cred (tallyAt (bRCell c 7) () N)) :=
    launchCred_peel OB8 (.dma (bRs 7)) pX pX_pX N c
  have e2 : (tallyAt (barCell c) () 2 : CellTallies nD τ sig Unit) = tallyAt (barCell c) () 1 + tallyAt (barCell c) () 1 := (tallyAt_add _ _ 1 1).symm
  unfold creds
  rw [e2]
  iintro T0
  ihave T1 := hY $$ T0; icases T1 with ⟨T2, Hb1⟩
  ihave T3 := hX $$ T2; icases T3 with ⟨A0, Hb2⟩
  ihave A0' := hA0 $$ A0; icases A0' with ⟨A1, Ha0⟩
  ihave A1' := hA1 $$ A1; icases A1' with ⟨A2, Ha1⟩
  ihave A2' := hA2 $$ A2; icases A2' with ⟨A3, Ha2⟩
  ihave A3' := hA3 $$ A3; icases A3' with ⟨A4, Ha3⟩
  ihave A4' := hA4 $$ A4; icases A4' with ⟨A5, Ha4⟩
  ihave A5' := hA5 $$ A5; icases A5' with ⟨A6, Ha5⟩
  ihave A6' := hA6 $$ A6; icases A6' with ⟨A7, Ha6⟩
  ihave A7' := hA7 $$ A7; icases A7' with ⟨A8, Ha7⟩
  ihave B0' := hB0 $$ A8; icases B0' with ⟨B1, Hc0⟩
  ihave B1' := hB1 $$ B1; icases B1' with ⟨B2, Hc1⟩
  ihave B2' := hB2 $$ B2; icases B2' with ⟨B3, Hc2⟩
  ihave B3' := hB3 $$ B3; icases B3' with ⟨B4, Hc3⟩
  ihave B4' := hB4 $$ B4; icases B4' with ⟨B5, Hc4⟩
  ihave B5' := hB5 $$ B5; icases B5' with ⟨B6, Hc5⟩
  ihave B6' := hB6 $$ B6; icases B6' with ⟨B7, Hc6⟩
  ihave B7' := hB7 $$ B7; icases B7' with ⟨-, Hc7⟩
  isplitl [Hb1 Hb2]
  · iapply (cred_add _ _).2; isplitl [Hb1] <;> iassumption
  isplitl [Ha0]; · iexact Ha0
  isplitl [Hc0]; · iexact Hc0
  isplitl [Ha1]; · iexact Ha1
  isplitl [Hc1]; · iexact Hc1
  isplitl [Ha2]; · iexact Ha2
  isplitl [Hc2]; · iexact Hc2
  isplitl [Ha3]; · iexact Ha3
  isplitl [Hc3]; · iexact Hc3
  isplitl [Ha4]; · iexact Ha4
  isplitl [Hc4]; · iexact Hc4
  isplitl [Ha5]; · iexact Ha5
  isplitl [Hc5]; · iexact Hc5
  isplitl [Ha6]; · iexact Ha6
  isplitl [Hc6]; · iexact Hc6
  isplitl [Ha7]; · iexact Ha7
  iexact Hc7

/-! ## The cells allocated

The lists below enumerate a device's cells in the order of the semaphores and in the order the ghost state spells them. -/

set_option maxRecDepth 16000 in
omit [FloatOps F] in
/-- A device's cells in the order of their semaphores. -/
theorem bigSep_CI_sem (Φ : CI → sProp 𝕄) : bigSep Finset.univ Φ = bigSepL [none, some (0, 0), some (0, 1), some (0, 2), some (0, 3), some (0, 4), some (0, 5), some (0, 6), some (0, 7), some (1, 0), some (1, 1), some (1, 2), some (1, 3), some (1, 4), some (1, 5), some (1, 6), some (1, 7), some (2, 0), some (2, 1), some (2, 2), some (2, 3), some (2, 4), some (2, 5), some (2, 6), some (2, 7), some (3, 0), some (3, 1), some (3, 2), some (3, 3), some (3, 4), some (3, 5), some (3, 6), some (3, 7)] Φ :=
  bigSep_univ_eq_bigSepL _ (by decide +kernel) (by decide +kernel) Φ
set_option maxRecDepth 16000 in
omit [FloatOps F] in
/-- A device's cells chunk by chunk. -/
theorem bigSep_CI_own (Φ : CI → sProp 𝕄) : bigSep Finset.univ Φ = bigSepL [none, some (0, 0), some (1, 0), some (2, 0), some (3, 0), some (0, 1), some (1, 1), some (2, 1), some (3, 1), some (0, 2), some (1, 2), some (2, 2), some (3, 2), some (0, 3), some (1, 3), some (2, 3), some (3, 3), some (0, 4), some (1, 4), some (2, 4), some (3, 4), some (0, 5), some (1, 5), some (2, 5), some (3, 5), some (0, 6), some (1, 6), some (2, 6), some (3, 6), some (0, 7), some (1, 7), some (2, 7), some (3, 7)] Φ :=
  bigSep_univ_eq_bigSepL _ (by decide +kernel) (by decide +kernel) Φ
set_option maxRecDepth 16000 in
omit [FloatOps F] in
/-- The tokens in the order their payers hold them. -/
theorem bigSep_TI_pay (Φ : TI → sProp 𝕄) : bigSep Finset.univ Φ = bigSepL [some none, none, some (some (0, 0)), some (some (2, 0)), some (some (1, 0)), some (some (3, 0)), some (some (0, 1)), some (some (2, 1)), some (some (1, 1)), some (some (3, 1)), some (some (0, 2)), some (some (2, 2)), some (some (1, 2)), some (some (3, 2)), some (some (0, 3)), some (some (2, 3)), some (some (1, 3)), some (some (3, 3)), some (some (0, 4)), some (some (2, 4)), some (some (1, 4)), some (some (3, 4)), some (some (0, 5)), some (some (2, 5)), some (some (1, 5)), some (some (3, 5)), some (some (0, 6)), some (some (2, 6)), some (some (1, 6)), some (some (3, 6)), some (some (0, 7)), some (some (2, 7)), some (some (1, 7)), some (some (3, 7))] Φ :=
  bigSep_univ_eq_bigSepL _ (by decide +kernel) (by decide +kernel) Φ

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counters the launch hands over: the 33 cells' and the four local copies'. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun i : CI => semVal (kcell (c, i)) 0) ∗ locals0 c : sProp 𝕄) := by
  have e32 : osem 32 = SemLoc.dma ss0 := by first | rfl | decide +kernel
  have e33 : osem 33 = SemLoc.dma ss1 := by first | rfl | decide +kernel
  have e34 : osem 34 = SemLoc.dma sm0 := by first | rfl | decide +kernel
  have e35 : osem 35 = SemLoc.dma sm1 := by first | rfl | decide +kernel
  have hL : (Pipeline.ownSems0 (Ix := Unit) (Name := ℕ) (U := UU) (Lvl := ℕ) (Val := Elt F) (τ := τ) osem c : sProp 𝕄)
      = iprop(semVal ((c : Thread nD τ), osem 0) 0
      ∗ semVal ((c : Thread nD τ), osem 1) 0
      ∗ semVal ((c : Thread nD τ), osem 2) 0
      ∗ semVal ((c : Thread nD τ), osem 3) 0
      ∗ semVal ((c : Thread nD τ), osem 4) 0
      ∗ semVal ((c : Thread nD τ), osem 5) 0
      ∗ semVal ((c : Thread nD τ), osem 6) 0
      ∗ semVal ((c : Thread nD τ), osem 7) 0
      ∗ semVal ((c : Thread nD τ), osem 8) 0
      ∗ semVal ((c : Thread nD τ), osem 9) 0
      ∗ semVal ((c : Thread nD τ), osem 10) 0
      ∗ semVal ((c : Thread nD τ), osem 11) 0
      ∗ semVal ((c : Thread nD τ), osem 12) 0
      ∗ semVal ((c : Thread nD τ), osem 13) 0
      ∗ semVal ((c : Thread nD τ), osem 14) 0
      ∗ semVal ((c : Thread nD τ), osem 15) 0
      ∗ semVal ((c : Thread nD τ), osem 16) 0
      ∗ semVal ((c : Thread nD τ), osem 17) 0
      ∗ semVal ((c : Thread nD τ), osem 18) 0
      ∗ semVal ((c : Thread nD τ), osem 19) 0
      ∗ semVal ((c : Thread nD τ), osem 20) 0
      ∗ semVal ((c : Thread nD τ), osem 21) 0
      ∗ semVal ((c : Thread nD τ), osem 22) 0
      ∗ semVal ((c : Thread nD τ), osem 23) 0
      ∗ semVal ((c : Thread nD τ), osem 24) 0
      ∗ semVal ((c : Thread nD τ), osem 25) 0
      ∗ semVal ((c : Thread nD τ), osem 26) 0
      ∗ semVal ((c : Thread nD τ), osem 27) 0
      ∗ semVal ((c : Thread nD τ), osem 28) 0
      ∗ semVal ((c : Thread nD τ), osem 29) 0
      ∗ semVal ((c : Thread nD τ), osem 30) 0
      ∗ semVal ((c : Thread nD τ), osem 31) 0
      ∗ semVal ((c : Thread nD τ), osem 32) 0
      ∗ semVal ((c : Thread nD τ), osem 33) 0
      ∗ semVal ((c : Thread nD τ), osem 34) 0
      ∗ semVal ((c : Thread nD τ), osem 35) 0) := by
    rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35] (by decide) (by decide)]; rfl
  have hS : (bigSep Finset.univ fun i : CI => (semVal (kcell (c, i)) 0 : sProp 𝕄))
      = iprop(semVal (kcell (c, none)) 0
      ∗ semVal (kcell (c, some (0, 0))) 0
      ∗ semVal (kcell (c, some (0, 1))) 0
      ∗ semVal (kcell (c, some (0, 2))) 0
      ∗ semVal (kcell (c, some (0, 3))) 0
      ∗ semVal (kcell (c, some (0, 4))) 0
      ∗ semVal (kcell (c, some (0, 5))) 0
      ∗ semVal (kcell (c, some (0, 6))) 0
      ∗ semVal (kcell (c, some (0, 7))) 0
      ∗ semVal (kcell (c, some (1, 0))) 0
      ∗ semVal (kcell (c, some (1, 1))) 0
      ∗ semVal (kcell (c, some (1, 2))) 0
      ∗ semVal (kcell (c, some (1, 3))) 0
      ∗ semVal (kcell (c, some (1, 4))) 0
      ∗ semVal (kcell (c, some (1, 5))) 0
      ∗ semVal (kcell (c, some (1, 6))) 0
      ∗ semVal (kcell (c, some (1, 7))) 0
      ∗ semVal (kcell (c, some (2, 0))) 0
      ∗ semVal (kcell (c, some (2, 1))) 0
      ∗ semVal (kcell (c, some (2, 2))) 0
      ∗ semVal (kcell (c, some (2, 3))) 0
      ∗ semVal (kcell (c, some (2, 4))) 0
      ∗ semVal (kcell (c, some (2, 5))) 0
      ∗ semVal (kcell (c, some (2, 6))) 0
      ∗ semVal (kcell (c, some (2, 7))) 0
      ∗ semVal (kcell (c, some (3, 0))) 0
      ∗ semVal (kcell (c, some (3, 1))) 0
      ∗ semVal (kcell (c, some (3, 2))) 0
      ∗ semVal (kcell (c, some (3, 3))) 0
      ∗ semVal (kcell (c, some (3, 4))) 0
      ∗ semVal (kcell (c, some (3, 5))) 0
      ∗ semVal (kcell (c, some (3, 6))) 0
      ∗ semVal (kcell (c, some (3, 7))) 0) := by
    rw [bigSep_CI_sem]; rfl
  rw [hL, unscopedSems0_eq, hS]
  unfold locals0
  iintro ⟨⟨H0, H1, H2, H3, H4, H5, H6, H7, H8, H9, H10, H11, H12, H13, H14, H15, H16, H17, H18, H19, H20, H21, H22, H23, H24, H25, H26, H27, H28, H29, H30, H31, H32, H33, H34, H35⟩, HB⟩
  isplitr [H32 H33 H34 H35]
  · isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  · isplitl [H32]; · first | iexact H32 | (rw [← e32]; iexact H32)
    isplitl [H33]; · first | iexact H33 | (rw [← e33]; iexact H33)
    isplitl [H34]; · first | iexact H34 | (rw [← e34]; iexact H34)
    first | iexact H35 | (rw [← e35]; iexact H35)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd (SBf m) (OUTf m)) κ (kcell (c, i))))
          ∗ (bigSep Finset.univ fun i : CI => iprop(atPos ER (kcell (c, i)) 0 ∅ 0 ∗ reached ER (kcell (c, i)) 0)) ∗ toks c ∗ locals0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun i : CI => semVal (kcell (c, i)) 0) ∗ bigSep Finset.univ fun i : CI => roundState ER (Rd (SBf m) (OUTf m)) (kcell (c, i)) 0)
      ⊢ (|={Set.univ}=> bigSep Finset.univ fun i : CI => iprop(∃ κ : ℕ, cellInv ER (Rd (SBf m) (OUTf m)) κ (kcell (c, i))) : sProp 𝕄) from by
        rw [← bigSep_sep']
        exact (bigSep_mono fun i _ => (Rounds.body_intro ER (Rd (SBf m) (OUTf m)) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The names gathered, the tokens dealt to their payers -/

/-- Under the names `K`: every cell's invariant, and that round 0 of every cell is reached. -/
def records (K : GSem nD τ sig → ℕ) : sProp 𝕄 :=
  iprop((bigSep Finset.univ fun ci : Dev nD × CI => cellInv ER (Rd (SBf m) (OUTf m)) (K (kcell ci)) (kcell ci))
    ∗ bigSep Finset.univ fun ci : Dev nD × CI => reached ER (kcell ci) 0)

instance records_persistent (K : GSem nD τ sig → ℕ) : BI.Persistent (records m K) := by unfold records; infer_instance

/-- A name for every cell, from the names of the enumerated ones. -/
def nameOf (K' : Dev nD × CI → ℕ) (g : GSem nD τ sig) : ℕ := K' (g.1.1, ciOf g.2)
theorem nameOf_kcell (K' : Dev nD × CI → ℕ) (ci : Dev nD × CI) : nameOf K' (kcell ci) = K' ci := by
  obtain ⟨c, i⟩ := ci
  show K' (c, ciOf (csem i)) = K' (c, i)
  rw [ciOf_csem]

theorem inv_at0 (K : GSem nD τ sig → ℕ) (ci : Dev nD × CI) :
    (bigSep Finset.univ fun ci : Dev nD × CI => (cellInv ER (Rd (SBf m) (OUTf m)) (K (kcell ci)) (kcell ci) : sProp 𝕄)) ⊢ cellInv ER (Rd (SBf m) (OUTf m)) (K (kcell ci)) (kcell ci) :=
  bigSep_elim (Finset.mem_univ ci)
omit [FloatOps F] in
theorem reached_at0 (ci : Dev nD × CI) :
    (bigSep Finset.univ fun ci : Dev nD × CI => (reached ER (kcell ci) 0 : sProp 𝕄)) ⊢ reached ER (kcell ci) 0 :=
  bigSep_elim (Finset.mem_univ ci)

theorem inv_at (K : GSem nD τ sig → ℕ) (ci : Dev nD × CI) : records m K ⊢ cellInv ER (Rd (SBf m) (OUTf m)) (K (kcell ci)) (kcell ci) := by
  unfold records
  iintro ⟨H, -⟩
  iapply (inv_at0 m K ci); iexact H
theorem reached_at (K : GSem nD τ sig → ℕ) (ci : Dev nD × CI) : records m K ⊢ reached ER (kcell ci) 0 := by
  unfold records
  iintro ⟨-, H⟩
  iapply (reached_at0 (F := F) ci); iexact H

omit [FloatOps F] in
/-- A persistent assertion that yields every entry yields the chain over any list. -/
theorem bigSepL_of_persistent {I : Type} {R : sProp 𝕄} [BI.Persistent R] (Φ : I → sProp 𝕄) (h : ∀ i, R ⊢ Φ i) : ∀ l : List I, R ⊢ bigSepL l Φ
  | [] => by
    show R ⊢ iprop(emp)
    iintro -; iempintro
  | [i] => h i
  | i :: j :: l => by
    show R ⊢ iprop(Φ i ∗ bigSepL (j :: l) Φ)
    iintro #H
    isplitr
    · iapply (h i); iexact H
    · iapply (bigSepL_of_persistent Φ h (j :: l)); iexact H

theorem ownInvs_intro (K : GSem nD τ sig → ℕ) (c : Dev nD) : records m K ⊢ ownInvs m K c := by
  have h := bigSepL_of_persistent (R := records m K) (fun i : CI => cellInv ER (Rd (SBf m) (OUTf m)) (K (kcell (c, i))) (kcell (c, i))) (fun i => inv_at m K (c, i))
    [none, some (0, 0), some (1, 0), some (2, 0), some (3, 0), some (0, 1), some (1, 1), some (2, 1), some (3, 1), some (0, 2), some (1, 2), some (2, 2), some (3, 2), some (0, 3), some (1, 3), some (2, 3), some (3, 3), some (0, 4), some (1, 4), some (2, 4), some (3, 4), some (0, 5), some (1, 5), some (2, 5), some (3, 5), some (0, 6), some (1, 6), some (2, 6), some (3, 6), some (0, 7), some (1, 7), some (2, 7), some (3, 7)]
  exact h
theorem peerInvs_intro (K : GSem nD τ sig → ℕ) (c : Dev nD) : records m K ⊢ peerInvs m K c := by
  have h := bigSepL_of_persistent (R := records m K) (fun ci : Dev nD × CI => cellInv ER (Rd (SBf m) (OUTf m)) (K (kcell ci)) (kcell ci)) (fun ci => inv_at m K ci)
    [(pY c, none), (pX c, none), (pY c, some (1, 0)), (pX c, some (3, 0)), (pY c, some (1, 1)), (pX c, some (3, 1)), (pY c, some (1, 2)), (pX c, some (3, 2)), (pY c, some (1, 3)), (pX c, some (3, 3)), (pY c, some (1, 4)), (pX c, some (3, 4)), (pY c, some (1, 5)), (pX c, some (3, 5)), (pY c, some (1, 6)), (pX c, some (3, 6)), (pY c, some (1, 7)), (pX c, some (3, 7))]
  exact h
theorem reacheds_intro (K : GSem nD τ sig → ℕ) (c : Dev nD) : records m K ⊢ reacheds c := by
  have h := bigSepL_of_persistent (R := records m K) (fun ci : Dev nD × CI => reached ER (kcell ci) 0) (fun ci => reached_at m K ci)
    [(c, none), (c, some (0, 0)), (c, some (1, 0)), (c, some (2, 0)), (c, some (3, 0)), (c, some (0, 1)), (c, some (1, 1)), (c, some (2, 1)), (c, some (3, 1)), (c, some (0, 2)), (c, some (1, 2)), (c, some (2, 2)), (c, some (3, 2)), (c, some (0, 3)), (c, some (1, 3)), (c, some (2, 3)), (c, some (3, 3)), (c, some (0, 4)), (c, some (1, 4)), (c, some (2, 4)), (c, some (3, 4)), (c, some (0, 5)), (c, some (1, 5)), (c, some (2, 5)), (c, some (3, 5)), (c, some (0, 6)), (c, some (1, 6)), (c, some (2, 6)), (c, some (3, 6)), (c, some (0, 7)), (c, some (1, 7)), (c, some (2, 7)), (c, some (3, 7)), (pY c, none), (pX c, none), (pY c, some (1, 0)), (pX c, some (3, 0)), (pY c, some (1, 1)), (pX c, some (3, 1)), (pY c, some (1, 2)), (pX c, some (3, 2)), (pY c, some (1, 3)), (pX c, some (3, 3)), (pY c, some (1, 4)), (pX c, some (3, 4)), (pY c, some (1, 5)), (pX c, some (3, 5)), (pY c, some (1, 6)), (pX c, some (3, 6)), (pY c, some (1, 7)), (pX c, some (3, 7))]
  exact h

omit [FloatOps F] in
theorem positions_eq (c : Dev nD) : (positions c : sProp 𝕄) = bigSep Finset.univ fun i : CI => atPos ER (kcell (c, i)) 0 ∅ 0 := by
  rw [bigSep_CI_own]; rfl

/-- What stays with device `c`: its positions, the tokens of the duties it pays, its local copies' counters. -/
def linear (c : Dev nD) : sProp 𝕄 :=
  iprop((bigSep Finset.univ fun i : CI => atPos ER (kcell (c, i)) 0 ∅ 0) ∗ payToks c ∗ locals0 c)

theorem ghost_intro (K : GSem nD τ sig → ℕ) (c : Dev nD) : iprop(records m K ∗ linear c) ⊢ G' m c := by
  unfold linear G' ghost
  rw [← positions_eq]
  iintro ⟨#HR, Hat, Htk, Hloc⟩
  isplitr [Hloc]
  · iexists K
    isplitr; · iapply (ownInvs_intro m K c); iexact HR
    isplitr; · iapply (peerInvs_intro m K c); iexact HR
    isplitr; · iapply (reacheds_intro m K c); iexact HR
    isplitl [Hat]; · iexact Hat
    iexact Htk
  · iexact Hloc

/-- Who pays a duty: the barrier's `true` and the second stage's receive duties the first-axis partner, the barrier's
    `false` and the first stage's receive duties the second-axis partner, the send duties the device itself. -/
def dealTo : TI → Dev nD ≃ Dev nD
  | none => eqX
  | some none => eqY
  | some (some (0, _)) => Equiv.refl _
  | some (some (1, _)) => eqY
  | some (some (2, _)) => Equiv.refl _
  | some (some (3, _)) => eqX

def deal : Dev nD × TI ≃ Dev nD × TI where
  toFun x := (dealTo x.2 x.1, x.2)
  invFun x := ((dealTo x.2).symm x.1, x.2)
  left_inv x := Prod.ext ((dealTo x.2).symm_apply_apply x.1) rfl
  right_inv x := Prod.ext ((dealTo x.2).apply_symm_apply x.1) rfl

omit [FloatOps F] in
/-- The tokens dealt to their payers. -/
theorem toks_around : (bigSep Finset.univ fun c : Dev nD => (toks c : sProp 𝕄)) ⊢ bigSep Finset.univ fun c : Dev nD => payToks c := by
  unfold toks
  rw [← bigSep_univ_prod (fun ct : Dev nD × TI => (dutyTok ER (tokOf ct).1 (tokOf ct).2.1 (tokOf ct).2.2 : sProp 𝕄)),
    bigSep_univ_equiv deal, bigSep_univ_prod]
  exact Entails.of_eq (bigSep_congr fun c _ => by rw [bigSep_TI_pay]; rfl)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd (SBf m) (OUTf m)) κ (kcell (c, i))))
          ∗ (bigSep Finset.univ fun i : CI => iprop(atPos ER (kcell (c, i)) 0 ∅ 0 ∗ reached ER (kcell (c, i)) 0)) ∗ toks c ∗ locals0 c) : sProp 𝕄)
      ⊢ bigSep Finset.univ (G' m) := by
  rw [bigSep_sep', bigSep_sep', bigSep_sep', ← bigSep_univ_prod (fun ci : Dev nD × CI => iprop(∃ κ : ℕ, cellInv ER (Rd (SBf m) (OUTf m)) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok, Hloc⟩
  ihave HK := (BI.bigSep_exists_pi Finset.univ (fun (ci : Dev nD × CI) (κ : ℕ) => (cellInv ER (Rd (SBf m) (OUTf m)) κ (kcell ci) : sProp 𝕄))) $$ HI
  icases HK with ⟨%K', #HI⟩
  ihave Htk := (toks_around (F := F)) $$ Htok
  iapply (bigSep_with_persistent (R := records m (nameOf K')) fun c _ => ghost_intro m (nameOf K') c)
  isplitr
  · unfold records; isplitl
    · iapply (Entails.of_eq (bigSep_congr (s := Finset.univ) fun (ci : Dev nD × CI) _ =>
        show (cellInv ER (Rd (SBf m) (OUTf m)) (K' ci) (kcell ci) : sProp 𝕄) = cellInv ER (Rd (SBf m) (OUTf m)) (nameOf K' (kcell ci)) (kcell ci) from by rw [nameOf_kcell]))
      iexact HI
    · iexact HR
  · unfold linear
    rw [bigSep_sep', bigSep_sep']
    isplitl [Hat]; · iexact Hat
    isplitl [Htk]; · iexact Htk
    iexact Hloc

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.RS.glob' depends on axioms: [propext, Classical.choice, Quot.sound] -/
#guard_msgs in #print axioms glob

end Cert.KernelIdeal.RS

end
-- ==== Proof.Launch.lean ====
import proofs.«900308_g7700000000000309_dist_rs_v7x_xy2x2_y_m4096_n1024_bf16_1_alg».proof.Proof.Ctx
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch: the side conditions of the launch theorem, one by one -/

/-- Every window's array is held at the full share. -/
theorem share_eq (c : Dev nD) (w : Fin cfg0.W) : (dats m 0 c).share w = fullShare := by unfold Dat.share; split <;> rfl

/-- Re-association: a chain's head moves out of the left factor. -/
theorem assoc_step {M : Type} [URA M] {A B C D : sProp M} (h : iprop(B ∗ C) ⊢ D) : iprop((A ∗ B) ∗ C) ⊢ iprop(A ∗ D) :=
  sep_assoc.1.trans (sep_mono_right h)

omit [FloatOps F] in
/-- The kernel's own 36 semaphores at zero, one by one: the 32 transfer cells' and the four of the local copies. -/
theorem ownSems0_eq (c : Dev nD) : (Pipeline.ownSems0 (Ix := Unit) (Name := ℕ) (U := UU) (Lvl := ℕ) (Val := Elt F) (τ := τ) osem c : sProp 𝕄)
    = iprop(semVal (aSCell c 0) 0
      ∗ semVal (aSCell c 1) 0
      ∗ semVal (aSCell c 2) 0
      ∗ semVal (aSCell c 3) 0
      ∗ semVal (aSCell c 4) 0
      ∗ semVal (aSCell c 5) 0
      ∗ semVal (aSCell c 6) 0
      ∗ semVal (aSCell c 7) 0
      ∗ semVal (aRCell c 0) 0
      ∗ semVal (aRCell c 1) 0
      ∗ semVal (aRCell c 2) 0
      ∗ semVal (aRCell c 3) 0
      ∗ semVal (aRCell c 4) 0
      ∗ semVal (aRCell c 5) 0
      ∗ semVal (aRCell c 6) 0
      ∗ semVal (aRCell c 7) 0
      ∗ semVal (bSCell c 0) 0
      ∗ semVal (bSCell c 1) 0
      ∗ semVal (bSCell c 2) 0
      ∗ semVal (bSCell c 3) 0
      ∗ semVal (bSCell c 4) 0
      ∗ semVal (bSCell c 5) 0
      ∗ semVal (bSCell c 6) 0
      ∗ semVal (bSCell c 7) 0
      ∗ semVal (bRCell c 0) 0
      ∗ semVal (bRCell c 1) 0
      ∗ semVal (bRCell c 2) 0
      ∗ semVal (bRCell c 3) 0
      ∗ semVal (bRCell c 4) 0
      ∗ semVal (bRCell c 5) 0
      ∗ semVal (bRCell c 6) 0
      ∗ semVal (bRCell c 7) 0
      ∗ semVal ((c : Thread nD τ), .dma ss0) 0
      ∗ semVal ((c : Thread nD τ), .dma ss1) 0
      ∗ semVal ((c : Thread nD τ), .dma sm0) 0
      ∗ semVal ((c : Thread nD τ), .dma sm1) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35] (by decide) (by decide)]; rfl

omit [FloatOps F] in
/-- The two groups of own semaphores, re-associated into the one chain. -/
theorem sems_reassoc (c : Dev nD) : (iprop(xferSems0 c ∗ locals0 c) : sProp 𝕄) ⊢ Pipeline.ownSems0 osem c := by
  rw [ownSems0_eq]
  unfold xferSems0 locals0
  iterate 31 refine assoc_step ?_
  exact .rfl

/-- The staging semaphore sits at the bottom level, below everything a device owes. -/
theorem waits (c : Dev nD) : (levAts L lv : sProp 𝕄) ⊢ Pipeline.cellsWaits cfgs (dats m) () 0 c :=
  Pipeline.cellsWaits_intro cfgs (dats m) () 0 c fun w s t =>
    mayWait_of_sup c _ 0 (Nat.le_of_eq (lv_other c _ (Or.inl (by fin_cases w; fin_cases s; rfl)))) _ (by
      rcases t with ⟨_ | _, ht⟩
      · exact sup_O₀ c
      · exact Sup.zero _)

/-- What the launch hands a device makes its start, its four local semaphores and its block of the argument. -/
theorem start_intro (hcred : ∀ c : Dev nD, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ locals0 c ∗ xPts m c) ∗ emp) := by
  rw [Pipeline.unscopedRestP_none, unscopedRest0_eq]
  iintro ⟨Hx, Hlev, Hcr, -, HG⟩
  ihave Hc := (hcred c) $$ Hcr
  unfold G'
  icases HG with ⟨Hg, Hl⟩
  imodintro
  unfold start xPts
  isplitl
  · isplitl [Hg Hc Hlev]
    · isplitl [Hg]; · iexact Hg
      isplitl [Hc]; · iexact Hc
      iexact Hlev
    isplitl [Hl]; · iexact Hl
    iexact Hx
  · iempintro

/-- With the scratch buffers it is the body's precondition. -/
theorem phi0_intro (c : Dev nD) :
    iprop((start m c ∗ locals0 c ∗ xPts m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, Hl, Hx⟩, -, Hr⟩
  isplitl [Hs]; · iexact Hs
  isplitl [Hl]; · iexact Hl
  isplitl [Hx]; · iexact Hx
  iexact Hr

/-- The body's postcondition gives back the argument block, the 36 own semaphores at zero and the scratch buffers. -/
theorem phi1_exit (c : Dev nD) :
    (dats m 0 c).Φ (Fin.last cfg0.N) ⊢ iprop(xPts m c ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hx, Hr, Hs⟩
  ihave Hs' := (sems_reassoc (F := F) c) $$ Hs
  isplitl [Hx]; · iexact Hx
  isplitl [Hs']; · iexact Hs'
  iexact Hr

/-! ## The result array after the run -/

/-- The one window is the whole result array, written back once: the array ends at what the body left in its staging buffer. -/
theorem finalA_out (c : Dev nD) : (dats m 0 c).arrAt (0 : Fin 1) cfg0.N = OUTf m c := by
  have h := (dats m 0 c).arrAt_succ (0 : Fin 1) t0_0
  rw [flush0_0 t0_0, if_pos rfl] at h
  refine h.trans ?_
  exact Memref.write_access_unit_zero_univ (Elt F) main_v1 (off := fun a => win0_0.index t0_0 a * win0_0.size a)
    (funext fun a => by fin_cases a <;> rfl) _ _ _

/-! ## The run -/

set_option maxRecDepth 8000 in
/-- At the compiled mesh of four devices, for any float values, from any memory with zero counters: every weakly fair
    execution of @main terminates, and every final state has each device's result array at `OUTf m c` and its block of
    the argument unchanged. -/
theorem run_main (G : Dev nD → sProp 𝕄) (u₀ : UU)
    (hsem : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (G' m))
    (hcred : ∀ c : Dev nD, (Pipeline.launchCred O₀ c : sProp 𝕄) ⊢ creds c)
    (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = OUTf m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ hsem (Pipeline.PreFacts.none _) EP defs₀ 𝒱₀ m ρ main
    (hmain := fun _ => rfl)
    (hbody := fun c => (hbody c).loose) (hne := fun w => by fin_cases w; exact block_pos0 0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G) (G' := G' m) (u₀ := u₀)
    (hu₀ := hu₀)
    (hglob := hglob)
    (hA := fun _ _ => rfl) (hpf := fun _ k => k.elim0)
    (X := fun c => iprop(start m c ∗ locals0 c ∗ xPts m c)) (Y := xPts m) (Z := fun _ => iprop(emp))
    (hX := start_intro m ρ hcred) (hin := phi0_intro m) (hout := phi1_exit m)
    (QY := fun c s => s.mem ((c.tc : Thread nD τ).loc main_arg0) = m ((c.tc : Thread nD τ).loc main_arg0))
    (hY := fun c s' => by
      unfold xPts
      iintro ⟨Hx, -, HSI⟩
      icombine HSI Hx gives %hx
      imodintro
      isplitr; · ipureintro; exact Buf.eq_of_forall_mem_univ hx
      iexact HSI)
    (hQ := fun s h c => ⟨((h c).1 0).trans (finalA_out m c), (h c).2.2⟩)

/-- info: 'Cert.KernelIdeal.RS.run_main' depends on axioms: [propext, Classical.choice, Quot.sound] -/
#guard_msgs in #print axioms run_main

end Cert.KernelIdeal.RS

end
-- ==== Proof.Chunks.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Geo
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! # The buffers in chunks

The 4096 rows of the landing buffer, of the send buffer and of the result staging buffer are cut into eight chunks of 512
rows; the 1024 columns of the result staging buffer into the two halves of 512 columns, one per value of a device's first
mesh coordinate. This file says which indices a chunk holds (`mem_arS`, `mem_sbS`, `mem_oS`), that a buffer held whole is
the separating conjunction of its chunks (`ar_split`, `sb_split`, `out_split`), that the assertion on a chunk depends only
on the contents there (`chunk_congr`), and what a chunk holds after a chunk has been copied onto it (`landA`, `landB`). -/

/-! ## Membership in a chunk -/

/-- Membership in a unit-stride rectangle of a two-axis shape is the pair of bounds on each of the two coordinates. -/
theorem mem_unit_two {dims off size : Fin 2 → ℕ} {inb : ∀ a, off a + size a ≤ (⟨2, dims⟩ : Shape).size a}
    {i : (⟨2, dims⟩ : Shape).Idx} :
    i ∈ (Rect.unit (s := ⟨2, dims⟩) off size inb).set
      ↔ (off 0 ≤ (i 0).val ∧ (i 0).val < off 0 + size 0) ∧ (off 1 ≤ (i 1).val ∧ (i 1).val < off 1 + size 1) :=
  Rect.mem_set_unit.trans Fin.forall_fin_two

/-- Chunk `k` of the landing buffer holds the indices whose row lies in `[512 k, 512 k + 512)`: the column bound
    `0 ≤ column < 512` holds of every index. -/
theorem mem_arS {k : Fin 8} {i : S4096x512.Idx} :
    i ∈ (arS k).view.set ↔ 512 * k.val ≤ (i 0).val ∧ (i 0).val < 512 * k.val + 512 := by
  have hs : (arS k).view.set = (Rect.unit (s := S4096x512) (rowOff k) S512x512.size (rowOff_inb k)).set :=
    View.set_slice_whole cc0_scratch0 _
  have hm : i ∈ (arS k).view.set
      ↔ (rowOff k 0 ≤ (i 0).val ∧ (i 0).val < rowOff k 0 + S512x512.size 0)
        ∧ (rowOff k 1 ≤ (i 1).val ∧ (i 1).val < rowOff k 1 + S512x512.size 1) := by
    rw [hs]; exact mem_unit_two
  have e00 : rowOff k 0 = 512 * k.val := rfl
  have e01 : rowOff k 1 = 0 := rfl
  have s0 : S512x512.size 0 = 512 := rfl
  have s1 : S512x512.size 1 = 512 := rfl
  have h1 : ((i 1 : Fin (S4096x512.size 1)) : ℕ) < 512 := (i 1).isLt
  rw [hm]
  omega

/-- Chunk `k` of the send buffer holds the indices whose row lies in `[512 k, 512 k + 512)`. -/
theorem mem_sbS {k : Fin 8} {i : S4096x512.Idx} :
    i ∈ (sbS k).view.set ↔ 512 * k.val ≤ (i 0).val ∧ (i 0).val < 512 * k.val + 512 := by
  have hs : (sbS k).view.set = (Rect.unit (s := S4096x512) (rowOff k) S512x512.size (rowOff_inb k)).set :=
    View.set_slice_whole cc0_scratch1 _
  have hm : i ∈ (sbS k).view.set
      ↔ (rowOff k 0 ≤ (i 0).val ∧ (i 0).val < rowOff k 0 + S512x512.size 0)
        ∧ (rowOff k 1 ≤ (i 1).val ∧ (i 1).val < rowOff k 1 + S512x512.size 1) := by
    rw [hs]; exact mem_unit_two
  have e00 : rowOff k 0 = 512 * k.val := rfl
  have e01 : rowOff k 1 = 0 := rfl
  have s0 : S512x512.size 0 = 512 := rfl
  have s1 : S512x512.size 1 = 512 := rfl
  have h1 : ((i 1 : Fin (S4096x512.size 1)) : ℕ) < 512 := (i 1).isLt
  rw [hm]
  omega

/-- Chunk `k` of the result staging buffer in device `o`'s columns holds the indices whose row lies in
    `[512 k, 512 k + 512)` and whose column lies in `[512 (o / 2), 512 (o / 2) + 512)`. -/
theorem mem_oS {o : Dev nD} {k : Fin 8} {i : S4096x1024.Idx} :
    i ∈ (oS o k).view.set
      ↔ (512 * k.val ≤ (i 0).val ∧ (i 0).val < 512 * k.val + 512)
        ∧ (512 * (o.val / 2) ≤ (i 1).val ∧ (i 1).val < 512 * (o.val / 2) + 512) := by
  have hs : (oS o k).view.set = (Rect.unit (s := S4096x1024) (outOff o k) S512x512.size (outOff_inb o k)).set :=
    View.set_slice_whole cc0_stg0_0 _
  have hm : i ∈ (oS o k).view.set
      ↔ (outOff o k 0 ≤ (i 0).val ∧ (i 0).val < outOff o k 0 + S512x512.size 0)
        ∧ (outOff o k 1 ≤ (i 1).val ∧ (i 1).val < outOff o k 1 + S512x512.size 1) := by
    rw [hs]; exact mem_unit_two
  have e0 : outOff o k 0 = 512 * k.val := congrFun (outOff_eq o k) 0
  have e1 : outOff o k 1 = 512 * (o.val / 2) := congrFun (outOff_eq o k) 1
  have s0 : S512x512.size 0 = 512 := rfl
  have s1 : S512x512.size 1 = 512 := rfl
  rw [hm]
  omega

/-! ## Eight row chunks are disjoint and cover the rows -/

/-- Eight sets of indices of the 4096-row shape, the `k`-th cut out by `512 k ≤ row < 512 k + 512`, are pairwise disjoint:
    a row lies in one chunk only. -/
theorem rowChunks_disjoint (K : Fin 8 → Finset S4096x512.Idx)
    (hK : ∀ (k : Fin 8) (i : S4096x512.Idx), i ∈ K k ↔ 512 * k.val ≤ (i 0).val ∧ (i 0).val < 512 * k.val + 512) :
    ∀ k ∈ (Finset.univ : Finset (Fin 8)), ∀ k' ∈ (Finset.univ : Finset (Fin 8)), k ≠ k' → Disjoint (K k) (K k') := by
  intro k _ k' _ hne
  rw [Finset.disjoint_left]
  intro i h1 h2
  have a := (hK k i).mp h1
  have b := (hK k' i).mp h2
  exact hne (Fin.ext (by omega))

/-- They cover the shape: the row `r < 4096` lies in chunk `r / 512`. -/
theorem rowChunks_cover (K : Fin 8 → Finset S4096x512.Idx)
    (hK : ∀ (k : Fin 8) (i : S4096x512.Idx), i ∈ K k ↔ 512 * k.val ≤ (i 0).val ∧ (i 0).val < 512 * k.val + 512) :
    (Finset.univ : Finset (Fin 8)).biUnion K = Finset.univ := by
  refine Finset.eq_univ_iff_forall.mpr fun i => ?_
  have hlt : ((i 0 : Fin (S4096x512.size 0)) : ℕ) < 4096 := (i 0).isLt
  have hk : (i 0).val / 512 < 8 := by omega
  refine Finset.mem_biUnion.mpr ⟨⟨(i 0).val / 512, hk⟩, Finset.mem_univ _, (hK _ i).mpr ?_⟩
  show 512 * ((i 0).val / 512) ≤ (i 0).val ∧ (i 0).val < 512 * ((i 0).val / 512) + 512
  omega

/-! ## The two column halves of the result staging buffer, and the eight row chunks of a half -/

/-- The 512 columns of the result staging buffer that device `o` computes, every row: the indices whose column lies in
    `[512 (o / 2), 512 (o / 2) + 512)`. -/
def outCols (o : Dev nD) : Finset S4096x1024.Idx :=
  Finset.univ.filter fun i => 512 * (o.val / 2) ≤ (i 1).val ∧ (i 1).val < 512 * (o.val / 2) + 512

theorem mem_outCols {o : Dev nD} {i : S4096x1024.Idx} :
    i ∈ outCols o ↔ 512 * (o.val / 2) ≤ (i 1).val ∧ (i 1).val < 512 * (o.val / 2) + 512 := by
  unfold outCols
  exact Finset.mem_filter.trans (and_iff_right (Finset.mem_univ i))

/-- A device's columns and its first-axis partner's are the two halves: the partner's first coordinate is the other one, and
    a column `< 1024` lies in `[0, 512)` or in `[512, 1024)`. -/
theorem outCols_cover (d : Dev nD) : outCols d ∪ outCols (pX d) = Finset.univ := by
  refine Finset.eq_univ_iff_forall.mpr fun i => ?_
  have h1 : ((i 1 : Fin (S4096x1024.size 1)) : ℕ) < 1024 := (i 1).isLt
  have hd : d.val < 4 := d.isLt
  have hp : (pX d).val / 2 = 1 - d.val / 2 := pX_half d
  rw [Finset.mem_union, mem_outCols, mem_outCols]
  omega

theorem outCols_disjoint (d : Dev nD) : Disjoint (outCols d) (outCols (pX d)) := by
  rw [Finset.disjoint_left]
  intro i h1 h2
  rw [mem_outCols] at h1 h2
  have hd : d.val < 4 := d.isLt
  have hp : (pX d).val / 2 = 1 - d.val / 2 := pX_half d
  omega

/-- The eight row chunks in device `o`'s columns are pairwise disjoint: their rows are. -/
theorem out_disjoint (o : Dev nD) :
    ∀ k ∈ (Finset.univ : Finset (Fin 8)), ∀ k' ∈ (Finset.univ : Finset (Fin 8)), k ≠ k' →
      Disjoint ((oS o k).view.set : Finset S4096x1024.Idx) ((oS o k').view.set) := by
  intro k _ k' _ hne
  rw [Finset.disjoint_left]
  intro i h1 h2
  have a := (mem_oS.mp h1).1
  have b := (mem_oS.mp h2).1
  exact hne (Fin.ext (by omega))

/-- The eight row chunks in device `o`'s columns make up those columns: the row `r < 4096` lies in chunk `r / 512`. -/
theorem out_cover (o : Dev nD) :
    (Finset.univ : Finset (Fin 8)).biUnion (fun k => ((oS o k).view.set : Finset S4096x1024.Idx)) = outCols o := by
  ext i
  have hlt : ((i 0 : Fin (S4096x1024.size 0)) : ℕ) < 4096 := (i 0).isLt
  rw [Finset.mem_biUnion, mem_outCols]
  constructor
  · rintro ⟨k, -, hk⟩
    exact (mem_oS.mp hk).2
  · intro hc
    have hk : (i 0).val / 512 < 8 := by omega
    refine ⟨⟨(i 0).val / 512, hk⟩, Finset.mem_univ _, mem_oS.mpr ⟨?_, hc⟩⟩
    show 512 * ((i 0).val / 512) ≤ (i 0).val ∧ (i 0).val < 512 * ((i 0).val / 512) + 512
    omega

/-! ## A set of elements held as eight pieces -/

/-- The points-to on a set of a location's elements that is the union of eight pairwise disjoint sets is the separating
    conjunction of the eight points-to's, in order. -/
theorem pts_eight {ℓ : Loc nD τ sig} (K : Fin 8 → Finset (Idx ℓ)) (R : Finset (Idx ℓ)) (q : PosShare TreeShare)
    (f : Buf (Elt F) ℓ) (hcov : (Finset.univ : Finset (Fin 8)).biUnion K = R)
    (hdis : ∀ k ∈ (Finset.univ : Finset (Fin 8)), ∀ k' ∈ (Finset.univ : Finset (Fin 8)), k ≠ k' → Disjoint (K k) (K k')) :
    ((ℓ ↦[R]{q} f) : sProp 𝕄) = iprop(
      (ℓ ↦[K 0]{q} f)
      ∗ (ℓ ↦[K 1]{q} f)
      ∗ (ℓ ↦[K 2]{q} f)
      ∗ (ℓ ↦[K 3]{q} f)
      ∗ (ℓ ↦[K 4]{q} f)
      ∗ (ℓ ↦[K 5]{q} f)
      ∗ (ℓ ↦[K 6]{q} f)
      ∗ (ℓ ↦[K 7]{q} f)) := by
  subst hcov
  have e2 : ((ℓ ↦[(Finset.univ : Finset (Fin 8)).biUnion K]{q} f) : sProp 𝕄)
      = bigSep (Finset.univ : Finset (Fin 8)) (fun k => ((ℓ ↦[K k]{q} f) : sProp 𝕄)) :=
    pointsTo_biUnion (Finset.univ : Finset (Fin 8)) K hdis
  have e3 : bigSep (Finset.univ : Finset (Fin 8)) (fun k => ((ℓ ↦[K k]{q} f) : sProp 𝕄))
      = bigSepL ([0, 1, 2, 3, 4, 5, 6, 7] : List (Fin 8)) (fun k => ((ℓ ↦[K k]{q} f) : sProp 𝕄)) :=
    bigSep_univ_eq_bigSepL ([0, 1, 2, 3, 4, 5, 6, 7] : List (Fin 8)) (by decide) (by decide) _
  exact e2.trans e3

/-! ## The buffers held whole are held chunk by chunk -/

/-- A whole landing buffer is its eight row chunks. -/
theorem ar_split (d : Dev nD) (f : Buf (Elt F) ((d : Thread nD τ).loc cc0_scratch0)) :
    ((((d : Thread nD τ).loc cc0_scratch0) ↦{fullShare} f) : sProp 𝕄) ⊣⊢ iprop(
      ((arS 0).view.loc (d : Thread nD τ) ↦[(arS 0).view.set]{fullShare} f)
      ∗ ((arS 1).view.loc (d : Thread nD τ) ↦[(arS 1).view.set]{fullShare} f)
      ∗ ((arS 2).view.loc (d : Thread nD τ) ↦[(arS 2).view.set]{fullShare} f)
      ∗ ((arS 3).view.loc (d : Thread nD τ) ↦[(arS 3).view.set]{fullShare} f)
      ∗ ((arS 4).view.loc (d : Thread nD τ) ↦[(arS 4).view.set]{fullShare} f)
      ∗ ((arS 5).view.loc (d : Thread nD τ) ↦[(arS 5).view.set]{fullShare} f)
      ∗ ((arS 6).view.loc (d : Thread nD τ) ↦[(arS 6).view.set]{fullShare} f)
      ∗ ((arS 7).view.loc (d : Thread nD τ) ↦[(arS 7).view.set]{fullShare} f)) :=
  BiEntails.of_eq (pts_eight (ℓ := (d : Thread nD τ).loc cc0_scratch0) (fun k => (arS k).view.set) Finset.univ fullShare f
    (rowChunks_cover (fun k => (arS k).view.set) (fun k i => mem_arS))
    (rowChunks_disjoint (fun k => (arS k).view.set) (fun k i => mem_arS)))

/-- A whole send buffer is its eight row chunks. -/
theorem sb_split (d : Dev nD) (f : Buf (Elt F) ((d : Thread nD τ).loc cc0_scratch1)) :
    ((((d : Thread nD τ).loc cc0_scratch1) ↦{fullShare} f) : sProp 𝕄) ⊣⊢ iprop(
      ((sbS 0).view.loc (d : Thread nD τ) ↦[(sbS 0).view.set]{fullShare} f)
      ∗ ((sbS 1).view.loc (d : Thread nD τ) ↦[(sbS 1).view.set]{fullShare} f)
      ∗ ((sbS 2).view.loc (d : Thread nD τ) ↦[(sbS 2).view.set]{fullShare} f)
      ∗ ((sbS 3).view.loc (d : Thread nD τ) ↦[(sbS 3).view.set]{fullShare} f)
      ∗ ((sbS 4).view.loc (d : Thread nD τ) ↦[(sbS 4).view.set]{fullShare} f)
      ∗ ((sbS 5).view.loc (d : Thread nD τ) ↦[(sbS 5).view.set]{fullShare} f)
      ∗ ((sbS 6).view.loc (d : Thread nD τ) ↦[(sbS 6).view.set]{fullShare} f)
      ∗ ((sbS 7).view.loc (d : Thread nD τ) ↦[(sbS 7).view.set]{fullShare} f)) :=
  BiEntails.of_eq (pts_eight (ℓ := (d : Thread nD τ).loc cc0_scratch1) (fun k => (sbS k).view.set) Finset.univ fullShare f
    (rowChunks_cover (fun k => (sbS k).view.set) (fun k i => mem_sbS))
    (rowChunks_disjoint (fun k => (sbS k).view.set) (fun k i => mem_sbS)))

/-- A whole result staging buffer is the eight chunks in device `d`'s own columns and the eight in its first-axis partner's. -/
theorem out_split (d : Dev nD) (f : Buf (Elt F) ((d : Thread nD τ).loc cc0_stg0_0)) :
    ((((d : Thread nD τ).loc cc0_stg0_0) ↦{fullShare} f) : sProp 𝕄) ⊣⊢ iprop(
      (((oS d 0).view.loc (d : Thread nD τ) ↦[(oS d 0).view.set]{fullShare} f) ∗ ((oS d 1).view.loc (d : Thread nD τ) ↦[(oS d 1).view.set]{fullShare} f) ∗ ((oS d 2).view.loc (d : Thread nD τ) ↦[(oS d 2).view.set]{fullShare} f) ∗ ((oS d 3).view.loc (d : Thread nD τ) ↦[(oS d 3).view.set]{fullShare} f) ∗ ((oS d 4).view.loc (d : Thread nD τ) ↦[(oS d 4).view.set]{fullShare} f) ∗ ((oS d 5).view.loc (d : Thread nD τ) ↦[(oS d 5).view.set]{fullShare} f) ∗ ((oS d 6).view.loc (d : Thread nD τ) ↦[(oS d 6).view.set]{fullShare} f) ∗ ((oS d 7).view.loc (d : Thread nD τ) ↦[(oS d 7).view.set]{fullShare} f))
      ∗ (((oS (pX d) 0).view.loc (d : Thread nD τ) ↦[(oS (pX d) 0).view.set]{fullShare} f) ∗ ((oS (pX d) 1).view.loc (d : Thread nD τ) ↦[(oS (pX d) 1).view.set]{fullShare} f) ∗ ((oS (pX d) 2).view.loc (d : Thread nD τ) ↦[(oS (pX d) 2).view.set]{fullShare} f) ∗ ((oS (pX d) 3).view.loc (d : Thread nD τ) ↦[(oS (pX d) 3).view.set]{fullShare} f) ∗ ((oS (pX d) 4).view.loc (d : Thread nD τ) ↦[(oS (pX d) 4).view.set]{fullShare} f) ∗ ((oS (pX d) 5).view.loc (d : Thread nD τ) ↦[(oS (pX d) 5).view.set]{fullShare} f) ∗ ((oS (pX d) 6).view.loc (d : Thread nD τ) ↦[(oS (pX d) 6).view.set]{fullShare} f) ∗ ((oS (pX d) 7).view.loc (d : Thread nD τ) ↦[(oS (pX d) 7).view.set]{fullShare} f))) := by
  -- the two column halves
  have hu : ((((d : Thread nD τ).loc cc0_stg0_0) ↦[outCols d ∪ outCols (pX d)]{fullShare} f) : sProp 𝕄)
      ⊣⊢ iprop((((d : Thread nD τ).loc cc0_stg0_0) ↦[outCols d]{fullShare} f)
        ∗ (((d : Thread nD τ).loc cc0_stg0_0) ↦[outCols (pX d)]{fullShare} f)) :=
    pointsTo_union (outCols_disjoint d)
  have eU := BI.equiv_iff.mp ⟨hu.1, hu.2⟩
  have e0 : ((((d : Thread nD τ).loc cc0_stg0_0) ↦{fullShare} f) : sProp 𝕄)
      = (((d : Thread nD τ).loc cc0_stg0_0) ↦[outCols d ∪ outCols (pX d)]{fullShare} f) :=
    congrArg (fun I : Finset (Idx ((d : Thread nD τ).loc cc0_stg0_0)) =>
      ((((d : Thread nD τ).loc cc0_stg0_0) ↦[I]{fullShare} f) : sProp 𝕄)) (outCols_cover d).symm
  -- each half in its eight row chunks
  have eA := pts_eight (ℓ := (d : Thread nD τ).loc cc0_stg0_0) (fun k => (oS d k).view.set) (outCols d) fullShare f
    (out_cover d) (out_disjoint d)
  have eB := pts_eight (ℓ := (d : Thread nD τ).loc cc0_stg0_0) (fun k => (oS (pX d) k).view.set) (outCols (pX d)) fullShare f
    (out_cover (pX d)) (out_disjoint (pX d))
  exact BiEntails.of_eq (e0.trans (eU.trans (congrArg₂ (fun P Q : sProp 𝕄 => iprop(P ∗ Q)) eA eB)))

/-- Contents only matter on the chunk. -/
theorem chunk_congr {sp : Space} {e : EltTy} {s : Shape} (M : Memref sig .tc sp s e) (d : Dev nD) (q : PosShare TreeShare)
    (f g : Buf (Elt F) (M.view.loc (d : Thread nD τ))) (h : ∀ i ∈ M.view.set, f i = g i) :
    ((M.view.loc (d : Thread nD τ) ↦[M.view.set]{q} f) : sProp 𝕄) = (M.view.loc (d : Thread nD τ) ↦[M.view.set]{q} g) :=
  pointsTo_congr h

/-! ## What a chunk holds after a chunk is copied onto it -/

/-- Carrying a value to an equal type and back gives the value. -/
theorem cast_cast_self {α β : Type} (h1 : α = β) (h2 : β = α) (x : α) : cast h2 (cast h1 x) = x := by
  subst h1
  exact cast_eq h2 x

/-- Written through a view, what the same view reads off contents `fs` leaves `fs` under every element of the view. -/
theorem write_read_self {Val : EltTy → Type} {κ : Kind} {sp : Space} {s : Shape} {e : EltTy} (v : View sig κ sp s e)
    (fs fd : v.ty.Contents Val) {i : v.ty.Idx} (hi : i ∈ v.set) :
    v.write Val fd (v.read Val fs) Finset.univ i = fs i := by
  have hi' : i ∈ Finset.univ.map v.emb := hi
  obtain ⟨y, -, rfl⟩ := Finset.mem_map.mp hi'
  refine (View.write_emb_of_mem fd (v.read Val fs) (Finset.mem_univ y)).trans ?_
  rw [View.read_apply]
  exact cast_cast_self _ _ _

/-- What lands: after chunk `k` of a send buffer with contents `fs` is copied onto chunk `k` of a landing buffer with
    contents `fd`, the landing buffer agrees on that chunk with any `G` that `fs` agrees with there. The two chunks are the
    same rectangle of two whole buffers of one shape, so the element written under the place of a chunk index `y` in the
    landing buffer is the element read under the place of `y` in the send buffer, and the two places are the same index. -/
theorem landA (k : Fin 8) (fs fd G : (cc0_scratch0 : Ref sig .tc).ty.Contents (Elt F))
    (h : ∀ i ∈ (sbS k).view.set, fs i = G i) :
    ∀ i ∈ (arS k).view.set, ((arS k).view.write (Elt F) fd ((sbS k).view.read (Elt F) fs) Finset.univ) i = G i := by
  intro i hi
  have hi' : i ∈ Finset.univ.map (arS k).view.emb := hi
  obtain ⟨y, -, rfl⟩ := Finset.mem_map.mp hi'
  refine (View.write_emb_of_mem (v := (arS k).view) (Val := Elt F) fd ((sbS k).view.read (Elt F) fs)
    (Finset.mem_univ y)).trans ?_
  rw [View.read_apply]
  refine (cast_cast_self _ _ _).trans ?_
  exact h _ ((sbS k).view.emb_mem_set y)

/-- The same for the result staging buffer: chunk `k` in device `o`'s columns copied onto the same chunk of another device's
    buffer. Source and destination are one view of two buffers' contents. -/
theorem landB (o : Dev nD) (k : Fin 8) (fs fd G : (cc0_stg0_0 : Ref sig .tc).ty.Contents (Elt F))
    (h : ∀ i ∈ (oS o k).view.set, fs i = G i) :
    ∀ i ∈ (oS o k).view.set, ((oS o k).view.write (Elt F) fd ((oS o k).view.read (Elt F) fs) Finset.univ) i = G i :=
  fun i hi => (write_read_self (Val := Elt F) (oS o k).view fs fd hi).trans (h i hi)

end Cert.KernelIdeal.RS

end
-- ==== Proof.Spec.lean ====
import proofs.«900308_g7700000000000309_dist_rs_v7x_xy2x2_y_m4096_n1024_bf16_1_alg».proof.Proof.Ctx
import Idealize.ShloMosaic.Lib.ValueIdx
import Idealize.ShloMosaic.Lib.ValueLayout
import Idealize.ShloMosaic.Lib.Pipeline.Value
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open ValueIdx

variable {F : FTy → Type} [FloatOps F]

local notation "𝕄" => MT nD τ sig Unit (Elt F) ℕ UU ℕ

variable (m : (ℓ : Loc nD τ sig) → Buf (Elt F) ℓ)

/-! ## Contents that agree under a view's indices agree on the view's element set -/

theorem agree_of_emb {Val : EltTy → Type} {κ : Kind} {sp : Space} {s : Shape} {e : EltTy} (v : View sig κ sp s e)
    (f g : v.ty.Contents Val) (h : ∀ y : s.Idx, f (v.emb y) = g (v.emb y)) : ∀ i ∈ v.set, f i = g i := by
  intro i hi
  have hi' : i ∈ Finset.univ.map v.emb := hi
  obtain ⟨y, -, rfl⟩ := Finset.mem_map.mp hi'
  exact h y

/-! ## The stored values at an index

Every conversion payload is the one function: the block `[1, 512, 512]` read at `(0, p, q)` and converted; every sum
payload is the elementwise sum. -/

theorem conv_apply (v : Vec F S1x512x512 .f32) (p q : Fin 512) :
    k0_pay1 v (ix2 p q) = FloatOps.truncf .bf16 bitsLt_bf16_f32 (v (ix3 (0 : Fin 1) p q)) := by
  have h1 : k0_pay1 v = truncf .bf16 (shapeCast S512x512 v shapeCasts_S1x512x512_S512x512) bitsLt_bf16_f32 := by
    unfold k0_pay1; exact shapeCast_self _ _
  rw [h1]
  show FloatOps.truncf .bf16 bitsLt_bf16_f32 (shapeCast S512x512 v shapeCasts_S1x512x512_S512x512 (ix2 p q)) = _
  rw [shapeCast_1ab_ab_apply]

theorem pay2_eq : (k0_pay2 (F := F)) = k0_pay1 := rfl
theorem pay3_eq : (k0_pay3 (F := F)) = k0_pay1 := rfl
theorem pay4_eq : (k0_pay4 (F := F)) = k0_pay1 := rfl
theorem pay5_eq : (k0_pay5 (F := F)) = k0_pay1 := rfl
theorem pay8_eq : (k0_pay8 (F := F)) = k0_pay1 := rfl
theorem pay9_eq : (k0_pay9 (F := F)) = k0_pay1 := rfl
theorem pay10_eq : (k0_pay10 (F := F)) = k0_pay1 := rfl
theorem pay11_eq : (k0_pay11 (F := F)) = k0_pay1 := rfl
theorem pay12_eq : (k0_pay12 (F := F)) = k0_pay1 := rfl
theorem pay13_eq : (k0_pay13 (F := F)) = k0_pay1 := rfl
theorem pay14_eq : (k0_pay14 (F := F)) = k0_pay1 := rfl
theorem pay15_eq : (k0_pay15 (F := F)) = k0_pay1 := rfl
theorem pay16_eq : (k0_pay16 (F := F)) = k0_pay1 := rfl
theorem pay17_eq : (k0_pay17 (F := F)) = k0_pay1 := rfl
theorem pay7_6_eq (v : Vec F S1x512x512 .f32) : k0_pay7 (k0_pay6 v) = k0_pay1 v := rfl
theorem pay19_eq : (k0_pay19 (F := F)) = k0_pay18 := rfl
theorem pay20_eq : (k0_pay20 (F := F)) = k0_pay18 := rfl
theorem pay21_eq : (k0_pay21 (F := F)) = k0_pay18 := rfl
theorem pay22_eq : (k0_pay22 (F := F)) = k0_pay18 := rfl
theorem pay23_eq : (k0_pay23 (F := F)) = k0_pay18 := rfl
theorem pay24_eq : (k0_pay24 (F := F)) = k0_pay18 := rfl
theorem pay25_eq : (k0_pay25 (F := F)) = k0_pay18 := rfl
theorem sum_apply (a b : Vec F S512x512 .bf16) (y : S512x512.Idx) : k0_pay18 a b y = FloatOps.addf (a y) (b y) := rfl

/-! ## Chunk `k` of a `[4096, 512]` buffer: element `(p, q)` of the chunk is element `(512 k + p, q)` of the buffer -/

theorem rowEmb_ar (k : Fin 8) (p q : Fin 512) :
    ((arM.access (Rect.unit (s := S4096x512) (rowOff k) S512x512.size (rowOff_inb k))).emb (ix2 p q) : S4096x512.Idx) = (ix2 (⟨512 * k.val + p.val, by have := k.isLt; have := p.isLt; omega⟩ : Fin 4096) q) := by
  funext a
  match a with
  | ⟨0, _⟩ => exact Fin.ext (by show 512 * k.val + 1 * p.val = 512 * k.val + p.val; omega)
  | ⟨1, _⟩ => exact Fin.ext (by show 0 + 1 * q.val = q.val; omega)

/-- A store of `w` through chunk `k` puts `w (p, q)` at `(512 k + p, q)`. -/
theorem store_chunk_ar (k : Fin 8) (f : (cc0_scratch0 : Ref sig .tc).ty.Contents (Elt F)) (w : S512x512.Idx → Elt F .bf16) (p q : Fin 512) :
    (arM.access (Rect.unit (s := S4096x512) (rowOff k) S512x512.size (rowOff_inb k))).write (Elt F) f w Finset.univ (ix2 (⟨512 * k.val + p.val, by have := k.isLt; have := p.isLt; omega⟩ : Fin 4096) q) = w (ix2 p q) := by
  have h := View.write_emb_of_mem (v := arM.access (Rect.unit (s := S4096x512) (rowOff k) S512x512.size (rowOff_inb k))) (Val := Elt F) f w (M := Finset.univ) (x := ix2 p q) (Finset.mem_univ _)
  have he : (arM.access (Rect.unit (s := S4096x512) (rowOff k) S512x512.size (rowOff_inb k))).emb (ix2 p q) = (ix2 (⟨512 * k.val + p.val, by have := k.isLt; have := p.isLt; omega⟩ : Fin 4096) q) := rowEmb_ar k p q
  rw [he] at h
  exact h

/-- A load of chunk `k` reads, at `(p, q)`, the buffer at `(512 k + p, q)`. -/
theorem load_chunk_ar (G : (cc0_scratch0 : Ref sig .tc).ty.Contents (Elt F)) (k : Fin 8) (p q : Fin 512) :
    arM.view.readAt (Elt F) (Rect.unit (s := S4096x512) (rowOff k) S512x512.size (rowOff_inb k)).toLoadRect G (ix2 p q) = G (ix2 (⟨512 * k.val + p.val, by have := k.isLt; have := p.isLt; omega⟩ : Fin 4096) q) := by
  have h : (arM.access (Rect.unit (s := S4096x512) (rowOff k) S512x512.size (rowOff_inb k))).read (Elt F) G (ix2 p q) = G ((arM.access (Rect.unit (s := S4096x512) (rowOff k) S512x512.size (rowOff_inb k))).emb (ix2 p q)) := rfl
  exact h.trans (congrArg G (rowEmb_ar k p q))

theorem rowEmb_sb (k : Fin 8) (p q : Fin 512) :
    ((sbM.access (Rect.unit (s := S4096x512) (rowOff k) S512x512.size (rowOff_inb k))).emb (ix2 p q) : S4096x512.Idx) = (ix2 (⟨512 * k.val + p.val, by have := k.isLt; have := p.isLt; omega⟩ : Fin 4096) q) := by
  funext a
  match a with
  | ⟨0, _⟩ => exact Fin.ext (by show 512 * k.val + 1 * p.val = 512 * k.val + p.val; omega)
  | ⟨1, _⟩ => exact Fin.ext (by show 0 + 1 * q.val = q.val; omega)

/-- A store of `w` through chunk `k` puts `w (p, q)` at `(512 k + p, q)`. -/
theorem store_chunk_sb (k : Fin 8) (f : (cc0_scratch1 : Ref sig .tc).ty.Contents (Elt F)) (w : S512x512.Idx → Elt F .bf16) (p q : Fin 512) :
    (sbM.access (Rect.unit (s := S4096x512) (rowOff k) S512x512.size (rowOff_inb k))).write (Elt F) f w Finset.univ (ix2 (⟨512 * k.val + p.val, by have := k.isLt; have := p.isLt; omega⟩ : Fin 4096) q) = w (ix2 p q) := by
  have h := View.write_emb_of_mem (v := sbM.access (Rect.unit (s := S4096x512) (rowOff k) S512x512.size (rowOff_inb k))) (Val := Elt F) f w (M := Finset.univ) (x := ix2 p q) (Finset.mem_univ _)
  have he : (sbM.access (Rect.unit (s := S4096x512) (rowOff k) S512x512.size (rowOff_inb k))).emb (ix2 p q) = (ix2 (⟨512 * k.val + p.val, by have := k.isLt; have := p.isLt; omega⟩ : Fin 4096) q) := rowEmb_sb k p q
  rw [he] at h
  exact h

/-- A load of chunk `k` reads, at `(p, q)`, the buffer at `(512 k + p, q)`. -/
theorem load_chunk_sb (G : (cc0_scratch1 : Ref sig .tc).ty.Contents (Elt F)) (k : Fin 8) (p q : Fin 512) :
    sbM.view.readAt (Elt F) (Rect.unit (s := S4096x512) (rowOff k) S512x512.size (rowOff_inb k)).toLoadRect G (ix2 p q) = G (ix2 (⟨512 * k.val + p.val, by have := k.isLt; have := p.isLt; omega⟩ : Fin 4096) q) := by
  have h : (sbM.access (Rect.unit (s := S4096x512) (rowOff k) S512x512.size (rowOff_inb k))).read (Elt F) G (ix2 p q) = G ((sbM.access (Rect.unit (s := S4096x512) (rowOff k) S512x512.size (rowOff_inb k))).emb (ix2 p q)) := rfl
  exact h.trans (congrArg G (rowEmb_sb k p q))

theorem rowEmb_mb (k : Fin 8) (p q : Fin 512) :
    ((mbM.access (Rect.unit (s := S4096x512) (rowOff k) S512x512.size (rowOff_inb k))).emb (ix2 p q) : S4096x512.Idx) = (ix2 (⟨512 * k.val + p.val, by have := k.isLt; have := p.isLt; omega⟩ : Fin 4096) q) := by
  funext a
  match a with
  | ⟨0, _⟩ => exact Fin.ext (by show 512 * k.val + 1 * p.val = 512 * k.val + p.val; omega)
  | ⟨1, _⟩ => exact Fin.ext (by show 0 + 1 * q.val = q.val; omega)

/-- A store of `w` through chunk `k` puts `w (p, q)` at `(512 k + p, q)`. -/
theorem store_chunk_mb (k : Fin 8) (f : (cc0_scratch2 : Ref sig .tc).ty.Contents (Elt F)) (w : S512x512.Idx → Elt F .bf16) (p q : Fin 512) :
    (mbM.access (Rect.unit (s := S4096x512) (rowOff k) S512x512.size (rowOff_inb k))).write (Elt F) f w Finset.univ (ix2 (⟨512 * k.val + p.val, by have := k.isLt; have := p.isLt; omega⟩ : Fin 4096) q) = w (ix2 p q) := by
  have h := View.write_emb_of_mem (v := mbM.access (Rect.unit (s := S4096x512) (rowOff k) S512x512.size (rowOff_inb k))) (Val := Elt F) f w (M := Finset.univ) (x := ix2 p q) (Finset.mem_univ _)
  have he : (mbM.access (Rect.unit (s := S4096x512) (rowOff k) S512x512.size (rowOff_inb k))).emb (ix2 p q) = (ix2 (⟨512 * k.val + p.val, by have := k.isLt; have := p.isLt; omega⟩ : Fin 4096) q) := rowEmb_mb k p q
  rw [he] at h
  exact h

/-- A load of chunk `k` reads, at `(p, q)`, the buffer at `(512 k + p, q)`. -/
theorem load_chunk_mb (G : (cc0_scratch2 : Ref sig .tc).ty.Contents (Elt F)) (k : Fin 8) (p q : Fin 512) :
    mbM.view.readAt (Elt F) (Rect.unit (s := S4096x512) (rowOff k) S512x512.size (rowOff_inb k)).toLoadRect G (ix2 p q) = G (ix2 (⟨512 * k.val + p.val, by have := k.isLt; have := p.isLt; omega⟩ : Fin 4096) q) := by
  have h : (mbM.access (Rect.unit (s := S4096x512) (rowOff k) S512x512.size (rowOff_inb k))).read (Elt F) G (ix2 p q) = G ((mbM.access (Rect.unit (s := S4096x512) (rowOff k) S512x512.size (rowOff_inb k))).emb (ix2 p q)) := rfl
  exact h.trans (congrArg G (rowEmb_mb k p q))

/-- The transfers' names for the chunks are those rectangles. -/
theorem chunk_emb (k : Fin 8) (p q : Fin 512) : ((sbS k).view.emb (ix2 p q) : S4096x512.Idx) = (ix2 (⟨512 * k.val + p.val, by have := k.isLt; have := p.isLt; omega⟩ : Fin 4096) q) := rowEmb_sb k p q
theorem chunk_emb_ar (k : Fin 8) (p q : Fin 512) : ((arS k).view.emb (ix2 p q) : S4096x512.Idx) = (ix2 (⟨512 * k.val + p.val, by have := k.isLt; have := p.isLt; omega⟩ : Fin 4096) q) := rowEmb_ar k p q

/-! ## The rectangle of the result's staging buffer device `d` computes in chunk `k` -/

theorem out_emb (d : Dev nD) (k : Fin 8) (p q : Fin 512) :
    ((oS d k).view.emb (ix2 p q) : S4096x1024.Idx)
      = ix2 (⟨512 * k.val + p.val, by have := k.isLt; have := p.isLt; omega⟩ : Fin 4096)
          (⟨512 * (d.val / 2) + q.val, by have hd4 : d.val < 4 := d.isLt; have := q.isLt; omega⟩ : Fin 1024) := by
  funext a
  match a with
  | ⟨0, _⟩ => exact Fin.ext (by show outOff d k 0 + 1 * p.val = 512 * k.val + p.val; rw [outOff_eq]; show 512 * k.val + 1 * p.val = _; omega)
  | ⟨1, _⟩ => exact Fin.ext (by show outOff d k 1 + 1 * q.val = 512 * (d.val / 2) + q.val; rw [outOff_eq]; show 512 * (d.val / 2) + 1 * q.val = _; omega)

/-- A store of `w` through that rectangle puts `w (p, q)` at `(512 k + p, 512 (d / 2) + q)`. -/
theorem store_out (d : Dev nD) (k : Fin 8) (f : (cc0_stg0_0 : Ref sig .tc).ty.Contents (Elt F)) (w : S512x512.Idx → Elt F .bf16) (p q : Fin 512) :
    (oM.access (Rect.unit (s := S4096x1024) (outOff d k) S512x512.size (outOff_inb d k))).write (Elt F) f w Finset.univ
      (ix2 (⟨512 * k.val + p.val, by have := k.isLt; have := p.isLt; omega⟩ : Fin 4096)
          (⟨512 * (d.val / 2) + q.val, by have hd4 : d.val < 4 := d.isLt; have := q.isLt; omega⟩ : Fin 1024)) = w (ix2 p q) := by
  have h := View.write_emb_of_mem (v := oM.access (Rect.unit (s := S4096x1024) (outOff d k) S512x512.size (outOff_inb d k))) (Val := Elt F) f w (M := Finset.univ) (x := ix2 p q) (Finset.mem_univ _)
  have he : (oM.access (Rect.unit (s := S4096x1024) (outOff d k) S512x512.size (outOff_inb d k))).emb (ix2 p q)
      = ix2 (⟨512 * k.val + p.val, by have := k.isLt; have := p.isLt; omega⟩ : Fin 4096)
          (⟨512 * (d.val / 2) + q.val, by have hd4 : d.val < 4 := d.isLt; have := q.isLt; omega⟩ : Fin 1024) := out_emb d k p q
  rw [he] at h
  exact h

/-! ## The staging buffers `[2, 512, 512]`: slot `s` seen as a `[512, 512]` window -/

/-- Dropping the unit axis matches `(p, q)` with `(0, p, q)`. -/
theorem sq_idx (h : S512x512.numel = S1x512x512.numel) (p q : Fin 512) :
    Shape.reshapeEquiv h (ix2 p q) = ix3 (0 : Fin 1) p q :=
  Shape.reshapeEquiv_eq_of_rowMajor h (by
    rw [Shape.rowMajor_val_three, Shape.rowMajor_val_two]
    show (0 * 512 + p.val) * 512 + q.val = p.val * 512 + q.val
    omega)

/-- Element `(0, p, q)` of slot 0's block is element `(0, p, q)` of the buffer, -/
theorem slotEmb_ss0 (p q : Fin 512) :
    ((ssM.access (Rect.unit (s := S2x512x512) ![0, 0, 0] S1x512x512.size inb_S2x512x512_S1x512x512_0_0_0)).emb (ix3 (0 : Fin 1) p q) : S2x512x512.Idx) = ix3 (0 : Fin 2) p q := by
  funext a
  match a with
  | ⟨0, _⟩ => exact Fin.ext (by show 0 + 1 * 0 = 0; rfl)
  | ⟨1, _⟩ => exact Fin.ext (by show 0 + 1 * p.val = p.val; omega)
  | ⟨2, _⟩ => exact Fin.ext (by show 0 + 1 * q.val = q.val; omega)
/-- so a load of slot 0's block reads the buffer there, -/
theorem slotRead_ss0 (g : (cc0_scratch3 : Ref sig .tc).ty.Contents (Elt F)) (p q : Fin 512) :
    ssM.view.readAt (Elt F) (Rect.unit (s := S2x512x512) ![0, 0, 0] S1x512x512.size inb_S2x512x512_S1x512x512_0_0_0).toLoadRect g (ix3 (0 : Fin 1) p q) = g (ix3 (0 : Fin 2) p q) := by
  have hr : ssM.view.readAt (Elt F) (Rect.unit (s := S2x512x512) ![0, 0, 0] S1x512x512.size inb_S2x512x512_S1x512x512_0_0_0).toLoadRect g (ix3 (0 : Fin 1) p q)
      = g ((ssM.access (Rect.unit (s := S2x512x512) ![0, 0, 0] S1x512x512.size inb_S2x512x512_S1x512x512_0_0_0)).emb (ix3 (0 : Fin 1) p q)) := rfl
  rw [hr, slotEmb_ss0]
/-- and element `(p, q)` of slot 0's window is that element too. -/
theorem stageEmb_ss0 (p q : Fin 512) :
    (((ssM.slice (Rect.unit (s := S2x512x512) ![0, 0, 0] S1x512x512.size inb_S2x512x512_S1x512x512_0_0_0) (fun _ => rfl)).squeeze S512x512 squeezes_S1x512x512_S512x512).view.emb (ix2 p q) : S2x512x512.Idx) = ix3 (0 : Fin 2) p q := by
  have h1 : (((ssM.slice (Rect.unit (s := S2x512x512) ![0, 0, 0] S1x512x512.size inb_S2x512x512_S1x512x512_0_0_0) (fun _ => rfl)).squeeze S512x512 squeezes_S1x512x512_S512x512).view.emb (ix2 p q) : S2x512x512.Idx)
      = (ssM.access (Rect.unit (s := S2x512x512) ![0, 0, 0] S1x512x512.size inb_S2x512x512_S1x512x512_0_0_0)).emb (Shape.reshapeEquiv squeezes_S1x512x512_S512x512.numel_eq (ix2 p q)) := rfl
  rw [h1, sq_idx]
  exact slotEmb_ss0 p q

/-- Element `(0, p, q)` of slot 1's block is element `(1, p, q)` of the buffer, -/
theorem slotEmb_ss1 (p q : Fin 512) :
    ((ssM.access (Rect.unit (s := S2x512x512) ![1, 0, 0] S1x512x512.size inb_S2x512x512_S1x512x512_1_0_0)).emb (ix3 (0 : Fin 1) p q) : S2x512x512.Idx) = ix3 (1 : Fin 2) p q := by
  funext a
  match a with
  | ⟨0, _⟩ => exact Fin.ext (by show 1 + 1 * 0 = 1; rfl)
  | ⟨1, _⟩ => exact Fin.ext (by show 0 + 1 * p.val = p.val; omega)
  | ⟨2, _⟩ => exact Fin.ext (by show 0 + 1 * q.val = q.val; omega)
/-- so a load of slot 1's block reads the buffer there, -/
theorem slotRead_ss1 (g : (cc0_scratch3 : Ref sig .tc).ty.Contents (Elt F)) (p q : Fin 512) :
    ssM.view.readAt (Elt F) (Rect.unit (s := S2x512x512) ![1, 0, 0] S1x512x512.size inb_S2x512x512_S1x512x512_1_0_0).toLoadRect g (ix3 (0 : Fin 1) p q) = g (ix3 (1 : Fin 2) p q) := by
  have hr : ssM.view.readAt (Elt F) (Rect.unit (s := S2x512x512) ![1, 0, 0] S1x512x512.size inb_S2x512x512_S1x512x512_1_0_0).toLoadRect g (ix3 (0 : Fin 1) p q)
      = g ((ssM.access (Rect.unit (s := S2x512x512) ![1, 0, 0] S1x512x512.size inb_S2x512x512_S1x512x512_1_0_0)).emb (ix3 (0 : Fin 1) p q)) := rfl
  rw [hr, slotEmb_ss1]
/-- and element `(p, q)` of slot 1's window is that element too. -/
theorem stageEmb_ss1 (p q : Fin 512) :
    (((ssM.slice (Rect.unit (s := S2x512x512) ![1, 0, 0] S1x512x512.size inb_S2x512x512_S1x512x512_1_0_0) (fun _ => rfl)).squeeze S512x512 squeezes_S1x512x512_S512x512).view.emb (ix2 p q) : S2x512x512.Idx) = ix3 (1 : Fin 2) p q := by
  have h1 : (((ssM.slice (Rect.unit (s := S2x512x512) ![1, 0, 0] S1x512x512.size inb_S2x512x512_S1x512x512_1_0_0) (fun _ => rfl)).squeeze S512x512 squeezes_S1x512x512_S512x512).view.emb (ix2 p q) : S2x512x512.Idx)
      = (ssM.access (Rect.unit (s := S2x512x512) ![1, 0, 0] S1x512x512.size inb_S2x512x512_S1x512x512_1_0_0)).emb (Shape.reshapeEquiv squeezes_S1x512x512_S512x512.numel_eq (ix2 p q)) := rfl
  rw [h1, sq_idx]
  exact slotEmb_ss1 p q

/-- Slot 0's elements lie outside slot 1's window. -/
theorem miss_ss0 (p q : Fin 512) : (ix3 (0 : Fin 2) p q : S2x512x512.Idx) ∉ ((ssM.slice (Rect.unit (s := S2x512x512) ![1, 0, 0] S1x512x512.size inb_S2x512x512_S1x512x512_1_0_0) (fun _ => rfl)).squeeze S512x512 squeezes_S1x512x512_S512x512).view.setOn Finset.univ := by
  intro hmem
  have hmem' : (ix3 (0 : Fin 2) p q : S2x512x512.Idx) ∈ Finset.univ.map ((ssM.slice (Rect.unit (s := S2x512x512) ![1, 0, 0] S1x512x512.size inb_S2x512x512_S1x512x512_1_0_0) (fun _ => rfl)).squeeze S512x512 squeezes_S1x512x512_S512x512).view.emb := hmem
  obtain ⟨y, -, hy⟩ := Finset.mem_map.mp hmem'
  obtain ⟨p', q', rfl⟩ : ∃ (p' q' : Fin 512), y = ix2 p' q' := ⟨y 0, y 1, eq_ix2 y⟩
  have he : ((ssM.slice (Rect.unit (s := S2x512x512) ![1, 0, 0] S1x512x512.size inb_S2x512x512_S1x512x512_1_0_0) (fun _ => rfl)).squeeze S512x512 squeezes_S1x512x512_S512x512).view.emb (ix2 p' q') = ix3 (1 : Fin 2) p' q' := stageEmb_ss1 p' q'
  rw [he] at hy
  have h0 : ((ix3 (1 : Fin 2) p' q' : S2x512x512.Idx) 0).val = ((ix3 (0 : Fin 2) p q : S2x512x512.Idx) 0).val := by rw [hy]
  exact Nat.one_ne_zero h0

/-- What was written through slot 0's window is read back through slot 0's block. -/
theorem stage_hit_ss0 (f : (cc0_scratch3 : Ref sig .tc).ty.Contents (Elt F)) (w : S512x512.Idx → Elt F .f32) (p q : Fin 512) :
    ssM.view.readAt (Elt F) (Rect.unit (s := S2x512x512) ![0, 0, 0] S1x512x512.size inb_S2x512x512_S1x512x512_0_0_0).toLoadRect (((ssM.slice (Rect.unit (s := S2x512x512) ![0, 0, 0] S1x512x512.size inb_S2x512x512_S1x512x512_0_0_0) (fun _ => rfl)).squeeze S512x512 squeezes_S1x512x512_S512x512).view.write (Elt F) f w Finset.univ) (ix3 (0 : Fin 1) p q) = w (ix2 p q) := by
  have h := View.write_emb_of_mem (v := ((ssM.slice (Rect.unit (s := S2x512x512) ![0, 0, 0] S1x512x512.size inb_S2x512x512_S1x512x512_0_0_0) (fun _ => rfl)).squeeze S512x512 squeezes_S1x512x512_S512x512).view) (Val := Elt F) f w (M := Finset.univ) (x := ix2 p q) (Finset.mem_univ _)
  have he : ((ssM.slice (Rect.unit (s := S2x512x512) ![0, 0, 0] S1x512x512.size inb_S2x512x512_S1x512x512_0_0_0) (fun _ => rfl)).squeeze S512x512 squeezes_S1x512x512_S512x512).view.emb (ix2 p q) = ix3 (0 : Fin 2) p q := stageEmb_ss0 p q
  rw [he] at h
  rw [slotRead_ss0]
  exact h

/-- A write through slot 1's window leaves what slot 0's block reads. -/
theorem stage_skip_ss0 (f : (cc0_scratch3 : Ref sig .tc).ty.Contents (Elt F)) (w : S512x512.Idx → Elt F .f32) (p q : Fin 512) :
    ssM.view.readAt (Elt F) (Rect.unit (s := S2x512x512) ![0, 0, 0] S1x512x512.size inb_S2x512x512_S1x512x512_0_0_0).toLoadRect (((ssM.slice (Rect.unit (s := S2x512x512) ![1, 0, 0] S1x512x512.size inb_S2x512x512_S1x512x512_1_0_0) (fun _ => rfl)).squeeze S512x512 squeezes_S1x512x512_S512x512).view.write (Elt F) f w Finset.univ) (ix3 (0 : Fin 1) p q)
      = ssM.view.readAt (Elt F) (Rect.unit (s := S2x512x512) ![0, 0, 0] S1x512x512.size inb_S2x512x512_S1x512x512_0_0_0).toLoadRect f (ix3 (0 : Fin 1) p q) := by
  rw [slotRead_ss0, slotRead_ss0]
  exact View.write_of_not_mem (v := ((ssM.slice (Rect.unit (s := S2x512x512) ![1, 0, 0] S1x512x512.size inb_S2x512x512_S1x512x512_1_0_0) (fun _ => rfl)).squeeze S512x512 squeezes_S1x512x512_S512x512).view) (Val := Elt F) f w Finset.univ (miss_ss0 p q)

/-- Slot 1's elements lie outside slot 0's window. -/
theorem miss_ss1 (p q : Fin 512) : (ix3 (1 : Fin 2) p q : S2x512x512.Idx) ∉ ((ssM.slice (Rect.unit (s := S2x512x512) ![0, 0, 0] S1x512x512.size inb_S2x512x512_S1x512x512_0_0_0) (fun _ => rfl)).squeeze S512x512 squeezes_S1x512x512_S512x512).view.setOn Finset.univ := by
  intro hmem
  have hmem' : (ix3 (1 : Fin 2) p q : S2x512x512.Idx) ∈ Finset.univ.map ((ssM.slice (Rect.unit (s := S2x512x512) ![0, 0, 0] S1x512x512.size inb_S2x512x512_S1x512x512_0_0_0) (fun _ => rfl)).squeeze S512x512 squeezes_S1x512x512_S512x512).view.emb := hmem
  obtain ⟨y, -, hy⟩ := Finset.mem_map.mp hmem'
  obtain ⟨p', q', rfl⟩ : ∃ (p' q' : Fin 512), y = ix2 p' q' := ⟨y 0, y 1, eq_ix2 y⟩
  have he : ((ssM.slice (Rect.unit (s := S2x512x512) ![0, 0, 0] S1x512x512.size inb_S2x512x512_S1x512x512_0_0_0) (fun _ => rfl)).squeeze S512x512 squeezes_S1x512x512_S512x512).view.emb (ix2 p' q') = ix3 (0 : Fin 2) p' q' := stageEmb_ss0 p' q'
  rw [he] at hy
  have h0 : ((ix3 (0 : Fin 2) p' q' : S2x512x512.Idx) 0).val = ((ix3 (1 : Fin 2) p q : S2x512x512.Idx) 0).val := by rw [hy]
  exact Nat.zero_ne_one h0

/-- What was written through slot 1's window is read back through slot 1's block. -/
theorem stage_hit_ss1 (f : (cc0_scratch3 : Ref sig .tc).ty.Contents (Elt F)) (w : S512x512.Idx → Elt F .f32) (p q : Fin 512) :
    ssM.view.readAt (Elt F) (Rect.unit (s := S2x512x512) ![1, 0, 0] S1x512x512.size inb_S2x512x512_S1x512x512_1_0_0).toLoadRect (((ssM.slice (Rect.unit (s := S2x512x512) ![1, 0, 0] S1x512x512.size inb_S2x512x512_S1x512x512_1_0_0) (fun _ => rfl)).squeeze S512x512 squeezes_S1x512x512_S512x512).view.write (Elt F) f w Finset.univ) (ix3 (0 : Fin 1) p q) = w (ix2 p q) := by
  have h := View.write_emb_of_mem (v := ((ssM.slice (Rect.unit (s := S2x512x512) ![1, 0, 0] S1x512x512.size inb_S2x512x512_S1x512x512_1_0_0) (fun _ => rfl)).squeeze S512x512 squeezes_S1x512x512_S512x512).view) (Val := Elt F) f w (M := Finset.univ) (x := ix2 p q) (Finset.mem_univ _)
  have he : ((ssM.slice (Rect.unit (s := S2x512x512) ![1, 0, 0] S1x512x512.size inb_S2x512x512_S1x512x512_1_0_0) (fun _ => rfl)).squeeze S512x512 squeezes_S1x512x512_S512x512).view.emb (ix2 p q) = ix3 (1 : Fin 2) p q := stageEmb_ss1 p q
  rw [he] at h
  rw [slotRead_ss1]
  exact h

/-- A write through slot 0's window leaves what slot 1's block reads. -/
theorem stage_skip_ss1 (f : (cc0_scratch3 : Ref sig .tc).ty.Contents (Elt F)) (w : S512x512.Idx → Elt F .f32) (p q : Fin 512) :
    ssM.view.readAt (Elt F) (Rect.unit (s := S2x512x512) ![1, 0, 0] S1x512x512.size inb_S2x512x512_S1x512x512_1_0_0).toLoadRect (((ssM.slice (Rect.unit (s := S2x512x512) ![0, 0, 0] S1x512x512.size inb_S2x512x512_S1x512x512_0_0_0) (fun _ => rfl)).squeeze S512x512 squeezes_S1x512x512_S512x512).view.write (Elt F) f w Finset.univ) (ix3 (0 : Fin 1) p q)
      = ssM.view.readAt (Elt F) (Rect.unit (s := S2x512x512) ![1, 0, 0] S1x512x512.size inb_S2x512x512_S1x512x512_1_0_0).toLoadRect f (ix3 (0 : Fin 1) p q) := by
  rw [slotRead_ss1, slotRead_ss1]
  exact View.write_of_not_mem (v := ((ssM.slice (Rect.unit (s := S2x512x512) ![0, 0, 0] S1x512x512.size inb_S2x512x512_S1x512x512_0_0_0) (fun _ => rfl)).squeeze S512x512 squeezes_S1x512x512_S512x512).view) (Val := Elt F) f w Finset.univ (miss_ss1 p q)

/-- Element `(0, p, q)` of slot 0's block is element `(0, p, q)` of the buffer, -/
theorem slotEmb_sm0 (p q : Fin 512) :
    ((smM.access (Rect.unit (s := S2x512x512) ![0, 0, 0] S1x512x512.size inb_S2x512x512_S1x512x512_0_0_0)).emb (ix3 (0 : Fin 1) p q) : S2x512x512.Idx) = ix3 (0 : Fin 2) p q := by
  funext a
  match a with
  | ⟨0, _⟩ => exact Fin.ext (by show 0 + 1 * 0 = 0; rfl)
  | ⟨1, _⟩ => exact Fin.ext (by show 0 + 1 * p.val = p.val; omega)
  | ⟨2, _⟩ => exact Fin.ext (by show 0 + 1 * q.val = q.val; omega)
/-- so a load of slot 0's block reads the buffer there, -/
theorem slotRead_sm0 (g : (cc0_scratch4 : Ref sig .tc).ty.Contents (Elt F)) (p q : Fin 512) :
    smM.view.readAt (Elt F) (Rect.unit (s := S2x512x512) ![0, 0, 0] S1x512x512.size inb_S2x512x512_S1x512x512_0_0_0).toLoadRect g (ix3 (0 : Fin 1) p q) = g (ix3 (0 : Fin 2) p q) := by
  have hr : smM.view.readAt (Elt F) (Rect.unit (s := S2x512x512) ![0, 0, 0] S1x512x512.size inb_S2x512x512_S1x512x512_0_0_0).toLoadRect g (ix3 (0 : Fin 1) p q)
      = g ((smM.access (Rect.unit (s := S2x512x512) ![0, 0, 0] S1x512x512.size inb_S2x512x512_S1x512x512_0_0_0)).emb (ix3 (0 : Fin 1) p q)) := rfl
  rw [hr, slotEmb_sm0]
/-- and element `(p, q)` of slot 0's window is that element too. -/
theorem stageEmb_sm0 (p q : Fin 512) :
    (((smM.slice (Rect.unit (s := S2x512x512) ![0, 0, 0] S1x512x512.size inb_S2x512x512_S1x512x512_0_0_0) (fun _ => rfl)).squeeze S512x512 squeezes_S1x512x512_S512x512).view.emb (ix2 p q) : S2x512x512.Idx) = ix3 (0 : Fin 2) p q := by
  have h1 : (((smM.slice (Rect.unit (s := S2x512x512) ![0, 0, 0] S1x512x512.size inb_S2x512x512_S1x512x512_0_0_0) (fun _ => rfl)).squeeze S512x512 squeezes_S1x512x512_S512x512).view.emb (ix2 p q) : S2x512x512.Idx)
      = (smM.access (Rect.unit (s := S2x512x512) ![0, 0, 0] S1x512x512.size inb_S2x512x512_S1x512x512_0_0_0)).emb (Shape.reshapeEquiv squeezes_S1x512x512_S512x512.numel_eq (ix2 p q)) := rfl
  rw [h1, sq_idx]
  exact slotEmb_sm0 p q

/-- Element `(0, p, q)` of slot 1's block is element `(1, p, q)` of the buffer, -/
theorem slotEmb_sm1 (p q : Fin 512) :
    ((smM.access (Rect.unit (s := S2x512x512) ![1, 0, 0] S1x512x512.size inb_S2x512x512_S1x512x512_1_0_0)).emb (ix3 (0 : Fin 1) p q) : S2x512x512.Idx) = ix3 (1 : Fin 2) p q := by
  funext a
  match a with
  | ⟨0, _⟩ => exact Fin.ext (by show 1 + 1 * 0 = 1; rfl)
  | ⟨1, _⟩ => exact Fin.ext (by show 0 + 1 * p.val = p.val; omega)
  | ⟨2, _⟩ => exact Fin.ext (by show 0 + 1 * q.val = q.val; omega)
/-- so a load of slot 1's block reads the buffer there, -/
theorem slotRead_sm1 (g : (cc0_scratch4 : Ref sig .tc).ty.Contents (Elt F)) (p q : Fin 512) :
    smM.view.readAt (Elt F) (Rect.unit (s := S2x512x512) ![1, 0, 0] S1x512x512.size inb_S2x512x512_S1x512x512_1_0_0).toLoadRect g (ix3 (0 : Fin 1) p q) = g (ix3 (1 : Fin 2) p q) := by
  have hr : smM.view.readAt (Elt F) (Rect.unit (s := S2x512x512) ![1, 0, 0] S1x512x512.size inb_S2x512x512_S1x512x512_1_0_0).toLoadRect g (ix3 (0 : Fin 1) p q)
      = g ((smM.access (Rect.unit (s := S2x512x512) ![1, 0, 0] S1x512x512.size inb_S2x512x512_S1x512x512_1_0_0)).emb (ix3 (0 : Fin 1) p q)) := rfl
  rw [hr, slotEmb_sm1]
/-- and element `(p, q)` of slot 1's window is that element too. -/
theorem stageEmb_sm1 (p q : Fin 512) :
    (((smM.slice (Rect.unit (s := S2x512x512) ![1, 0, 0] S1x512x512.size inb_S2x512x512_S1x512x512_1_0_0) (fun _ => rfl)).squeeze S512x512 squeezes_S1x512x512_S512x512).view.emb (ix2 p q) : S2x512x512.Idx) = ix3 (1 : Fin 2) p q := by
  have h1 : (((smM.slice (Rect.unit (s := S2x512x512) ![1, 0, 0] S1x512x512.size inb_S2x512x512_S1x512x512_1_0_0) (fun _ => rfl)).squeeze S512x512 squeezes_S1x512x512_S512x512).view.emb (ix2 p q) : S2x512x512.Idx)
      = (smM.access (Rect.unit (s := S2x512x512) ![1, 0, 0] S1x512x512.size inb_S2x512x512_S1x512x512_1_0_0)).emb (Shape.reshapeEquiv squeezes_S1x512x512_S512x512.numel_eq (ix2 p q)) := rfl
  rw [h1, sq_idx]
  exact slotEmb_sm1 p q

/-- Slot 0's elements lie outside slot 1's window. -/
theorem miss_sm0 (p q : Fin 512) : (ix3 (0 : Fin 2) p q : S2x512x512.Idx) ∉ ((smM.slice (Rect.unit (s := S2x512x512) ![1, 0, 0] S1x512x512.size inb_S2x512x512_S1x512x512_1_0_0) (fun _ => rfl)).squeeze S512x512 squeezes_S1x512x512_S512x512).view.setOn Finset.univ := by
  intro hmem
  have hmem' : (ix3 (0 : Fin 2) p q : S2x512x512.Idx) ∈ Finset.univ.map ((smM.slice (Rect.unit (s := S2x512x512) ![1, 0, 0] S1x512x512.size inb_S2x512x512_S1x512x512_1_0_0) (fun _ => rfl)).squeeze S512x512 squeezes_S1x512x512_S512x512).view.emb := hmem
  obtain ⟨y, -, hy⟩ := Finset.mem_map.mp hmem'
  obtain ⟨p', q', rfl⟩ : ∃ (p' q' : Fin 512), y = ix2 p' q' := ⟨y 0, y 1, eq_ix2 y⟩
  have he : ((smM.slice (Rect.unit (s := S2x512x512) ![1, 0, 0] S1x512x512.size inb_S2x512x512_S1x512x512_1_0_0) (fun _ => rfl)).squeeze S512x512 squeezes_S1x512x512_S512x512).view.emb (ix2 p' q') = ix3 (1 : Fin 2) p' q' := stageEmb_sm1 p' q'
  rw [he] at hy
  have h0 : ((ix3 (1 : Fin 2) p' q' : S2x512x512.Idx) 0).val = ((ix3 (0 : Fin 2) p q : S2x512x512.Idx) 0).val := by rw [hy]
  exact Nat.one_ne_zero h0

/-- What was written through slot 0's window is read back through slot 0's block. -/
theorem stage_hit_sm0 (f : (cc0_scratch4 : Ref sig .tc).ty.Contents (Elt F)) (w : S512x512.Idx → Elt F .f32) (p q : Fin 512) :
    smM.view.readAt (Elt F) (Rect.unit (s := S2x512x512) ![0, 0, 0] S1x512x512.size inb_S2x512x512_S1x512x512_0_0_0).toLoadRect (((smM.slice (Rect.unit (s := S2x512x512) ![0, 0, 0] S1x512x512.size inb_S2x512x512_S1x512x512_0_0_0) (fun _ => rfl)).squeeze S512x512 squeezes_S1x512x512_S512x512).view.write (Elt F) f w Finset.univ) (ix3 (0 : Fin 1) p q) = w (ix2 p q) := by
  have h := View.write_emb_of_mem (v := ((smM.slice (Rect.unit (s := S2x512x512) ![0, 0, 0] S1x512x512.size inb_S2x512x512_S1x512x512_0_0_0) (fun _ => rfl)).squeeze S512x512 squeezes_S1x512x512_S512x512).view) (Val := Elt F) f w (M := Finset.univ) (x := ix2 p q) (Finset.mem_univ _)
  have he : ((smM.slice (Rect.unit (s := S2x512x512) ![0, 0, 0] S1x512x512.size inb_S2x512x512_S1x512x512_0_0_0) (fun _ => rfl)).squeeze S512x512 squeezes_S1x512x512_S512x512).view.emb (ix2 p q) = ix3 (0 : Fin 2) p q := stageEmb_sm0 p q
  rw [he] at h
  rw [slotRead_sm0]
  exact h

/-- A write through slot 1's window leaves what slot 0's block reads. -/
theorem stage_skip_sm0 (f : (cc0_scratch4 : Ref sig .tc).ty.Contents (Elt F)) (w : S512x512.Idx → Elt F .f32) (p q : Fin 512) :
    smM.view.readAt (Elt F) (Rect.unit (s := S2x512x512) ![0, 0, 0] S1x512x512.size inb_S2x512x512_S1x512x512_0_0_0).toLoadRect (((smM.slice (Rect.unit (s := S2x512x512) ![1, 0, 0] S1x512x512.size inb_S2x512x512_S1x512x512_1_0_0) (fun _ => rfl)).squeeze S512x512 squeezes_S1x512x512_S512x512).view.write (Elt F) f w Finset.univ) (ix3 (0 : Fin 1) p q)
      = smM.view.readAt (Elt F) (Rect.unit (s := S2x512x512) ![0, 0, 0] S1x512x512.size inb_S2x512x512_S1x512x512_0_0_0).toLoadRect f (ix3 (0 : Fin 1) p q) := by
  rw [slotRead_sm0, slotRead_sm0]
  exact View.write_of_not_mem (v := ((smM.slice (Rect.unit (s := S2x512x512) ![1, 0, 0] S1x512x512.size inb_S2x512x512_S1x512x512_1_0_0) (fun _ => rfl)).squeeze S512x512 squeezes_S1x512x512_S512x512).view) (Val := Elt F) f w Finset.univ (miss_sm0 p q)

/-- Slot 1's elements lie outside slot 0's window. -/
theorem miss_sm1 (p q : Fin 512) : (ix3 (1 : Fin 2) p q : S2x512x512.Idx) ∉ ((smM.slice (Rect.unit (s := S2x512x512) ![0, 0, 0] S1x512x512.size inb_S2x512x512_S1x512x512_0_0_0) (fun _ => rfl)).squeeze S512x512 squeezes_S1x512x512_S512x512).view.setOn Finset.univ := by
  intro hmem
  have hmem' : (ix3 (1 : Fin 2) p q : S2x512x512.Idx) ∈ Finset.univ.map ((smM.slice (Rect.unit (s := S2x512x512) ![0, 0, 0] S1x512x512.size inb_S2x512x512_S1x512x512_0_0_0) (fun _ => rfl)).squeeze S512x512 squeezes_S1x512x512_S512x512).view.emb := hmem
  obtain ⟨y, -, hy⟩ := Finset.mem_map.mp hmem'
  obtain ⟨p', q', rfl⟩ : ∃ (p' q' : Fin 512), y = ix2 p' q' := ⟨y 0, y 1, eq_ix2 y⟩
  have he : ((smM.slice (Rect.unit (s := S2x512x512) ![0, 0, 0] S1x512x512.size inb_S2x512x512_S1x512x512_0_0_0) (fun _ => rfl)).squeeze S512x512 squeezes_S1x512x512_S512x512).view.emb (ix2 p' q') = ix3 (0 : Fin 2) p' q' := stageEmb_sm0 p' q'
  rw [he] at hy
  have h0 : ((ix3 (0 : Fin 2) p' q' : S2x512x512.Idx) 0).val = ((ix3 (1 : Fin 2) p q : S2x512x512.Idx) 0).val := by rw [hy]
  exact Nat.zero_ne_one h0

/-- What was written through slot 1's window is read back through slot 1's block. -/
theorem stage_hit_sm1 (f : (cc0_scratch4 : Ref sig .tc).ty.Contents (Elt F)) (w : S512x512.Idx → Elt F .f32) (p q : Fin 512) :
    smM.view.readAt (Elt F) (Rect.unit (s := S2x512x512) ![1, 0, 0] S1x512x512.size inb_S2x512x512_S1x512x512_1_0_0).toLoadRect (((smM.slice (Rect.unit (s := S2x512x512) ![1, 0, 0] S1x512x512.size inb_S2x512x512_S1x512x512_1_0_0) (fun _ => rfl)).squeeze S512x512 squeezes_S1x512x512_S512x512).view.write (Elt F) f w Finset.univ) (ix3 (0 : Fin 1) p q) = w (ix2 p q) := by
  have h := View.write_emb_of_mem (v := ((smM.slice (Rect.unit (s := S2x512x512) ![1, 0, 0] S1x512x512.size inb_S2x512x512_S1x512x512_1_0_0) (fun _ => rfl)).squeeze S512x512 squeezes_S1x512x512_S512x512).view) (Val := Elt F) f w (M := Finset.univ) (x := ix2 p q) (Finset.mem_univ _)
  have he : ((smM.slice (Rect.unit (s := S2x512x512) ![1, 0, 0] S1x512x512.size inb_S2x512x512_S1x512x512_1_0_0) (fun _ => rfl)).squeeze S512x512 squeezes_S1x512x512_S512x512).view.emb (ix2 p q) = ix3 (1 : Fin 2) p q := stageEmb_sm1 p q
  rw [he] at h
  rw [slotRead_sm1]
  exact h

/-- A write through slot 0's window leaves what slot 1's block reads. -/
theorem stage_skip_sm1 (f : (cc0_scratch4 : Ref sig .tc).ty.Contents (Elt F)) (w : S512x512.Idx → Elt F .f32) (p q : Fin 512) :
    smM.view.readAt (Elt F) (Rect.unit (s := S2x512x512) ![1, 0, 0] S1x512x512.size inb_S2x512x512_S1x512x512_1_0_0).toLoadRect (((smM.slice (Rect.unit (s := S2x512x512) ![0, 0, 0] S1x512x512.size inb_S2x512x512_S1x512x512_0_0_0) (fun _ => rfl)).squeeze S512x512 squeezes_S1x512x512_S512x512).view.write (Elt F) f w Finset.univ) (ix3 (0 : Fin 1) p q)
      = smM.view.readAt (Elt F) (Rect.unit (s := S2x512x512) ![1, 0, 0] S1x512x512.size inb_S2x512x512_S1x512x512_1_0_0).toLoadRect f (ix3 (0 : Fin 1) p q) := by
  rw [slotRead_sm1, slotRead_sm1]
  exact View.write_of_not_mem (v := ((smM.slice (Rect.unit (s := S2x512x512) ![0, 0, 0] S1x512x512.size inb_S2x512x512_S1x512x512_0_0_0) (fun _ => rfl)).squeeze S512x512 squeezes_S1x512x512_S512x512).view) (Val := Elt F) f w Finset.univ (miss_sm1 p q)
/-! ## A `[512, 512]` window of the argument block -/

/-- The window at offsets `off` reads, at `(p, q)`, the block at `off + (0, p, q)`. -/
theorem xwin_read (off : Fin 3 → Nat) (inb : ∀ a, off a + S1x512x512.size a ≤ S1x4096x2048.size a)
    (X : (main_arg0 : Ref sig .tc).ty.Contents (Elt F)) (p q : Fin 512) :
    ((xM.slice (Rect.unit (s := S1x4096x2048) off S1x512x512.size inb) (fun _ => rfl)).squeeze S512x512 squeezes_S1x512x512_S512x512).view.read (Elt F) X (ix2 p q)
      = X (fun a => ⟨off a + (ix3 (0 : Fin 1) p q a).val,
          Nat.lt_of_lt_of_le (Nat.add_lt_add_left (ix3 (0 : Fin 1) p q a).isLt _) (inb a)⟩) := by
  have h1 : ((xM.slice (Rect.unit (s := S1x4096x2048) off S1x512x512.size inb) (fun _ => rfl)).squeeze S512x512 squeezes_S1x512x512_S512x512).view.read (Elt F) X (ix2 p q)
      = X ((xM.access (Rect.unit (s := S1x4096x2048) off S1x512x512.size inb)).emb (Shape.reshapeEquiv squeezes_S1x512x512_S512x512.numel_eq (ix2 p q))) := rfl
  rw [h1, sq_idx]
  exact congrArg X (funext fun a => Fin.ext (by
    show off a + 1 * (ix3 (0 : Fin 1) p q a).val = off a + (ix3 (0 : Fin 1) p q a).val
    omega))

/-- The same with the offsets `(0, r, c)` and the index written by coordinates. -/
theorem xwin_read_at (r c : ℕ) (inb : ∀ a, (![0, r, c] : Fin 3 → Nat) a + S1x512x512.size a ≤ S1x4096x2048.size a)
    (X : (main_arg0 : Ref sig .tc).ty.Contents (Elt F)) (p q : Fin 512) (hr : r + p.val < 4096) (hc : c + q.val < 2048) :
    ((xM.slice (Rect.unit (s := S1x4096x2048) ![0, r, c] S1x512x512.size inb) (fun _ => rfl)).squeeze S512x512 squeezes_S1x512x512_S512x512).view.read (Elt F) X (ix2 p q)
      = X (ix3 (0 : Fin 1) (⟨r + p.val, hr⟩ : Fin 4096) (⟨c + q.val, hc⟩ : Fin 2048)) :=
  (xwin_read ![0, r, c] inb X p q).trans (congrArg X (funext fun a =>
    match a with
    | ⟨0, _⟩ => Fin.ext (show 0 + 0 = 0 from rfl)
    | ⟨1, _⟩ => Fin.ext (show r + p.val = r + p.val from rfl)
    | ⟨2, _⟩ => Fin.ext (show c + q.val = c + q.val from rfl)))

/-! ## The target contents at those indices -/

theorem SBf_at (c : Dev nD) (k : Fin 8) (p q : Fin 512) :
    SBf m c (ix2 (⟨512 * k.val + p.val, by have := k.isLt; have := p.isLt; omega⟩ : Fin 4096) q)
      = FloatOps.truncf .bf16 bitsLt_bf16_f32 (Xof m c (ix3 (0 : Fin 1) (⟨512 * k.val + p.val, by have := k.isLt; have := p.isLt; omega⟩ : Fin 4096)
          (⟨colA c + q.val, by have := colA_le c; have := q.isLt; omega⟩ : Fin 2048))) := rfl

theorem MBf_at (c : Dev nD) (k : Fin 8) (p q : Fin 512) :
    MBf m c (ix2 (⟨512 * k.val + p.val, by have := k.isLt; have := p.isLt; omega⟩ : Fin 4096) q)
      = FloatOps.truncf .bf16 bitsLt_bf16_f32 (Xof m c (ix3 (0 : Fin 1) (⟨512 * k.val + p.val, by have := k.isLt; have := p.isLt; omega⟩ : Fin 4096)
          (⟨colM c + q.val, by have := colM_le c; have := q.isLt; omega⟩ : Fin 2048))) := rfl

/-- In its own 512 columns the result is the kept band plus the landed one, -/
theorem OUTf_own (c : Dev nD) (r : Fin 4096) (q : Fin 512) :
    OUTf m c (ix2 r (⟨512 * (c.val / 2) + q.val, by have hc4 : c.val < 4 := c.isLt; have := q.isLt; omega⟩ : Fin 1024)) = FloatOps.addf (MBf m c (ix2 r q)) (SBf m (pY c) (ix2 r q)) := by
  have hdiv : (512 * (c.val / 2) + q.val) / 512 = c.val / 2 := by have := q.isLt; omega
  have hmod : (512 * (c.val / 2) + q.val) % 512 = q.val := by have := q.isLt; omega
  have hj : ((ix2 (⟨r.val, r.isLt⟩ : Fin 4096) (⟨(512 * (c.val / 2) + q.val) % 512, Nat.mod_lt _ (by decide)⟩ : Fin 512)) : S4096x512.Idx) = ix2 r q := by
    funext a
    match a with
    | ⟨0, _⟩ => rfl
    | ⟨1, _⟩ => exact Fin.ext hmod
  have h1 : OUTf m c (ix2 r (⟨512 * (c.val / 2) + q.val, by have hc4 : c.val < 4 := c.isLt; have := q.isLt; omega⟩ : Fin 1024))
      = if (512 * (c.val / 2) + q.val) / 512 = c.val / 2 then ownSum m c (ix2 (⟨r.val, r.isLt⟩ : Fin 4096) (⟨(512 * (c.val / 2) + q.val) % 512, Nat.mod_lt _ (by decide)⟩ : Fin 512)) else ownSum m (pX c) (ix2 (⟨r.val, r.isLt⟩ : Fin 4096) (⟨(512 * (c.val / 2) + q.val) % 512, Nat.mod_lt _ (by decide)⟩ : Fin 512)) := rfl
  rw [h1, if_pos hdiv, hj]
  rfl

/-- and the first-axis partner's result holds there what the device's own does. -/
theorem OUTf_pX (c : Dev nD) (r : Fin 4096) (q : Fin 512) :
    OUTf m (pX c) (ix2 r (⟨512 * (c.val / 2) + q.val, by have hc4 : c.val < 4 := c.isLt; have := q.isLt; omega⟩ : Fin 1024)) = OUTf m c (ix2 r (⟨512 * (c.val / 2) + q.val, by have hc4 : c.val < 4 := c.isLt; have := q.isLt; omega⟩ : Fin 1024)) := by
  have hdiv : (512 * (c.val / 2) + q.val) / 512 = c.val / 2 := by have := q.isLt; omega
  have hne : ¬ ((512 * (c.val / 2) + q.val) / 512 = (pX c).val / 2) := by
    rw [hdiv, pX_half]; have hc4 : c.val < 4 := c.isLt; omega
  have h1 : OUTf m (pX c) (ix2 r (⟨512 * (c.val / 2) + q.val, by have hc4 : c.val < 4 := c.isLt; have := q.isLt; omega⟩ : Fin 1024))
      = if (512 * (c.val / 2) + q.val) / 512 = (pX c).val / 2 then ownSum m (pX c) (ix2 (⟨r.val, r.isLt⟩ : Fin 4096) (⟨(512 * (c.val / 2) + q.val) % 512, Nat.mod_lt _ (by decide)⟩ : Fin 512)) else ownSum m (pX (pX c)) (ix2 (⟨r.val, r.isLt⟩ : Fin 4096) (⟨(512 * (c.val / 2) + q.val) % 512, Nat.mod_lt _ (by decide)⟩ : Fin 512)) := rfl
  have h2 : OUTf m c (ix2 r (⟨512 * (c.val / 2) + q.val, by have hc4 : c.val < 4 := c.isLt; have := q.isLt; omega⟩ : Fin 1024))
      = if (512 * (c.val / 2) + q.val) / 512 = c.val / 2 then ownSum m c (ix2 (⟨r.val, r.isLt⟩ : Fin 4096) (⟨(512 * (c.val / 2) + q.val) % 512, Nat.mod_lt _ (by decide)⟩ : Fin 512)) else ownSum m (pX c) (ix2 (⟨r.val, r.isLt⟩ : Fin 4096) (⟨(512 * (c.val / 2) + q.val) % 512, Nat.mod_lt _ (by decide)⟩ : Fin 512)) := rfl
  rw [h1, h2, if_neg hne, if_pos hdiv, pX_pX]

end Cert.KernelIdeal.RS

end
-- ==== Proof.Vfacts.lean ====
import proofs.«900308_g7700000000000309_dist_rs_v7x_xy2x2_y_m4096_n1024_bf16_1_alg».proof.Proof.Spec
import Idealize.ShloMosaic.Lib.ValueIdx
import Idealize.ShloMosaic.Lib.ValueLayout
import Idealize.ShloMosaic.Lib.Pipeline.Value
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open ValueIdx

variable {F : FTy → Type} [FloatOps F]

local notation "𝕄" => MT nD τ sig Unit (Elt F) ℕ UU ℕ

variable (m : (ℓ : Loc nD τ sig) → Buf (Elt F) ℓ)

/-! ## The converted chunks are the target contents -/

/-- Chunk `k` of the send buffer after the store of the converted block, when the block read is the argument's rows
    `512 k …` at the sent band's columns. -/
theorem valA (c : Dev nD) (k : Fin 8) (fprev : (cc0_scratch1 : Ref sig .tc).ty.Contents (Elt F)) (V : Vec F S1x512x512 .f32)
    (hV : ∀ p q : Fin 512, V (ix3 (0 : Fin 1) p q) = Xof m c (ix3 (0 : Fin 1) (⟨512 * k.val + p.val, by have := k.isLt; have := p.isLt; omega⟩ : Fin 4096) (⟨colA c + q.val, by have := colA_le c; have := q.isLt; omega⟩ : Fin 2048))) :
    ∀ i ∈ (sbS k).view.set, ((sbM.access (Rect.unit (s := S4096x512) (rowOff k) S512x512.size (rowOff_inb k))).write (Elt F) fprev (k0_pay1 V) Finset.univ) i = SBf m c i := by
  refine agree_of_emb (sbS k).view _ _ fun y => ?_
  obtain ⟨p, q, rfl⟩ : ∃ (p q : Fin 512), y = ix2 p q := ⟨y 0, y 1, eq_ix2 y⟩
  rw [chunk_emb k p q]
  exact (store_chunk_sb k fprev (k0_pay1 V) p q).trans ((conv_apply V p q).trans
    ((congrArg (FloatOps.truncf .bf16 bitsLt_bf16_f32) (hV p q)).trans (SBf_at m c k p q).symm))

/-- The same for the kept band, element by element. -/
theorem valM (c : Dev nD) (k : Fin 8) (fprev : (cc0_scratch2 : Ref sig .tc).ty.Contents (Elt F)) (V : Vec F S1x512x512 .f32)
    (hV : ∀ p q : Fin 512, V (ix3 (0 : Fin 1) p q) = Xof m c (ix3 (0 : Fin 1) (⟨512 * k.val + p.val, by have := k.isLt; have := p.isLt; omega⟩ : Fin 4096) (⟨colM c + q.val, by have := colM_le c; have := q.isLt; omega⟩ : Fin 2048)))
    (p q : Fin 512) :
    ((mbM.access (Rect.unit (s := S4096x512) (rowOff k) S512x512.size (rowOff_inb k))).write (Elt F) fprev (k0_pay1 V) Finset.univ) (ix2 (⟨512 * k.val + p.val, by have := k.isLt; have := p.isLt; omega⟩ : Fin 4096) q) = MBf m c (ix2 (⟨512 * k.val + p.val, by have := k.isLt; have := p.isLt; omega⟩ : Fin 4096) q) :=
  (store_chunk_mb k fprev (k0_pay1 V) p q).trans ((conv_apply V p q).trans
    ((congrArg (FloatOps.truncf .bf16 bitsLt_bf16_f32) (hV p q)).trans (MBf_at m c k p q).symm))

/-! ## What each staged copy reads: the argument's rows `512 k …` at the band's columns -/

/-- A window of the argument block at offsets `(0, r, col)`, read as the copy's source. -/
theorem dma_read (c : Dev nD) (off : Fin 3 → ℕ) (inb : ∀ a, off a + S1x512x512.size a ≤ S1x4096x2048.size a) (r col : ℕ)
    (hoff : off = ![0, r, col]) (p q : Fin 512) (hr : r + p.val < 4096) (hc : col + q.val < 2048) :
    (ReadAs.same : ReadAs (Elt F) S512x512 .f32 S512x512 .f32).apply
        (((xM.slice (Rect.unit (s := S1x4096x2048) off S1x512x512.size inb) (fun _ => rfl)).squeeze S512x512 squeezes_S1x512x512_S512x512).view.read (Elt F) (m ((c : Thread nD τ).loc main_arg0))) (ix2 p q)
      = Xof m c (ix3 (0 : Fin 1) (⟨r + p.val, hr⟩ : Fin 4096) (⟨col + q.val, hc⟩ : Fin 2048)) := by
  subst hoff
  exact xwin_read_at r col inb _ p q hr hc

theorem dmaA_0 (c : Dev nD) (p q : Fin 512) :
    (ReadAs.same : ReadAs (Elt F) S512x512 .f32 S512x512 .f32).apply
        (((xM.slice (Rect.unit (s := S1x4096x2048) (k0_off1 c) S1x512x512.size (k0_off1_inb c)) (fun _ => rfl)).squeeze S512x512 squeezes_S1x512x512_S512x512).view.read (Elt F) (m ((c : Thread nD τ).loc main_arg0))) (ix2 p q)
      = Xof m c (ix3 (0 : Fin 1) (⟨512 * (0 : Fin 8).val + p.val, by have := p.isLt; show 512 * 0 + p.val < 4096; omega⟩ : Fin 4096)
          (⟨colA c + q.val, by have := colA_le c; have := q.isLt; omega⟩ : Fin 2048)) :=
  dma_read m c (k0_off1 c) (k0_off1_inb c) (512 * 0) (colA c) ((k0_off1_eq c).trans rfl) p q
    (by have := p.isLt; omega) (by have := colA_le c; have := q.isLt; omega)

theorem dmaA_1 (c : Dev nD) (p q : Fin 512) :
    (ReadAs.same : ReadAs (Elt F) S512x512 .f32 S512x512 .f32).apply
        (((xM.slice (Rect.unit (s := S1x4096x2048) (k0_off2 c) S1x512x512.size (k0_off2_inb c)) (fun _ => rfl)).squeeze S512x512 squeezes_S1x512x512_S512x512).view.read (Elt F) (m ((c : Thread nD τ).loc main_arg0))) (ix2 p q)
      = Xof m c (ix3 (0 : Fin 1) (⟨512 * (1 : Fin 8).val + p.val, by have := p.isLt; show 512 * 1 + p.val < 4096; omega⟩ : Fin 4096)
          (⟨colA c + q.val, by have := colA_le c; have := q.isLt; omega⟩ : Fin 2048)) :=
  dma_read m c (k0_off2 c) (k0_off2_inb c) (512 * 1) (colA c) ((k0_off2_eq c).trans rfl) p q
    (by have := p.isLt; omega) (by have := colA_le c; have := q.isLt; omega)

theorem dmaA_2 (c : Dev nD) (p q : Fin 512) :
    (ReadAs.same : ReadAs (Elt F) S512x512 .f32 S512x512 .f32).apply
        (((xM.slice (Rect.unit (s := S1x4096x2048) (k0_off5 c) S1x512x512.size (k0_off5_inb c)) (fun _ => rfl)).squeeze S512x512 squeezes_S1x512x512_S512x512).view.read (Elt F) (m ((c : Thread nD τ).loc main_arg0))) (ix2 p q)
      = Xof m c (ix3 (0 : Fin 1) (⟨512 * (2 : Fin 8).val + p.val, by have := p.isLt; show 512 * 2 + p.val < 4096; omega⟩ : Fin 4096)
          (⟨colA c + q.val, by have := colA_le c; have := q.isLt; omega⟩ : Fin 2048)) :=
  dma_read m c (k0_off5 c) (k0_off5_inb c) (512 * 2) (colA c) ((k0_off5_eq c).trans rfl) p q
    (by have := p.isLt; omega) (by have := colA_le c; have := q.isLt; omega)

theorem dmaA_3 (c : Dev nD) (p q : Fin 512) :
    (ReadAs.same : ReadAs (Elt F) S512x512 .f32 S512x512 .f32).apply
        (((xM.slice (Rect.unit (s := S1x4096x2048) (k0_off7 c) S1x512x512.size (k0_off7_inb c)) (fun _ => rfl)).squeeze S512x512 squeezes_S1x512x512_S512x512).view.read (Elt F) (m ((c : Thread nD τ).loc main_arg0))) (ix2 p q)
      = Xof m c (ix3 (0 : Fin 1) (⟨512 * (3 : Fin 8).val + p.val, by have := p.isLt; show 512 * 3 + p.val < 4096; omega⟩ : Fin 4096)
          (⟨colA c + q.val, by have := colA_le c; have := q.isLt; omega⟩ : Fin 2048)) :=
  dma_read m c (k0_off7 c) (k0_off7_inb c) (512 * 3) (colA c) ((k0_off7_eq c).trans rfl) p q
    (by have := p.isLt; omega) (by have := colA_le c; have := q.isLt; omega)

theorem dmaA_4 (c : Dev nD) (p q : Fin 512) :
    (ReadAs.same : ReadAs (Elt F) S512x512 .f32 S512x512 .f32).apply
        (((xM.slice (Rect.unit (s := S1x4096x2048) (k0_off9 c) S1x512x512.size (k0_off9_inb c)) (fun _ => rfl)).squeeze S512x512 squeezes_S1x512x512_S512x512).view.read (Elt F) (m ((c : Thread nD τ).loc main_arg0))) (ix2 p q)
      = Xof m c (ix3 (0 : Fin 1) (⟨512 * (4 : Fin 8).val + p.val, by have := p.isLt; show 512 * 4 + p.val < 4096; omega⟩ : Fin 4096)
          (⟨colA c + q.val, by have := colA_le c; have := q.isLt; omega⟩ : Fin 2048)) :=
  dma_read m c (k0_off9 c) (k0_off9_inb c) (512 * 4) (colA c) ((k0_off9_eq c).trans rfl) p q
    (by have := p.isLt; omega) (by have := colA_le c; have := q.isLt; omega)

theorem dmaA_5 (c : Dev nD) (p q : Fin 512) :
    (ReadAs.same : ReadAs (Elt F) S512x512 .f32 S512x512 .f32).apply
        (((xM.slice (Rect.unit (s := S1x4096x2048) (k0_off11 c) S1x512x512.size (k0_off11_inb c)) (fun _ => rfl)).squeeze S512x512 squeezes_S1x512x512_S512x512).view.read (Elt F) (m ((c : Thread nD τ).loc main_arg0))) (ix2 p q)
      = Xof m c (ix3 (0 : Fin 1) (⟨512 * (5 : Fin 8).val + p.val, by have := p.isLt; show 512 * 5 + p.val < 4096; omega⟩ : Fin 4096)
          (⟨colA c + q.val, by have := colA_le c; have := q.isLt; omega⟩ : Fin 2048)) :=
  dma_read m c (k0_off11 c) (k0_off11_inb c) (512 * 5) (colA c) ((k0_off11_eq c).trans rfl) p q
    (by have := p.isLt; omega) (by have := colA_le c; have := q.isLt; omega)

theorem dmaA_6 (c : Dev nD) (p q : Fin 512) :
    (ReadAs.same : ReadAs (Elt F) S512x512 .f32 S512x512 .f32).apply
        (((xM.slice (Rect.unit (s := S1x4096x2048) (k0_off13 c) S1x512x512.size (k0_off13_inb c)) (fun _ => rfl)).squeeze S512x512 squeezes_S1x512x512_S512x512).view.read (Elt F) (m ((c : Thread nD τ).loc main_arg0))) (ix2 p q)
      = Xof m c (ix3 (0 : Fin 1) (⟨512 * (6 : Fin 8).val + p.val, by have := p.isLt; show 512 * 6 + p.val < 4096; omega⟩ : Fin 4096)
          (⟨colA c + q.val, by have := colA_le c; have := q.isLt; omega⟩ : Fin 2048)) :=
  dma_read m c (k0_off13 c) (k0_off13_inb c) (512 * 6) (colA c) ((k0_off13_eq c).trans rfl) p q
    (by have := p.isLt; omega) (by have := colA_le c; have := q.isLt; omega)

theorem dmaA_7 (c : Dev nD) (p q : Fin 512) :
    (ReadAs.same : ReadAs (Elt F) S512x512 .f32 S512x512 .f32).apply
        (((xM.slice (Rect.unit (s := S1x4096x2048) (k0_off15 c) S1x512x512.size (k0_off15_inb c)) (fun _ => rfl)).squeeze S512x512 squeezes_S1x512x512_S512x512).view.read (Elt F) (m ((c : Thread nD τ).loc main_arg0))) (ix2 p q)
      = Xof m c (ix3 (0 : Fin 1) (⟨512 * (7 : Fin 8).val + p.val, by have := p.isLt; show 512 * 7 + p.val < 4096; omega⟩ : Fin 4096)
          (⟨colA c + q.val, by have := colA_le c; have := q.isLt; omega⟩ : Fin 2048)) :=
  dma_read m c (k0_off15 c) (k0_off15_inb c) (512 * 7) (colA c) ((k0_off15_eq c).trans rfl) p q
    (by have := p.isLt; omega) (by have := colA_le c; have := q.isLt; omega)

theorem dmaM_0 (c : Dev nD) (p q : Fin 512) :
    (ReadAs.same : ReadAs (Elt F) S512x512 .f32 S512x512 .f32).apply
        (((xM.slice (Rect.unit (s := S1x4096x2048) (k0_off3 c) S1x512x512.size (k0_off3_inb c)) (fun _ => rfl)).squeeze S512x512 squeezes_S1x512x512_S512x512).view.read (Elt F) (m ((c : Thread nD τ).loc main_arg0))) (ix2 p q)
      = Xof m c (ix3 (0 : Fin 1) (⟨512 * (0 : Fin 8).val + p.val, by have := p.isLt; show 512 * 0 + p.val < 4096; omega⟩ : Fin 4096)
          (⟨colM c + q.val, by have := colM_le c; have := q.isLt; omega⟩ : Fin 2048)) :=
  dma_read m c (k0_off3 c) (k0_off3_inb c) (512 * 0) (colM c) ((k0_off3_eq c).trans rfl) p q
    (by have := p.isLt; omega) (by have := colM_le c; have := q.isLt; omega)

theorem dmaM_1 (c : Dev nD) (p q : Fin 512) :
    (ReadAs.same : ReadAs (Elt F) S512x512 .f32 S512x512 .f32).apply
        (((xM.slice (Rect.unit (s := S1x4096x2048) (k0_off4 c) S1x512x512.size (k0_off4_inb c)) (fun _ => rfl)).squeeze S512x512 squeezes_S1x512x512_S512x512).view.read (Elt F) (m ((c : Thread nD τ).loc main_arg0))) (ix2 p q)
      = Xof m c (ix3 (0 : Fin 1) (⟨512 * (1 : Fin 8).val + p.val, by have := p.isLt; show 512 * 1 + p.val < 4096; omega⟩ : Fin 4096)
          (⟨colM c + q.val, by have := colM_le c; have := q.isLt; omega⟩ : Fin 2048)) :=
  dma_read m c (k0_off4 c) (k0_off4_inb c) (512 * 1) (colM c) ((k0_off4_eq c).trans rfl) p q
    (by have := p.isLt; omega) (by have := colM_le c; have := q.isLt; omega)

theorem dmaM_2 (c : Dev nD) (p q : Fin 512) :
    (ReadAs.same : ReadAs (Elt F) S512x512 .f32 S512x512 .f32).apply
        (((xM.slice (Rect.unit (s := S1x4096x2048) (k0_off6 c) S1x512x512.size (k0_off6_inb c)) (fun _ => rfl)).squeeze S512x512 squeezes_S1x512x512_S512x512).view.read (Elt F) (m ((c : Thread nD τ).loc main_arg0))) (ix2 p q)
      = Xof m c (ix3 (0 : Fin 1) (⟨512 * (2 : Fin 8).val + p.val, by have := p.isLt; show 512 * 2 + p.val < 4096; omega⟩ : Fin 4096)
          (⟨colM c + q.val, by have := colM_le c; have := q.isLt; omega⟩ : Fin 2048)) :=
  dma_read m c (k0_off6 c) (k0_off6_inb c) (512 * 2) (colM c) ((k0_off6_eq c).trans rfl) p q
    (by have := p.isLt; omega) (by have := colM_le c; have := q.isLt; omega)

theorem dmaM_3 (c : Dev nD) (p q : Fin 512) :
    (ReadAs.same : ReadAs (Elt F) S512x512 .f32 S512x512 .f32).apply
        (((xM.slice (Rect.unit (s := S1x4096x2048) (k0_off8 c) S1x512x512.size (k0_off8_inb c)) (fun _ => rfl)).squeeze S512x512 squeezes_S1x512x512_S512x512).view.read (Elt F) (m ((c : Thread nD τ).loc main_arg0))) (ix2 p q)
      = Xof m c (ix3 (0 : Fin 1) (⟨512 * (3 : Fin 8).val + p.val, by have := p.isLt; show 512 * 3 + p.val < 4096; omega⟩ : Fin 4096)
          (⟨colM c + q.val, by have := colM_le c; have := q.isLt; omega⟩ : Fin 2048)) :=
  dma_read m c (k0_off8 c) (k0_off8_inb c) (512 * 3) (colM c) ((k0_off8_eq c).trans rfl) p q
    (by have := p.isLt; omega) (by have := colM_le c; have := q.isLt; omega)

theorem dmaM_4 (c : Dev nD) (p q : Fin 512) :
    (ReadAs.same : ReadAs (Elt F) S512x512 .f32 S512x512 .f32).apply
        (((xM.slice (Rect.unit (s := S1x4096x2048) (k0_off10 c) S1x512x512.size (k0_off10_inb c)) (fun _ => rfl)).squeeze S512x512 squeezes_S1x512x512_S512x512).view.read (Elt F) (m ((c : Thread nD τ).loc main_arg0))) (ix2 p q)
      = Xof m c (ix3 (0 : Fin 1) (⟨512 * (4 : Fin 8).val + p.val, by have := p.isLt; show 512 * 4 + p.val < 4096; omega⟩ : Fin 4096)
          (⟨colM c + q.val, by have := colM_le c; have := q.isLt; omega⟩ : Fin 2048)) :=
  dma_read m c (k0_off10 c) (k0_off10_inb c) (512 * 4) (colM c) ((k0_off10_eq c).trans rfl) p q
    (by have := p.isLt; omega) (by have := colM_le c; have := q.isLt; omega)

theorem dmaM_5 (c : Dev nD) (p q : Fin 512) :
    (ReadAs.same : ReadAs (Elt F) S512x512 .f32 S512x512 .f32).apply
        (((xM.slice (Rect.unit (s := S1x4096x2048) (k0_off12 c) S1x512x512.size (k0_off12_inb c)) (fun _ => rfl)).squeeze S512x512 squeezes_S1x512x512_S512x512).view.read (Elt F) (m ((c : Thread nD τ).loc main_arg0))) (ix2 p q)
      = Xof m c (ix3 (0 : Fin 1) (⟨512 * (5 : Fin 8).val + p.val, by have := p.isLt; show 512 * 5 + p.val < 4096; omega⟩ : Fin 4096)
          (⟨colM c + q.val, by have := colM_le c; have := q.isLt; omega⟩ : Fin 2048)) :=
  dma_read m c (k0_off12 c) (k0_off12_inb c) (512 * 5) (colM c) ((k0_off12_eq c).trans rfl) p q
    (by have := p.isLt; omega) (by have := colM_le c; have := q.isLt; omega)

theorem dmaM_6 (c : Dev nD) (p q : Fin 512) :
    (ReadAs.same : ReadAs (Elt F) S512x512 .f32 S512x512 .f32).apply
        (((xM.slice (Rect.unit (s := S1x4096x2048) (k0_off14 c) S1x512x512.size (k0_off14_inb c)) (fun _ => rfl)).squeeze S512x512 squeezes_S1x512x512_S512x512).view.read (Elt F) (m ((c : Thread nD τ).loc main_arg0))) (ix2 p q)
      = Xof m c (ix3 (0 : Fin 1) (⟨512 * (6 : Fin 8).val + p.val, by have := p.isLt; show 512 * 6 + p.val < 4096; omega⟩ : Fin 4096)
          (⟨colM c + q.val, by have := colM_le c; have := q.isLt; omega⟩ : Fin 2048)) :=
  dma_read m c (k0_off14 c) (k0_off14_inb c) (512 * 6) (colM c) ((k0_off14_eq c).trans rfl) p q
    (by have := p.isLt; omega) (by have := colM_le c; have := q.isLt; omega)

theorem dmaM_7 (c : Dev nD) (p q : Fin 512) :
    (ReadAs.same : ReadAs (Elt F) S512x512 .f32 S512x512 .f32).apply
        (((xM.slice (Rect.unit (s := S1x4096x2048) (k0_off16 c) S1x512x512.size (k0_off16_inb c)) (fun _ => rfl)).squeeze S512x512 squeezes_S1x512x512_S512x512).view.read (Elt F) (m ((c : Thread nD τ).loc main_arg0))) (ix2 p q)
      = Xof m c (ix3 (0 : Fin 1) (⟨512 * (7 : Fin 8).val + p.val, by have := p.isLt; show 512 * 7 + p.val < 4096; omega⟩ : Fin 4096)
          (⟨colM c + q.val, by have := colM_le c; have := q.isLt; omega⟩ : Fin 2048)) :=
  dma_read m c (k0_off16 c) (k0_off16_inb c) (512 * 7) (colM c) ((k0_off16_eq c).trans rfl) p q
    (by have := p.isLt; omega) (by have := colM_le c; have := q.isLt; omega)

/-! ## A staged block survives one write through the other slot's window -/

theorem stage_sh_ss0 (f : (cc0_scratch3 : Ref sig .tc).ty.Contents (Elt F)) (w w' : S512x512.Idx → Elt F .f32) (p q : Fin 512) :
    ssM.view.readAt (Elt F) (Rect.unit (s := S2x512x512) ![0, 0, 0] S1x512x512.size inb_S2x512x512_S1x512x512_0_0_0).toLoadRect
        (((ssM.slice (Rect.unit (s := S2x512x512) ![1, 0, 0] S1x512x512.size inb_S2x512x512_S1x512x512_1_0_0) (fun _ => rfl)).squeeze S512x512 squeezes_S1x512x512_S512x512).view.write (Elt F) (((ssM.slice (Rect.unit (s := S2x512x512) ![0, 0, 0] S1x512x512.size inb_S2x512x512_S1x512x512_0_0_0) (fun _ => rfl)).squeeze S512x512 squeezes_S1x512x512_S512x512).view.write (Elt F) f w Finset.univ) w' Finset.univ) (ix3 (0 : Fin 1) p q)
      = w (ix2 p q) :=
  (stage_skip_ss0 _ w' p q).trans (stage_hit_ss0 f w p q)

theorem stage_sh_ss1 (f : (cc0_scratch3 : Ref sig .tc).ty.Contents (Elt F)) (w w' : S512x512.Idx → Elt F .f32) (p q : Fin 512) :
    ssM.view.readAt (Elt F) (Rect.unit (s := S2x512x512) ![1, 0, 0] S1x512x512.size inb_S2x512x512_S1x512x512_1_0_0).toLoadRect
        (((ssM.slice (Rect.unit (s := S2x512x512) ![0, 0, 0] S1x512x512.size inb_S2x512x512_S1x512x512_0_0_0) (fun _ => rfl)).squeeze S512x512 squeezes_S1x512x512_S512x512).view.write (Elt F) (((ssM.slice (Rect.unit (s := S2x512x512) ![1, 0, 0] S1x512x512.size inb_S2x512x512_S1x512x512_1_0_0) (fun _ => rfl)).squeeze S512x512 squeezes_S1x512x512_S512x512).view.write (Elt F) f w Finset.univ) w' Finset.univ) (ix3 (0 : Fin 1) p q)
      = w (ix2 p q) :=
  (stage_skip_ss1 _ w' p q).trans (stage_hit_ss1 f w p q)

theorem stage_sh_sm0 (f : (cc0_scratch4 : Ref sig .tc).ty.Contents (Elt F)) (w w' : S512x512.Idx → Elt F .f32) (p q : Fin 512) :
    smM.view.readAt (Elt F) (Rect.unit (s := S2x512x512) ![0, 0, 0] S1x512x512.size inb_S2x512x512_S1x512x512_0_0_0).toLoadRect
        (((smM.slice (Rect.unit (s := S2x512x512) ![1, 0, 0] S1x512x512.size inb_S2x512x512_S1x512x512_1_0_0) (fun _ => rfl)).squeeze S512x512 squeezes_S1x512x512_S512x512).view.write (Elt F) (((smM.slice (Rect.unit (s := S2x512x512) ![0, 0, 0] S1x512x512.size inb_S2x512x512_S1x512x512_0_0_0) (fun _ => rfl)).squeeze S512x512 squeezes_S1x512x512_S512x512).view.write (Elt F) f w Finset.univ) w' Finset.univ) (ix3 (0 : Fin 1) p q)
      = w (ix2 p q) :=
  (stage_skip_sm0 _ w' p q).trans (stage_hit_sm0 f w p q)

theorem stage_sh_sm1 (f : (cc0_scratch4 : Ref sig .tc).ty.Contents (Elt F)) (w w' : S512x512.Idx → Elt F .f32) (p q : Fin 512) :
    smM.view.readAt (Elt F) (Rect.unit (s := S2x512x512) ![1, 0, 0] S1x512x512.size inb_S2x512x512_S1x512x512_1_0_0).toLoadRect
        (((smM.slice (Rect.unit (s := S2x512x512) ![0, 0, 0] S1x512x512.size inb_S2x512x512_S1x512x512_0_0_0) (fun _ => rfl)).squeeze S512x512 squeezes_S1x512x512_S512x512).view.write (Elt F) (((smM.slice (Rect.unit (s := S2x512x512) ![1, 0, 0] S1x512x512.size inb_S2x512x512_S1x512x512_1_0_0) (fun _ => rfl)).squeeze S512x512 squeezes_S1x512x512_S512x512).view.write (Elt F) f w Finset.univ) w' Finset.univ) (ix3 (0 : Fin 1) p q)
      = w (ix2 p q) :=
  (stage_skip_sm1 _ w' p q).trans (stage_hit_sm1 f w p q)

end Cert.KernelIdeal.RS

end
-- ==== Proof.Vsum.lean ====
import proofs.«900308_g7700000000000309_dist_rs_v7x_xy2x2_y_m4096_n1024_bf16_1_alg».proof.Proof.Spec
import proofs.«900308_g7700000000000309_dist_rs_v7x_xy2x2_y_m4096_n1024_bf16_1_alg».proof.Proof.Chunks
import proofs.«900308_g7700000000000309_dist_rs_v7x_xy2x2_y_m4096_n1024_bf16_1_alg».proof.Proof.Vfacts
import Idealize.ShloMosaic.Lib.ValueIdx
import Idealize.ShloMosaic.Lib.ValueLayout
import Idealize.ShloMosaic.Lib.Pipeline.Value
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open ValueIdx

variable {F : FTy → Type} [FloatOps F]

local notation "𝕄" => MT nD τ sig Unit (Elt F) ℕ UU ℕ

variable (m : (ℓ : Loc nD τ sig) → Buf (Elt F) ℓ)

/-! # The second stage's sums

For chunk `k` the second stage adds, element by element, the chunk of the band the device kept and the chunk that landed from
its second-axis partner, and stores the sum onto chunk `k` of the result staging buffer in the device's own columns; the
stored chunk is then copied onto the same chunk of the first-axis partner's buffer. This file says what those chunks hold. -/

/-! ## The rectangle the store names -/

/-- The offsets of the eight stores: rows of the chunk, the 512 columns from `512 (d / 2)`. -/
def outOffS (d : Dev nD) : Fin 8 → (Fin 2 → Nat)
  | 0 => k0_off17 d | 1 => k0_off19 d | 2 => k0_off21 d | 3 => k0_off23 d
  | 4 => k0_off25 d | 5 => k0_off27 d | 6 => k0_off29 d | 7 => k0_off31 d
/-- They are the offsets of the transfers of the same chunks. -/
theorem outOffS_eq (d : Dev nD) (k : Fin 8) : outOffS d k = outOff d k := by
  revert d k; decide +kernel
theorem outOffS_inb (d : Dev nD) (k : Fin 8) : ∀ a, outOffS d k a + S512x512.size a ≤ S4096x1024.size a := by
  revert d k; decide +kernel

/-! ## What the stored chunk holds -/

/-- After the sum of `a` and `b` is stored through the rectangle of chunk `k` in device `c`'s columns, with `a` the chunk of
    the kept band and `b` the chunk landed from the second-axis partner, the result staging buffer holds on that chunk what
    the device's result holds there: element `(p, q)` of the chunk sits at `(512 k + p, 512 (c / 2) + q)`, where the result
    is the kept band plus the landed one. -/
theorem valB (c : Dev nD) (k : Fin 8) (fprev : (cc0_stg0_0 : Ref sig .tc).ty.Contents (Elt F)) (a b : Vec F S512x512 .bf16)
    (ha : ∀ p q : Fin 512, a (ix2 p q) = MBf m c (ix2 (⟨512 * k.val + p.val, by have := k.isLt; have := p.isLt; omega⟩ : Fin 4096) q))
    (hb : ∀ p q : Fin 512, b (ix2 p q) = SBf m (pY c) (ix2 (⟨512 * k.val + p.val, by have := k.isLt; have := p.isLt; omega⟩ : Fin 4096) q)) :
    ∀ i ∈ (oS c k).view.set,
      ((oM.access (Rect.unit (s := S4096x1024) (outOffS c k) S512x512.size (outOffS_inb c k))).write (Elt F) fprev
        (k0_pay18 a b) Finset.univ) i = OUTf m c i := by
  -- the same for any offsets equal to the chunk's
  have key : ∀ (off : Fin 2 → Nat) (inb : ∀ x, off x + S512x512.size x ≤ S4096x1024.size x), off = outOff c k →
      ∀ i ∈ (oS c k).view.set,
        ((oM.access (Rect.unit (s := S4096x1024) off S512x512.size inb)).write (Elt F) fprev (k0_pay18 a b) Finset.univ) i
          = OUTf m c i := by
    intro off inb he
    subst he
    refine agree_of_emb (oS c k).view _ (OUTf m c) (fun y => ?_)
    obtain ⟨p, q, rfl⟩ : ∃ (p q : Fin 512), y = ix2 p q := ⟨y 0, y 1, eq_ix2 y⟩
    rw [out_emb c k p q]
    refine (store_out c k fprev (k0_pay18 a b) p q).trans ?_
    rw [sum_apply, ha p q, hb p q]
    exact (OUTf_own m c _ q).symm
  exact key _ _ (outOffS_eq c k)

/-- After that chunk, holding the device's result, is copied onto the same chunk of the first-axis partner's buffer, the
    partner's buffer holds there what the partner's result holds: in the device's columns the two results are the same. -/
theorem landB_pX (c : Dev nD) (k : Fin 8) (fs fd : (cc0_stg0_0 : Ref sig .tc).ty.Contents (Elt F))
    (h : ∀ i ∈ (oS c k).view.set, fs i = OUTf m c i) :
    ∀ i ∈ (oS c k).view.set,
      ((oS c k).view.write (Elt F) fd ((oS c k).view.read (Elt F) fs) Finset.univ) i = OUTf m (pX c) i := by
  have hG : ∀ i ∈ (oS c k).view.set, OUTf m c i = OUTf m (pX c) i := by
    refine agree_of_emb (oS c k).view (OUTf m c) (OUTf m (pX c)) (fun y => ?_)
    obtain ⟨p, q, rfl⟩ : ∃ (p q : Fin 512), y = ix2 p q := ⟨y 0, y 1, eq_ix2 y⟩
    rw [out_emb c k p q]
    exact (OUTf_pX m c _ q).symm
  intro i hi
  exact (landB c k fs fd (OUTf m c) h i hi).trans (hG i hi)

/-- The load of chunk `k` of the landing buffer, holding what the second-axis partner sent, reads at `(p, q)` the partner's
    sent band at `(512 k + p, q)`. -/
theorem loadAR (c : Dev nD) (k : Fin 8) (p q : Fin 512) :
    arM.view.readAt (Elt F) (Rect.unit (s := S4096x512) (rowOff k) S512x512.size (rowOff_inb k)).toLoadRect (SBf m (pY c)) (ix2 p q)
      = SBf m (pY c) (ix2 (⟨512 * k.val + p.val, by have := k.isLt; have := p.isLt; omega⟩ : Fin 4096) q) :=
  load_chunk_ar (SBf m (pY c)) k p q

/-! ## The kept band's buffer in chunks -/

/-- Chunk `k` of the buffer of the kept band: rows `512 k … 512 k + 511`, every column. -/
abbrev mbS (k : Fin 8) : Memref sig .tc .vmem S512x512 .bf16 :=
  mbM.slice (Rect.unit (s := S4096x512) (rowOff k) S512x512.size (rowOff_inb k)) (fun _ => rfl)

/-- Chunk `k` of the kept band's buffer holds the indices whose row lies in `[512 k, 512 k + 512)`. -/
theorem mem_mbS {k : Fin 8} {i : S4096x512.Idx} :
    i ∈ (mbS k).view.set ↔ 512 * k.val ≤ (i 0).val ∧ (i 0).val < 512 * k.val + 512 := by
  have hs : (mbS k).view.set = (Rect.unit (s := S4096x512) (rowOff k) S512x512.size (rowOff_inb k)).set :=
    View.set_slice_whole cc0_scratch2 _
  have hm : i ∈ (mbS k).view.set
      ↔ (rowOff k 0 ≤ (i 0).val ∧ (i 0).val < rowOff k 0 + S512x512.size 0)
        ∧ (rowOff k 1 ≤ (i 1).val ∧ (i 1).val < rowOff k 1 + S512x512.size 1) := by
    rw [hs]; exact mem_unit_two
  have e00 : rowOff k 0 = 512 * k.val := rfl
  have e01 : rowOff k 1 = 0 := rfl
  have s0 : S512x512.size 0 = 512 := rfl
  have s1 : S512x512.size 1 = 512 := rfl
  have h1 : ((i 1 : Fin (S4096x512.size 1)) : ℕ) < 512 := (i 1).isLt
  rw [hm]
  omega

/-- A whole buffer of the kept band is its eight row chunks. -/
theorem mb_split (d : Dev nD) (f : Buf (Elt F) ((d : Thread nD τ).loc cc0_scratch2)) :
    ((((d : Thread nD τ).loc cc0_scratch2) ↦{fullShare} f) : sProp 𝕄) ⊣⊢ iprop(
      ((mbS 0).view.loc (d : Thread nD τ) ↦[(mbS 0).view.set]{fullShare} f)
      ∗ ((mbS 1).view.loc (d : Thread nD τ) ↦[(mbS 1).view.set]{fullShare} f)
      ∗ ((mbS 2).view.loc (d : Thread nD τ) ↦[(mbS 2).view.set]{fullShare} f)
      ∗ ((mbS 3).view.loc (d : Thread nD τ) ↦[(mbS 3).view.set]{fullShare} f)
      ∗ ((mbS 4).view.loc (d : Thread nD τ) ↦[(mbS 4).view.set]{fullShare} f)
      ∗ ((mbS 5).view.loc (d : Thread nD τ) ↦[(mbS 5).view.set]{fullShare} f)
      ∗ ((mbS 6).view.loc (d : Thread nD τ) ↦[(mbS 6).view.set]{fullShare} f)
      ∗ ((mbS 7).view.loc (d : Thread nD τ) ↦[(mbS 7).view.set]{fullShare} f)) :=
  BiEntails.of_eq (pts_eight (ℓ := (d : Thread nD τ).loc cc0_scratch2) (fun k => (mbS k).view.set) Finset.univ fullShare f
    (rowChunks_cover (fun k => (mbS k).view.set) (fun k i => mem_mbS))
    (rowChunks_disjoint (fun k => (mbS k).view.set) (fun k i => mem_mbS)))

/-- After the converted block `V`, holding the device's argument at rows `512 k …` and the kept band's columns, is stored
    through chunk `k` of the kept band's buffer, the buffer holds on that chunk what the kept band holds there. -/
theorem valMset (c : Dev nD) (k : Fin 8) (fprev : (cc0_scratch2 : Ref sig .tc).ty.Contents (Elt F)) (V : Vec F S1x512x512 .f32)
    (hV : ∀ p q : Fin 512, V (ix3 (0 : Fin 1) p q) = Xof m c (ix3 (0 : Fin 1) (⟨512 * k.val + p.val, by have := k.isLt; have := p.isLt; omega⟩ : Fin 4096) (⟨colM c + q.val, by have := colM_le c; have := q.isLt; omega⟩ : Fin 2048))) :
    ∀ i ∈ (mbS k).view.set,
      ((mbM.access (Rect.unit (s := S4096x512) (rowOff k) S512x512.size (rowOff_inb k))).write (Elt F) fprev (k0_pay1 V) Finset.univ) i
        = MBf m c i := by
  refine agree_of_emb (mbS k).view _ (MBf m c) (fun y => ?_)
  obtain ⟨p, q, rfl⟩ : ∃ (p q : Fin 512), y = ix2 p q := ⟨y 0, y 1, eq_ix2 y⟩
  have he : ((mbS k).view.emb (ix2 p q) : S4096x512.Idx) = ix2 (⟨512 * k.val + p.val, by have := k.isLt; have := p.isLt; omega⟩ : Fin 4096) q := rowEmb_mb k p q
  rw [he]
  exact valM m c k fprev V hV p q

end Cert.KernelIdeal.RS

end
-- ==== Proof.Sends.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Ctx
import proofs.«900308_g7700000000000309_dist_rs_v7x_xy2x2_y_m4096_n1024_bf16_1_alg».proof.Proof.Chunks
import proofs.«900308_g7700000000000309_dist_rs_v7x_xy2x2_y_m4096_n1024_bf16_1_alg».proof.Proof.Vsum
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two kinds of transfer, as rules at the exchange's cells

A first-stage transfer moves chunk `k` of the device's send buffer onto chunk `k` of its second-axis partner's landing buffer;
a second-stage transfer moves chunk `k` of the device's own half of its result buffer onto the same chunk of its first-axis
partner's result buffer. Each is `Rounds.wp_send_pointsTo` at the two cells it pays, given that what lands is what the
schedule promises the receiver. -/

/-- The first stage's transfer of chunk `k`, addressed to `n = pY c`: the source chunk at contents that agree on it with what
    the send buffer ends with, the partner's landing chunk at any contents. -/
theorem wp_sendA (K : GSem nD τ sig → ℕ) (c n : Dev nD) (hn : n = pY c) (k : Fin 8)
    {hsc : (arS k : Memref sig (Dev.tc n : Thread nD τ).2.kind .vmem S512x512 .bf16).view.ref.isScScratch = false}
    {hsrc : (sbS k : Memref sig .tc .vmem S512x512 .bf16).view.WordExact} {hdst : (arS k : Memref sig .tc .vmem S512x512 .bf16).view.WordExact}
    {hsem : DmaTarget.Typed .vmem (.dma (aRs k)) (.remote (Dev.tc n : Thread nD τ) (arS k : Memref sig .tc .vmem S512x512 .bf16) (.dma (aSs k)) hsc)}
    {α : Type} {Q : α → sProp 𝕄} {kk : PUnit → Prog (TpuEff nD τ sig (Elt F) Λ₀ .tc) α}
    (O : CellTallies nD τ sig Unit) (W : Waits sig Unit) :
    iprop(cellInv ER (Rd (SBf m) (OUTf m)) (K (aSCell c k)) (aSCell c k) ∗ cellInv ER (Rd (SBf m) (OUTf m)) (K (aRCell (pY c) k)) (aRCell (pY c) k)
        ∗ (∃ fs : Buf (Elt F) ((sbS k).view.loc (c : Thread nD τ)), ⌜∀ i ∈ (sbS k).view.set, fs i = SBf m c i⌝
            ∗ ((sbS k).view.loc (c : Thread nD τ) ↦[(sbS k).view.set]{fullShare} fs))
        ∗ (∃ fd : Buf (Elt F) ((arS k).view.loc (pY c : Thread nD τ)), ((arS k).view.loc (pY c : Thread nD τ) ↦[(arS k).view.set]{fullShare} fd))
        ∗ owes (c : Thread nD τ) (O + tallyAt (aRCell (pY c) k) () N) W
        ∗ dutyTok ER (aSCell c k) 0 false ∗ reached ER (aSCell c k) 0
        ∗ dutyTok ER (aRCell (pY c) k) 0 false ∗ reached ER (aRCell (pY c) k) 0)
      ⊢ iprop(((cred (tallyAt (aSCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sbS k) (.remote (Dev.tc n : Thread nD τ) (arS k) (.dma (aSs k)) hsc) (.dma (aRs k)) hsrc hdst hsem) kk) Q) := by
  subst hn
  iintro ⟨#HI1, #HI2, ⟨%fs, %hfs, Hs⟩, ⟨%fd, Hd⟩, HO, T1, #R1, T2, #R2⟩
  iapply (Rounds.wp_send_pointsTo 𝒱₀ ER (Rd (SBf m) (OUTf m)) (c : Thread nD τ) none (κ₁ := K (aSCell c k)) (κ₂ := K (aRCell (pY c) k))
    (r₁ := 0) (r₂ := 0) (d₁ := false) (d₂ := false) (fd := fd)
    (by rw [duties_aS]; exact Finset.mem_singleton_self _) (by rw [duties_aR]; exact Finset.mem_singleton_self _)
    () () N rfl (amount_aS (SBf m) (OUTf m) c k false) (amount_aR (SBf m) (OUTf m) (pY c) k false) O rfl (W := W)
    (by rw [payload_aS]; unfold aSPay; exact Entails.of_eq (pointsTo_congr hfs))
    (by rw [payload_aR]; unfold aRPay; rw [pY_pY]; exact Entails.of_eq (pointsTo_congr (landA k fs fd (SBf m c) hfs)))) $$ [Hs Hd HO T1 T2]
  isplitr; · iexact HI1
  isplitr; · iexact HI2
  isplitl [Hs]; · iexact Hs
  isplitl [Hd]; · iexact Hd
  isplitl [HO]; · iexact HO
  isplitl [T1]; · iexact T1
  isplitr; · iexact R1
  isplitl [T2]; · iexact T2
  iexact R2

/-- The second stage's transfer of chunk `k`, addressed to `n = pX c`: the source chunk at contents that agree on it with the
    result buffer's final contents, the partner's chunk at any contents. -/
theorem wp_sendB (K : GSem nD τ sig → ℕ) (c n : Dev nD) (hn : n = pX c) (k : Fin 8)
    {hsc : (oS c k : Memref sig (Dev.tc n : Thread nD τ).2.kind .vmem S512x512 .bf16).view.ref.isScScratch = false}
    {hsrc : (oS c k : Memref sig .tc .vmem S512x512 .bf16).view.WordExact} {hdst : (oS c k : Memref sig .tc .vmem S512x512 .bf16).view.WordExact}
    {hsem : DmaTarget.Typed .vmem (.dma (bRs k)) (.remote (Dev.tc n : Thread nD τ) (oS c k : Memref sig .tc .vmem S512x512 .bf16) (.dma (bSs k)) hsc)}
    {α : Type} {Q : α → sProp 𝕄} {kk : PUnit → Prog (TpuEff nD τ sig (Elt F) Λ₀ .tc) α}
    (O : CellTallies nD τ sig Unit) (W : Waits sig Unit) :
    iprop(cellInv ER (Rd (SBf m) (OUTf m)) (K (bSCell c k)) (bSCell c k) ∗ cellInv ER (Rd (SBf m) (OUTf m)) (K (bRCell (pX c) k)) (bRCell (pX c) k)
        ∗ (∃ fs : Buf (Elt F) ((oS c k).view.loc (c : Thread nD τ)), ⌜∀ i ∈ (oS c k).view.set, fs i = OUTf m c i⌝
            ∗ ((oS c k).view.loc (c : Thread nD τ) ↦[(oS c k).view.set]{fullShare} fs))
        ∗ (∃ fd : Buf (Elt F) ((oS c k).view.loc (pX c : Thread nD τ)), ((oS c k).view.loc (pX c : Thread nD τ) ↦[(oS c k).view.set]{fullShare} fd))
        ∗ owes (c : Thread nD τ) (O + tallyAt (bRCell (pX c) k) () N) W
        ∗ dutyTok ER (bSCell c k) 0 false ∗ reached ER (bSCell c k) 0
        ∗ dutyTok ER (bRCell (pX c) k) 0 false ∗ reached ER (bRCell (pX c) k) 0)
      ⊢ iprop(((cred (tallyAt (bSCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (oS c k) (.remote (Dev.tc n : Thread nD τ) (oS c k) (.dma (bSs k)) hsc) (.dma (bRs k)) hsrc hdst hsem) kk) Q) := by
  subst hn
  iintro ⟨#HI1, #HI2, ⟨%fs, %hfs, Hs⟩, ⟨%fd, Hd⟩, HO, T1, #R1, T2, #R2⟩
  iapply (Rounds.wp_send_pointsTo 𝒱₀ ER (Rd (SBf m) (OUTf m)) (c : Thread nD τ) none (κ₁ := K (bSCell c k)) (κ₂ := K (bRCell (pX c) k))
    (r₁ := 0) (r₂ := 0) (d₁ := false) (d₂ := false) (fd := fd)
    (by rw [duties_bS]; exact Finset.mem_singleton_self _) (by rw [duties_bR]; exact Finset.mem_singleton_self _)
    () () N rfl (amount_bS (SBf m) (OUTf m) c k false) (amount_bR (SBf m) (OUTf m) (pX c) k false) O rfl (W := W)
    (by rw [payload_bS]; unfold bSPay; exact Entails.of_eq (pointsTo_congr hfs))
    (by rw [payload_bR]; unfold bRPay; rw [pX_pX]; exact Entails.of_eq (pointsTo_congr (landB_pX m c k fs fd hfs)))) $$ [Hs Hd HO T1 T2]
  isplitr; · iexact HI1
  isplitr; · iexact HI2
  isplitl [Hs]; · iexact Hs
  isplitl [Hd]; · iexact Hd
  isplitl [HO]; · iexact HO
  isplitl [T1]; · iexact T1
  isplitr; · iexact R1
  isplitl [T2]; · iexact T2
  iexact R2

/-! ## The two barrier signals -/

/-- The signal to the second-axis partner's barrier: the device hands over its landing buffer, chunk by chunk. -/
theorem wp_signalY (K : GSem nD τ sig → ℕ) (c n : Dev nD) (hn : n = pY c)
    {α : Type} {Q : α → sProp 𝕄} {kk : PUnit → Prog (TpuEff nD τ sig (Elt F) Λ₀ .tc) α}
    (O : CellTallies nD τ sig Unit) (W : Waits sig Unit) (far : Buf (Elt F) ((c : Thread nD τ).loc cc0_scratch0)) :
    iprop(cellInv ER (Rd (SBf m) (OUTf m)) (K (barCell (pY c))) (barCell (pY c))
        ∗ owes (c : Thread nD τ) (O + tallyAt (barCell (pY c)) () 1) W
        ∗ dutyTok ER (barCell (pY c)) 0 false ∗ reached ER (barCell (pY c)) 0
        ∗ ((arS 0).view.loc (c : Thread nD τ) ↦[(arS 0).view.set]{fullShare} far)
        ∗ ((arS 1).view.loc (c : Thread nD τ) ↦[(arS 1).view.set]{fullShare} far)
        ∗ ((arS 2).view.loc (c : Thread nD τ) ↦[(arS 2).view.set]{fullShare} far)
        ∗ ((arS 3).view.loc (c : Thread nD τ) ↦[(arS 3).view.set]{fullShare} far)
        ∗ ((arS 4).view.loc (c : Thread nD τ) ↦[(arS 4).view.set]{fullShare} far)
        ∗ ((arS 5).view.loc (c : Thread nD τ) ↦[(arS 5).view.set]{fullShare} far)
        ∗ ((arS 6).view.loc (c : Thread nD τ) ↦[(arS 6).view.set]{fullShare} far)
        ∗ ((arS 7).view.loc (c : Thread nD τ) ↦[(arS 7).view.set]{fullShare} far))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toNat) kk) Q) := by
  subst hn
  iintro ⟨#HI, HO, Htok, #HR, H0, H1, H2, H3, H4, H5, H6, H7⟩
  iapply (Rounds.wp_signal 𝒱₀ ER (Rd (SBf m) (OUTf m)) (c : Thread nD τ) none (dst := (pY c : Thread nD τ)) (κ := K (barCell (pY c)))
      (d := false) (by rw [duties_bar]; decide) ((amount_bar (SBf m) (OUTf m) (pY c) false).trans (by decide)) () O rfl)
    $$ [HO Htok H0 H1 H2 H3 H4 H5 H6 H7]
  isplitr; · iexact HI
  isplitl [HO]; · iexact HO
  isplitl [Htok]; · iexact Htok
  isplitr [HR]
  · rw [payload_barY_to]
    isplitl [H0]; · iexists far; iexact H0
    isplitl [H1]; · iexists far; iexact H1
    isplitl [H2]; · iexists far; iexact H2
    isplitl [H3]; · iexists far; iexact H3
    isplitl [H4]; · iexists far; iexact H4
    isplitl [H5]; · iexists far; iexact H5
    isplitl [H6]; · iexists far; iexact H6
    iexists far; iexact H7
  · iexact HR

/-- The signal to the first-axis partner's barrier: the device hands over the half of its result buffer that partner fills. -/
theorem wp_signalX (K : GSem nD τ sig → ℕ) (c n : Dev nD) (hn : n = pX c)
    {α : Type} {Q : α → sProp 𝕄} {kk : PUnit → Prog (TpuEff nD τ sig (Elt F) Λ₀ .tc) α}
    (O : CellTallies nD τ sig Unit) (W : Waits sig Unit) (fo : Buf (Elt F) ((c : Thread nD τ).loc cc0_stg0_0)) :
    iprop(cellInv ER (Rd (SBf m) (OUTf m)) (K (barCell (pX c))) (barCell (pX c))
        ∗ owes (c : Thread nD τ) (O + tallyAt (barCell (pX c)) () 1) W
        ∗ dutyTok ER (barCell (pX c)) 0 true ∗ reached ER (barCell (pX c)) 0
        ∗ ((oS (pX c) 0).view.loc (c : Thread nD τ) ↦[(oS (pX c) 0).view.set]{fullShare} fo)
        ∗ ((oS (pX c) 1).view.loc (c : Thread nD τ) ↦[(oS (pX c) 1).view.set]{fullShare} fo)
        ∗ ((oS (pX c) 2).view.loc (c : Thread nD τ) ↦[(oS (pX c) 2).view.set]{fullShare} fo)
        ∗ ((oS (pX c) 3).view.loc (c : Thread nD τ) ↦[(oS (pX c) 3).view.set]{fullShare} fo)
        ∗ ((oS (pX c) 4).view.loc (c : Thread nD τ) ↦[(oS (pX c) 4).view.set]{fullShare} fo)
        ∗ ((oS (pX c) 5).view.loc (c : Thread nD τ) ↦[(oS (pX c) 5).view.set]{fullShare} fo)
        ∗ ((oS (pX c) 6).view.loc (c : Thread nD τ) ↦[(oS (pX c) 6).view.set]{fullShare} fo)
        ∗ ((oS (pX c) 7).view.loc (c : Thread nD τ) ↦[(oS (pX c) 7).view.set]{fullShare} fo))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toNat) kk) Q) := by
  subst hn
  iintro ⟨#HI, HO, Htok, #HR, H0, H1, H2, H3, H4, H5, H6, H7⟩
  iapply (Rounds.wp_signal 𝒱₀ ER (Rd (SBf m) (OUTf m)) (c : Thread nD τ) none (dst := (pX c : Thread nD τ)) (κ := K (barCell (pX c)))
      (d := true) (by rw [duties_bar]; decide) ((amount_bar (SBf m) (OUTf m) (pX c) true).trans (by decide)) () O rfl)
    $$ [HO Htok H0 H1 H2 H3 H4 H5 H6 H7]
  isplitr; · iexact HI
  isplitl [HO]; · iexact HO
  isplitl [Htok]; · iexact Htok
  isplitr [HR]
  · rw [payload_barX_to]
    isplitl [H0]; · iexists fo; iexact H0
    isplitl [H1]; · iexists fo; iexact H1
    isplitl [H2]; · iexists fo; iexact H2
    isplitl [H3]; · iexists fo; iexact H3
    isplitl [H4]; · iexists fo; iexact H4
    isplitl [H5]; · iexists fo; iexact H5
    isplitl [H6]; · iexists fo; iexact H6
    iexists fo; iexact H7
  · iexact HR

/-! ## The partners' cells' invariants, one by one -/

theorem peer_BarY (K : GSem nD τ sig → ℕ) (c : Dev nD) : peerInvs m K c ⊢ cellInv ER (Rd (SBf m) (OUTf m)) (K (barCell (pY c))) (barCell (pY c)) := by
  unfold peerInvs; iintro ⟨#H0, #H1, #H2, #H3, #H4, #H5, #H6, #H7, #H8, #H9, #H10, #H11, #H12, #H13, #H14, #H15, #H16, #H17⟩; iexact H0
theorem peer_BarX (K : GSem nD τ sig → ℕ) (c : Dev nD) : peerInvs m K c ⊢ cellInv ER (Rd (SBf m) (OUTf m)) (K (barCell (pX c))) (barCell (pX c)) := by
  unfold peerInvs; iintro ⟨#H0, #H1, #H2, #H3, #H4, #H5, #H6, #H7, #H8, #H9, #H10, #H11, #H12, #H13, #H14, #H15, #H16, #H17⟩; iexact H1
theorem peer_aRY0 (K : GSem nD τ sig → ℕ) (c : Dev nD) : peerInvs m K c ⊢ cellInv ER (Rd (SBf m) (OUTf m)) (K (aRCell (pY c) 0)) (aRCell (pY c) 0) := by
  unfold peerInvs; iintro ⟨#H0, #H1, #H2, #H3, #H4, #H5, #H6, #H7, #H8, #H9, #H10, #H11, #H12, #H13, #H14, #H15, #H16, #H17⟩; iexact H2
theorem peer_bRX0 (K : GSem nD τ sig → ℕ) (c : Dev nD) : peerInvs m K c ⊢ cellInv ER (Rd (SBf m) (OUTf m)) (K (bRCell (pX c) 0)) (bRCell (pX c) 0) := by
  unfold peerInvs; iintro ⟨#H0, #H1, #H2, #H3, #H4, #H5, #H6, #H7, #H8, #H9, #H10, #H11, #H12, #H13, #H14, #H15, #H16, #H17⟩; iexact H3
theorem peer_aRY1 (K : GSem nD τ sig → ℕ) (c : Dev nD) : peerInvs m K c ⊢ cellInv ER (Rd (SBf m) (OUTf m)) (K (aRCell (pY c) 1)) (aRCell (pY c) 1) := by
  unfold peerInvs; iintro ⟨#H0, #H1, #H2, #H3, #H4, #H5, #H6, #H7, #H8, #H9, #H10, #H11, #H12, #H13, #H14, #H15, #H16, #H17⟩; iexact H4
theorem peer_bRX1 (K : GSem nD τ sig → ℕ) (c : Dev nD) : peerInvs m K c ⊢ cellInv ER (Rd (SBf m) (OUTf m)) (K (bRCell (pX c) 1)) (bRCell (pX c) 1) := by
  unfold peerInvs; iintro ⟨#H0, #H1, #H2, #H3, #H4, #H5, #H6, #H7, #H8, #H9, #H10, #H11, #H12, #H13, #H14, #H15, #H16, #H17⟩; iexact H5
theorem peer_aRY2 (K : GSem nD τ sig → ℕ) (c : Dev nD) : peerInvs m K c ⊢ cellInv ER (Rd (SBf m) (OUTf m)) (K (aRCell (pY c) 2)) (aRCell (pY c) 2) := by
  unfold peerInvs; iintro ⟨#H0, #H1, #H2, #H3, #H4, #H5, #H6, #H7, #H8, #H9, #H10, #H11, #H12, #H13, #H14, #H15, #H16, #H17⟩; iexact H6
theorem peer_bRX2 (K : GSem nD τ sig → ℕ) (c : Dev nD) : peerInvs m K c ⊢ cellInv ER (Rd (SBf m) (OUTf m)) (K (bRCell (pX c) 2)) (bRCell (pX c) 2) := by
  unfold peerInvs; iintro ⟨#H0, #H1, #H2, #H3, #H4, #H5, #H6, #H7, #H8, #H9, #H10, #H11, #H12, #H13, #H14, #H15, #H16, #H17⟩; iexact H7
theorem peer_aRY3 (K : GSem nD τ sig → ℕ) (c : Dev nD) : peerInvs m K c ⊢ cellInv ER (Rd (SBf m) (OUTf m)) (K (aRCell (pY c) 3)) (aRCell (pY c) 3) := by
  unfold peerInvs; iintro ⟨#H0, #H1, #H2, #H3, #H4, #H5, #H6, #H7, #H8, #H9, #H10, #H11, #H12, #H13, #H14, #H15, #H16, #H17⟩; iexact H8
theorem peer_bRX3 (K : GSem nD τ sig → ℕ) (c : Dev nD) : peerInvs m K c ⊢ cellInv ER (Rd (SBf m) (OUTf m)) (K (bRCell (pX c) 3)) (bRCell (pX c) 3) := by
  unfold peerInvs; iintro ⟨#H0, #H1, #H2, #H3, #H4, #H5, #H6, #H7, #H8, #H9, #H10, #H11, #H12, #H13, #H14, #H15, #H16, #H17⟩; iexact H9
theorem peer_aRY4 (K : GSem nD τ sig → ℕ) (c : Dev nD) : peerInvs m K c ⊢ cellInv ER (Rd (SBf m) (OUTf m)) (K (aRCell (pY c) 4)) (aRCell (pY c) 4) := by
  unfold peerInvs; iintro ⟨#H0, #H1, #H2, #H3, #H4, #H5, #H6, #H7, #H8, #H9, #H10, #H11, #H12, #H13, #H14, #H15, #H16, #H17⟩; iexact H10
theorem peer_bRX4 (K : GSem nD τ sig → ℕ) (c : Dev nD) : peerInvs m K c ⊢ cellInv ER (Rd (SBf m) (OUTf m)) (K (bRCell (pX c) 4)) (bRCell (pX c) 4) := by
  unfold peerInvs; iintro ⟨#H0, #H1, #H2, #H3, #H4, #H5, #H6, #H7, #H8, #H9, #H10, #H11, #H12, #H13, #H14, #H15, #H16, #H17⟩; iexact H11
theorem peer_aRY5 (K : GSem nD τ sig → ℕ) (c : Dev nD) : peerInvs m K c ⊢ cellInv ER (Rd (SBf m) (OUTf m)) (K (aRCell (pY c) 5)) (aRCell (pY c) 5) := by
  unfold peerInvs; iintro ⟨#H0, #H1, #H2, #H3, #H4, #H5, #H6, #H7, #H8, #H9, #H10, #H11, #H12, #H13, #H14, #H15, #H16, #H17⟩; iexact H12
theorem peer_bRX5 (K : GSem nD τ sig → ℕ) (c : Dev nD) : peerInvs m K c ⊢ cellInv ER (Rd (SBf m) (OUTf m)) (K (bRCell (pX c) 5)) (bRCell (pX c) 5) := by
  unfold peerInvs; iintro ⟨#H0, #H1, #H2, #H3, #H4, #H5, #H6, #H7, #H8, #H9, #H10, #H11, #H12, #H13, #H14, #H15, #H16, #H17⟩; iexact H13
theorem peer_aRY6 (K : GSem nD τ sig → ℕ) (c : Dev nD) : peerInvs m K c ⊢ cellInv ER (Rd (SBf m) (OUTf m)) (K (aRCell (pY c) 6)) (aRCell (pY c) 6) := by
  unfold peerInvs; iintro ⟨#H0, #H1, #H2, #H3, #H4, #H5, #H6, #H7, #H8, #H9, #H10, #H11, #H12, #H13, #H14, #H15, #H16, #H17⟩; iexact H14
theorem peer_bRX6 (K : GSem nD τ sig → ℕ) (c : Dev nD) : peerInvs m K c ⊢ cellInv ER (Rd (SBf m) (OUTf m)) (K (bRCell (pX c) 6)) (bRCell (pX c) 6) := by
  unfold peerInvs; iintro ⟨#H0, #H1, #H2, #H3, #H4, #H5, #H6, #H7, #H8, #H9, #H10, #H11, #H12, #H13, #H14, #H15, #H16, #H17⟩; iexact H15
theorem peer_aRY7 (K : GSem nD τ sig → ℕ) (c : Dev nD) : peerInvs m K c ⊢ cellInv ER (Rd (SBf m) (OUTf m)) (K (aRCell (pY c) 7)) (aRCell (pY c) 7) := by
  unfold peerInvs; iintro ⟨#H0, #H1, #H2, #H3, #H4, #H5, #H6, #H7, #H8, #H9, #H10, #H11, #H12, #H13, #H14, #H15, #H16, #H17⟩; iexact H16
theorem peer_bRX7 (K : GSem nD τ sig → ℕ) (c : Dev nD) : peerInvs m K c ⊢ cellInv ER (Rd (SBf m) (OUTf m)) (K (bRCell (pX c) 7)) (bRCell (pX c) 7) := by
  unfold peerInvs; iintro ⟨#H0, #H1, #H2, #H3, #H4, #H5, #H6, #H7, #H8, #H9, #H10, #H11, #H12, #H13, #H14, #H15, #H16, #H17⟩; iexact H17

end Cert.KernelIdeal.RS

end
-- ==== Proof.Prep.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Ctx
import Idealize.ShloMosaic.Lib.Ring
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers as the body's run holds them -/

omit [FloatOps F] in
/-- A whole buffer spelt through its memref's view is the buffer. -/
theorem whole_eq (c : Dev nD) (b : Ref sig .tc) (q : PosShare TreeShare) (f : Buf (Elt F) ((c : Thread nD τ).loc b)) :
    (((Memref.whole b : Memref sig .tc b.space b.ty.shape b.ty.elt).view.loc (c : Thread nD τ)
        ↦[(Memref.whole b : Memref sig .tc b.space b.ty.shape b.ty.elt).view.set]{q} f) : sProp 𝕄)
      = (((c : Thread nD τ).loc b) ↦{q} f) := by
  rw [show (Memref.whole b : Memref sig .tc b.space b.ty.shape b.ty.elt).view.set = Finset.univ from View.set_whole _]

/-- The argument block's read tokens: token `i` serves the local copies completing on DMA semaphore `i`. -/
abbrev xTok (c : Dev nD) (X : Buf (Elt F) ((xM : Memref sig .tc .hbm S1x4096x2048 .f32).view.loc (c : Thread nD τ))) (i : ℕ) : sProp 𝕄 :=
  (xM : Memref sig .tc .hbm S1x4096x2048 .f32).view.loc (c : Thread nD τ) ↦[(xM : Memref sig .tc .hbm S1x4096x2048 .f32).view.set]{Transfers.shareTokN fullShare i} X
/-- What is left of the argument block beside the four tokens in use. -/
def xRest (c : Dev nD) (X : Buf (Elt F) ((xM : Memref sig .tc .hbm S1x4096x2048 .f32).view.loc (c : Thread nD τ))) : sProp 𝕄 :=
  iprop(((xM : Memref sig .tc .hbm S1x4096x2048 .f32).view.loc (c : Thread nD τ) ↦[(xM : Memref sig .tc .hbm S1x4096x2048 .f32).view.set]{Transfers.shareDrop fullShare 37} X)
    ∗ bigSep (Finset.range 33) (fun i => xTok c X i))

omit [FloatOps F] in
/-- The argument block, whole, is the four read tokens of the local copies' semaphores and the rest. -/
theorem x_toks (c : Dev nD) (X : Buf (Elt F) ((xM : Memref sig .tc .hbm S1x4096x2048 .f32).view.loc (c : Thread nD τ))) :
    (((xM : Memref sig .tc .hbm S1x4096x2048 .f32).view.loc (c : Thread nD τ) ↦[(xM : Memref sig .tc .hbm S1x4096x2048 .f32).view.set]{fullShare} X) : sProp 𝕄)
      ⊣⊢ iprop(xRest c X ∗ xTok c X 33 ∗ xTok c X 34 ∗ xTok c X 35 ∗ xTok c X 36) := by
  refine (Transfers.pointsTo_toks_range (q := fullShare) 37).trans ?_
  rw [show (37 : ℕ) = 36 + 1 from rfl, Ring.bigSep_range_succ 36, show (36 : ℕ) = 35 + 1 from rfl, Ring.bigSep_range_succ 35,
    show (35 : ℕ) = 34 + 1 from rfl, Ring.bigSep_range_succ 34, show (34 : ℕ) = 33 + 1 from rfl, Ring.bigSep_range_succ 33]
  unfold xRest
  constructor
  · iintro ⟨Hd, H36, H35, H34, H33, Hr⟩
    isplitl [Hd Hr]
    · isplitl [Hd] <;> iassumption
    isplitl [H33]; · iexact H33
    isplitl [H34]; · iexact H34
    isplitl [H35]; · iexact H35
    iexact H36
  · iintro ⟨⟨Hd, Hr⟩, H33, H34, H35, H36⟩
    isplitl [Hd]; · iexact Hd
    isplitl [H36]; · iexact H36
    isplitl [H35]; · iexact H35
    isplitl [H34]; · iexact H34
    isplitl [H33]; · iexact H33
    iexact Hr

/-! ## Closing a transfer cell -/

/-- A transfer cell whose one round is consumed closes: its counter, at zero, is the device's again. -/
theorem close_cell (K : GSem nD τ sig → ℕ) (g : GSem nD τ sig) :
    iprop(cellInv ER (Rd (SBf m) (OUTf m)) (K g) g ∗ atPos ER g 1 ∅ 0) ⊢ (|={Set.univ}=> semVal g 0 : sProp 𝕄) :=
  Rounds.cell_close ER (Rd (SBf m) (OUTf m)) (Set.mem_univ (K g)) (fun h => h) (R := 0 + 1) (duties_later (SBf m) (OUTf m) g)

end Cert.KernelIdeal.RS

end
-- ==== Proof.Body.lean ====
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Sends
import proofs.«900308_g7700000000000309_dist_rs_v7x_xy2x2_y_m4096_n1024_bf16_1_alg».proof.Proof.Prep
import proofs.«900308_g7700000000000309_dist_rs_v7x_xy2x2_y_m4096_n1024_bf16_1_alg».proof.Proof.Chunks
import proofs.«900308_g7700000000000309_dist_rs_v7x_xy2x2_y_m4096_n1024_bf16_1_alg».proof.Proof.Spec
import proofs.«900308_g7700000000000309_dist_rs_v7x_xy2x2_y_m4096_n1024_bf16_1_alg».proof.Proof.Vfacts
import proofs.«900308_g7700000000000309_dist_rs_v7x_xy2x2_y_m4096_n1024_bf16_1_alg».proof.Proof.Vsum
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

attribute [local sl_rounds] duties_bar duties_aS duties_aR duties_bS duties_bR amount_bar amount_aS amount_aR amount_bS amount_bR
  expect_bar expect_aS expect_aR expect_bS expect_bR payload_barY_own payload_barX_own
  payload_aS_pt payload_aR_pt payload_bS_pt payload_bR_pt
attribute [local sl_canon] dev1_eq dev2_eq dev3_eq dev4_eq dev5_eq dev6_eq dev7_eq dev8_eq dev9_eq dev10_eq dev11_eq dev12_eq dev13_eq dev14_eq dev15_eq dev16_eq dev17_eq dev18_eq

omit [FloatOps F] in
theorem bisep_eq (P Q : sProp 𝕄) : BI.sep P Q = iprop(P ∗ Q) := rfl

omit [FloatOps F] in
theorem ret_bind' {E : Type → Type} {α β : Type} (a : α) (k : α → Prog E β) : (Prog.ret a).bind k = k a := rfl

omit [FloatOps F] in
/-- A chunk held at contents that agree on it with `g` is the chunk at `g`. -/
theorem restate_chunk {sp : Space} {s : Shape} {e : EltTy} (M : Memref sig .tc sp s e) (d : Dev nD)
    (g : Buf (Elt F) (M.view.loc (d : Thread nD τ))) :
    iprop(∃ f : Buf (Elt F) (M.view.loc (d : Thread nD τ)), ⌜∀ i ∈ M.view.set, f i = g i⌝ ∗ (M.view.loc (d : Thread nD τ) ↦[M.view.set]{fullShare} f))
      ⊢ ((M.view.loc (d : Thread nD τ) ↦[M.view.set]{fullShare} g) : sProp 𝕄) := by
  iintro ⟨%f, %h, H⟩
  iapply (Entails.of_eq (pointsTo_congr h))
  iexact H

/-- What the body leaves: the invariant after it, nothing owed, the result's staging buffer at its final contents. -/
def bodyPost (c : Dev nD) : sProp 𝕄 :=
  iprop(Φ₁ m c ∗ (dats m 0 c).owesAt () (Gen.t0_0 : Fin cfg0.N).succ ∗ (∃ f : Buf (Elt F) ((c : Thread nD τ).loc cc0_stg0_0), ⌜f = OUTf m c⌝ ∗ (((c : Thread nD τ).loc cc0_stg0_0) ↦{fullShare} f)))

set_option sl_exec.dmaWindow true in
set_option sl_exec.dmaWindowSet true in
set_option maxHeartbeats 64000000 in
set_option maxRecDepth 100000 in
theorem sound_body (K : GSem nD τ sig → ℕ) (c : Dev nD) (W : Waits sig Unit)
    (fo : Buf (Elt F) ((c : Thread nD τ).loc cc0_stg0_0)) (Kt : PUnit → sProp 𝕄) :
    iprop(ghost m K c ∗ creds c ∗ levAts L lv ∗ locals0 c ∗ xPts m c ∗ scratch c
        ∗ owes (c : Thread nD τ) (O₀ c) W ∗ (((c : Thread nD τ).loc cc0_stg0_0) ↦{fullShare} fo)
        ∗ (bodyPost m c -∗ Kt ⟨⟩))
      ⊢ wp frame (wpE (defs₀ (F := F)) 𝒱₀ c none) Set.univ
          (cc0_body xM (Memref.isWhole_whole _) oM (Memref.isWhole_whole _) arM (Memref.isWhole_whole _) sbM (Memref.isWhole_whole _)
            mbM (Memref.isWhole_whole _) ssM (Memref.isWhole_whole _) smM (Memref.isWhole_whole _)
            cc0_scratch5 cc0_scratch6 cc0_scratch7 cc0_scratch8 cc0_scratch9 cc0_scratch10) Kt := by
  unfold ghost ownInvs reacheds positions payToks creds locals0 xPts scratch
  iintro ⟨⟨⟨#IBar, #IaS0, #IaR0, #IbS0, #IbR0, #IaS1, #IaR1, #IbS1, #IbR1, #IaS2, #IaR2, #IbS2, #IbR2, #IaS3, #IaR3, #IbS3, #IbR3, #IaS4, #IaR4, #IbS4, #IbR4, #IaS5, #IaR5, #IbS5, #IbR5, #IaS6, #IaR6, #IbS6, #IbR6, #IaS7, #IaR7, #IbS7, #IbR7⟩, #HP, ⟨#RBar, #RaS0, #RaR0, #RbS0, #RbR0, #RaS1, #RaR1, #RbS1, #RbR1, #RaS2, #RaR2, #RbS2, #RbR2, #RaS3, #RaR3, #RbS3, #RbR3, #RaS4, #RaR4, #RbS4, #RbR4, #RaS5, #RaR5, #RbS5, #RbR5, #RaS6, #RaR6, #RbS6, #RbR6, #RaS7, #RaR7, #RbS7, #RbR7, #RBarY, #RBarX, #RaRY0, #RbRX0, #RaRY1, #RbRX1, #RaRY2, #RbRX2, #RaRY3, #RbRX3, #RaRY4, #RbRX4, #RaRY5, #RbRX5, #RaRY6, #RbRX6, #RaRY7, #RbRX7⟩, ⟨AtBar, AtaS0, AtaR0, AtbS0, AtbR0, AtaS1, AtaR1, AtbS1, AtbR1, AtaS2, AtaR2, AtbS2, AtbR2, AtaS3, AtaR3, AtbS3, AtbR3, AtaS4, AtaR4, AtbS4, AtbR4, AtaS5, AtaR5, AtbS5, AtbR5, AtaS6, AtaR6, AtbS6, AtbR6, AtaS7, AtaR7, AtbS7, AtbR7⟩, ⟨TBarY, TBarX, TaS0, TbS0, TaRY0, TbRX0, TaS1, TbS1, TaRY1, TbRX1, TaS2, TbS2, TaRY2, TbRX2, TaS3, TbS3, TaRY3, TbRX3, TaS4, TbS4, TaRY4, TbRX4, TaS5, TbS5, TaRY5, TbRX5, TaS6, TbS6, TaRY6, TbRX6, TaS7, TbS7, TaRY7, TbRX7⟩⟩, ⟨CBar, CaR0, CbR0, CaR1, CbR1, CaR2, CbR2, CaR3, CbR3, CaR4, CbR4, CaR5, CbR5, CaR6, CbR6, CaR7, CbR7⟩, #Hlev, ⟨Zs0, Zs1, Zm0, Zm1⟩, Hx,
    ⟨⟨%far, Har⟩, ⟨%fsb, Hsb⟩, ⟨%fmb, Hmb⟩, ⟨%fss, Hss⟩, ⟨%fsm, Hsm⟩⟩, HO, Ho, Hk⟩
  -- the whole buffers through their memrefs' views; the exchanged ones by chunks; the argument block by read tokens
  ihave Hmb := (mb_split (F := F) c fmb).1 $$ Hmb
  icases Hmb with ⟨Hmb0, Hmb1, Hmb2, Hmb3, Hmb4, Hmb5, Hmb6, Hmb7⟩
  ihave Hss := (Entails.of_eq (whole_eq (F := F) c cc0_scratch3 fullShare fss).symm) $$ Hss
  ihave Hsm := (Entails.of_eq (whole_eq (F := F) c cc0_scratch4 fullShare fsm).symm) $$ Hsm
  ihave Hx := (Entails.of_eq (whole_eq (F := F) c main_arg0 fullShare (m ((c : Thread nD τ).loc main_arg0))).symm) $$ Hx
  ihave Hx := (x_toks (F := F) c (m ((c : Thread nD τ).loc main_arg0))).1 $$ Hx
  icases Hx with ⟨HxR, Hx33, Hx34, Hx35, Hx36⟩
  ihave Har := (ar_split (F := F) c far).1 $$ Har
  icases Har with ⟨Har0, Har1, Har2, Har3, Har4, Har5, Har6, Har7⟩
  ihave Hsb := (sb_split (F := F) c fsb).1 $$ Hsb
  icases Hsb with ⟨Hsb0, Hsb1, Hsb2, Hsb3, Hsb4, Hsb5, Hsb6, Hsb7⟩
  ihave Ho := (out_split (F := F) c fo).1 $$ Ho
  icases Ho with ⟨⟨Ho0, Ho1, Ho2, Ho3, Ho4, Ho5, Ho6, Ho7⟩, ⟨Hp0, Hp1, Hp2, Hp3, Hp4, Hp5, Hp6, Hp7⟩⟩
  have hsA0 : Sup (fun g => 0 < lv g ()) (OA0 c) := (sup_OA0 c).mono fun g h => by omega
  have hsA1 : Sup (fun g => 0 < lv g ()) (OA1 c) := (sup_OA1 c).mono fun g h => by omega
  have hsA2 : Sup (fun g => 0 < lv g ()) (OA2 c) := (sup_OA2 c).mono fun g h => by omega
  have hsA3 : Sup (fun g => 0 < lv g ()) (OA3 c) := (sup_OA3 c).mono fun g h => by omega
  have hsA4 : Sup (fun g => 0 < lv g ()) (OA4 c) := (sup_OA4 c).mono fun g h => by omega
  have hsA5 : Sup (fun g => 0 < lv g ()) (OA5 c) := (sup_OA5 c).mono fun g h => by omega
  have hsA6 : Sup (fun g => 0 < lv g ()) (OA6 c) := (sup_OA6 c).mono fun g h => by omega
  have hsA7 : Sup (fun g => 0 < lv g ()) (OA7 c) := (sup_OA7 c).mono fun g h => by omega
  have hsA8 : Sup (fun g => 0 < lv g ()) (OA8 c) := (sup_OA8 c).mono fun g h => by omega
  have hsB0 : Sup (fun g => 0 < lv g ()) (OB0 c) := (sup_OB0 c).mono fun g h => by omega
  have hsB1 : Sup (fun g => 0 < lv g ()) (OB1 c) := (sup_OB1 c).mono fun g h => by omega
  have hsB2 : Sup (fun g => 0 < lv g ()) (OB2 c) := (sup_OB2 c).mono fun g h => by omega
  have hsB3 : Sup (fun g => 0 < lv g ()) (OB3 c) := (sup_OB3 c).mono fun g h => by omega
  have hsB4 : Sup (fun g => 0 < lv g ()) (OB4 c) := (sup_OB4 c).mono fun g h => by omega
  have hsB5 : Sup (fun g => 0 < lv g ()) (OB5 c) := (sup_OB5 c).mono fun g h => by omega
  have hsB6 : Sup (fun g => 0 < lv g ()) (OB6 c) := (sup_OB6 c).mono fun g h => by omega
  have hsB7 : Sup (fun g => 0 < lv g ()) (OB7 c) := (sup_OB7 c).mono fun g h => by omega
  have hsB8 : Sup (fun g => 0 < lv g ()) (OB8 c) := (sup_OB8 c).mono fun g h => by omega
  have hMWloc : ∀ (q : DmaSem sig), (q.val = 0 ∨ 33 ≤ q.val) → ∀ O : CellTallies nD τ sig Unit, Sup (fun g => 0 < lv g ()) O →
      ((levAts L lv : sProp 𝕄) ⊢ MayWait (c : Thread nD τ) (.dma q) () O) :=
    fun q hq O hO => mayWait_of_sup (F := F) c (.dma q) 0 (le_of_eq (lv_other c q hq)) O hO
  have hws0 := mayWait_of_sup (F := F) c (.dma ss0) 0 (le_of_eq (lv_other c ss0 (Or.inr (by decide)))) (OA0 c) hsA0
  have hwm0 := mayWait_of_sup (F := F) c (.dma sm0) 0 (le_of_eq (lv_other c sm0 (Or.inr (by decide)))) (OA1 c) hsA1
  have hws1 := mayWait_of_sup (F := F) c (.dma ss1) 0 (le_of_eq (lv_other c ss1 (Or.inr (by decide)))) (OA1 c) hsA1
  have hwm1 := mayWait_of_sup (F := F) c (.dma sm1) 0 (le_of_eq (lv_other c sm1 (Or.inr (by decide)))) (OA2 c) hsA2
  have hws2 := mayWait_of_sup (F := F) c (.dma ss0) 0 (le_of_eq (lv_other c ss0 (Or.inr (by decide)))) (OA2 c) hsA2
  have hwm2 := mayWait_of_sup (F := F) c (.dma sm0) 0 (le_of_eq (lv_other c sm0 (Or.inr (by decide)))) (OA3 c) hsA3
  have hws3 := mayWait_of_sup (F := F) c (.dma ss1) 0 (le_of_eq (lv_other c ss1 (Or.inr (by decide)))) (OA3 c) hsA3
  have hwm3 := mayWait_of_sup (F := F) c (.dma sm1) 0 (le_of_eq (lv_other c sm1 (Or.inr (by decide)))) (OA4 c) hsA4
  have hws4 := mayWait_of_sup (F := F) c (.dma ss0) 0 (le_of_eq (lv_other c ss0 (Or.inr (by decide)))) (OA4 c) hsA4
  have hwm4 := mayWait_of_sup (F := F) c (.dma sm0) 0 (le_of_eq (lv_other c sm0 (Or.inr (by decide)))) (OA5 c) hsA5
  have hws5 := mayWait_of_sup (F := F) c (.dma ss1) 0 (le_of_eq (lv_other c ss1 (Or.inr (by decide)))) (OA5 c) hsA5
  have hwm5 := mayWait_of_sup (F := F) c (.dma sm1) 0 (le_of_eq (lv_other c sm1 (Or.inr (by decide)))) (OA6 c) hsA6
  have hws6 := mayWait_of_sup (F := F) c (.dma ss0) 0 (le_of_eq (lv_other c ss0 (Or.inr (by decide)))) (OA6 c) hsA6
  have hwm6 := mayWait_of_sup (F := F) c (.dma sm0) 0 (le_of_eq (lv_other c sm0 (Or.inr (by decide)))) (OA7 c) hsA7
  have hws7 := mayWait_of_sup (F := F) c (.dma ss1) 0 (le_of_eq (lv_other c ss1 (Or.inr (by decide)))) (OA7 c) hsA7
  have hwm7 := mayWait_of_sup (F := F) c (.dma sm1) 0 (le_of_eq (lv_other c sm1 (Or.inr (by decide)))) (OA8 c) hsA8
  have hMWbar := mayWait_of_sup (F := F) c (.reg barS) 1 (le_of_eq (lv_bar c)) (OA0 c) (sup_OA0 c)
  have hMWaR0 := mayWait_of_sup (F := F) c (.dma (aRs 0)) 2 (le_of_eq (lv_aR c 0)) (OB0 c) (sup_OB0 c)
  have hMWaR1 := mayWait_of_sup (F := F) c (.dma (aRs 1)) 2 (le_of_eq (lv_aR c 1)) (OB1 c) (sup_OB1 c)
  have hMWaR2 := mayWait_of_sup (F := F) c (.dma (aRs 2)) 2 (le_of_eq (lv_aR c 2)) (OB2 c) (sup_OB2 c)
  have hMWaR3 := mayWait_of_sup (F := F) c (.dma (aRs 3)) 2 (le_of_eq (lv_aR c 3)) (OB3 c) (sup_OB3 c)
  have hMWaR4 := mayWait_of_sup (F := F) c (.dma (aRs 4)) 2 (le_of_eq (lv_aR c 4)) (OB4 c) (sup_OB4 c)
  have hMWaR5 := mayWait_of_sup (F := F) c (.dma (aRs 5)) 2 (le_of_eq (lv_aR c 5)) (OB5 c) (sup_OB5 c)
  have hMWaR6 := mayWait_of_sup (F := F) c (.dma (aRs 6)) 2 (le_of_eq (lv_aR c 6)) (OB6 c) (sup_OB6 c)
  have hMWaR7 := mayWait_of_sup (F := F) c (.dma (aRs 7)) 2 (le_of_eq (lv_aR c 7)) (OB7 c) (sup_OB7 c)
  -- the four staging copies start; the run stops at the first signal
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- the two barrier signals, each with what it hands its partner
  try (rw [wp_ret]; imodintro)
  ihave #IBarY := (peer_BarY m K c) $$ HP
  unfold O₀ O₁
  iapply (wp_signalY m K c _ (by first | rfl | exact dev1_eq c) (OA0 c + tallyAt (barCell (pX c)) () 1) W far)
    $$ [HO TBarY Har0 Har1 Har2 Har3 Har4 Har5 Har6 Har7]
  · isplitr; · iexact IBarY
    isplitl [HO]; · iexact HO
    isplitl [TBarY]; · iexact TBarY
    isplitr; · iexact RBarY
    isplitl [Har0]; · iexact Har0
    isplitl [Har1]; · iexact Har1
    isplitl [Har2]; · iexact Har2
    isplitl [Har3]; · iexact Har3
    isplitl [Har4]; · iexact Har4
    isplitl [Har5]; · iexact Har5
    isplitl [Har6]; · iexact Har6
    iexact Har7
  iintro HO
  try rw [ret_bind']
  try (rw [wp_ret]; imodintro)
  ihave #IBarX := (peer_BarX m K c) $$ HP
  iapply (wp_signalX m K c _ (by first | rfl | exact dev2_eq c) (OA0 c) W fo)
    $$ [HO TBarX Hp0 Hp1 Hp2 Hp3 Hp4 Hp5 Hp6 Hp7]
  · isplitr; · iexact IBarX
    isplitl [HO]; · iexact HO
    isplitl [TBarX]; · iexact TBarX
    isplitr; · iexact RBarX
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  iintro HO
  try rw [ret_bind']
  -- the barrier wait, the first staged chunk's wait, its conversion and store; the run stops at the first transfer
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- what the partners handed over at the barrier, chunk by chunk
  ihave AtBar_pay1 := (Entails.of_eq (bisep_eq _ _)) $$ AtBar_pay1
  icases AtBar_pay1 with ⟨⟨⟨%fy0, HarY0⟩, ⟨%fy1, HarY1⟩, ⟨%fy2, HarY2⟩, ⟨%fy3, HarY3⟩, ⟨%fy4, HarY4⟩, ⟨%fy5, HarY5⟩, ⟨%fy6, HarY6⟩, ⟨%fy7, HarY7⟩⟩, ⟨⟨%fx0, HoX0⟩, ⟨%fx1, HoX1⟩, ⟨%fx2, HoX2⟩, ⟨%fx3, HoX3⟩, ⟨%fx4, HoX4⟩, ⟨%fx5, HoX5⟩, ⟨%fx6, HoX6⟩, ⟨%fx7, HoX7⟩⟩⟩
  -- first stage, chunk 0: the converted band goes to the second-axis partner
  ihave #IaRY0 := (peer_aRY0 m K c) $$ HP
  iapply (wp_sendA m K c _ (by first | rfl | exact dev3_eq c) 0 (OA1 c) _) $$ [Hsb0 HarY0 HO TaS0 TaRY0]
  · isplitr; · iexact IaS0
    isplitr; · iexact IaRY0
    isplitl [Hsb0]
    · iexists _
      isplitr
      rotate_left
      · iexact Hsb0
      · ipureintro
        exact valA m c 0 _ _ (fun p q => (stage_sh_ss0 _ _ _ p q).trans (dmaA_0 m c p q))
    isplitl [HarY0]; · iexists fy0; iexact HarY0
    isplitl [HO]; · iexact HO
    isplitl [TaS0]; · iexact TaS0
    isplitr; · iexact RaS0
    isplitl [TaRY0]; · iexact TaRY0
    iexact RaRY0
  iintro ⟨CaS0, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 1: the converted band goes to the second-axis partner
  ihave #IaRY1 := (peer_aRY1 m K c) $$ HP
  iapply (wp_sendA m K c _ (by first | rfl | exact dev4_eq c) 1 (OA2 c) _) $$ [Hsb1 HarY1 HO TaS1 TaRY1]
  · isplitr; · iexact IaS1
    isplitr; · iexact IaRY1
    isplitl [Hsb1]
    · iexists _
      isplitr
      rotate_left
      · iexact Hsb1
      · ipureintro
        exact valA m c 1 _ _ (fun p q => (stage_sh_ss1 _ _ _ p q).trans (dmaA_1 m c p q))
    isplitl [HarY1]; · iexists fy1; iexact HarY1
    isplitl [HO]; · iexact HO
    isplitl [TaS1]; · iexact TaS1
    isplitr; · iexact RaS1
    isplitl [TaRY1]; · iexact TaRY1
    iexact RaRY1
  iintro ⟨CaS1, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 2: the converted band goes to the second-axis partner
  ihave #IaRY2 := (peer_aRY2 m K c) $$ HP
  iapply (wp_sendA m K c _ (by first | rfl | exact dev5_eq c) 2 (OA3 c) _) $$ [Hsb2 HarY2 HO TaS2 TaRY2]
  · isplitr; · iexact IaS2
    isplitr; · iexact IaRY2
    isplitl [Hsb2]
    · iexists _
      isplitr
      rotate_left
      · iexact Hsb2
      · ipureintro
        exact valA m c 2 _ _ (fun p q => (stage_sh_ss0 _ _ _ p q).trans (dmaA_2 m c p q))
    isplitl [HarY2]; · iexists fy2; iexact HarY2
    isplitl [HO]; · iexact HO
    isplitl [TaS2]; · iexact TaS2
    isplitr; · iexact RaS2
    isplitl [TaRY2]; · iexact TaRY2
    iexact RaRY2
  iintro ⟨CaS2, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 3: the converted band goes to the second-axis partner
  ihave #IaRY3 := (peer_aRY3 m K c) $$ HP
  iapply (wp_sendA m K c _ (by first | rfl | exact dev6_eq c) 3 (OA4 c) _) $$ [Hsb3 HarY3 HO TaS3 TaRY3]
  · isplitr; · iexact IaS3
    isplitr; · iexact IaRY3
    isplitl [Hsb3]
    · iexists _
      isplitr
      rotate_left
      · iexact Hsb3
      · ipureintro
        exact valA m c 3 _ _ (fun p q => (stage_sh_ss1 _ _ _ p q).trans (dmaA_3 m c p q))
    isplitl [HarY3]; · iexists fy3; iexact HarY3
    isplitl [HO]; · iexact HO
    isplitl [TaS3]; · iexact TaS3
    isplitr; · iexact RaS3
    isplitl [TaRY3]; · iexact TaRY3
    iexact RaRY3
  iintro ⟨CaS3, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 4: the converted band goes to the second-axis partner
  ihave #IaRY4 := (peer_aRY4 m K c) $$ HP
  iapply (wp_sendA m K c _ (by first | rfl | exact dev7_eq c) 4 (OA5 c) _) $$ [Hsb4 HarY4 HO TaS4 TaRY4]
  · isplitr; · iexact IaS4
    isplitr; · iexact IaRY4
    isplitl [Hsb4]
    · iexists _
      isplitr
      rotate_left
      · iexact Hsb4
      · ipureintro
        exact valA m c 4 _ _ (fun p q => (stage_sh_ss0 _ _ _ p q).trans (dmaA_4 m c p q))
    isplitl [HarY4]; · iexists fy4; iexact HarY4
    isplitl [HO]; · iexact HO
    isplitl [TaS4]; · iexact TaS4
    isplitr; · iexact RaS4
    isplitl [TaRY4]; · iexact TaRY4
    iexact RaRY4
  iintro ⟨CaS4, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 5: the converted band goes to the second-axis partner
  ihave #IaRY5 := (peer_aRY5 m K c) $$ HP
  iapply (wp_sendA m K c _ (by first | rfl | exact dev8_eq c) 5 (OA6 c) _) $$ [Hsb5 HarY5 HO TaS5 TaRY5]
  · isplitr; · iexact IaS5
    isplitr; · iexact IaRY5
    isplitl [Hsb5]
    · iexists _
      isplitr
      rotate_left
      · iexact Hsb5
      · ipureintro
        exact valA m c 5 _ _ (fun p q => (stage_sh_ss1 _ _ _ p q).trans (dmaA_5 m c p q))
    isplitl [HarY5]; · iexists fy5; iexact HarY5
    isplitl [HO]; · iexact HO
    isplitl [TaS5]; · iexact TaS5
    isplitr; · iexact RaS5
    isplitl [TaRY5]; · iexact TaRY5
    iexact RaRY5
  iintro ⟨CaS5, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 6: the converted band goes to the second-axis partner
  ihave #IaRY6 := (peer_aRY6 m K c) $$ HP
  iapply (wp_sendA m K c _ (by first | rfl | exact dev9_eq c) 6 (OA7 c) _) $$ [Hsb6 HarY6 HO TaS6 TaRY6]
  · isplitr; · iexact IaS6
    isplitr; · iexact IaRY6
    isplitl [Hsb6]
    · iexists _
      isplitr
      rotate_left
      · iexact Hsb6
      · ipureintro
        exact valA m c 6 _ _ (fun p q => (stage_sh_ss0 _ _ _ p q).trans (dmaA_6 m c p q))
    isplitl [HarY6]; · iexists fy6; iexact HarY6
    isplitl [HO]; · iexact HO
    isplitl [TaS6]; · iexact TaS6
    isplitr; · iexact RaS6
    isplitl [TaRY6]; · iexact TaRY6
    iexact RaRY6
  iintro ⟨CaS6, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 7: the converted band goes to the second-axis partner
  ihave #IaRY7 := (peer_aRY7 m K c) $$ HP
  iapply (wp_sendA m K c _ (by first | rfl | exact dev10_eq c) 7 (OB0 c) _) $$ [Hsb7 HarY7 HO TaS7 TaRY7]
  · isplitr; · iexact IaS7
    isplitr; · iexact IaRY7
    isplitl [Hsb7]
    · iexists _
      isplitr
      rotate_left
      · iexact Hsb7
      · ipureintro
        exact valA m c 7 _ _ (fun p q => (stage_hit_ss1 _ _ p q).trans (dmaA_7 m c p q))
    isplitl [HarY7]; · iexists fy7; iexact HarY7
    isplitl [HO]; · iexact HO
    isplitl [TaS7]; · iexact TaS7
    isplitr; · iexact RaS7
    isplitl [TaRY7]; · iexact TaRY7
    iexact RaRY7
  iintro ⟨CaS7, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 0: the summed half goes to the first-axis partner
  ihave #IbRX0 := (peer_bRX0 m K c) $$ HP
  iapply (wp_sendB m K c _ (by first | rfl | exact dev11_eq c) 0 (OB1 c) _) $$ [Ho0 HoX0 HO TbS0 TbRX0]
  · isplitr; · iexact IbS0
    isplitr; · iexact IbRX0
    isplitl [Ho0]
    · iexists _
      isplitr
      rotate_left
      · iexact Ho0
      · ipureintro
        exact valB m c 0 _ _ _
          (fun p q => by
            first
              | exact (load_chunk_mb _ 0 p q).trans (valM m c 0 _ _ (fun p q => (stage_sh_sm0 _ _ _ p q).trans (dmaM_0 m c p q)) p q)
              | exact (conv_apply _ p q).trans (congrArg _ ((stage_sh_sm0 _ _ _ p q).trans (dmaM_0 m c p q))))
          (fun p q => loadAR m c 0 p q)
    isplitl [HoX0]; · iexists fx0; iexact HoX0
    isplitl [HO]; · iexact HO
    isplitl [TbS0]; · iexact TbS0
    isplitr; · iexact RbS0
    isplitl [TbRX0]; · iexact TbRX0
    iexact RbRX0
  iintro ⟨CbS0, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 1: the summed half goes to the first-axis partner
  ihave #IbRX1 := (peer_bRX1 m K c) $$ HP
  iapply (wp_sendB m K c _ (by first | rfl | exact dev12_eq c) 1 (OB2 c) _) $$ [Ho1 HoX1 HO TbS1 TbRX1]
  · isplitr; · iexact IbS1
    isplitr; · iexact IbRX1
    isplitl [Ho1]
    · iexists _
      isplitr
      rotate_left
      · iexact Ho1
      · ipureintro
        exact valB m c 1 _ _ _
          (fun p q => by
            first
              | exact (load_chunk_mb _ 1 p q).trans (valM m c 1 _ _ (fun p q => (stage_sh_sm1 _ _ _ p q).trans (dmaM_1 m c p q)) p q)
              | exact (conv_apply _ p q).trans (congrArg _ ((stage_sh_sm1 _ _ _ p q).trans (dmaM_1 m c p q))))
          (fun p q => loadAR m c 1 p q)
    isplitl [HoX1]; · iexists fx1; iexact HoX1
    isplitl [HO]; · iexact HO
    isplitl [TbS1]; · iexact TbS1
    isplitr; · iexact RbS1
    isplitl [TbRX1]; · iexact TbRX1
    iexact RbRX1
  iintro ⟨CbS1, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 2: the summed half goes to the first-axis partner
  ihave #IbRX2 := (peer_bRX2 m K c) $$ HP
  iapply (wp_sendB m K c _ (by first | rfl | exact dev13_eq c) 2 (OB3 c) _) $$ [Ho2 HoX2 HO TbS2 TbRX2]
  · isplitr; · iexact IbS2
    isplitr; · iexact IbRX2
    isplitl [Ho2]
    · iexists _
      isplitr
      rotate_left
      · iexact Ho2
      · ipureintro
        exact valB m c 2 _ _ _
          (fun p q => by
            first
              | exact (load_chunk_mb _ 2 p q).trans (valM m c 2 _ _ (fun p q => (stage_sh_sm0 _ _ _ p q).trans (dmaM_2 m c p q)) p q)
              | exact (conv_apply _ p q).trans (congrArg _ ((stage_sh_sm0 _ _ _ p q).trans (dmaM_2 m c p q))))
          (fun p q => loadAR m c 2 p q)
    isplitl [HoX2]; · iexists fx2; iexact HoX2
    isplitl [HO]; · iexact HO
    isplitl [TbS2]; · iexact TbS2
    isplitr; · iexact RbS2
    isplitl [TbRX2]; · iexact TbRX2
    iexact RbRX2
  iintro ⟨CbS2, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 3: the summed half goes to the first-axis partner
  ihave #IbRX3 := (peer_bRX3 m K c) $$ HP
  iapply (wp_sendB m K c _ (by first | rfl | exact dev14_eq c) 3 (OB4 c) _) $$ [Ho3 HoX3 HO TbS3 TbRX3]
  · isplitr; · iexact IbS3
    isplitr; · iexact IbRX3
    isplitl [Ho3]
    · iexists _
      isplitr
      rotate_left
      · iexact Ho3
      · ipureintro
        exact valB m c 3 _ _ _
          (fun p q => by
            first
              | exact (load_chunk_mb _ 3 p q).trans (valM m c 3 _ _ (fun p q => (stage_sh_sm1 _ _ _ p q).trans (dmaM_3 m c p q)) p q)
              | exact (conv_apply _ p q).trans (congrArg _ ((stage_sh_sm1 _ _ _ p q).trans (dmaM_3 m c p q))))
          (fun p q => loadAR m c 3 p q)
    isplitl [HoX3]; · iexists fx3; iexact HoX3
    isplitl [HO]; · iexact HO
    isplitl [TbS3]; · iexact TbS3
    isplitr; · iexact RbS3
    isplitl [TbRX3]; · iexact TbRX3
    iexact RbRX3
  iintro ⟨CbS3, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 4: the summed half goes to the first-axis partner
  ihave #IbRX4 := (peer_bRX4 m K c) $$ HP
  iapply (wp_sendB m K c _ (by first | rfl | exact dev15_eq c) 4 (OB5 c) _) $$ [Ho4 HoX4 HO TbS4 TbRX4]
  · isplitr; · iexact IbS4
    isplitr; · iexact IbRX4
    isplitl [Ho4]
    · iexists _
      isplitr
      rotate_left
      · iexact Ho4
      · ipureintro
        exact valB m c 4 _ _ _
          (fun p q => by
            first
              | exact (load_chunk_mb _ 4 p q).trans (valM m c 4 _ _ (fun p q => (stage_sh_sm0 _ _ _ p q).trans (dmaM_4 m c p q)) p q)
              | exact (conv_apply _ p q).trans (congrArg _ ((stage_sh_sm0 _ _ _ p q).trans (dmaM_4 m c p q))))
          (fun p q => loadAR m c 4 p q)
    isplitl [HoX4]; · iexists fx4; iexact HoX4
    isplitl [HO]; · iexact HO
    isplitl [TbS4]; · iexact TbS4
    isplitr; · iexact RbS4
    isplitl [TbRX4]; · iexact TbRX4
    iexact RbRX4
  iintro ⟨CbS4, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 5: the summed half goes to the first-axis partner
  ihave #IbRX5 := (peer_bRX5 m K c) $$ HP
  iapply (wp_sendB m K c _ (by first | rfl | exact dev16_eq c) 5 (OB6 c) _) $$ [Ho5 HoX5 HO TbS5 TbRX5]
  · isplitr; · iexact IbS5
    isplitr; · iexact IbRX5
    isplitl [Ho5]
    · iexists _
      isplitr
      rotate_left
      · iexact Ho5
      · ipureintro
        exact valB m c 5 _ _ _
          (fun p q => by
            first
              | exact (load_chunk_mb _ 5 p q).trans (valM m c 5 _ _ (fun p q => (stage_sh_sm1 _ _ _ p q).trans (dmaM_5 m c p q)) p q)
              | exact (conv_apply _ p q).trans (congrArg _ ((stage_sh_sm1 _ _ _ p q).trans (dmaM_5 m c p q))))
          (fun p q => loadAR m c 5 p q)
    isplitl [HoX5]; · iexists fx5; iexact HoX5
    isplitl [HO]; · iexact HO
    isplitl [TbS5]; · iexact TbS5
    isplitr; · iexact RbS5
    isplitl [TbRX5]; · iexact TbRX5
    iexact RbRX5
  iintro ⟨CbS5, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 6: the summed half goes to the first-axis partner
  ihave #IbRX6 := (peer_bRX6 m K c) $$ HP
  iapply (wp_sendB m K c _ (by first | rfl | exact dev17_eq c) 6 (OB7 c) _) $$ [Ho6 HoX6 HO TbS6 TbRX6]
  · isplitr; · iexact IbS6
    isplitr; · iexact IbRX6
    isplitl [Ho6]
    · iexists _
      isplitr
      rotate_left
      · iexact Ho6
      · ipureintro
        exact valB m c 6 _ _ _
          (fun p q => by
            first
              | exact (load_chunk_mb _ 6 p q).trans (valM m c 6 _ _ (fun p q => (stage_sh_sm0 _ _ _ p q).trans (dmaM_6 m c p q)) p q)
              | exact (conv_apply _ p q).trans (congrArg _ ((stage_sh_sm0 _ _ _ p q).trans (dmaM_6 m c p q))))
          (fun p q => loadAR m c 6 p q)
    isplitl [HoX6]; · iexists fx6; iexact HoX6
    isplitl [HO]; · iexact HO
    isplitl [TbS6]; · iexact TbS6
    isplitr; · iexact RbS6
    isplitl [TbRX6]; · iexact TbRX6
    iexact RbRX6
  iintro ⟨CbS6, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 7: the summed half goes to the first-axis partner
  ihave #IbRX7 := (peer_bRX7 m K c) $$ HP
  iapply (wp_sendB m K c _ (by first | rfl | exact dev18_eq c) 7 (0) _) $$ [Ho7 HoX7 HO TbS7 TbRX7]
  · isplitr; · iexact IbS7
    isplitr; · iexact IbRX7
    isplitl [Ho7]
    · iexists _
      isplitr
      rotate_left
      · iexact Ho7
      · ipureintro
        exact valB m c 7 _ _ _
          (fun p q => by
            first
              | exact (load_chunk_mb _ 7 p q).trans (valM m c 7 _ _ (fun p q => (stage_hit_sm1 _ _ p q).trans (dmaM_7 m c p q)) p q)
              | exact (conv_apply _ p q).trans (congrArg _ ((stage_hit_sm1 _ _ p q).trans (dmaM_7 m c p q))))
          (fun p q => loadAR m c 7 p q)
    isplitl [HoX7]; · iexists fx7; iexact HoX7
    isplitl [HO]; · iexact HO
    isplitl [TbS7]; · iexact TbS7
    isplitr; · iexact RbS7
    isplitl [TbRX7]; · iexact TbRX7
    iexact RbRX7
  iintro ⟨CbS7, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- every wait is done: the 32 transfer cells close (their counters, at zero, are the device's again); the kernel returns
  imod (close_cell m K (aSCell c 0)) $$ [AtaS0] with ZaS0
  · isplitr; · iexact IaS0
    iexact AtaS0
  imod (close_cell m K (aRCell c 0)) $$ [AtaR0] with ZaR0
  · isplitr; · iexact IaR0
    iexact AtaR0
  imod (close_cell m K (bSCell c 0)) $$ [AtbS0] with ZbS0
  · isplitr; · iexact IbS0
    iexact AtbS0
  imod (close_cell m K (bRCell c 0)) $$ [AtbR0] with ZbR0
  · isplitr; · iexact IbR0
    iexact AtbR0
  imod (close_cell m K (aSCell c 1)) $$ [AtaS1] with ZaS1
  · isplitr; · iexact IaS1
    iexact AtaS1
  imod (close_cell m K (aRCell c 1)) $$ [AtaR1] with ZaR1
  · isplitr; · iexact IaR1
    iexact AtaR1
  imod (close_cell m K (bSCell c 1)) $$ [AtbS1] with ZbS1
  · isplitr; · iexact IbS1
    iexact AtbS1
  imod (close_cell m K (bRCell c 1)) $$ [AtbR1] with ZbR1
  · isplitr; · iexact IbR1
    iexact AtbR1
  imod (close_cell m K (aSCell c 2)) $$ [AtaS2] with ZaS2
  · isplitr; · iexact IaS2
    iexact AtaS2
  imod (close_cell m K (aRCell c 2)) $$ [AtaR2] with ZaR2
  · isplitr; · iexact IaR2
    iexact AtaR2
  imod (close_cell m K (bSCell c 2)) $$ [AtbS2] with ZbS2
  · isplitr; · iexact IbS2
    iexact AtbS2
  imod (close_cell m K (bRCell c 2)) $$ [AtbR2] with ZbR2
  · isplitr; · iexact IbR2
    iexact AtbR2
  imod (close_cell m K (aSCell c 3)) $$ [AtaS3] with ZaS3
  · isplitr; · iexact IaS3
    iexact AtaS3
  imod (close_cell m K (aRCell c 3)) $$ [AtaR3] with ZaR3
  · isplitr; · iexact IaR3
    iexact AtaR3
  imod (close_cell m K (bSCell c 3)) $$ [AtbS3] with ZbS3
  · isplitr; · iexact IbS3
    iexact AtbS3
  imod (close_cell m K (bRCell c 3)) $$ [AtbR3] with ZbR3
  · isplitr; · iexact IbR3
    iexact AtbR3
  imod (close_cell m K (aSCell c 4)) $$ [AtaS4] with ZaS4
  · isplitr; · iexact IaS4
    iexact AtaS4
  imod (close_cell m K (aRCell c 4)) $$ [AtaR4] with ZaR4
  · isplitr; · iexact IaR4
    iexact AtaR4
  imod (close_cell m K (bSCell c 4)) $$ [AtbS4] with ZbS4
  · isplitr; · iexact IbS4
    iexact AtbS4
  imod (close_cell m K (bRCell c 4)) $$ [AtbR4] with ZbR4
  · isplitr; · iexact IbR4
    iexact AtbR4
  imod (close_cell m K (aSCell c 5)) $$ [AtaS5] with ZaS5
  · isplitr; · iexact IaS5
    iexact AtaS5
  imod (close_cell m K (aRCell c 5)) $$ [AtaR5] with ZaR5
  · isplitr; · iexact IaR5
    iexact AtaR5
  imod (close_cell m K (bSCell c 5)) $$ [AtbS5] with ZbS5
  · isplitr; · iexact IbS5
    iexact AtbS5
  imod (close_cell m K (bRCell c 5)) $$ [AtbR5] with ZbR5
  · isplitr; · iexact IbR5
    iexact AtbR5
  imod (close_cell m K (aSCell c 6)) $$ [AtaS6] with ZaS6
  · isplitr; · iexact IaS6
    iexact AtaS6
  imod (close_cell m K (aRCell c 6)) $$ [AtaR6] with ZaR6
  · isplitr; · iexact IaR6
    iexact AtaR6
  imod (close_cell m K (bSCell c 6)) $$ [AtbS6] with ZbS6
  · isplitr; · iexact IbS6
    iexact AtbS6
  imod (close_cell m K (bRCell c 6)) $$ [AtbR6] with ZbR6
  · isplitr; · iexact IbR6
    iexact AtbR6
  imod (close_cell m K (aSCell c 7)) $$ [AtaS7] with ZaS7
  · isplitr; · iexact IaS7
    iexact AtaS7
  imod (close_cell m K (aRCell c 7)) $$ [AtaR7] with ZaR7
  · isplitr; · iexact IaR7
    iexact AtaR7
  imod (close_cell m K (bSCell c 7)) $$ [AtbS7] with ZbS7
  · isplitr; · iexact IbS7
    iexact AtbS7
  imod (close_cell m K (bRCell c 7)) $$ [AtbR7] with ZbR7
  · isplitr; · iexact IbR7
    iexact AtbR7
  rw [wp_ret]; imodintro
  iapply Hk
  -- the chunks rejoin: the result buffer at its final contents, the landing and the send buffers whole
  ihave Ho := (out_split (F := F) c (OUTf m c)).2 $$ [AtbS0_pay1 AtbS1_pay1 AtbS2_pay1 AtbS3_pay1 AtbS4_pay1 AtbS5_pay1 AtbS6_pay1 AtbS7_pay1 AtbR0_pay1 AtbR1_pay1 AtbR2_pay1 AtbR3_pay1 AtbR4_pay1 AtbR5_pay1 AtbR6_pay1 AtbR7_pay1]
  · isplitl [AtbS0_pay1 AtbS1_pay1 AtbS2_pay1 AtbS3_pay1 AtbS4_pay1 AtbS5_pay1 AtbS6_pay1 AtbS7_pay1]
    · isplitl [AtbS0_pay1]; · iexact AtbS0_pay1
      isplitl [AtbS1_pay1]; · iexact AtbS1_pay1
      isplitl [AtbS2_pay1]; · iexact AtbS2_pay1
      isplitl [AtbS3_pay1]; · iexact AtbS3_pay1
      isplitl [AtbS4_pay1]; · iexact AtbS4_pay1
      isplitl [AtbS5_pay1]; · iexact AtbS5_pay1
      isplitl [AtbS6_pay1]; · iexact AtbS6_pay1
      iexact AtbS7_pay1
    isplitl [AtbR0_pay1]; · iexact AtbR0_pay1
    isplitl [AtbR1_pay1]; · iexact AtbR1_pay1
    isplitl [AtbR2_pay1]; · iexact AtbR2_pay1
    isplitl [AtbR3_pay1]; · iexact AtbR3_pay1
    isplitl [AtbR4_pay1]; · iexact AtbR4_pay1
    isplitl [AtbR5_pay1]; · iexact AtbR5_pay1
    isplitl [AtbR6_pay1]; · iexact AtbR6_pay1
    iexact AtbR7_pay1
  ihave Har := (ar_split (F := F) c (SBf m (pY c))).2 $$ [AtaR0_pay1 AtaR1_pay1 AtaR2_pay1 AtaR3_pay1 AtaR4_pay1 AtaR5_pay1 AtaR6_pay1 AtaR7_pay1]
  · isplitl [AtaR0_pay1]; · iexact AtaR0_pay1
    isplitl [AtaR1_pay1]; · iexact AtaR1_pay1
    isplitl [AtaR2_pay1]; · iexact AtaR2_pay1
    isplitl [AtaR3_pay1]; · iexact AtaR3_pay1
    isplitl [AtaR4_pay1]; · iexact AtaR4_pay1
    isplitl [AtaR5_pay1]; · iexact AtaR5_pay1
    isplitl [AtaR6_pay1]; · iexact AtaR6_pay1
    iexact AtaR7_pay1
  ihave Hsb := (sb_split (F := F) c (SBf m c)).2 $$ [AtaS0_pay1 AtaS1_pay1 AtaS2_pay1 AtaS3_pay1 AtaS4_pay1 AtaS5_pay1 AtaS6_pay1 AtaS7_pay1]
  · isplitl [AtaS0_pay1]; · iexact AtaS0_pay1
    isplitl [AtaS1_pay1]; · iexact AtaS1_pay1
    isplitl [AtaS2_pay1]; · iexact AtaS2_pay1
    isplitl [AtaS3_pay1]; · iexact AtaS3_pay1
    isplitl [AtaS4_pay1]; · iexact AtaS4_pay1
    isplitl [AtaS5_pay1]; · iexact AtaS5_pay1
    isplitl [AtaS6_pay1]; · iexact AtaS6_pay1
    iexact AtaS7_pay1
  ihave Hx := (x_toks (F := F) c (m ((c : Thread nD τ).loc main_arg0))).2 $$ [HxR Hx33 Hx34 Hx35 Hx36]
  · isplitl [HxR]; · iexact HxR
    isplitl [Hx33]; · iexact Hx33
    isplitl [Hx34]; · iexact Hx34
    isplitl [Hx35]; · iexact Hx35
    iexact Hx36
  ihave Hx := (Entails.of_eq (whole_eq (F := F) c main_arg0 fullShare _)) $$ Hx
  ihave Hmb0 := (restate_chunk (F := F) (mbS 0) c (MBf m c)) $$ [Hmb0]
  · iexists _
    isplitr
    rotate_left
    · iexact Hmb0
    · ipureintro
      exact valMset m c 0 _ _ (fun p q => (stage_sh_sm0 _ _ _ p q).trans (dmaM_0 m c p q))
  ihave Hmb1 := (restate_chunk (F := F) (mbS 1) c (MBf m c)) $$ [Hmb1]
  · iexists _
    isplitr
    rotate_left
    · iexact Hmb1
    · ipureintro
      exact valMset m c 1 _ _ (fun p q => (stage_sh_sm1 _ _ _ p q).trans (dmaM_1 m c p q))
  ihave Hmb2 := (restate_chunk (F := F) (mbS 2) c (MBf m c)) $$ [Hmb2]
  · iexists _
    isplitr
    rotate_left
    · iexact Hmb2
    · ipureintro
      exact valMset m c 2 _ _ (fun p q => (stage_sh_sm0 _ _ _ p q).trans (dmaM_2 m c p q))
  ihave Hmb3 := (restate_chunk (F := F) (mbS 3) c (MBf m c)) $$ [Hmb3]
  · iexists _
    isplitr
    rotate_left
    · iexact Hmb3
    · ipureintro
      exact valMset m c 3 _ _ (fun p q => (stage_sh_sm1 _ _ _ p q).trans (dmaM_3 m c p q))
  ihave Hmb4 := (restate_chunk (F := F) (mbS 4) c (MBf m c)) $$ [Hmb4]
  · iexists _
    isplitr
    rotate_left
    · iexact Hmb4
    · ipureintro
      exact valMset m c 4 _ _ (fun p q => (stage_sh_sm0 _ _ _ p q).trans (dmaM_4 m c p q))
  ihave Hmb5 := (restate_chunk (F := F) (mbS 5) c (MBf m c)) $$ [Hmb5]
  · iexists _
    isplitr
    rotate_left
    · iexact Hmb5
    · ipureintro
      exact valMset m c 5 _ _ (fun p q => (stage_sh_sm1 _ _ _ p q).trans (dmaM_5 m c p q))
  ihave Hmb6 := (restate_chunk (F := F) (mbS 6) c (MBf m c)) $$ [Hmb6]
  · iexists _
    isplitr
    rotate_left
    · iexact Hmb6
    · ipureintro
      exact valMset m c 6 _ _ (fun p q => (stage_sh_sm0 _ _ _ p q).trans (dmaM_6 m c p q))
  ihave Hmb7 := (restate_chunk (F := F) (mbS 7) c (MBf m c)) $$ [Hmb7]
  · iexists _
    isplitr
    rotate_left
    · iexact Hmb7
    · ipureintro
      exact valMset m c 7 _ _ (fun p q => (stage_hit_sm1 _ _ p q).trans (dmaM_7 m c p q))
  ihave Hmb := (mb_split (F := F) c (MBf m c)).2 $$ [Hmb0 Hmb1 Hmb2 Hmb3 Hmb4 Hmb5 Hmb6 Hmb7]
  · isplitl [Hmb0]; · iexact Hmb0
    isplitl [Hmb1]; · iexact Hmb1
    isplitl [Hmb2]; · iexact Hmb2
    isplitl [Hmb3]; · iexact Hmb3
    isplitl [Hmb4]; · iexact Hmb4
    isplitl [Hmb5]; · iexact Hmb5
    isplitl [Hmb6]; · iexact Hmb6
    iexact Hmb7
  ihave Hss := (Entails.of_eq (whole_eq (F := F) c cc0_scratch3 fullShare _)) $$ Hss
  ihave Hsm := (Entails.of_eq (whole_eq (F := F) c cc0_scratch4 fullShare _)) $$ Hsm
  unfold bodyPost Φ₁ xPts scratch xferSems0 locals0 Dat.owesAt Pipeline.owesWithin
  isplitl [Hx Har Hsb Hmb Hss Hsm ZaS0 ZaS1 ZaS2 ZaS3 ZaS4 ZaS5 ZaS6 ZaS7 ZaR0 ZaR1 ZaR2 ZaR3 ZaR4 ZaR5 ZaR6 ZaR7 ZbS0 ZbS1 ZbS2 ZbS3 ZbS4 ZbS5 ZbS6 ZbS7 ZbR0 ZbR1 ZbR2 ZbR3 ZbR4 ZbR5 ZbR6 ZbR7 Zs0 Zs1 Zm0 Zm1]
  · isplitl [Hx]; · iexact Hx
    isplitl [Har Hsb Hmb Hss Hsm]
    · isplitl [Har]; · iexists _; iexact Har
      isplitl [Hsb]; · iexists _; iexact Hsb
      isplitl [Hmb]; · iexists _; iexact Hmb
      isplitl [Hss]; · iexists _; iexact Hss
      iexists _; iexact Hsm
    isplitl [ZaS0 ZaS1 ZaS2 ZaS3 ZaS4 ZaS5 ZaS6 ZaS7 ZaR0 ZaR1 ZaR2 ZaR3 ZaR4 ZaR5 ZaR6 ZaR7 ZbS0 ZbS1 ZbS2 ZbS3 ZbS4 ZbS5 ZbS6 ZbS7 ZbR0 ZbR1 ZbR2 ZbR3 ZbR4 ZbR5 ZbR6 ZbR7]
    · isplitl [ZaS0]; · iexact ZaS0
      isplitl [ZaS1]; · iexact ZaS1
      isplitl [ZaS2]; · iexact ZaS2
      isplitl [ZaS3]; · iexact ZaS3
      isplitl [ZaS4]; · iexact ZaS4
      isplitl [ZaS5]; · iexact ZaS5
      isplitl [ZaS6]; · iexact ZaS6
      isplitl [ZaS7]; · iexact ZaS7
      isplitl [ZaR0]; · iexact ZaR0
      isplitl [ZaR1]; · iexact ZaR1
      isplitl [ZaR2]; · iexact ZaR2
      isplitl [ZaR3]; · iexact ZaR3
      isplitl [ZaR4]; · iexact ZaR4
      isplitl [ZaR5]; · iexact ZaR5
      isplitl [ZaR6]; · iexact ZaR6
      isplitl [ZaR7]; · iexact ZaR7
      isplitl [ZbS0]; · iexact ZbS0
      isplitl [ZbS1]; · iexact ZbS1
      isplitl [ZbS2]; · iexact ZbS2
      isplitl [ZbS3]; · iexact ZbS3
      isplitl [ZbS4]; · iexact ZbS4
      isplitl [ZbS5]; · iexact ZbS5
      isplitl [ZbS6]; · iexact ZbS6
      isplitl [ZbS7]; · iexact ZbS7
      isplitl [ZbR0]; · iexact ZbR0
      isplitl [ZbR1]; · iexact ZbR1
      isplitl [ZbR2]; · iexact ZbR2
      isplitl [ZbR3]; · iexact ZbR3
      isplitl [ZbR4]; · iexact ZbR4
      isplitl [ZbR5]; · iexact ZbR5
      isplitl [ZbR6]; · iexact ZbR6
      iexact ZbR7
    isplitl [Zs0]; · iexact Zs0
    isplitl [Zs1]; · iexact Zs1
    isplitl [Zm0]; · iexact Zm0
    iexact Zm1
  isplitl [HO]
  · iexists _
    isplitr
    rotate_left
    · iexact HO
    · ipureintro; exact fun _ _ => Or.inl trivial
  · iexists _
    isplitr; · ipureintro; rfl
    iexact Ho

/-- What the pipeline hands the body: the invariant before it, what the device owes, the result's staging buffer at what it holds. -/
def bodyPre' (c : Dev nD) : sProp 𝕄 :=
  iprop(Φ₀ m c ∗ (dats m 0 c).owesAt () (Gen.t0_0 : Fin cfg0.N).castSucc
    ∗ (∃ d, ∃ f : Buf (Elt F) ((c : Thread nD τ).loc cc0_stg0_0), ⌜f = (dats m 0 c).before (0 : Fin 1) Gen.t0_0 d⌝ ∗ (((c : Thread nD τ).loc cc0_stg0_0) ↦{fullShare} f)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
set_option maxHeartbeats 4000000 in
/-- The library's body obligation on device `c`. -/
theorem body_obligation (c : Dev nD) : BodyObligation (dats (F := F) m 0 c) (defs₀ (F := F)) 𝒱₀ () Set.univ := fun t => by
  rw [Gen.fin_N0 t]
  rw [Gen.bigSep_W0, Gen.bigSep_W0]
  simp only [owns_whole_eq]
  show bodyPre' m c ⊢ wp frame (wpE (defs₀ (F := F)) 𝒱₀ c none) Set.univ
    (cc0_body xM (Memref.isWhole_whole _) oM (Memref.isWhole_whole _) arM (Memref.isWhole_whole _) sbM (Memref.isWhole_whole _)
            mbM (Memref.isWhole_whole _) ssM (Memref.isWhole_whole _) smM (Memref.isWhole_whole _)
            cc0_scratch5 cc0_scratch6 cc0_scratch7 cc0_scratch8 cc0_scratch9 cc0_scratch10) (fun _ => bodyPost m c)
  unfold bodyPre' Φ₀ start
  iintro ⟨⟨⟨⟨%K, Hg⟩, Hcr, Hlv⟩, Hloc, Hx, Hscr⟩, Ho, ⟨%d, %f0, %hf0, Hout⟩⟩
  unfold Dat.owesAt Pipeline.owesWithin
  icases Ho with ⟨%W, %hW, HO⟩
  iapply (sound_body m K c W f0 fun _ => bodyPost m c)
  isplitl [Hg]; · iexact Hg
  isplitl [Hcr]; · iexact Hcr
  isplitl [Hlv]; · iexact Hlv
  isplitl [Hloc]; · iexact Hloc
  isplitl [Hx]; · iexact Hx
  isplitl [Hscr]; · iexact Hscr
  isplitl [HO]; · iexact HO
  isplitl [Hout]; · iexact Hout
  iintro H; iexact H

/-- info: 'Cert.KernelIdeal.RS.body_obligation' depends on axioms: [propext, Classical.choice, Quot.sound] -/
#guard_msgs in #print axioms body_obligation

end Cert.KernelIdeal.RS

end
-- ==== Proof.KGeo.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton

import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-! ## The user algebra: the pipeline's copy, the exchange's rounds (duties named by `Bool`), the local copies' counters -/

abbrev UB : Type := URounds (GSem nD τ sig) Bool
abbrev UU : Type := UR sig nD τ × (UB × Counters)

abbrev 𝕄F (F : FTy → Type) : Type := MT nD τ sig Unit (Elt F) ℕ UU ℕ
local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER; infer_instance

abbrev 𝒱₀ : Variants := Variants.none

/-! ## The mesh: device `c` sits at `(c / 2, c % 2)`; its partner along the second axis and along the first -/

/-- The device with the other second coordinate. -/
def pY (c : Dev nD) : Dev nD := ⟨(2 * (c.val / 2) + 1) - (c.val % 2), by have h : c.val < 4 := c.isLt; show _ < 4; omega⟩
/-- The device with the other first coordinate. -/
def pX (c : Dev nD) : Dev nD := ⟨((c.val % 2) + 2) - 2 * (c.val / 2), by have h : c.val < 4 := c.isLt; show _ < 4; omega⟩

theorem pY_pY (c : Dev nD) : pY (pY c) = c := by revert c; decide
theorem pX_pX (c : Dev nD) : pX (pX c) = c := by revert c; decide
theorem pY_ne (c : Dev nD) : pY c ≠ c := by revert c; decide
theorem pX_ne (c : Dev nD) : pX c ≠ c := by revert c; decide
theorem pX_ne_pY (c : Dev nD) : pX c ≠ pY c := by revert c; decide
theorem pX_half (c : Dev nD) : (pX c).val / 2 = 1 - c.val / 2 := by revert c; decide
theorem pY_half (c : Dev nD) : (pY c).val / 2 = c.val / 2 := by revert c; decide
theorem pY_par (c : Dev nD) : (pY c).val % 2 = 1 - c.val % 2 := by revert c; decide
theorem pX_par (c : Dev nD) : (pX c).val % 2 = c.val % 2 := by revert c; decide

def eqY : Dev nD ≃ Dev nD := ⟨pY, pY, pY_pY, pY_pY⟩
def eqX : Dev nD ≃ Dev nD := ⟨pX, pX, pX_pX, pX_pX⟩

/-- The printed device chains: the two signals name the two partners, the first eight transfers the partner along the
    second axis, the last eight the partner along the first. -/
theorem dev1_eq (c : Dev nD) : (⟨k0_dev1 c, k0_dev1_lt c⟩ : Dev nD) = pY c := Fin.ext (k0_dev1_eq c)
theorem dev2_eq (c : Dev nD) : (⟨k0_dev2 c, k0_dev2_lt c⟩ : Dev nD) = pX c := Fin.ext (k0_dev2_eq c)
theorem dev3_eq (c : Dev nD) : (⟨k0_dev3 c, k0_dev3_lt c⟩ : Dev nD) = pY c := Fin.ext (k0_dev3_eq c)
theorem dev4_eq (c : Dev nD) : (⟨k0_dev4 c, k0_dev4_lt c⟩ : Dev nD) = pY c := Fin.ext (k0_dev4_eq c)
theorem dev5_eq (c : Dev nD) : (⟨k0_dev5 c, k0_dev5_lt c⟩ : Dev nD) = pY c := Fin.ext (k0_dev5_eq c)
theorem dev6_eq (c : Dev nD) : (⟨k0_dev6 c, k0_dev6_lt c⟩ : Dev nD) = pY c := Fin.ext (k0_dev6_eq c)
theorem dev7_eq (c : Dev nD) : (⟨k0_dev7 c, k0_dev7_lt c⟩ : Dev nD) = pY c := Fin.ext (k0_dev7_eq c)
theorem dev8_eq (c : Dev nD) : (⟨k0_dev8 c, k0_dev8_lt c⟩ : Dev nD) = pY c := Fin.ext (k0_dev8_eq c)
theorem dev9_eq (c : Dev nD) : (⟨k0_dev9 c, k0_dev9_lt c⟩ : Dev nD) = pY c := Fin.ext (k0_dev9_eq c)
theorem dev10_eq (c : Dev nD) : (⟨k0_dev10 c, k0_dev10_lt c⟩ : Dev nD) = pY c := Fin.ext (k0_dev10_eq c)
theorem dev11_eq (c : Dev nD) : (⟨k0_dev11 c, k0_dev11_lt c⟩ : Dev nD) = pX c := Fin.ext (k0_dev11_eq c)
theorem dev12_eq (c : Dev nD) : (⟨k0_dev12 c, k0_dev12_lt c⟩ : Dev nD) = pX c := Fin.ext (k0_dev12_eq c)
theorem dev13_eq (c : Dev nD) : (⟨k0_dev13 c, k0_dev13_lt c⟩ : Dev nD) = pX c := Fin.ext (k0_dev13_eq c)
theorem dev14_eq (c : Dev nD) : (⟨k0_dev14 c, k0_dev14_lt c⟩ : Dev nD) = pX c := Fin.ext (k0_dev14_eq c)
theorem dev15_eq (c : Dev nD) : (⟨k0_dev15 c, k0_dev15_lt c⟩ : Dev nD) = pX c := Fin.ext (k0_dev15_eq c)
theorem dev16_eq (c : Dev nD) : (⟨k0_dev16 c, k0_dev16_lt c⟩ : Dev nD) = pX c := Fin.ext (k0_dev16_eq c)
theorem dev17_eq (c : Dev nD) : (⟨k0_dev17 c, k0_dev17_lt c⟩ : Dev nD) = pX c := Fin.ext (k0_dev17_eq c)
theorem dev18_eq (c : Dev nD) : (⟨k0_dev18 c, k0_dev18_lt c⟩ : Dev nD) = pX c := Fin.ext (k0_dev18_eq c)

/-! ## The buffers and their row chunks -/

abbrev xM : Memref sig .tc .hbm S1x4096x2048 .f32 := Memref.whole main_arg0
abbrev oM : Memref sig .tc .vmem S4096x1024 .bf16 := Memref.whole cc0_stg0_0
abbrev arM : Memref sig .tc .vmem S4096x512 .bf16 := Memref.whole cc0_scratch0
abbrev sbM : Memref sig .tc .vmem S4096x512 .bf16 := Memref.whole cc0_scratch1
abbrev mbM : Memref sig .tc .vmem S4096x512 .bf16 := Memref.whole cc0_scratch2
abbrev ssM : Memref sig .tc .vmem S2x512x512 .f32 := Memref.whole cc0_scratch3
abbrev smM : Memref sig .tc .vmem S2x512x512 .f32 := Memref.whole cc0_scratch4

/-- Chunk `k` of the 4096 rows: rows `512 k … 512 k + 511`, every column. -/
def rowOff (k : Fin 8) : Fin 2 → Nat := ![512 * k.val, 0]
theorem rowOff_inb : ∀ (k : Fin 8) a, rowOff k a + S512x512.size a ≤ S4096x512.size a := by decide
theorem rowOff_words : ∀ k : Fin 8, (Rect.unit (s := S4096x512) (rowOff k) S512x512.size (rowOff_inb k)).WholeWords (EltTy.packing .bf16) := by decide

/-- Chunk `k` of the landing buffer and of the send buffer, as the transfers name them. -/
abbrev arS (k : Fin 8) : Memref sig .tc .vmem S512x512 .bf16 :=
  arM.slice (Rect.unit (s := S4096x512) (rowOff k) S512x512.size (rowOff_inb k)) (fun _ => rfl)
abbrev sbS (k : Fin 8) : Memref sig .tc .vmem S512x512 .bf16 :=
  sbM.slice (Rect.unit (s := S4096x512) (rowOff k) S512x512.size (rowOff_inb k)) (fun _ => rfl)

/-- The rectangle of the result's staging buffer device `d` computes in chunk `k`: rows of the chunk, the 512 columns from
    `512 (d / 2)`; the printed offsets of the eight second-stage transfers. -/
def outOff (d : Dev nD) : Fin 8 → (Fin 2 → Nat)
  | 0 => k0_off18 d | 1 => k0_off20 d | 2 => k0_off22 d | 3 => k0_off24 d
  | 4 => k0_off26 d | 5 => k0_off28 d | 6 => k0_off30 d | 7 => k0_off32 d
theorem outOff_eq (d : Dev nD) (k : Fin 8) : outOff d k = ![512 * k.val, 512 * (d.val / 2)] := by
  revert d k; decide +kernel
theorem outOff_inb (d : Dev nD) (k : Fin 8) : ∀ a, outOff d k a + S512x512.size a ≤ S4096x1024.size a := by
  revert d k; decide +kernel
/-- The closed form of those offsets, chunk by chunk. -/
instance closedOff_outOff_0 (d : Dev nD) : ClosedOff (outOff d 0) := ⟨![0, 512 * (d.val / 2)], by revert d; decide +kernel⟩
instance closedOff_outOff_1 (d : Dev nD) : ClosedOff (outOff d 1) := ⟨![512, 512 * (d.val / 2)], by revert d; decide +kernel⟩
instance closedOff_outOff_2 (d : Dev nD) : ClosedOff (outOff d 2) := ⟨![1024, 512 * (d.val / 2)], by revert d; decide +kernel⟩
instance closedOff_outOff_3 (d : Dev nD) : ClosedOff (outOff d 3) := ⟨![1536, 512 * (d.val / 2)], by revert d; decide +kernel⟩
instance closedOff_outOff_4 (d : Dev nD) : ClosedOff (outOff d 4) := ⟨![2048, 512 * (d.val / 2)], by revert d; decide +kernel⟩
instance closedOff_outOff_5 (d : Dev nD) : ClosedOff (outOff d 5) := ⟨![2560, 512 * (d.val / 2)], by revert d; decide +kernel⟩
instance closedOff_outOff_6 (d : Dev nD) : ClosedOff (outOff d 6) := ⟨![3072, 512 * (d.val / 2)], by revert d; decide +kernel⟩
instance closedOff_outOff_7 (d : Dev nD) : ClosedOff (outOff d 7) := ⟨![3584, 512 * (d.val / 2)], by revert d; decide +kernel⟩
abbrev oS (d : Dev nD) (k : Fin 8) : Memref sig .tc .vmem S512x512 .bf16 :=
  oM.slice (Rect.unit (s := S4096x1024) (outOff d k) S512x512.size (outOff_inb d k)) (fun _ => rfl)

/-! ## The semaphores and the cells -/

def aSs (k : Fin 8) : DmaSem sig := ⟨1 + k.val, by have h : k.val < 8 := k.isLt; show _ < 37; omega⟩
def aRs (k : Fin 8) : DmaSem sig := ⟨9 + k.val, by have h : k.val < 8 := k.isLt; show _ < 37; omega⟩
def bSs (k : Fin 8) : DmaSem sig := ⟨17 + k.val, by have h : k.val < 8 := k.isLt; show _ < 37; omega⟩
def bRs (k : Fin 8) : DmaSem sig := ⟨25 + k.val, by have h : k.val < 8 := k.isLt; show _ < 37; omega⟩
abbrev barS : Sem sig := (SemArray.scalar (sig.barrier 0 rfl) : Sems sig S_).sem

abbrev barCell (c : Dev nD) : GSem nD τ sig := ((c : Thread nD τ), .reg barS)
abbrev aSCell (c : Dev nD) (k : Fin 8) : GSem nD τ sig := ((c : Thread nD τ), .dma (aSs k))
abbrev aRCell (c : Dev nD) (k : Fin 8) : GSem nD τ sig := ((c : Thread nD τ), .dma (aRs k))
abbrev bSCell (c : Dev nD) (k : Fin 8) : GSem nD τ sig := ((c : Thread nD τ), .dma (bSs k))
abbrev bRCell (c : Dev nD) (k : Fin 8) : GSem nD τ sig := ((c : Thread nD τ), .dma (bRs k))

/-- The credit of one chunk's transfer. -/
abbrev N : ℕ := (arS 0).view.dmaCredit
theorem N_pos : 0 < N := View.dmaCredit_pos _ (by decide)

end Cert.Kernel.RS

end
-- ==== Proof.KSched.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KGeo
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## The exchange as rounds

Every cell has one round, round 0. A device's barrier cell has two duties of one unit: `false`, paid by its partner along the
second axis, who hands over its own landing buffer chunk by chunk; `true`, paid by its partner along the first axis, who hands
over, chunk by chunk, the half of its own result buffer the device will fill. Each of the 32 transfer cells has one duty of a
chunk's credit: a send cell returns the chunk lent as source, a receive cell hands over the chunk with what has landed; both at the contents the
send buffer ends with. -/

abbrev CT512 : Type := (cc0_scratch0 : Ref sig .tc).ty.Contents (Elt F)
abbrev CT1024 : Type := (cc0_stg0_0 : Ref sig .tc).ty.Contents (Elt F)

variable (SB : Dev nD → (cc0_scratch0 : Ref sig .tc).ty.Contents (Elt F)) (OUT : Dev nD → (cc0_stg0_0 : Ref sig .tc).ty.Contents (Elt F))

/-- Chunk `k` of device `d`'s landing buffer, at some contents. -/
def arAny (d : Dev nD) (k : Fin 8) : sProp 𝕄 :=
  iprop(∃ f : Buf (Elt F) ((arS k).view.loc (d : Thread nD τ)), (arS k).view.loc (d : Thread nD τ) ↦[(arS k).view.set]{fullShare} f)
/-- Chunk `k` of device `d`'s send buffer, at some contents. -/
def sbAny (d : Dev nD) (k : Fin 8) : sProp 𝕄 :=
  iprop(∃ f : Buf (Elt F) ((sbS k).view.loc (d : Thread nD τ)), (sbS k).view.loc (d : Thread nD τ) ↦[(sbS k).view.set]{fullShare} f)
/-- Chunk `k` of device `d`'s result buffer in the columns device `o` computes, at some contents. -/
def outAny (d o : Dev nD) (k : Fin 8) : sProp 𝕄 :=
  iprop(∃ f : Buf (Elt F) ((oS o k).view.loc (d : Thread nD τ)), (oS o k).view.loc (d : Thread nD τ) ↦[(oS o k).view.set]{fullShare} f)

/-- What a device's partner along the second axis hands it at the barrier: that partner's landing buffer, all eight chunks. -/
def barPayY (o : Dev nD) : sProp 𝕄 := iprop(arAny (pY o) 0 ∗ arAny (pY o) 1 ∗ arAny (pY o) 2 ∗ arAny (pY o) 3 ∗ arAny (pY o) 4 ∗ arAny (pY o) 5 ∗ arAny (pY o) 6 ∗ arAny (pY o) 7)
/-- What its partner along the first axis hands it: the eight chunks of that partner's result buffer in the device's columns. -/
def barPayX (o : Dev nD) : sProp 𝕄 := iprop(outAny (pX o) o 0 ∗ outAny (pX o) o 1 ∗ outAny (pX o) o 2 ∗ outAny (pX o) o 3 ∗ outAny (pX o) o 4 ∗ outAny (pX o) o 5 ∗ outAny (pX o) o 6 ∗ outAny (pX o) o 7)

def aSPay (c : Dev nD) (k : Fin 8) : sProp 𝕄 :=
  (sbS k).view.loc (c : Thread nD τ) ↦[(sbS k).view.set]{fullShare} SB c
def aRPay (c : Dev nD) (k : Fin 8) : sProp 𝕄 :=
  (arS k).view.loc (c : Thread nD τ) ↦[(arS k).view.set]{fullShare} SB (pY c)
def bSPay (c : Dev nD) (k : Fin 8) : sProp 𝕄 :=
  (oS c k).view.loc (c : Thread nD τ) ↦[(oS c k).view.set]{fullShare} OUT c
def bRPay (c : Dev nD) (k : Fin 8) : sProp 𝕄 :=
  (oS (pX c) k).view.loc (c : Thread nD τ) ↦[(oS (pX c) k).view.set]{fullShare} OUT c

/-- Which of the four groups of transfer cells a DMA semaphore belongs to, and its chunk. -/
def grp (q : DmaSem sig) : Option (Fin 4 × Fin 8) :=
  if h : 1 ≤ q.val ∧ q.val ≤ 32 then some (⟨(q.val - 1) / 8, by omega⟩, ⟨(q.val - 1) % 8, Nat.mod_lt _ (by decide)⟩) else none

theorem grp_aS (k : Fin 8) : grp (aSs k) = some (0, k) := by revert k; decide
theorem grp_aR (k : Fin 8) : grp (aRs k) = some (1, k) := by revert k; decide
theorem grp_bS (k : Fin 8) : grp (bSs k) = some (2, k) := by revert k; decide
theorem grp_bR (k : Fin 8) : grp (bRs k) = some (3, k) := by revert k; decide

abbrev IsBar (g : GSem nD τ sig) : Prop := g.1.2 = .tc ∧ g.2 = .reg barS
def isXfer (g : GSem nD τ sig) : Bool := match g.1.2, g.2 with
  | .tc, .dma q => (grp q).isSome
  | _, _ => false

def dmaPay (c : Dev nD) : Fin 4 × Fin 8 → sProp 𝕄
  | (0, k) => aSPay SB c k
  | (1, k) => aRPay SB c k
  | (2, k) => bSPay OUT c k
  | (3, k) => bRPay OUT c k

def Rd : Rounds.Schedule (GSem nD τ sig) Bool 𝕄 where
  duties g r := if r = 0 ∧ IsBar g then Finset.univ else if r = 0 ∧ isXfer g = true then {false} else ∅
  unitless _ := False
  amount g _ _ := if g.2 = .reg barS then 1 else N
  payload g _ d := match g.2 with
    | .reg _ => if d then barPayX g.1.1 else barPayY g.1.1
    | .dma q => match grp q with
      | some gk => dmaPay SB OUT g.1.1 gk
      | none => iprop(emp)
  amount_pos g _ _ _ := by
    by_cases h : g.2 = .reg barS
    · rw [if_pos h]; exact Nat.one_pos
    · rw [if_neg h]; exact N_pos

instance arAny_storable (d : Dev nD) (k : Fin 8) : BI.Storable (upEmb : UEmb _ 𝕄) (arAny (F := F) d k) := by unfold arAny; infer_instance
instance sbAny_storable (d : Dev nD) (k : Fin 8) : BI.Storable (upEmb : UEmb _ 𝕄) (sbAny (F := F) d k) := by unfold sbAny; infer_instance
instance outAny_storable (d o : Dev nD) (k : Fin 8) : BI.Storable (upEmb : UEmb _ 𝕄) (outAny (F := F) d o k) := by unfold outAny; infer_instance
instance aSPay_storable (c : Dev nD) (k : Fin 8) : BI.Storable (upEmb : UEmb _ 𝕄) (aSPay (F := F) SB c k) := by unfold aSPay; infer_instance
instance aRPay_storable (c : Dev nD) (k : Fin 8) : BI.Storable (upEmb : UEmb _ 𝕄) (aRPay (F := F) SB c k) := by unfold aRPay; infer_instance
instance bSPay_storable (c : Dev nD) (k : Fin 8) : BI.Storable (upEmb : UEmb _ 𝕄) (bSPay (F := F) OUT c k) := by unfold bSPay; infer_instance
instance bRPay_storable (c : Dev nD) (k : Fin 8) : BI.Storable (upEmb : UEmb _ 𝕄) (bRPay (F := F) OUT c k) := by unfold bRPay; infer_instance
set_option synthInstance.maxHeartbeats 200000 in
instance barPayY_storable (o : Dev nD) : BI.Storable (upEmb : UEmb _ 𝕄) (barPayY (F := F) o) := by unfold barPayY; infer_instance
set_option synthInstance.maxHeartbeats 200000 in
instance barPayX_storable (o : Dev nD) : BI.Storable (upEmb : UEmb _ 𝕄) (barPayX (F := F) o) := by unfold barPayX; infer_instance
instance dmaPay_storable (c : Dev nD) (gk : Fin 4 × Fin 8) : BI.Storable (upEmb : UEmb _ 𝕄) (dmaPay (F := F) SB OUT c gk) := by
  obtain ⟨j, k⟩ := gk
  fin_cases j <;> (simp only [dmaPay]; infer_instance)

instance Rd_payload_storable (g : GSem nD τ sig) (r : ℕ) (d : Bool) :
    BI.Storable (upEmb : UEmb _ 𝕄) ((Rd (F := F) SB OUT).payload g r d) := by
  show BI.Storable upEmb (match g.2 with
    | .reg _ => if d then barPayX g.1.1 else barPayY g.1.1
    | .dma q => match grp q with
      | some gk => dmaPay SB OUT g.1.1 gk
      | none => iprop(emp))
  split
  · split <;> infer_instance
  · split <;> infer_instance

end Cert.Kernel.RS

end
-- ==== Proof.KTables.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KSched
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (SB : Dev nD → (cc0_scratch0 : Ref sig .tc).ty.Contents (Elt F)) (OUT : Dev nD → (cc0_stg0_0 : Ref sig .tc).ty.Contents (Elt F))

/-! ## The schedule's tables, cell by cell -/

section Tables
variable (c : Dev nD) (k : Fin 8)

omit [FloatOps F] in
theorem not_bar_dma (q : DmaSem sig) : ¬ IsBar ((c : Thread nD τ), SemLoc.dma q) := fun h => by cases h.2
theorem isXfer_aS : isXfer (aSCell c k) = true := by show (grp (aSs k)).isSome = true; rw [grp_aS]; rfl
theorem isXfer_aR : isXfer (aRCell c k) = true := by show (grp (aRs k)).isSome = true; rw [grp_aR]; rfl
theorem isXfer_bS : isXfer (bSCell c k) = true := by show (grp (bSs k)).isSome = true; rw [grp_bS]; rfl
theorem isXfer_bR : isXfer (bRCell c k) = true := by show (grp (bRs k)).isSome = true; rw [grp_bR]; rfl

omit [FloatOps F] in
theorem duties_bar : (Rd (F := F) SB OUT).duties (barCell c) 0 = {false, true} := by
  dsimp only [Rd]; rw [if_pos ⟨rfl, rfl, rfl⟩]; decide
omit [FloatOps F] in
theorem duties_aS : (Rd (F := F) SB OUT).duties (aSCell c k) 0 = {false} := by
  dsimp only [Rd]; rw [if_neg (fun h => not_bar_dma c _ h.2)]; exact if_pos ⟨rfl, isXfer_aS c k⟩
omit [FloatOps F] in
theorem duties_aR : (Rd (F := F) SB OUT).duties (aRCell c k) 0 = {false} := by
  dsimp only [Rd]; rw [if_neg (fun h => not_bar_dma c _ h.2)]; exact if_pos ⟨rfl, isXfer_aR c k⟩
omit [FloatOps F] in
theorem duties_bS : (Rd (F := F) SB OUT).duties (bSCell c k) 0 = {false} := by
  dsimp only [Rd]; rw [if_neg (fun h => not_bar_dma c _ h.2)]; exact if_pos ⟨rfl, isXfer_bS c k⟩
omit [FloatOps F] in
theorem duties_bR : (Rd (F := F) SB OUT).duties (bRCell c k) 0 = {false} := by
  dsimp only [Rd]; rw [if_neg (fun h => not_bar_dma c _ h.2)]; exact if_pos ⟨rfl, isXfer_bR c k⟩
omit [FloatOps F] in
theorem duties_later (g : GSem nD τ sig) : ∀ r, 1 ≤ r → (Rd (F := F) SB OUT).duties g r = ∅ :=
  fun r hr => by dsimp only [Rd]; rw [if_neg fun h => by omega, if_neg fun h => by omega]

omit [FloatOps F] in
theorem amount_bar (d : Bool) : (Rd (F := F) SB OUT).amount (barCell c) 0 d = 1 := by dsimp only [Rd]; exact if_pos rfl
omit [FloatOps F] in
theorem amount_dma (q : DmaSem sig) (r : ℕ) (d : Bool) : (Rd (F := F) SB OUT).amount ((c : Thread nD τ), SemLoc.dma q) r d = N := by
  dsimp only [Rd]; exact if_neg (fun h => by cases h)
omit [FloatOps F] in
theorem amount_aS (d : Bool) : (Rd (F := F) SB OUT).amount (aSCell c k) 0 d = N := amount_dma SB OUT c _ 0 d
omit [FloatOps F] in
theorem amount_aR (d : Bool) : (Rd (F := F) SB OUT).amount (aRCell c k) 0 d = N := amount_dma SB OUT c _ 0 d
omit [FloatOps F] in
theorem amount_bS (d : Bool) : (Rd (F := F) SB OUT).amount (bSCell c k) 0 d = N := amount_dma SB OUT c _ 0 d
omit [FloatOps F] in
theorem amount_bR (d : Bool) : (Rd (F := F) SB OUT).amount (bRCell c k) 0 d = N := amount_dma SB OUT c _ 0 d

omit [FloatOps F] in
theorem expect_bar : (Rd (F := F) SB OUT).expect (barCell c) 0 = 2 := by
  unfold Schedule.expect Schedule.amountOf
  rw [duties_bar, Finset.sum_congr rfl fun d _ => amount_bar SB OUT c d]; rfl
omit [FloatOps F] in
theorem expect_aS : (Rd (F := F) SB OUT).expect (aSCell c k) 0 = N := by
  unfold Schedule.expect Schedule.amountOf; rw [duties_aS, Finset.sum_singleton, amount_aS]
omit [FloatOps F] in
theorem expect_aR : (Rd (F := F) SB OUT).expect (aRCell c k) 0 = N := by
  unfold Schedule.expect Schedule.amountOf; rw [duties_aR, Finset.sum_singleton, amount_aR]
omit [FloatOps F] in
theorem expect_bS : (Rd (F := F) SB OUT).expect (bSCell c k) 0 = N := by
  unfold Schedule.expect Schedule.amountOf; rw [duties_bS, Finset.sum_singleton, amount_bS]
omit [FloatOps F] in
theorem expect_bR : (Rd (F := F) SB OUT).expect (bRCell c k) 0 = N := by
  unfold Schedule.expect Schedule.amountOf; rw [duties_bR, Finset.sum_singleton, amount_bR]

omit [FloatOps F] in
theorem payload_barY : (Rd (F := F) SB OUT).payload (barCell c) 0 false = barPayY c := rfl
omit [FloatOps F] in
theorem payload_barX : (Rd (F := F) SB OUT).payload (barCell c) 0 true = barPayX c := rfl
omit [FloatOps F] in
theorem payload_aS (d : Bool) : (Rd (F := F) SB OUT).payload (aSCell c k) 0 d = aSPay SB c k := by
  show (match grp (aSs k) with | some gk => dmaPay SB OUT c gk | none => iprop(emp)) = _
  rw [grp_aS]; rfl
omit [FloatOps F] in
theorem payload_aR (d : Bool) : (Rd (F := F) SB OUT).payload (aRCell c k) 0 d = aRPay SB c k := by
  show (match grp (aRs k) with | some gk => dmaPay SB OUT c gk | none => iprop(emp)) = _
  rw [grp_aR]; rfl
omit [FloatOps F] in
theorem payload_bS (d : Bool) : (Rd (F := F) SB OUT).payload (bSCell c k) 0 d = bSPay OUT c k := by
  show (match grp (bSs k) with | some gk => dmaPay SB OUT c gk | none => iprop(emp)) = _
  rw [grp_bS]; rfl
omit [FloatOps F] in
theorem payload_bR (d : Bool) : (Rd (F := F) SB OUT).payload (bRCell c k) 0 d = bRPay OUT c k := by
  show (match grp (bRs k) with | some gk => dmaPay SB OUT c gk | none => iprop(emp)) = _
  rw [grp_bR]; rfl

-- The barrier payloads spelt leaf by leaf: what a device receives from each partner,
omit [FloatOps F] in
theorem payload_barY_own : (Rd (F := F) SB OUT).payload (barCell c) 0 false
    = iprop((∃ f : Buf (Elt F) ((arS 0).view.loc (pY c : Thread nD τ)), (arS 0).view.loc (pY c : Thread nD τ) ↦[(arS 0).view.set]{fullShare} f)
      ∗ (∃ f : Buf (Elt F) ((arS 1).view.loc (pY c : Thread nD τ)), (arS 1).view.loc (pY c : Thread nD τ) ↦[(arS 1).view.set]{fullShare} f)
      ∗ (∃ f : Buf (Elt F) ((arS 2).view.loc (pY c : Thread nD τ)), (arS 2).view.loc (pY c : Thread nD τ) ↦[(arS 2).view.set]{fullShare} f)
      ∗ (∃ f : Buf (Elt F) ((arS 3).view.loc (pY c : Thread nD τ)), (arS 3).view.loc (pY c : Thread nD τ) ↦[(arS 3).view.set]{fullShare} f)
      ∗ (∃ f : Buf (Elt F) ((arS 4).view.loc (pY c : Thread nD τ)), (arS 4).view.loc (pY c : Thread nD τ) ↦[(arS 4).view.set]{fullShare} f)
      ∗ (∃ f : Buf (Elt F) ((arS 5).view.loc (pY c : Thread nD τ)), (arS 5).view.loc (pY c : Thread nD τ) ↦[(arS 5).view.set]{fullShare} f)
      ∗ (∃ f : Buf (Elt F) ((arS 6).view.loc (pY c : Thread nD τ)), (arS 6).view.loc (pY c : Thread nD τ) ↦[(arS 6).view.set]{fullShare} f)
      ∗ (∃ f : Buf (Elt F) ((arS 7).view.loc (pY c : Thread nD τ)), (arS 7).view.loc (pY c : Thread nD τ) ↦[(arS 7).view.set]{fullShare} f)) := rfl
omit [FloatOps F] in
theorem payload_barX_own : (Rd (F := F) SB OUT).payload (barCell c) 0 true
    = iprop((∃ f : Buf (Elt F) ((oS c 0).view.loc (pX c : Thread nD τ)), (oS c 0).view.loc (pX c : Thread nD τ) ↦[(oS c 0).view.set]{fullShare} f)
      ∗ (∃ f : Buf (Elt F) ((oS c 1).view.loc (pX c : Thread nD τ)), (oS c 1).view.loc (pX c : Thread nD τ) ↦[(oS c 1).view.set]{fullShare} f)
      ∗ (∃ f : Buf (Elt F) ((oS c 2).view.loc (pX c : Thread nD τ)), (oS c 2).view.loc (pX c : Thread nD τ) ↦[(oS c 2).view.set]{fullShare} f)
      ∗ (∃ f : Buf (Elt F) ((oS c 3).view.loc (pX c : Thread nD τ)), (oS c 3).view.loc (pX c : Thread nD τ) ↦[(oS c 3).view.set]{fullShare} f)
      ∗ (∃ f : Buf (Elt F) ((oS c 4).view.loc (pX c : Thread nD τ)), (oS c 4).view.loc (pX c : Thread nD τ) ↦[(oS c 4).view.set]{fullShare} f)
      ∗ (∃ f : Buf (Elt F) ((oS c 5).view.loc (pX c : Thread nD τ)), (oS c 5).view.loc (pX c : Thread nD τ) ↦[(oS c 5).view.set]{fullShare} f)
      ∗ (∃ f : Buf (Elt F) ((oS c 6).view.loc (pX c : Thread nD τ)), (oS c 6).view.loc (pX c : Thread nD τ) ↦[(oS c 6).view.set]{fullShare} f)
      ∗ (∃ f : Buf (Elt F) ((oS c 7).view.loc (pX c : Thread nD τ)), (oS c 7).view.loc (pX c : Thread nD τ) ↦[(oS c 7).view.set]{fullShare} f)) := rfl
-- and what it hands each partner: its own landing buffer, and the other half of its own result buffer.
omit [FloatOps F] in
theorem payload_barY_to : (Rd (F := F) SB OUT).payload (barCell (pY c)) 0 false
    = iprop((∃ f : Buf (Elt F) ((arS 0).view.loc (c : Thread nD τ)), (arS 0).view.loc (c : Thread nD τ) ↦[(arS 0).view.set]{fullShare} f)
      ∗ (∃ f : Buf (Elt F) ((arS 1).view.loc (c : Thread nD τ)), (arS 1).view.loc (c : Thread nD τ) ↦[(arS 1).view.set]{fullShare} f)
      ∗ (∃ f : Buf (Elt F) ((arS 2).view.loc (c : Thread nD τ)), (arS 2).view.loc (c : Thread nD τ) ↦[(arS 2).view.set]{fullShare} f)
      ∗ (∃ f : Buf (Elt F) ((arS 3).view.loc (c : Thread nD τ)), (arS 3).view.loc (c : Thread nD τ) ↦[(arS 3).view.set]{fullShare} f)
      ∗ (∃ f : Buf (Elt F) ((arS 4).view.loc (c : Thread nD τ)), (arS 4).view.loc (c : Thread nD τ) ↦[(arS 4).view.set]{fullShare} f)
      ∗ (∃ f : Buf (Elt F) ((arS 5).view.loc (c : Thread nD τ)), (arS 5).view.loc (c : Thread nD τ) ↦[(arS 5).view.set]{fullShare} f)
      ∗ (∃ f : Buf (Elt F) ((arS 6).view.loc (c : Thread nD τ)), (arS 6).view.loc (c : Thread nD τ) ↦[(arS 6).view.set]{fullShare} f)
      ∗ (∃ f : Buf (Elt F) ((arS 7).view.loc (c : Thread nD τ)), (arS 7).view.loc (c : Thread nD τ) ↦[(arS 7).view.set]{fullShare} f)) := by
  rw [payload_barY_own, pY_pY]
omit [FloatOps F] in
theorem payload_barX_to : (Rd (F := F) SB OUT).payload (barCell (pX c)) 0 true
    = iprop((∃ f : Buf (Elt F) ((oS (pX c) 0).view.loc (c : Thread nD τ)), (oS (pX c) 0).view.loc (c : Thread nD τ) ↦[(oS (pX c) 0).view.set]{fullShare} f)
      ∗ (∃ f : Buf (Elt F) ((oS (pX c) 1).view.loc (c : Thread nD τ)), (oS (pX c) 1).view.loc (c : Thread nD τ) ↦[(oS (pX c) 1).view.set]{fullShare} f)
      ∗ (∃ f : Buf (Elt F) ((oS (pX c) 2).view.loc (c : Thread nD τ)), (oS (pX c) 2).view.loc (c : Thread nD τ) ↦[(oS (pX c) 2).view.set]{fullShare} f)
      ∗ (∃ f : Buf (Elt F) ((oS (pX c) 3).view.loc (c : Thread nD τ)), (oS (pX c) 3).view.loc (c : Thread nD τ) ↦[(oS (pX c) 3).view.set]{fullShare} f)
      ∗ (∃ f : Buf (Elt F) ((oS (pX c) 4).view.loc (c : Thread nD τ)), (oS (pX c) 4).view.loc (c : Thread nD τ) ↦[(oS (pX c) 4).view.set]{fullShare} f)
      ∗ (∃ f : Buf (Elt F) ((oS (pX c) 5).view.loc (c : Thread nD τ)), (oS (pX c) 5).view.loc (c : Thread nD τ) ↦[(oS (pX c) 5).view.set]{fullShare} f)
      ∗ (∃ f : Buf (Elt F) ((oS (pX c) 6).view.loc (c : Thread nD τ)), (oS (pX c) 6).view.loc (c : Thread nD τ) ↦[(oS (pX c) 6).view.set]{fullShare} f)
      ∗ (∃ f : Buf (Elt F) ((oS (pX c) 7).view.loc (c : Thread nD τ)), (oS (pX c) 7).view.loc (c : Thread nD τ) ↦[(oS (pX c) 7).view.set]{fullShare} f)) := by
  rw [payload_barX_own, pX_pX]

-- The rest of a round of which nothing is taken yet: the payloads of all its duties.
omit [FloatOps F] in
theorem rest_bar : bigSep ((Rd (F := F) SB OUT).duties (barCell c) 0 \ ∅) (fun d => (Rd (F := F) SB OUT).payload (barCell c) 0 d)
    = iprop(barPayY c ∗ barPayX c) := by
  rw [Finset.sdiff_empty, duties_bar, bigSep_eq_bigSepL_of_eq [false, true] (by decide) (by decide), bigSepL_cons_cons, bigSepL_singleton,
    payload_barY, payload_barX]
  rfl
omit [FloatOps F] in
theorem rest_aS : bigSep ((Rd (F := F) SB OUT).duties (aSCell c k) 0 \ ∅) (fun d => (Rd (F := F) SB OUT).payload (aSCell c k) 0 d)
    = aSPay SB c k := by
  rw [Finset.sdiff_empty, duties_aS, bigSep_singleton, payload_aS]
omit [FloatOps F] in
theorem rest_aR : bigSep ((Rd (F := F) SB OUT).duties (aRCell c k) 0 \ ∅) (fun d => (Rd (F := F) SB OUT).payload (aRCell c k) 0 d)
    = aRPay SB c k := by
  rw [Finset.sdiff_empty, duties_aR, bigSep_singleton, payload_aR]
omit [FloatOps F] in
theorem rest_bS : bigSep ((Rd (F := F) SB OUT).duties (bSCell c k) 0 \ ∅) (fun d => (Rd (F := F) SB OUT).payload (bSCell c k) 0 d)
    = bSPay OUT c k := by
  rw [Finset.sdiff_empty, duties_bS, bigSep_singleton, payload_bS]
omit [FloatOps F] in
theorem rest_bR : bigSep ((Rd (F := F) SB OUT).duties (bRCell c k) 0 \ ∅) (fun d => (Rd (F := F) SB OUT).payload (bRCell c k) 0 d)
    = bRPay OUT c k := by
  rw [Finset.sdiff_empty, duties_bR, bigSep_singleton, payload_bR]

-- The transfer cells' payloads spelt as the points-to assertions they are.
omit [FloatOps F] in
theorem payload_aS_pt (d : Bool) : (Rd (F := F) SB OUT).payload (aSCell c k) 0 d
    = ((sbS k).view.loc (c : Thread nD τ) ↦[(sbS k).view.set]{fullShare} SB c) := payload_aS SB OUT c k d
omit [FloatOps F] in
theorem payload_aR_pt (d : Bool) : (Rd (F := F) SB OUT).payload (aRCell c k) 0 d
    = ((arS k).view.loc (c : Thread nD τ) ↦[(arS k).view.set]{fullShare} SB (pY c)) := payload_aR SB OUT c k d
omit [FloatOps F] in
theorem payload_bS_pt (d : Bool) : (Rd (F := F) SB OUT).payload (bSCell c k) 0 d
    = ((oS c k).view.loc (c : Thread nD τ) ↦[(oS c k).view.set]{fullShare} OUT c) := payload_bS SB OUT c k d
omit [FloatOps F] in
theorem payload_bR_pt (d : Bool) : (Rd (F := F) SB OUT).payload (bRCell c k) 0 d
    = ((oS (pX c) k).view.loc (c : Thread nD τ) ↦[(oS (pX c) k).view.set]{fullShare} OUT c) := payload_bR SB OUT c k d

end Tables

end Cert.Kernel.RS

end
-- ==== Proof.KOwes.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KTables
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## What a device owes, in the order it pays

A device pays, in program order: a unit to each partner's barrier cell; then a chunk's credit to each of its second-axis
partner's eight receive cells of the first stage; then to each of its first-axis partner's eight receive cells of the second
stage. The tallies are summed so that each payment peels the last summand. -/

def OB8 (c : Dev nD) : CellTallies nD τ sig Unit := 0
def OB7 (c : Dev nD) : CellTallies nD τ sig Unit := OB8 c + tallyAt (bRCell (pX c) 7) () N
def OB6 (c : Dev nD) : CellTallies nD τ sig Unit := OB7 c + tallyAt (bRCell (pX c) 6) () N
def OB5 (c : Dev nD) : CellTallies nD τ sig Unit := OB6 c + tallyAt (bRCell (pX c) 5) () N
def OB4 (c : Dev nD) : CellTallies nD τ sig Unit := OB5 c + tallyAt (bRCell (pX c) 4) () N
def OB3 (c : Dev nD) : CellTallies nD τ sig Unit := OB4 c + tallyAt (bRCell (pX c) 3) () N
def OB2 (c : Dev nD) : CellTallies nD τ sig Unit := OB3 c + tallyAt (bRCell (pX c) 2) () N
def OB1 (c : Dev nD) : CellTallies nD τ sig Unit := OB2 c + tallyAt (bRCell (pX c) 1) () N
def OB0 (c : Dev nD) : CellTallies nD τ sig Unit := OB1 c + tallyAt (bRCell (pX c) 0) () N
def OA8 (c : Dev nD) : CellTallies nD τ sig Unit := OB0 c
def OA7 (c : Dev nD) : CellTallies nD τ sig Unit := OA8 c + tallyAt (aRCell (pY c) 7) () N
def OA6 (c : Dev nD) : CellTallies nD τ sig Unit := OA7 c + tallyAt (aRCell (pY c) 6) () N
def OA5 (c : Dev nD) : CellTallies nD τ sig Unit := OA6 c + tallyAt (aRCell (pY c) 5) () N
def OA4 (c : Dev nD) : CellTallies nD τ sig Unit := OA5 c + tallyAt (aRCell (pY c) 4) () N
def OA3 (c : Dev nD) : CellTallies nD τ sig Unit := OA4 c + tallyAt (aRCell (pY c) 3) () N
def OA2 (c : Dev nD) : CellTallies nD τ sig Unit := OA3 c + tallyAt (aRCell (pY c) 2) () N
def OA1 (c : Dev nD) : CellTallies nD τ sig Unit := OA2 c + tallyAt (aRCell (pY c) 1) () N
def OA0 (c : Dev nD) : CellTallies nD τ sig Unit := OA1 c + tallyAt (aRCell (pY c) 0) () N
def O₁ (c : Dev nD) : CellTallies nD τ sig Unit := OA0 c + tallyAt (barCell (pX c)) () 1
def O₀ (c : Dev nD) : CellTallies nD τ sig Unit := O₁ c + tallyAt (barCell (pY c)) () 1

/-! ## Levels: a barrier cell below the first stage's receive cells, those below the second stage's; all else at the bottom -/

def L (g : GSem nD τ sig) : Finset Unit := if g.1.2 = .tc then {()} else ∅
def lv (g : GSem nD τ sig) (_ : Unit) : ℕ := match g.2 with
  | .reg _ => 1
  | .dma q => match grp q with
    | some (1, _) => 2
    | some (3, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := rfl
theorem lv_aR (d : Dev nD) (k : Fin 8) : lv (aRCell d k) () = 2 := by
  show (match grp (aRs k) with | some (1, _) => 2 | some (3, _) => 3 | _ => 0) = 2; rw [grp_aR]; rfl
theorem lv_bR (d : Dev nD) (k : Fin 8) : lv (bRCell d k) () = 3 := by
  show (match grp (bRs k) with | some (1, _) => 2 | some (3, _) => 3 | _ => 0) = 3; rw [grp_bR]; rfl
theorem lv_aS (d : Dev nD) (k : Fin 8) : lv (aSCell d k) () = 0 := by
  show (match grp (aSs k) with | some (1, _) => 2 | some (3, _) => 3 | _ => 0) = 0; rw [grp_aS]; rfl
theorem lv_bS (d : Dev nD) (k : Fin 8) : lv (bSCell d k) () = 0 := by
  show (match grp (bSs k) with | some (1, _) => 2 | some (3, _) => 3 | _ => 0) = 0; rw [grp_bS]; rfl
theorem lv_other (d : Dev nD) (q : DmaSem sig) (hq : q.val = 0 ∨ 33 ≤ q.val) : lv ((d : Thread nD τ), SemLoc.dma q) () = 0 := by
  have : grp q = none := by
    unfold grp; rw [dif_neg]; omega
  show (match grp q with | some (1, _) => 2 | some (3, _) => 3 | _ => 0) = 0; rw [this]

/-- Every cell at which `O` is positive is a TensorCore's and has `P`. -/
def Sup (P : GSem nD τ sig → Prop) (O : CellTallies nD τ sig Unit) : Prop := ∀ g u, 0 < O g u → g.1.2 = .tc ∧ P g

theorem Sup.zero (P : GSem nD τ sig → Prop) : Sup P 0 := fun g u h => absurd h (Nat.lt_irrefl 0)
theorem Sup.add {P : GSem nD τ sig → Prop} {A : CellTallies nD τ sig Unit} (hA : Sup P A) (d : Dev nD) (sm : SemLoc sig) (n : ℕ)
    (h : P ((d : Thread nD τ), sm)) : Sup P (A + tallyAt ((d : Thread nD τ), sm) () n) := fun g u hg => by
  rw [Pi.add_apply, Finsupp.add_apply, tallyAt_apply] at hg
  by_cases hc : g = ((d : Thread nD τ), sm) ∧ u = ()
  · rw [hc.1]; exact ⟨rfl, h⟩
  · rw [if_neg hc, Nat.add_zero] at hg; exact hA g u hg
theorem Sup.mono {P Q : GSem nD τ sig → Prop} {A : CellTallies nD τ sig Unit} (hA : Sup P A) (h : ∀ g, P g → Q g) : Sup Q A :=
  fun g u hg => ⟨(hA g u hg).1, h g (hA g u hg).2⟩

theorem sup_OB8 (c : Dev nD) : Sup (fun g => 2 < lv g ()) (OB8 c) := Sup.zero _
theorem sup_OB7 (c : Dev nD) : Sup (fun g => 2 < lv g ()) (OB7 c) := Sup.add (sup_OB8 c) _ _ _ (by rw [lv_bR]; decide)
theorem sup_OB6 (c : Dev nD) : Sup (fun g => 2 < lv g ()) (OB6 c) := Sup.add (sup_OB7 c) _ _ _ (by rw [lv_bR]; decide)
theorem sup_OB5 (c : Dev nD) : Sup (fun g => 2 < lv g ()) (OB5 c) := Sup.add (sup_OB6 c) _ _ _ (by rw [lv_bR]; decide)
theorem sup_OB4 (c : Dev nD) : Sup (fun g => 2 < lv g ()) (OB4 c) := Sup.add (sup_OB5 c) _ _ _ (by rw [lv_bR]; decide)
theorem sup_OB3 (c : Dev nD) : Sup (fun g => 2 < lv g ()) (OB3 c) := Sup.add (sup_OB4 c) _ _ _ (by rw [lv_bR]; decide)
theorem sup_OB2 (c : Dev nD) : Sup (fun g => 2 < lv g ()) (OB2 c) := Sup.add (sup_OB3 c) _ _ _ (by rw [lv_bR]; decide)
theorem sup_OB1 (c : Dev nD) : Sup (fun g => 2 < lv g ()) (OB1 c) := Sup.add (sup_OB2 c) _ _ _ (by rw [lv_bR]; decide)
theorem sup_OB0 (c : Dev nD) : Sup (fun g => 2 < lv g ()) (OB0 c) := Sup.add (sup_OB1 c) _ _ _ (by rw [lv_bR]; decide)
theorem sup_OA8 (c : Dev nD) : Sup (fun g => 1 < lv g ()) (OA8 c) := (sup_OB0 c).mono fun g h => by omega
theorem sup_OA7 (c : Dev nD) : Sup (fun g => 1 < lv g ()) (OA7 c) := Sup.add (sup_OA8 c) _ _ _ (by rw [lv_aR]; decide)
theorem sup_OA6 (c : Dev nD) : Sup (fun g => 1 < lv g ()) (OA6 c) := Sup.add (sup_OA7 c) _ _ _ (by rw [lv_aR]; decide)
theorem sup_OA5 (c : Dev nD) : Sup (fun g => 1 < lv g ()) (OA5 c) := Sup.add (sup_OA6 c) _ _ _ (by rw [lv_aR]; decide)
theorem sup_OA4 (c : Dev nD) : Sup (fun g => 1 < lv g ()) (OA4 c) := Sup.add (sup_OA5 c) _ _ _ (by rw [lv_aR]; decide)
theorem sup_OA3 (c : Dev nD) : Sup (fun g => 1 < lv g ()) (OA3 c) := Sup.add (sup_OA4 c) _ _ _ (by rw [lv_aR]; decide)
theorem sup_OA2 (c : Dev nD) : Sup (fun g => 1 < lv g ()) (OA2 c) := Sup.add (sup_OA3 c) _ _ _ (by rw [lv_aR]; decide)
theorem sup_OA1 (c : Dev nD) : Sup (fun g => 1 < lv g ()) (OA1 c) := Sup.add (sup_OA2 c) _ _ _ (by rw [lv_aR]; decide)
theorem sup_OA0 (c : Dev nD) : Sup (fun g => 1 < lv g ()) (OA0 c) := Sup.add (sup_OA1 c) _ _ _ (by rw [lv_aR]; decide)
theorem sup_O₁ (c : Dev nD) : Sup (fun g => 0 < lv g ()) (O₁ c) :=
  Sup.add ((sup_OA0 c).mono fun g h => by omega) _ _ _ (by rw [lv_bar]; decide)
theorem sup_O₀ (c : Dev nD) : Sup (fun g => 0 < lv g ()) (O₀ c) :=
  Sup.add (sup_O₁ c) _ _ _ (by rw [lv_bar]; decide)

omit [FloatOps F] in
/-- A wait on a cell of level `a` is allowed while everything owed sits above `a`. -/
theorem mayWait_of_sup (c : Dev nD) (sm : SemLoc sig) (a : ℕ) (ha : lv ((c : Thread nD τ), sm) () ≤ a)
    (O : CellTallies nD τ sig Unit) (hO : Sup (fun g => a < lv g ()) O) :
    (levAts L lv : sProp 𝕄) ⊢ MayWait (c : Thread nD τ) sm () O :=
  MayOwe.of_cut (L := L) (lev := lv) a
    (fun p hp => by rw [Finset.mem_singleton.mp hp, L_tc]; exact Finset.mem_singleton_self _)
    (fun g u hg => by
      obtain ⟨⟨d, pr⟩, s⟩ := g
      have h := (hO _ u hg).1
      cases u
      show () ∈ L ((d, pr), s)
      unfold L; rw [if_pos h]; exact Finset.mem_singleton_self _)
    (fun p hp => by rw [Finset.mem_singleton.mp hp]; exact ha)
    (fun g u hg => by cases u; exact (hO g () hg).2)

end Cert.Kernel.RS

end
-- ==== Proof.KVals.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KOwes
import Idealize.ShloMosaic.Lib.ValueIdx
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! ## What the buffers end up holding, as functions of the devices' blocks of the argument

Device `d` (at mesh position `(d / 2, d % 2)`) holds the block `X d` of the argument, 4096 rows of 2048 columns. It converts to
the result's element type two bands of 512 columns: the band it sends to its second-axis partner (`SBf`), from column
`colA d`, and the band it keeps (`MBf`), from column `colM d`; the partner's sent band lands in its landing buffer; the
sum of the kept and the landed band (`ownSum`) is the half of its result it computes, and the other half is its first-axis
partner's. -/

variable (m : (ℓ : Loc nD τ sig) → Buf (Elt F) ℓ)

/-- Device `d`'s block of the argument. -/
def Xof (d : Dev nD) : S1x4096x2048.Idx → Elt F .f32 := m ((d : Thread nD τ).loc main_arg0)

def colA (d : Dev nD) : ℕ := (512 * (d.val / 2) + 1024) - 1024 * (d.val % 2)
def colM (d : Dev nD) : ℕ := 1024 * (d.val % 2) + 512 * (d.val / 2)
theorem colA_le (d : Dev nD) : colA d + 512 ≤ 2048 := by revert d; decide
theorem colM_le (d : Dev nD) : colM d + 512 ≤ 2048 := by revert d; decide
theorem colA_pY (d : Dev nD) : colA (pY d) = colM d := by revert d; decide

/-- The element of `d`'s block at row `i 0` and column `col + i 1`. -/
def xAt (d : Dev nD) (col : ℕ) (h : col + 512 ≤ 2048) (i : S4096x512.Idx) : Elt F .f32 :=
  Xof m d (ValueIdx.ix3 (0 : Fin 1) (⟨(i 0).val, (i 0).isLt⟩ : Fin 4096) (⟨col + (i 1).val, by have := (i 1).isLt; have e : S4096x512.size 1 = 512 := rfl; omega⟩ : Fin 2048))

/-- What device `d`'s send buffer ends up holding. -/
def SBf (d : Dev nD) : (cc0_scratch0 : Ref sig .tc).ty.Contents (Elt F) :=
  fun i => FloatOps.truncf .bf16 (by decide) (xAt m d (colA d) (colA_le d) i)
/-- What its buffer of the kept band ends up holding. -/
def MBf (d : Dev nD) : (cc0_scratch0 : Ref sig .tc).ty.Contents (Elt F) :=
  fun i => FloatOps.truncf .bf16 (by decide) (xAt m d (colM d) (colM_le d) i)
/-- The half of the result device `d` computes: its kept band plus what landed from its second-axis partner. -/
def ownSum (d : Dev nD) : (cc0_scratch0 : Ref sig .tc).ty.Contents (Elt F) :=
  fun i => FloatOps.addf (MBf m d i) (SBf m (pY d) i)
/-- What device `d`'s result buffer ends up holding: in the 512 columns from `512 (d / 2)` its own half, in the others its
    first-axis partner's. -/
def OUTf (d : Dev nD) : (cc0_stg0_0 : Ref sig .tc).ty.Contents (Elt F) :=
  fun i =>
    let j : S4096x512.Idx := ValueIdx.ix2 (⟨(i 0).val, (i 0).isLt⟩ : Fin 4096) (⟨(i 1).val % 512, Nat.mod_lt _ (by decide)⟩ : Fin 512)
    if (i 1).val / 512 = d.val / 2 then ownSum m d j else ownSum m (pX d) j

end Cert.Kernel.RS

end
-- ==== Proof.KCtx.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KVals
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev ss0 : DmaSem sig := ((cc0_scratch9.slice (Rect.unit (s := S2) ![0] S1.size inb_S2_S1_0)).squeeze S_ squeezes_S1_S_).sem
abbrev ss1 : DmaSem sig := ((cc0_scratch9.slice (Rect.unit (s := S2) ![1] S1.size inb_S2_S1_1)).squeeze S_ squeezes_S1_S_).sem
abbrev sm0 : DmaSem sig := ((cc0_scratch10.slice (Rect.unit (s := S2) ![0] S1.size inb_S2_S1_0)).squeeze S_ squeezes_S1_S_).sem
abbrev sm1 : DmaSem sig := ((cc0_scratch10.slice (Rect.unit (s := S2) ![1] S1.size inb_S2_S1_1)).squeeze S_ squeezes_S1_S_).sem

/-! ## The exchange's ghost state on device `c`

Under the names `K` the launch allocated the cells' invariants at: the invariants of the device's own 33 cells and of the 18
cells of its partners it pays into; that round 0 of each is reached; its position at round 0 of its own cells; the tokens of
the 34 duties it pays. -/

/-- The invariants of the device's own cells: its barrier cell and its 32 transfer cells. -/
def ownInvs (K : GSem nD τ sig → ℕ) (c : Dev nD) : sProp 𝕄 :=
  iprop(cellInv ER (Rd (SBf m) (OUTf m)) (K (barCell c)) (barCell c)
    ∗ cellInv ER (Rd (SBf m) (OUTf m)) (K (aSCell c 0)) (aSCell c 0)
    ∗ cellInv ER (Rd (SBf m) (OUTf m)) (K (aRCell c 0)) (aRCell c 0)
    ∗ cellInv ER (Rd (SBf m) (OUTf m)) (K (bSCell c 0)) (bSCell c 0)
    ∗ cellInv ER (Rd (SBf m) (OUTf m)) (K (bRCell c 0)) (bRCell c 0)
    ∗ cellInv ER (Rd (SBf m) (OUTf m)) (K (aSCell c 1)) (aSCell c 1)
    ∗ cellInv ER (Rd (SBf m) (OUTf m)) (K (aRCell c 1)) (aRCell c 1)
    ∗ cellInv ER (Rd (SBf m) (OUTf m)) (K (bSCell c 1)) (bSCell c 1)
    ∗ cellInv ER (Rd (SBf m) (OUTf m)) (K (bRCell c 1)) (bRCell c 1)
    ∗ cellInv ER (Rd (SBf m) (OUTf m)) (K (aSCell c 2)) (aSCell c 2)
    ∗ cellInv ER (Rd (SBf m) (OUTf m)) (K (aRCell c 2)) (aRCell c 2)
    ∗ cellInv ER (Rd (SBf m) (OUTf m)) (K (bSCell c 2)) (bSCell c 2)
    ∗ cellInv ER (Rd (SBf m) (OUTf m)) (K (bRCell c 2)) (bRCell c 2)
    ∗ cellInv ER (Rd (SBf m) (OUTf m)) (K (aSCell c 3)) (aSCell c 3)
    ∗ cellInv ER (Rd (SBf m) (OUTf m)) (K (aRCell c 3)) (aRCell c 3)
    ∗ cellInv ER (Rd (SBf m) (OUTf m)) (K (bSCell c 3)) (bSCell c 3)
    ∗ cellInv ER (Rd (SBf m) (OUTf m)) (K (bRCell c 3)) (bRCell c 3)
    ∗ cellInv ER (Rd (SBf m) (OUTf m)) (K (aSCell c 4)) (aSCell c 4)
    ∗ cellInv ER (Rd (SBf m) (OUTf m)) (K (aRCell c 4)) (aRCell c 4)
    ∗ cellInv ER (Rd (SBf m) (OUTf m)) (K (bSCell c 4)) (bSCell c 4)
    ∗ cellInv ER (Rd (SBf m) (OUTf m)) (K (bRCell c 4)) (bRCell c 4)
    ∗ cellInv ER (Rd (SBf m) (OUTf m)) (K (aSCell c 5)) (aSCell c 5)
    ∗ cellInv ER (Rd (SBf m) (OUTf m)) (K (aRCell c 5)) (aRCell c 5)
    ∗ cellInv ER (Rd (SBf m) (OUTf m)) (K (bSCell c 5)) (bSCell c 5)
    ∗ cellInv ER (Rd (SBf m) (OUTf m)) (K (bRCell c 5)) (bRCell c 5)
    ∗ cellInv ER (Rd (SBf m) (OUTf m)) (K (aSCell c 6)) (aSCell c 6)
    ∗ cellInv ER (Rd (SBf m) (OUTf m)) (K (aRCell c 6)) (aRCell c 6)
    ∗ cellInv ER (Rd (SBf m) (OUTf m)) (K (bSCell c 6)) (bSCell c 6)
    ∗ cellInv ER (Rd (SBf m) (OUTf m)) (K (bRCell c 6)) (bRCell c 6)
    ∗ cellInv ER (Rd (SBf m) (OUTf m)) (K (aSCell c 7)) (aSCell c 7)
    ∗ cellInv ER (Rd (SBf m) (OUTf m)) (K (aRCell c 7)) (aRCell c 7)
    ∗ cellInv ER (Rd (SBf m) (OUTf m)) (K (bSCell c 7)) (bSCell c 7)
    ∗ cellInv ER (Rd (SBf m) (OUTf m)) (K (bRCell c 7)) (bRCell c 7))
/-- The invariants of the partners' cells it pays into: both barrier cells, the second-axis partner's first-stage receive
    cells, the first-axis partner's second-stage receive cells. -/
def peerInvs (K : GSem nD τ sig → ℕ) (c : Dev nD) : sProp 𝕄 :=
  iprop(cellInv ER (Rd (SBf m) (OUTf m)) (K (barCell (pY c))) (barCell (pY c))
    ∗ cellInv ER (Rd (SBf m) (OUTf m)) (K (barCell (pX c))) (barCell (pX c))
    ∗ cellInv ER (Rd (SBf m) (OUTf m)) (K (aRCell (pY c) 0)) (aRCell (pY c) 0)
    ∗ cellInv ER (Rd (SBf m) (OUTf m)) (K (bRCell (pX c) 0)) (bRCell (pX c) 0)
    ∗ cellInv ER (Rd (SBf m) (OUTf m)) (K (aRCell (pY c) 1)) (aRCell (pY c) 1)
    ∗ cellInv ER (Rd (SBf m) (OUTf m)) (K (bRCell (pX c) 1)) (bRCell (pX c) 1)
    ∗ cellInv ER (Rd (SBf m) (OUTf m)) (K (aRCell (pY c) 2)) (aRCell (pY c) 2)
    ∗ cellInv ER (Rd (SBf m) (OUTf m)) (K (bRCell (pX c) 2)) (bRCell (pX c) 2)
    ∗ cellInv ER (Rd (SBf m) (OUTf m)) (K (aRCell (pY c) 3)) (aRCell (pY c) 3)
    ∗ cellInv ER (Rd (SBf m) (OUTf m)) (K (bRCell (pX c) 3)) (bRCell (pX c) 3)
    ∗ cellInv ER (Rd (SBf m) (OUTf m)) (K (aRCell (pY c) 4)) (aRCell (pY c) 4)
    ∗ cellInv ER (Rd (SBf m) (OUTf m)) (K (bRCell (pX c) 4)) (bRCell (pX c) 4)
    ∗ cellInv ER (Rd (SBf m) (OUTf m)) (K (aRCell (pY c) 5)) (aRCell (pY c) 5)
    ∗ cellInv ER (Rd (SBf m) (OUTf m)) (K (bRCell (pX c) 5)) (bRCell (pX c) 5)
    ∗ cellInv ER (Rd (SBf m) (OUTf m)) (K (aRCell (pY c) 6)) (aRCell (pY c) 6)
    ∗ cellInv ER (Rd (SBf m) (OUTf m)) (K (bRCell (pX c) 6)) (bRCell (pX c) 6)
    ∗ cellInv ER (Rd (SBf m) (OUTf m)) (K (aRCell (pY c) 7)) (aRCell (pY c) 7)
    ∗ cellInv ER (Rd (SBf m) (OUTf m)) (K (bRCell (pX c) 7)) (bRCell (pX c) 7))
/-- Round 0 of all those cells is reached. -/
def reacheds (c : Dev nD) : sProp 𝕄 :=
  iprop(reached ER (barCell c) 0
    ∗ reached ER (aSCell c 0) 0
    ∗ reached ER (aRCell c 0) 0
    ∗ reached ER (bSCell c 0) 0
    ∗ reached ER (bRCell c 0) 0
    ∗ reached ER (aSCell c 1) 0
    ∗ reached ER (aRCell c 1) 0
    ∗ reached ER (bSCell c 1) 0
    ∗ reached ER (bRCell c 1) 0
    ∗ reached ER (aSCell c 2) 0
    ∗ reached ER (aRCell c 2) 0
    ∗ reached ER (bSCell c 2) 0
    ∗ reached ER (bRCell c 2) 0
    ∗ reached ER (aSCell c 3) 0
    ∗ reached ER (aRCell c 3) 0
    ∗ reached ER (bSCell c 3) 0
    ∗ reached ER (bRCell c 3) 0
    ∗ reached ER (aSCell c 4) 0
    ∗ reached ER (aRCell c 4) 0
    ∗ reached ER (bSCell c 4) 0
    ∗ reached ER (bRCell c 4) 0
    ∗ reached ER (aSCell c 5) 0
    ∗ reached ER (aRCell c 5) 0
    ∗ reached ER (bSCell c 5) 0
    ∗ reached ER (bRCell c 5) 0
    ∗ reached ER (aSCell c 6) 0
    ∗ reached ER (aRCell c 6) 0
    ∗ reached ER (bSCell c 6) 0
    ∗ reached ER (bRCell c 6) 0
    ∗ reached ER (aSCell c 7) 0
    ∗ reached ER (aRCell c 7) 0
    ∗ reached ER (bSCell c 7) 0
    ∗ reached ER (bRCell c 7) 0
    ∗ reached ER (barCell (pY c)) 0
    ∗ reached ER (barCell (pX c)) 0
    ∗ reached ER (aRCell (pY c) 0) 0
    ∗ reached ER (bRCell (pX c) 0) 0
    ∗ reached ER (aRCell (pY c) 1) 0
    ∗ reached ER (bRCell (pX c) 1) 0
    ∗ reached ER (aRCell (pY c) 2) 0
    ∗ reached ER (bRCell (pX c) 2) 0
    ∗ reached ER (aRCell (pY c) 3) 0
    ∗ reached ER (bRCell (pX c) 3) 0
    ∗ reached ER (aRCell (pY c) 4) 0
    ∗ reached ER (bRCell (pX c) 4) 0
    ∗ reached ER (aRCell (pY c) 5) 0
    ∗ reached ER (bRCell (pX c) 5) 0
    ∗ reached ER (aRCell (pY c) 6) 0
    ∗ reached ER (bRCell (pX c) 6) 0
    ∗ reached ER (aRCell (pY c) 7) 0
    ∗ reached ER (bRCell (pX c) 7) 0)
/-- The device stands at round 0 of each of its own cells, nothing consumed. -/
def positions (c : Dev nD) : sProp 𝕄 :=
  iprop(atPos ER (barCell c) 0 ∅ 0
    ∗ atPos ER (aSCell c 0) 0 ∅ 0
    ∗ atPos ER (aRCell c 0) 0 ∅ 0
    ∗ atPos ER (bSCell c 0) 0 ∅ 0
    ∗ atPos ER (bRCell c 0) 0 ∅ 0
    ∗ atPos ER (aSCell c 1) 0 ∅ 0
    ∗ atPos ER (aRCell c 1) 0 ∅ 0
    ∗ atPos ER (bSCell c 1) 0 ∅ 0
    ∗ atPos ER (bRCell c 1) 0 ∅ 0
    ∗ atPos ER (aSCell c 2) 0 ∅ 0
    ∗ atPos ER (aRCell c 2) 0 ∅ 0
    ∗ atPos ER (bSCell c 2) 0 ∅ 0
    ∗ atPos ER (bRCell c 2) 0 ∅ 0
    ∗ atPos ER (aSCell c 3) 0 ∅ 0
    ∗ atPos ER (aRCell c 3) 0 ∅ 0
    ∗ atPos ER (bSCell c 3) 0 ∅ 0
    ∗ atPos ER (bRCell c 3) 0 ∅ 0
    ∗ atPos ER (aSCell c 4) 0 ∅ 0
    ∗ atPos ER (aRCell c 4) 0 ∅ 0
    ∗ atPos ER (bSCell c 4) 0 ∅ 0
    ∗ atPos ER (bRCell c 4) 0 ∅ 0
    ∗ atPos ER (aSCell c 5) 0 ∅ 0
    ∗ atPos ER (aRCell c 5) 0 ∅ 0
    ∗ atPos ER (bSCell c 5) 0 ∅ 0
    ∗ atPos ER (bRCell c 5) 0 ∅ 0
    ∗ atPos ER (aSCell c 6) 0 ∅ 0
    ∗ atPos ER (aRCell c 6) 0 ∅ 0
    ∗ atPos ER (bSCell c 6) 0 ∅ 0
    ∗ atPos ER (bRCell c 6) 0 ∅ 0
    ∗ atPos ER (aSCell c 7) 0 ∅ 0
    ∗ atPos ER (aRCell c 7) 0 ∅ 0
    ∗ atPos ER (bSCell c 7) 0 ∅ 0
    ∗ atPos ER (bRCell c 7) 0 ∅ 0)
/-- The tokens of the duties the device pays. -/
def payToks (c : Dev nD) : sProp 𝕄 :=
  iprop(dutyTok ER (barCell (pY c)) 0 false
    ∗ dutyTok ER (barCell (pX c)) 0 true
    ∗ dutyTok ER (aSCell c 0) 0 false
    ∗ dutyTok ER (bSCell c 0) 0 false
    ∗ dutyTok ER (aRCell (pY c) 0) 0 false
    ∗ dutyTok ER (bRCell (pX c) 0) 0 false
    ∗ dutyTok ER (aSCell c 1) 0 false
    ∗ dutyTok ER (bSCell c 1) 0 false
    ∗ dutyTok ER (aRCell (pY c) 1) 0 false
    ∗ dutyTok ER (bRCell (pX c) 1) 0 false
    ∗ dutyTok ER (aSCell c 2) 0 false
    ∗ dutyTok ER (bSCell c 2) 0 false
    ∗ dutyTok ER (aRCell (pY c) 2) 0 false
    ∗ dutyTok ER (bRCell (pX c) 2) 0 false
    ∗ dutyTok ER (aSCell c 3) 0 false
    ∗ dutyTok ER (bSCell c 3) 0 false
    ∗ dutyTok ER (aRCell (pY c) 3) 0 false
    ∗ dutyTok ER (bRCell (pX c) 3) 0 false
    ∗ dutyTok ER (aSCell c 4) 0 false
    ∗ dutyTok ER (bSCell c 4) 0 false
    ∗ dutyTok ER (aRCell (pY c) 4) 0 false
    ∗ dutyTok ER (bRCell (pX c) 4) 0 false
    ∗ dutyTok ER (aSCell c 5) 0 false
    ∗ dutyTok ER (bSCell c 5) 0 false
    ∗ dutyTok ER (aRCell (pY c) 5) 0 false
    ∗ dutyTok ER (bRCell (pX c) 5) 0 false
    ∗ dutyTok ER (aSCell c 6) 0 false
    ∗ dutyTok ER (bSCell c 6) 0 false
    ∗ dutyTok ER (aRCell (pY c) 6) 0 false
    ∗ dutyTok ER (bRCell (pX c) 6) 0 false
    ∗ dutyTok ER (aSCell c 7) 0 false
    ∗ dutyTok ER (bSCell c 7) 0 false
    ∗ dutyTok ER (aRCell (pY c) 7) 0 false
    ∗ dutyTok ER (bRCell (pX c) 7) 0 false)

instance ownInvs_persistent (K : GSem nD τ sig → ℕ) (c : Dev nD) : BI.Persistent (ownInvs m K c) := by unfold ownInvs; infer_instance
instance peerInvs_persistent (K : GSem nD τ sig → ℕ) (c : Dev nD) : BI.Persistent (peerInvs m K c) := by unfold peerInvs; infer_instance
instance reacheds_persistent (c : Dev nD) : BI.Persistent (reacheds (F := F) c) := by unfold reacheds; infer_instance

def ghost (K : GSem nD τ sig → ℕ) (c : Dev nD) : sProp 𝕄 :=
  iprop(ownInvs m K c ∗ peerInvs m K c ∗ reacheds c ∗ positions c ∗ payToks c)

/-- The credit the launch deals the device: two units on its barrier cell, a chunk's on each of its 16 receive cells. -/
def creds (c : Dev nD) : sProp 𝕄 :=
  iprop(cred (tallyAt (barCell c) () 2)
    ∗ cred (tallyAt (aRCell c 0) () N)
    ∗ cred (tallyAt (bRCell c 0) () N)
    ∗ cred (tallyAt (aRCell c 1) () N)
    ∗ cred (tallyAt (bRCell c 1) () N)
    ∗ cred (tallyAt (aRCell c 2) () N)
    ∗ cred (tallyAt (bRCell c 2) () N)
    ∗ cred (tallyAt (aRCell c 3) () N)
    ∗ cred (tallyAt (bRCell c 3) () N)
    ∗ cred (tallyAt (aRCell c 4) () N)
    ∗ cred (tallyAt (bRCell c 4) () N)
    ∗ cred (tallyAt (aRCell c 5) () N)
    ∗ cred (tallyAt (bRCell c 5) () N)
    ∗ cred (tallyAt (aRCell c 6) () N)
    ∗ cred (tallyAt (bRCell c 6) () N)
    ∗ cred (tallyAt (aRCell c 7) () N)
    ∗ cred (tallyAt (bRCell c 7) () N))

/-- What device `c` starts from: the ghost state at some names, its credit and the level facts. -/
def start (c : Dev nD) : sProp 𝕄 := iprop((∃ K, ghost m K c) ∗ creds c ∗ levAts L lv)

/-- The four semaphores of the local staging copies, at zero. -/
def locals0 (c : Dev nD) : sProp 𝕄 :=
  iprop(semVal ((c : Thread nD τ), .dma ss0) 0 ∗ semVal ((c : Thread nD τ), .dma ss1) 0
    ∗ semVal ((c : Thread nD τ), .dma sm0) 0 ∗ semVal ((c : Thread nD τ), .dma sm1) 0)
/-- The device's block of the argument, whole, as launched. -/
def xPts (c : Dev nD) : sProp 𝕄 := (((c : Thread nD τ).loc main_arg0) ↦{fullShare} m ((c : Thread nD τ).loc main_arg0))
/-- The five scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))
/-- The 32 transfer cells' counters at zero. -/
def xferSems0 (c : Dev nD) : sProp 𝕄 :=
  iprop(semVal (aSCell c 0) 0
    ∗ semVal (aSCell c 1) 0
    ∗ semVal (aSCell c 2) 0
    ∗ semVal (aSCell c 3) 0
    ∗ semVal (aSCell c 4) 0
    ∗ semVal (aSCell c 5) 0
    ∗ semVal (aSCell c 6) 0
    ∗ semVal (aSCell c 7) 0
    ∗ semVal (aRCell c 0) 0
    ∗ semVal (aRCell c 1) 0
    ∗ semVal (aRCell c 2) 0
    ∗ semVal (aRCell c 3) 0
    ∗ semVal (aRCell c 4) 0
    ∗ semVal (aRCell c 5) 0
    ∗ semVal (aRCell c 6) 0
    ∗ semVal (aRCell c 7) 0
    ∗ semVal (bSCell c 0) 0
    ∗ semVal (bSCell c 1) 0
    ∗ semVal (bSCell c 2) 0
    ∗ semVal (bSCell c 3) 0
    ∗ semVal (bSCell c 4) 0
    ∗ semVal (bSCell c 5) 0
    ∗ semVal (bSCell c 6) 0
    ∗ semVal (bSCell c 7) 0
    ∗ semVal (bRCell c 0) 0
    ∗ semVal (bRCell c 1) 0
    ∗ semVal (bRCell c 2) 0
    ∗ semVal (bRCell c 3) 0
    ∗ semVal (bRCell c 4) 0
    ∗ semVal (bRCell c 5) 0
    ∗ semVal (bRCell c 6) 0
    ∗ semVal (bRCell c 7) 0)

/-- The kernel's own (scoped) DMA semaphores, as the launch indexes them: the 32 transfer cells' (first-stage send, first-stage
    receive, second-stage send, second-stage receive, eight each) and the four of the local staging copies. -/
abbrev osem : Fin 36 → SemLoc sig := fun i => .dma ⟨i.val + 1, by have h : i.val < 36 := i.isLt; show _ < 37; omega⟩
/-- What the launch's global step leaves each device: the ghost state at some names, and its four local semaphores at zero. -/
def G' (c : Dev nD) : sProp 𝕄 := iprop((∃ K, ghost m K c) ∗ locals0 c)

/-- Before the body: the start, the local semaphores, the argument block and the scratch buffers. -/
def Φ₀ (c : Dev nD) : sProp 𝕄 := iprop(start m c ∗ locals0 c ∗ xPts m c ∗ scratch c)
/-- After it: the argument block unchanged, the scratch buffers at some contents, all 36 own semaphores at zero. -/
def Φ₁ (c : Dev nD) : sProp 𝕄 := iprop(xPts m c ∗ scratch c ∗ xferSems0 c ∗ locals0 c)

/-- The pipeline's proof data: the result's staging buffer ends at `OUTf m c`; the device owes `O₀ c` before the body and
    nothing after it. -/
def dats (_ : Fin 1) (c : Dev nD) : Dat τ (Elt F) Unit ℕ UU ℕ cfg0 c where
  A w := m ((cfg0.win w).arr.view.loc (c : Thread nD τ))
  after w _ := match w with
    | ⟨0, _⟩ => OUTf m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.RS

end
-- ==== Proof.KAlloc.lean ====
import proofs.«900308_g7700000000000309_dist_rs_v7x_xy2x2_y_m4096_n1024_bf16_1_alg».proof.Proof.KCtx

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the duty tokens, indexed

A device has 33 cells: its barrier cell (`none`) and, for each of the four groups of transfers (first-stage send, first-stage
receive, second-stage send, second-stage receive) and each of the eight chunks, a transfer cell. It mints 34 duty tokens: the
barrier cell's duty `true` (`none`) and every cell's duty `false`. -/

abbrev CI : Type := Option (Fin 4 × Fin 8)
abbrev TI : Type := Option CI

def csem : CI → SemLoc sig
  | none => .reg barS
  | some (0, k) => .dma (aSs k)
  | some (1, k) => .dma (aRs k)
  | some (2, k) => .dma (bSs k)
  | some (3, k) => .dma (bRs k)

/-- The index of a semaphore among a device's cells (anything off them). -/
def ciOf : SemLoc sig → CI
  | .reg _ => none
  | .dma q => grp q

theorem ciOf_csem : ∀ i : CI, ciOf (csem i) = i
  | none => rfl
  | some (0, k) => grp_aS k
  | some (1, k) => grp_aR k
  | some (2, k) => grp_bS k
  | some (3, k) => grp_bR k

abbrev kcell (ck : Dev nD × CI) : GSem nD τ sig := ((ck.1 : Thread nD τ), csem ck.2)

theorem kcell_injective : Function.Injective (kcell : Dev nD × CI → GSem nD τ sig) := by
  rintro ⟨c, i⟩ ⟨c', i'⟩ h
  have h1 : c = c' := congrArg (fun g : GSem nD τ sig => g.1.1) h
  subst h1
  have h2 : ciOf (csem i) = ciOf (csem i') := congrArg (fun g : GSem nD τ sig => ciOf g.2) h
  rw [ciOf_csem, ciOf_csem] at h2
  subst h2; rfl

abbrev tokOf (ct : Dev nD × TI) : GSem nD τ sig × ℕ × Bool := match ct.2 with
  | none => (barCell ct.1, 0, true)
  | some i => (kcell (ct.1, i), 0, false)

theorem tokOf_injective : Function.Injective (tokOf : Dev nD × TI → GSem nD τ sig × ℕ × Bool) := by
  rintro ⟨c, t⟩ ⟨c', t'⟩ h
  rcases t with _ | i <;> rcases t' with _ | i'
  · have h1 : c = c' := congrArg (fun x : GSem nD τ sig × ℕ × Bool => x.1.1.1) h
    subst h1; rfl
  · have h' : true = false := congrArg (fun x : GSem nD τ sig × ℕ × Bool => x.2.2) h
    exact Bool.noConfusion h'
  · have h' : false = true := congrArg (fun x : GSem nD τ sig × ℕ × Bool => x.2.2) h
    exact Bool.noConfusion h'
  · have h1 := kcell_injective (congrArg (fun x : GSem nD τ sig × ℕ × Bool => x.1) h)
    cases h1; rfl

/-- All devices' 33 cells. -/
def xCells : Finset (GSem nD τ sig) := Finset.univ.map ⟨kcell, kcell_injective⟩
/-- All devices' duty tokens (34 a device). -/
def xToks : Finset (GSem nD τ sig × ℕ × Bool) := Finset.univ.map ⟨tokOf, tokOf_injective⟩

def u₀ : UU := (initOf (Pipeline.cells cfgs cellOf_inj) (Pipeline.launchToks cfgs cellOf_inj), (initOf xCells xToks, 1))

/-- The tokens device `c`'s own cells mint. -/
def toks (c : Dev nD) : sProp 𝕄 :=
  bigSep Finset.univ fun t : TI => dutyTok ER (tokOf (c, t)).1 (tokOf (c, t)).2.1 (tokOf (c, t)).2.2

/-- What the launch element deals device `c`. -/
def G (c : Dev nD) : sProp 𝕄 :=
  iprop((bigSep Finset.univ fun i : CI => roundState ER (Rd (SBf m) (OUTf m)) (kcell (c, i)) 0)
    ∗ (bigSep Finset.univ fun i : CI => iprop(atPos ER (kcell (c, i)) 0 ∅ 0 ∗ reached ER (kcell (c, i)) 0)) ∗ toks c)

theorem ownSemFacts : Pipeline.OwnSemFacts cfg0.spec osem := by decide

theorem fund_rounds : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun i : CI => Φ (kcell (c, i)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks toks; rw [bigSep_map, bigSep_univ_prod]; rfl
  iintro HX
  imod (Rounds.fund ER (Rd (SBf m) (OUTf m)) xCells xToks) $$ HX with ⟨Hst, Hr, Hat, Htok⟩
  imodintro
  ihave Hst' := (Entails.of_eq (hX fun g => roundState ER (Rd (SBf m) (OUTf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_u₀ : (ownU (u₀) : sProp 𝕄) ⊢ |={Set.univ}=> iprop(BI.own (EP (initOf (Pipeline.cells cfgs cellOf_inj) (Pipeline.launchToks cfgs cellOf_inj))) ∗ bigSep Finset.univ (G m)) := by
  have hR : (BI.own (((Emb.inl : Emb UB (UB × Counters)).trans embR) (initOf xCells xToks)) : sProp 𝕄) ⊢ |==> bigSep Finset.univ (G m) :=
    fund_rounds m
  unfold u₀
  iintro Hu
  ihave H := (ownU_pair _ _) $$ Hu
  icases H with ⟨HP, HX⟩
  ihave H2 := (own_pair_emb _ _ _) $$ HX
  icases H2 with ⟨HR, -⟩
  imod hR $$ HR with HG
  imodintro
  isplitl [HP] <;> iassumption

/-! ## The launch credit

Every device owes one tally at a cell of a partner's; the partner maps being involutions, the launch deals each device the
matching credit on its own cell. The tallies are peeled in the order they are summed. -/

omit [FloatOps F] in
theorem launchCred_peel (O : Dev nD → CellTallies nD τ sig Unit) (sm : SemLoc sig) (f : Dev nD → Dev nD) (hf : ∀ c, f (f c) = c) (n : ℕ) (c : Dev nD) :
    (Pipeline.launchCred (fun d => O d + tallyAt (((f d : Dev nD) : Thread nD τ), sm) () n) c : sProp 𝕄)
      ⊢ iprop(Pipeline.launchCred O c ∗ cred (tallyAt ((c : Thread nD τ), sm) () n)) := by
  rw [Pipeline.launchCred_add]
  exact sep_mono_right (Pipeline.launchCred_tallyAt sm f f hf hf () n c)

omit [FloatOps F] in
theorem creds_of_launch (c : Dev nD) : (Pipeline.launchCred O₀ c : sProp 𝕄) ⊢ creds c := by
  have hY : (Pipeline.launchCred O₀ c : sProp 𝕄) ⊢ iprop(Pipeline.launchCred O₁ c ∗ cred (tallyAt (barCell c) () 1)) :=
    launchCred_peel O₁ (.reg barS) pY pY_pY 1 c
  have hX : (Pipeline.launchCred O₁ c : sProp 𝕄) ⊢ iprop(Pipeline.launchCred OA0 c ∗ cred (tallyAt (barCell c) () 1)) :=
    launchCred_peel OA0 (.reg barS) pX pX_pX 1 c
  have hA0 : (Pipeline.launchCred OA0 c : sProp 𝕄) ⊢ iprop(Pipeline.launchCred OA1 c ∗ cred (tallyAt (aRCell c 0) () N)) :=
    launchCred_peel OA1 (.dma (aRs 0)) pY pY_pY N c
  have hA1 : (Pipeline.launchCred OA1 c : sProp 𝕄) ⊢ iprop(Pipeline.launchCred OA2 c ∗ cred (tallyAt (aRCell c 1) () N)) :=
    launchCred_peel OA2 (.dma (aRs 1)) pY pY_pY N c
  have hA2 : (Pipeline.launchCred OA2 c : sProp 𝕄) ⊢ iprop(Pipeline.launchCred OA3 c ∗ cred (tallyAt (aRCell c 2) () N)) :=
    launchCred_peel OA3 (.dma (aRs 2)) pY pY_pY N c
  have hA3 : (Pipeline.launchCred OA3 c : sProp 𝕄) ⊢ iprop(Pipeline.launchCred OA4 c ∗ cred (tallyAt (aRCell c 3) () N)) :=
    launchCred_peel OA4 (.dma (aRs 3)) pY pY_pY N c
  have hA4 : (Pipeline.launchCred OA4 c : sProp 𝕄) ⊢ iprop(Pipeline.launchCred OA5 c ∗ cred (tallyAt (aRCell c 4) () N)) :=
    launchCred_peel OA5 (.dma (aRs 4)) pY pY_pY N c
  have hA5 : (Pipeline.launchCred OA5 c : sProp 𝕄) ⊢ iprop(Pipeline.launchCred OA6 c ∗ cred (tallyAt (aRCell c 5) () N)) :=
    launchCred_peel OA6 (.dma (aRs 5)) pY pY_pY N c
  have hA6 : (Pipeline.launchCred OA6 c : sProp 𝕄) ⊢ iprop(Pipeline.launchCred OA7 c ∗ cred (tallyAt (aRCell c 6) () N)) :=
    launchCred_peel OA7 (.dma (aRs 6)) pY pY_pY N c
  have hA7 : (Pipeline.launchCred OA7 c : sProp 𝕄) ⊢ iprop(Pipeline.launchCred OA8 c ∗ cred (tallyAt (aRCell c 7) () N)) :=
    launchCred_peel OA8 (.dma (aRs 7)) pY pY_pY N c
  have hB0 : (Pipeline.launchCred OA8 c : sProp 𝕄) ⊢ iprop(Pipeline.launchCred OB1 c ∗ cred (tallyAt (bRCell c 0) () N)) :=
    launchCred_peel OB1 (.dma (bRs 0)) pX pX_pX N c
  have hB1 : (Pipeline.launchCred OB1 c : sProp 𝕄) ⊢ iprop(Pipeline.launchCred OB2 c ∗ cred (tallyAt (bRCell c 1) () N)) :=
    launchCred_peel OB2 (.dma (bRs 1)) pX pX_pX N c
  have hB2 : (Pipeline.launchCred OB2 c : sProp 𝕄) ⊢ iprop(Pipeline.launchCred OB3 c ∗ cred (tallyAt (bRCell c 2) () N)) :=
    launchCred_peel OB3 (.dma (bRs 2)) pX pX_pX N c
  have hB3 : (Pipeline.launchCred OB3 c : sProp 𝕄) ⊢ iprop(Pipeline.launchCred OB4 c ∗ cred (tallyAt (bRCell c 3) () N)) :=
    launchCred_peel OB4 (.dma (bRs 3)) pX pX_pX N c
  have hB4 : (Pipeline.launchCred OB4 c : sProp 𝕄) ⊢ iprop(Pipeline.launchCred OB5 c ∗ cred (tallyAt (bRCell c 4) () N)) :=
    launchCred_peel OB5 (.dma (bRs 4)) pX pX_pX N c
  have hB5 : (Pipeline.launchCred OB5 c : sProp 𝕄) ⊢ iprop(Pipeline.launchCred OB6 c ∗ cred (tallyAt (bRCell c 5) () N)) :=
    launchCred_peel OB6 (.dma (bRs 5)) pX pX_pX N c
  have hB6 : (Pipeline.launchCred OB6 c : sProp 𝕄) ⊢ iprop(Pipeline.launchCred OB7 c ∗ cred (tallyAt (bRCell c 6) () N)) :=
    launchCred_peel OB7 (.dma (bRs 6)) pX pX_pX N c
  have hB7 : (Pipeline.launchCred OB7 c : sProp 𝕄) ⊢ iprop(Pipeline.launchCred OB8 c ∗ cred (tallyAt (bRCell c 7) () N)) :=
    launchCred_peel OB8 (.dma (bRs 7)) pX pX_pX N c
  have e2 : (tallyAt (barCell c) () 2 : CellTallies nD τ sig Unit) = tallyAt (barCell c) () 1 + tallyAt (barCell c) () 1 := (tallyAt_add _ _ 1 1).symm
  unfold creds
  rw [e2]
  iintro T0
  ihave T1 := hY $$ T0; icases T1 with ⟨T2, Hb1⟩
  ihave T3 := hX $$ T2; icases T3 with ⟨A0, Hb2⟩
  ihave A0' := hA0 $$ A0; icases A0' with ⟨A1, Ha0⟩
  ihave A1' := hA1 $$ A1; icases A1' with ⟨A2, Ha1⟩
  ihave A2' := hA2 $$ A2; icases A2' with ⟨A3, Ha2⟩
  ihave A3' := hA3 $$ A3; icases A3' with ⟨A4, Ha3⟩
  ihave A4' := hA4 $$ A4; icases A4' with ⟨A5, Ha4⟩
  ihave A5' := hA5 $$ A5; icases A5' with ⟨A6, Ha5⟩
  ihave A6' := hA6 $$ A6; icases A6' with ⟨A7, Ha6⟩
  ihave A7' := hA7 $$ A7; icases A7' with ⟨A8, Ha7⟩
  ihave B0' := hB0 $$ A8; icases B0' with ⟨B1, Hc0⟩
  ihave B1' := hB1 $$ B1; icases B1' with ⟨B2, Hc1⟩
  ihave B2' := hB2 $$ B2; icases B2' with ⟨B3, Hc2⟩
  ihave B3' := hB3 $$ B3; icases B3' with ⟨B4, Hc3⟩
  ihave B4' := hB4 $$ B4; icases B4' with ⟨B5, Hc4⟩
  ihave B5' := hB5 $$ B5; icases B5' with ⟨B6, Hc5⟩
  ihave B6' := hB6 $$ B6; icases B6' with ⟨B7, Hc6⟩
  ihave B7' := hB7 $$ B7; icases B7' with ⟨-, Hc7⟩
  isplitl [Hb1 Hb2]
  · iapply (cred_add _ _).2; isplitl [Hb1] <;> iassumption
  isplitl [Ha0]; · iexact Ha0
  isplitl [Hc0]; · iexact Hc0
  isplitl [Ha1]; · iexact Ha1
  isplitl [Hc1]; · iexact Hc1
  isplitl [Ha2]; · iexact Ha2
  isplitl [Hc2]; · iexact Hc2
  isplitl [Ha3]; · iexact Ha3
  isplitl [Hc3]; · iexact Hc3
  isplitl [Ha4]; · iexact Ha4
  isplitl [Hc4]; · iexact Hc4
  isplitl [Ha5]; · iexact Ha5
  isplitl [Hc5]; · iexact Hc5
  isplitl [Ha6]; · iexact Ha6
  isplitl [Hc6]; · iexact Hc6
  isplitl [Ha7]; · iexact Ha7
  iexact Hc7

/-! ## The cells allocated

The lists below enumerate a device's cells in the order of the semaphores and in the order the ghost state spells them. -/

set_option maxRecDepth 16000 in
omit [FloatOps F] in
/-- A device's cells in the order of their semaphores. -/
theorem bigSep_CI_sem (Φ : CI → sProp 𝕄) : bigSep Finset.univ Φ = bigSepL [none, some (0, 0), some (0, 1), some (0, 2), some (0, 3), some (0, 4), some (0, 5), some (0, 6), some (0, 7), some (1, 0), some (1, 1), some (1, 2), some (1, 3), some (1, 4), some (1, 5), some (1, 6), some (1, 7), some (2, 0), some (2, 1), some (2, 2), some (2, 3), some (2, 4), some (2, 5), some (2, 6), some (2, 7), some (3, 0), some (3, 1), some (3, 2), some (3, 3), some (3, 4), some (3, 5), some (3, 6), some (3, 7)] Φ :=
  bigSep_univ_eq_bigSepL _ (by decide +kernel) (by decide +kernel) Φ
set_option maxRecDepth 16000 in
omit [FloatOps F] in
/-- A device's cells chunk by chunk. -/
theorem bigSep_CI_own (Φ : CI → sProp 𝕄) : bigSep Finset.univ Φ = bigSepL [none, some (0, 0), some (1, 0), some (2, 0), some (3, 0), some (0, 1), some (1, 1), some (2, 1), some (3, 1), some (0, 2), some (1, 2), some (2, 2), some (3, 2), some (0, 3), some (1, 3), some (2, 3), some (3, 3), some (0, 4), some (1, 4), some (2, 4), some (3, 4), some (0, 5), some (1, 5), some (2, 5), some (3, 5), some (0, 6), some (1, 6), some (2, 6), some (3, 6), some (0, 7), some (1, 7), some (2, 7), some (3, 7)] Φ :=
  bigSep_univ_eq_bigSepL _ (by decide +kernel) (by decide +kernel) Φ
set_option maxRecDepth 16000 in
omit [FloatOps F] in
/-- The tokens in the order their payers hold them. -/
theorem bigSep_TI_pay (Φ : TI → sProp 𝕄) : bigSep Finset.univ Φ = bigSepL [some none, none, some (some (0, 0)), some (some (2, 0)), some (some (1, 0)), some (some (3, 0)), some (some (0, 1)), some (some (2, 1)), some (some (1, 1)), some (some (3, 1)), some (some (0, 2)), some (some (2, 2)), some (some (1, 2)), some (some (3, 2)), some (some (0, 3)), some (some (2, 3)), some (some (1, 3)), some (some (3, 3)), some (some (0, 4)), some (some (2, 4)), some (some (1, 4)), some (some (3, 4)), some (some (0, 5)), some (some (2, 5)), some (some (1, 5)), some (some (3, 5)), some (some (0, 6)), some (some (2, 6)), some (some (1, 6)), some (some (3, 6)), some (some (0, 7)), some (some (2, 7)), some (some (1, 7)), some (some (3, 7))] Φ :=
  bigSep_univ_eq_bigSepL _ (by decide +kernel) (by decide +kernel) Φ

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counters the launch hands over: the 33 cells' and the four local copies'. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun i : CI => semVal (kcell (c, i)) 0) ∗ locals0 c : sProp 𝕄) := by
  have e32 : osem 32 = SemLoc.dma ss0 := by first | rfl | decide +kernel
  have e33 : osem 33 = SemLoc.dma ss1 := by first | rfl | decide +kernel
  have e34 : osem 34 = SemLoc.dma sm0 := by first | rfl | decide +kernel
  have e35 : osem 35 = SemLoc.dma sm1 := by first | rfl | decide +kernel
  have hL : (Pipeline.ownSems0 (Ix := Unit) (Name := ℕ) (U := UU) (Lvl := ℕ) (Val := Elt F) (τ := τ) osem c : sProp 𝕄)
      = iprop(semVal ((c : Thread nD τ), osem 0) 0
      ∗ semVal ((c : Thread nD τ), osem 1) 0
      ∗ semVal ((c : Thread nD τ), osem 2) 0
      ∗ semVal ((c : Thread nD τ), osem 3) 0
      ∗ semVal ((c : Thread nD τ), osem 4) 0
      ∗ semVal ((c : Thread nD τ), osem 5) 0
      ∗ semVal ((c : Thread nD τ), osem 6) 0
      ∗ semVal ((c : Thread nD τ), osem 7) 0
      ∗ semVal ((c : Thread nD τ), osem 8) 0
      ∗ semVal ((c : Thread nD τ), osem 9) 0
      ∗ semVal ((c : Thread nD τ), osem 10) 0
      ∗ semVal ((c : Thread nD τ), osem 11) 0
      ∗ semVal ((c : Thread nD τ), osem 12) 0
      ∗ semVal ((c : Thread nD τ), osem 13) 0
      ∗ semVal ((c : Thread nD τ), osem 14) 0
      ∗ semVal ((c : Thread nD τ), osem 15) 0
      ∗ semVal ((c : Thread nD τ), osem 16) 0
      ∗ semVal ((c : Thread nD τ), osem 17) 0
      ∗ semVal ((c : Thread nD τ), osem 18) 0
      ∗ semVal ((c : Thread nD τ), osem 19) 0
      ∗ semVal ((c : Thread nD τ), osem 20) 0
      ∗ semVal ((c : Thread nD τ), osem 21) 0
      ∗ semVal ((c : Thread nD τ), osem 22) 0
      ∗ semVal ((c : Thread nD τ), osem 23) 0
      ∗ semVal ((c : Thread nD τ), osem 24) 0
      ∗ semVal ((c : Thread nD τ), osem 25) 0
      ∗ semVal ((c : Thread nD τ), osem 26) 0
      ∗ semVal ((c : Thread nD τ), osem 27) 0
      ∗ semVal ((c : Thread nD τ), osem 28) 0
      ∗ semVal ((c : Thread nD τ), osem 29) 0
      ∗ semVal ((c : Thread nD τ), osem 30) 0
      ∗ semVal ((c : Thread nD τ), osem 31) 0
      ∗ semVal ((c : Thread nD τ), osem 32) 0
      ∗ semVal ((c : Thread nD τ), osem 33) 0
      ∗ semVal ((c : Thread nD τ), osem 34) 0
      ∗ semVal ((c : Thread nD τ), osem 35) 0) := by
    rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35] (by decide) (by decide)]; rfl
  have hS : (bigSep Finset.univ fun i : CI => (semVal (kcell (c, i)) 0 : sProp 𝕄))
      = iprop(semVal (kcell (c, none)) 0
      ∗ semVal (kcell (c, some (0, 0))) 0
      ∗ semVal (kcell (c, some (0, 1))) 0
      ∗ semVal (kcell (c, some (0, 2))) 0
      ∗ semVal (kcell (c, some (0, 3))) 0
      ∗ semVal (kcell (c, some (0, 4))) 0
      ∗ semVal (kcell (c, some (0, 5))) 0
      ∗ semVal (kcell (c, some (0, 6))) 0
      ∗ semVal (kcell (c, some (0, 7))) 0
      ∗ semVal (kcell (c, some (1, 0))) 0
      ∗ semVal (kcell (c, some (1, 1))) 0
      ∗ semVal (kcell (c, some (1, 2))) 0
      ∗ semVal (kcell (c, some (1, 3))) 0
      ∗ semVal (kcell (c, some (1, 4))) 0
      ∗ semVal (kcell (c, some (1, 5))) 0
      ∗ semVal (kcell (c, some (1, 6))) 0
      ∗ semVal (kcell (c, some (1, 7))) 0
      ∗ semVal (kcell (c, some (2, 0))) 0
      ∗ semVal (kcell (c, some (2, 1))) 0
      ∗ semVal (kcell (c, some (2, 2))) 0
      ∗ semVal (kcell (c, some (2, 3))) 0
      ∗ semVal (kcell (c, some (2, 4))) 0
      ∗ semVal (kcell (c, some (2, 5))) 0
      ∗ semVal (kcell (c, some (2, 6))) 0
      ∗ semVal (kcell (c, some (2, 7))) 0
      ∗ semVal (kcell (c, some (3, 0))) 0
      ∗ semVal (kcell (c, some (3, 1))) 0
      ∗ semVal (kcell (c, some (3, 2))) 0
      ∗ semVal (kcell (c, some (3, 3))) 0
      ∗ semVal (kcell (c, some (3, 4))) 0
      ∗ semVal (kcell (c, some (3, 5))) 0
      ∗ semVal (kcell (c, some (3, 6))) 0
      ∗ semVal (kcell (c, some (3, 7))) 0) := by
    rw [bigSep_CI_sem]; rfl
  rw [hL, unscopedSems0_eq, hS]
  unfold locals0
  iintro ⟨⟨H0, H1, H2, H3, H4, H5, H6, H7, H8, H9, H10, H11, H12, H13, H14, H15, H16, H17, H18, H19, H20, H21, H22, H23, H24, H25, H26, H27, H28, H29, H30, H31, H32, H33, H34, H35⟩, HB⟩
  isplitr [H32 H33 H34 H35]
  · isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  · isplitl [H32]; · first | iexact H32 | (rw [← e32]; iexact H32)
    isplitl [H33]; · first | iexact H33 | (rw [← e33]; iexact H33)
    isplitl [H34]; · first | iexact H34 | (rw [← e34]; iexact H34)
    first | iexact H35 | (rw [← e35]; iexact H35)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd (SBf m) (OUTf m)) κ (kcell (c, i))))
          ∗ (bigSep Finset.univ fun i : CI => iprop(atPos ER (kcell (c, i)) 0 ∅ 0 ∗ reached ER (kcell (c, i)) 0)) ∗ toks c ∗ locals0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun i : CI => semVal (kcell (c, i)) 0) ∗ bigSep Finset.univ fun i : CI => roundState ER (Rd (SBf m) (OUTf m)) (kcell (c, i)) 0)
      ⊢ (|={Set.univ}=> bigSep Finset.univ fun i : CI => iprop(∃ κ : ℕ, cellInv ER (Rd (SBf m) (OUTf m)) κ (kcell (c, i))) : sProp 𝕄) from by
        rw [← bigSep_sep']
        exact (bigSep_mono fun i _ => (Rounds.body_intro ER (Rd (SBf m) (OUTf m)) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The names gathered, the tokens dealt to their payers -/

/-- Under the names `K`: every cell's invariant, and that round 0 of every cell is reached. -/
def records (K : GSem nD τ sig → ℕ) : sProp 𝕄 :=
  iprop((bigSep Finset.univ fun ci : Dev nD × CI => cellInv ER (Rd (SBf m) (OUTf m)) (K (kcell ci)) (kcell ci))
    ∗ bigSep Finset.univ fun ci : Dev nD × CI => reached ER (kcell ci) 0)

instance records_persistent (K : GSem nD τ sig → ℕ) : BI.Persistent (records m K) := by unfold records; infer_instance

/-- A name for every cell, from the names of the enumerated ones. -/
def nameOf (K' : Dev nD × CI → ℕ) (g : GSem nD τ sig) : ℕ := K' (g.1.1, ciOf g.2)
theorem nameOf_kcell (K' : Dev nD × CI → ℕ) (ci : Dev nD × CI) : nameOf K' (kcell ci) = K' ci := by
  obtain ⟨c, i⟩ := ci
  show K' (c, ciOf (csem i)) = K' (c, i)
  rw [ciOf_csem]

theorem inv_at0 (K : GSem nD τ sig → ℕ) (ci : Dev nD × CI) :
    (bigSep Finset.univ fun ci : Dev nD × CI => (cellInv ER (Rd (SBf m) (OUTf m)) (K (kcell ci)) (kcell ci) : sProp 𝕄)) ⊢ cellInv ER (Rd (SBf m) (OUTf m)) (K (kcell ci)) (kcell ci) :=
  bigSep_elim (Finset.mem_univ ci)
omit [FloatOps F] in
theorem reached_at0 (ci : Dev nD × CI) :
    (bigSep Finset.univ fun ci : Dev nD × CI => (reached ER (kcell ci) 0 : sProp 𝕄)) ⊢ reached ER (kcell ci) 0 :=
  bigSep_elim (Finset.mem_univ ci)

theorem inv_at (K : GSem nD τ sig → ℕ) (ci : Dev nD × CI) : records m K ⊢ cellInv ER (Rd (SBf m) (OUTf m)) (K (kcell ci)) (kcell ci) := by
  unfold records
  iintro ⟨H, -⟩
  iapply (inv_at0 m K ci); iexact H
theorem reached_at (K : GSem nD τ sig → ℕ) (ci : Dev nD × CI) : records m K ⊢ reached ER (kcell ci) 0 := by
  unfold records
  iintro ⟨-, H⟩
  iapply (reached_at0 (F := F) ci); iexact H

omit [FloatOps F] in
/-- A persistent assertion that yields every entry yields the chain over any list. -/
theorem bigSepL_of_persistent {I : Type} {R : sProp 𝕄} [BI.Persistent R] (Φ : I → sProp 𝕄) (h : ∀ i, R ⊢ Φ i) : ∀ l : List I, R ⊢ bigSepL l Φ
  | [] => by
    show R ⊢ iprop(emp)
    iintro -; iempintro
  | [i] => h i
  | i :: j :: l => by
    show R ⊢ iprop(Φ i ∗ bigSepL (j :: l) Φ)
    iintro #H
    isplitr
    · iapply (h i); iexact H
    · iapply (bigSepL_of_persistent Φ h (j :: l)); iexact H

theorem ownInvs_intro (K : GSem nD τ sig → ℕ) (c : Dev nD) : records m K ⊢ ownInvs m K c := by
  have h := bigSepL_of_persistent (R := records m K) (fun i : CI => cellInv ER (Rd (SBf m) (OUTf m)) (K (kcell (c, i))) (kcell (c, i))) (fun i => inv_at m K (c, i))
    [none, some (0, 0), some (1, 0), some (2, 0), some (3, 0), some (0, 1), some (1, 1), some (2, 1), some (3, 1), some (0, 2), some (1, 2), some (2, 2), some (3, 2), some (0, 3), some (1, 3), some (2, 3), some (3, 3), some (0, 4), some (1, 4), some (2, 4), some (3, 4), some (0, 5), some (1, 5), some (2, 5), some (3, 5), some (0, 6), some (1, 6), some (2, 6), some (3, 6), some (0, 7), some (1, 7), some (2, 7), some (3, 7)]
  exact h
theorem peerInvs_intro (K : GSem nD τ sig → ℕ) (c : Dev nD) : records m K ⊢ peerInvs m K c := by
  have h := bigSepL_of_persistent (R := records m K) (fun ci : Dev nD × CI => cellInv ER (Rd (SBf m) (OUTf m)) (K (kcell ci)) (kcell ci)) (fun ci => inv_at m K ci)
    [(pY c, none), (pX c, none), (pY c, some (1, 0)), (pX c, some (3, 0)), (pY c, some (1, 1)), (pX c, some (3, 1)), (pY c, some (1, 2)), (pX c, some (3, 2)), (pY c, some (1, 3)), (pX c, some (3, 3)), (pY c, some (1, 4)), (pX c, some (3, 4)), (pY c, some (1, 5)), (pX c, some (3, 5)), (pY c, some (1, 6)), (pX c, some (3, 6)), (pY c, some (1, 7)), (pX c, some (3, 7))]
  exact h
theorem reacheds_intro (K : GSem nD τ sig → ℕ) (c : Dev nD) : records m K ⊢ reacheds c := by
  have h := bigSepL_of_persistent (R := records m K) (fun ci : Dev nD × CI => reached ER (kcell ci) 0) (fun ci => reached_at m K ci)
    [(c, none), (c, some (0, 0)), (c, some (1, 0)), (c, some (2, 0)), (c, some (3, 0)), (c, some (0, 1)), (c, some (1, 1)), (c, some (2, 1)), (c, some (3, 1)), (c, some (0, 2)), (c, some (1, 2)), (c, some (2, 2)), (c, some (3, 2)), (c, some (0, 3)), (c, some (1, 3)), (c, some (2, 3)), (c, some (3, 3)), (c, some (0, 4)), (c, some (1, 4)), (c, some (2, 4)), (c, some (3, 4)), (c, some (0, 5)), (c, some (1, 5)), (c, some (2, 5)), (c, some (3, 5)), (c, some (0, 6)), (c, some (1, 6)), (c, some (2, 6)), (c, some (3, 6)), (c, some (0, 7)), (c, some (1, 7)), (c, some (2, 7)), (c, some (3, 7)), (pY c, none), (pX c, none), (pY c, some (1, 0)), (pX c, some (3, 0)), (pY c, some (1, 1)), (pX c, some (3, 1)), (pY c, some (1, 2)), (pX c, some (3, 2)), (pY c, some (1, 3)), (pX c, some (3, 3)), (pY c, some (1, 4)), (pX c, some (3, 4)), (pY c, some (1, 5)), (pX c, some (3, 5)), (pY c, some (1, 6)), (pX c, some (3, 6)), (pY c, some (1, 7)), (pX c, some (3, 7))]
  exact h

omit [FloatOps F] in
theorem positions_eq (c : Dev nD) : (positions c : sProp 𝕄) = bigSep Finset.univ fun i : CI => atPos ER (kcell (c, i)) 0 ∅ 0 := by
  rw [bigSep_CI_own]; rfl

/-- What stays with device `c`: its positions, the tokens of the duties it pays, its local copies' counters. -/
def linear (c : Dev nD) : sProp 𝕄 :=
  iprop((bigSep Finset.univ fun i : CI => atPos ER (kcell (c, i)) 0 ∅ 0) ∗ payToks c ∗ locals0 c)

theorem ghost_intro (K : GSem nD τ sig → ℕ) (c : Dev nD) : iprop(records m K ∗ linear c) ⊢ G' m c := by
  unfold linear G' ghost
  rw [← positions_eq]
  iintro ⟨#HR, Hat, Htk, Hloc⟩
  isplitr [Hloc]
  · iexists K
    isplitr; · iapply (ownInvs_intro m K c); iexact HR
    isplitr; · iapply (peerInvs_intro m K c); iexact HR
    isplitr; · iapply (reacheds_intro m K c); iexact HR
    isplitl [Hat]; · iexact Hat
    iexact Htk
  · iexact Hloc

/-- Who pays a duty: the barrier's `true` and the second stage's receive duties the first-axis partner, the barrier's
    `false` and the first stage's receive duties the second-axis partner, the send duties the device itself. -/
def dealTo : TI → Dev nD ≃ Dev nD
  | none => eqX
  | some none => eqY
  | some (some (0, _)) => Equiv.refl _
  | some (some (1, _)) => eqY
  | some (some (2, _)) => Equiv.refl _
  | some (some (3, _)) => eqX

def deal : Dev nD × TI ≃ Dev nD × TI where
  toFun x := (dealTo x.2 x.1, x.2)
  invFun x := ((dealTo x.2).symm x.1, x.2)
  left_inv x := Prod.ext ((dealTo x.2).symm_apply_apply x.1) rfl
  right_inv x := Prod.ext ((dealTo x.2).apply_symm_apply x.1) rfl

omit [FloatOps F] in
/-- The tokens dealt to their payers. -/
theorem toks_around : (bigSep Finset.univ fun c : Dev nD => (toks c : sProp 𝕄)) ⊢ bigSep Finset.univ fun c : Dev nD => payToks c := by
  unfold toks
  rw [← bigSep_univ_prod (fun ct : Dev nD × TI => (dutyTok ER (tokOf ct).1 (tokOf ct).2.1 (tokOf ct).2.2 : sProp 𝕄)),
    bigSep_univ_equiv deal, bigSep_univ_prod]
  exact Entails.of_eq (bigSep_congr fun c _ => by rw [bigSep_TI_pay]; rfl)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd (SBf m) (OUTf m)) κ (kcell (c, i))))
          ∗ (bigSep Finset.univ fun i : CI => iprop(atPos ER (kcell (c, i)) 0 ∅ 0 ∗ reached ER (kcell (c, i)) 0)) ∗ toks c ∗ locals0 c) : sProp 𝕄)
      ⊢ bigSep Finset.univ (G' m) := by
  rw [bigSep_sep', bigSep_sep', bigSep_sep', ← bigSep_univ_prod (fun ci : Dev nD × CI => iprop(∃ κ : ℕ, cellInv ER (Rd (SBf m) (OUTf m)) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok, Hloc⟩
  ihave HK := (BI.bigSep_exists_pi Finset.univ (fun (ci : Dev nD × CI) (κ : ℕ) => (cellInv ER (Rd (SBf m) (OUTf m)) κ (kcell ci) : sProp 𝕄))) $$ HI
  icases HK with ⟨%K', #HI⟩
  ihave Htk := (toks_around (F := F)) $$ Htok
  iapply (bigSep_with_persistent (R := records m (nameOf K')) fun c _ => ghost_intro m (nameOf K') c)
  isplitr
  · unfold records; isplitl
    · iapply (Entails.of_eq (bigSep_congr (s := Finset.univ) fun (ci : Dev nD × CI) _ =>
        show (cellInv ER (Rd (SBf m) (OUTf m)) (K' ci) (kcell ci) : sProp 𝕄) = cellInv ER (Rd (SBf m) (OUTf m)) (nameOf K' (kcell ci)) (kcell ci) from by rw [nameOf_kcell]))
      iexact HI
    · iexact HR
  · unfold linear
    rw [bigSep_sep', bigSep_sep']
    isplitl [Hat]; · iexact Hat
    isplitl [Htk]; · iexact Htk
    iexact Hloc

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.RS.glob' depends on axioms: [propext, Classical.choice, Quot.sound] -/
#guard_msgs in #print axioms glob

end Cert.Kernel.RS

end
-- ==== Proof.KLaunch.lean ====
import proofs.«900308_g7700000000000309_dist_rs_v7x_xy2x2_y_m4096_n1024_bf16_1_alg».proof.Proof.KCtx
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch: the side conditions of the launch theorem, one by one -/

/-- Every window's array is held at the full share. -/
theorem share_eq (c : Dev nD) (w : Fin cfg0.W) : (dats m 0 c).share w = fullShare := by unfold Dat.share; split <;> rfl

/-- Re-association: a chain's head moves out of the left factor. -/
theorem assoc_step {M : Type} [URA M] {A B C D : sProp M} (h : iprop(B ∗ C) ⊢ D) : iprop((A ∗ B) ∗ C) ⊢ iprop(A ∗ D) :=
  sep_assoc.1.trans (sep_mono_right h)

omit [FloatOps F] in
/-- The kernel's own 36 semaphores at zero, one by one: the 32 transfer cells' and the four of the local copies. -/
theorem ownSems0_eq (c : Dev nD) : (Pipeline.ownSems0 (Ix := Unit) (Name := ℕ) (U := UU) (Lvl := ℕ) (Val := Elt F) (τ := τ) osem c : sProp 𝕄)
    = iprop(semVal (aSCell c 0) 0
      ∗ semVal (aSCell c 1) 0
      ∗ semVal (aSCell c 2) 0
      ∗ semVal (aSCell c 3) 0
      ∗ semVal (aSCell c 4) 0
      ∗ semVal (aSCell c 5) 0
      ∗ semVal (aSCell c 6) 0
      ∗ semVal (aSCell c 7) 0
      ∗ semVal (aRCell c 0) 0
      ∗ semVal (aRCell c 1) 0
      ∗ semVal (aRCell c 2) 0
      ∗ semVal (aRCell c 3) 0
      ∗ semVal (aRCell c 4) 0
      ∗ semVal (aRCell c 5) 0
      ∗ semVal (aRCell c 6) 0
      ∗ semVal (aRCell c 7) 0
      ∗ semVal (bSCell c 0) 0
      ∗ semVal (bSCell c 1) 0
      ∗ semVal (bSCell c 2) 0
      ∗ semVal (bSCell c 3) 0
      ∗ semVal (bSCell c 4) 0
      ∗ semVal (bSCell c 5) 0
      ∗ semVal (bSCell c 6) 0
      ∗ semVal (bSCell c 7) 0
      ∗ semVal (bRCell c 0) 0
      ∗ semVal (bRCell c 1) 0
      ∗ semVal (bRCell c 2) 0
      ∗ semVal (bRCell c 3) 0
      ∗ semVal (bRCell c 4) 0
      ∗ semVal (bRCell c 5) 0
      ∗ semVal (bRCell c 6) 0
      ∗ semVal (bRCell c 7) 0
      ∗ semVal ((c : Thread nD τ), .dma ss0) 0
      ∗ semVal ((c : Thread nD τ), .dma ss1) 0
      ∗ semVal ((c : Thread nD τ), .dma sm0) 0
      ∗ semVal ((c : Thread nD τ), .dma sm1) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35] (by decide) (by decide)]; rfl

omit [FloatOps F] in
/-- The two groups of own semaphores, re-associated into the one chain. -/
theorem sems_reassoc (c : Dev nD) : (iprop(xferSems0 c ∗ locals0 c) : sProp 𝕄) ⊢ Pipeline.ownSems0 osem c := by
  rw [ownSems0_eq]
  unfold xferSems0 locals0
  iterate 31 refine assoc_step ?_
  exact .rfl

/-- The staging semaphore sits at the bottom level, below everything a device owes. -/
theorem waits (c : Dev nD) : (levAts L lv : sProp 𝕄) ⊢ Pipeline.cellsWaits cfgs (dats m) () 0 c :=
  Pipeline.cellsWaits_intro cfgs (dats m) () 0 c fun w s t =>
    mayWait_of_sup c _ 0 (Nat.le_of_eq (lv_other c _ (Or.inl (by fin_cases w; fin_cases s; rfl)))) _ (by
      rcases t with ⟨_ | _, ht⟩
      · exact sup_O₀ c
      · exact Sup.zero _)

/-- What the launch hands a device makes its start, its four local semaphores and its block of the argument. -/
theorem start_intro (hcred : ∀ c : Dev nD, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ locals0 c ∗ xPts m c) ∗ emp) := by
  rw [Pipeline.unscopedRestP_none, unscopedRest0_eq]
  iintro ⟨Hx, Hlev, Hcr, -, HG⟩
  ihave Hc := (hcred c) $$ Hcr
  unfold G'
  icases HG with ⟨Hg, Hl⟩
  imodintro
  unfold start xPts
  isplitl
  · isplitl [Hg Hc Hlev]
    · isplitl [Hg]; · iexact Hg
      isplitl [Hc]; · iexact Hc
      iexact Hlev
    isplitl [Hl]; · iexact Hl
    iexact Hx
  · iempintro

/-- With the scratch buffers it is the body's precondition. -/
theorem phi0_intro (c : Dev nD) :
    iprop((start m c ∗ locals0 c ∗ xPts m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, Hl, Hx⟩, -, Hr⟩
  isplitl [Hs]; · iexact Hs
  isplitl [Hl]; · iexact Hl
  isplitl [Hx]; · iexact Hx
  iexact Hr

/-- The body's postcondition gives back the argument block, the 36 own semaphores at zero and the scratch buffers. -/
theorem phi1_exit (c : Dev nD) :
    (dats m 0 c).Φ (Fin.last cfg0.N) ⊢ iprop(xPts m c ∗ Pipeline.ownSems0 osem c ∗ Pipeline.scopedRest cfg0.spec c) := by
  rw [show (dats m 0 c).Φ (Fin.last cfg0.N) = Φ₁ m c from rfl, scopedRest0_eq]
  unfold Φ₁ scratch
  iintro ⟨Hx, Hr, Hs⟩
  ihave Hs' := (sems_reassoc (F := F) c) $$ Hs
  isplitl [Hx]; · iexact Hx
  isplitl [Hs']; · iexact Hs'
  iexact Hr

/-! ## The result array after the run -/

/-- The one window is the whole result array, written back once: the array ends at what the body left in its staging buffer. -/
theorem finalA_out (c : Dev nD) : (dats m 0 c).arrAt (0 : Fin 1) cfg0.N = OUTf m c := by
  have h := (dats m 0 c).arrAt_succ (0 : Fin 1) t0_0
  rw [flush0_0 t0_0, if_pos rfl] at h
  refine h.trans ?_
  exact Memref.write_access_unit_zero_univ (Elt F) main_v1 (off := fun a => win0_0.index t0_0 a * win0_0.size a)
    (funext fun a => by fin_cases a <;> rfl) _ _ _

/-! ## The run -/

set_option maxRecDepth 8000 in
/-- At the compiled mesh of four devices, for any float values, from any memory with zero counters: every weakly fair
    execution of @main terminates, and every final state has each device's result array at `OUTf m c` and its block of
    the argument unchanged. -/
theorem run_main (G : Dev nD → sProp 𝕄) (u₀ : UU)
    (hsem : Pipeline.OwnSemFacts cfg0.spec osem)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt F) (τ := τ) osem c ∗ unscopedSems0 c ∗ G c) : sProp 𝕄) ⊢ |={Set.univ}=> bigSep Finset.univ (G' m))
    (hcred : ∀ c : Dev nD, (Pipeline.launchCred O₀ c : sProp 𝕄) ⊢ creds c)
    (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = OUTf m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ hsem (Pipeline.PreFacts.none _) EP defs₀ 𝒱₀ m ρ main
    (hmain := fun _ => rfl)
    (hbody := fun c => (hbody c).loose) (hne := fun w => by fin_cases w; exact block_pos0 0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G) (G' := G' m) (u₀ := u₀)
    (hu₀ := hu₀)
    (hglob := hglob)
    (hA := fun _ _ => rfl) (hpf := fun _ k => k.elim0)
    (X := fun c => iprop(start m c ∗ locals0 c ∗ xPts m c)) (Y := xPts m) (Z := fun _ => iprop(emp))
    (hX := start_intro m ρ hcred) (hin := phi0_intro m) (hout := phi1_exit m)
    (QY := fun c s => s.mem ((c.tc : Thread nD τ).loc main_arg0) = m ((c.tc : Thread nD τ).loc main_arg0))
    (hY := fun c s' => by
      unfold xPts
      iintro ⟨Hx, -, HSI⟩
      icombine HSI Hx gives %hx
      imodintro
      isplitr; · ipureintro; exact Buf.eq_of_forall_mem_univ hx
      iexact HSI)
    (hQ := fun s h c => ⟨((h c).1 0).trans (finalA_out m c), (h c).2.2⟩)

/-- info: 'Cert.Kernel.RS.run_main' depends on axioms: [propext, Classical.choice, Quot.sound] -/
#guard_msgs in #print axioms run_main

end Cert.Kernel.RS

end
-- ==== Proof.KChunks.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KGeo
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

/-! # The buffers in chunks

The 4096 rows of the landing buffer, of the send buffer and of the result staging buffer are cut into eight chunks of 512
rows; the 1024 columns of the result staging buffer into the two halves of 512 columns, one per value of a device's first
mesh coordinate. This file says which indices a chunk holds (`mem_arS`, `mem_sbS`, `mem_oS`), that a buffer held whole is
the separating conjunction of its chunks (`ar_split`, `sb_split`, `out_split`), that the assertion on a chunk depends only
on the contents there (`chunk_congr`), and what a chunk holds after a chunk has been copied onto it (`landA`, `landB`). -/

/-! ## Membership in a chunk -/

/-- Membership in a unit-stride rectangle of a two-axis shape is the pair of bounds on each of the two coordinates. -/
theorem mem_unit_two {dims off size : Fin 2 → ℕ} {inb : ∀ a, off a + size a ≤ (⟨2, dims⟩ : Shape).size a}
    {i : (⟨2, dims⟩ : Shape).Idx} :
    i ∈ (Rect.unit (s := ⟨2, dims⟩) off size inb).set
      ↔ (off 0 ≤ (i 0).val ∧ (i 0).val < off 0 + size 0) ∧ (off 1 ≤ (i 1).val ∧ (i 1).val < off 1 + size 1) :=
  Rect.mem_set_unit.trans Fin.forall_fin_two

/-- Chunk `k` of the landing buffer holds the indices whose row lies in `[512 k, 512 k + 512)`: the column bound
    `0 ≤ column < 512` holds of every index. -/
theorem mem_arS {k : Fin 8} {i : S4096x512.Idx} :
    i ∈ (arS k).view.set ↔ 512 * k.val ≤ (i 0).val ∧ (i 0).val < 512 * k.val + 512 := by
  have hs : (arS k).view.set = (Rect.unit (s := S4096x512) (rowOff k) S512x512.size (rowOff_inb k)).set :=
    View.set_slice_whole cc0_scratch0 _
  have hm : i ∈ (arS k).view.set
      ↔ (rowOff k 0 ≤ (i 0).val ∧ (i 0).val < rowOff k 0 + S512x512.size 0)
        ∧ (rowOff k 1 ≤ (i 1).val ∧ (i 1).val < rowOff k 1 + S512x512.size 1) := by
    rw [hs]; exact mem_unit_two
  have e00 : rowOff k 0 = 512 * k.val := rfl
  have e01 : rowOff k 1 = 0 := rfl
  have s0 : S512x512.size 0 = 512 := rfl
  have s1 : S512x512.size 1 = 512 := rfl
  have h1 : ((i 1 : Fin (S4096x512.size 1)) : ℕ) < 512 := (i 1).isLt
  rw [hm]
  omega

/-- Chunk `k` of the send buffer holds the indices whose row lies in `[512 k, 512 k + 512)`. -/
theorem mem_sbS {k : Fin 8} {i : S4096x512.Idx} :
    i ∈ (sbS k).view.set ↔ 512 * k.val ≤ (i 0).val ∧ (i 0).val < 512 * k.val + 512 := by
  have hs : (sbS k).view.set = (Rect.unit (s := S4096x512) (rowOff k) S512x512.size (rowOff_inb k)).set :=
    View.set_slice_whole cc0_scratch1 _
  have hm : i ∈ (sbS k).view.set
      ↔ (rowOff k 0 ≤ (i 0).val ∧ (i 0).val < rowOff k 0 + S512x512.size 0)
        ∧ (rowOff k 1 ≤ (i 1).val ∧ (i 1).val < rowOff k 1 + S512x512.size 1) := by
    rw [hs]; exact mem_unit_two
  have e00 : rowOff k 0 = 512 * k.val := rfl
  have e01 : rowOff k 1 = 0 := rfl
  have s0 : S512x512.size 0 = 512 := rfl
  have s1 : S512x512.size 1 = 512 := rfl
  have h1 : ((i 1 : Fin (S4096x512.size 1)) : ℕ) < 512 := (i 1).isLt
  rw [hm]
  omega

/-- Chunk `k` of the result staging buffer in device `o`'s columns holds the indices whose row lies in
    `[512 k, 512 k + 512)` and whose column lies in `[512 (o / 2), 512 (o / 2) + 512)`. -/
theorem mem_oS {o : Dev nD} {k : Fin 8} {i : S4096x1024.Idx} :
    i ∈ (oS o k).view.set
      ↔ (512 * k.val ≤ (i 0).val ∧ (i 0).val < 512 * k.val + 512)
        ∧ (512 * (o.val / 2) ≤ (i 1).val ∧ (i 1).val < 512 * (o.val / 2) + 512) := by
  have hs : (oS o k).view.set = (Rect.unit (s := S4096x1024) (outOff o k) S512x512.size (outOff_inb o k)).set :=
    View.set_slice_whole cc0_stg0_0 _
  have hm : i ∈ (oS o k).view.set
      ↔ (outOff o k 0 ≤ (i 0).val ∧ (i 0).val < outOff o k 0 + S512x512.size 0)
        ∧ (outOff o k 1 ≤ (i 1).val ∧ (i 1).val < outOff o k 1 + S512x512.size 1) := by
    rw [hs]; exact mem_unit_two
  have e0 : outOff o k 0 = 512 * k.val := congrFun (outOff_eq o k) 0
  have e1 : outOff o k 1 = 512 * (o.val / 2) := congrFun (outOff_eq o k) 1
  have s0 : S512x512.size 0 = 512 := rfl
  have s1 : S512x512.size 1 = 512 := rfl
  rw [hm]
  omega

/-! ## Eight row chunks are disjoint and cover the rows -/

/-- Eight sets of indices of the 4096-row shape, the `k`-th cut out by `512 k ≤ row < 512 k + 512`, are pairwise disjoint:
    a row lies in one chunk only. -/
theorem rowChunks_disjoint (K : Fin 8 → Finset S4096x512.Idx)
    (hK : ∀ (k : Fin 8) (i : S4096x512.Idx), i ∈ K k ↔ 512 * k.val ≤ (i 0).val ∧ (i 0).val < 512 * k.val + 512) :
    ∀ k ∈ (Finset.univ : Finset (Fin 8)), ∀ k' ∈ (Finset.univ : Finset (Fin 8)), k ≠ k' → Disjoint (K k) (K k') := by
  intro k _ k' _ hne
  rw [Finset.disjoint_left]
  intro i h1 h2
  have a := (hK k i).mp h1
  have b := (hK k' i).mp h2
  exact hne (Fin.ext (by omega))

/-- They cover the shape: the row `r < 4096` lies in chunk `r / 512`. -/
theorem rowChunks_cover (K : Fin 8 → Finset S4096x512.Idx)
    (hK : ∀ (k : Fin 8) (i : S4096x512.Idx), i ∈ K k ↔ 512 * k.val ≤ (i 0).val ∧ (i 0).val < 512 * k.val + 512) :
    (Finset.univ : Finset (Fin 8)).biUnion K = Finset.univ := by
  refine Finset.eq_univ_iff_forall.mpr fun i => ?_
  have hlt : ((i 0 : Fin (S4096x512.size 0)) : ℕ) < 4096 := (i 0).isLt
  have hk : (i 0).val / 512 < 8 := by omega
  refine Finset.mem_biUnion.mpr ⟨⟨(i 0).val / 512, hk⟩, Finset.mem_univ _, (hK _ i).mpr ?_⟩
  show 512 * ((i 0).val / 512) ≤ (i 0).val ∧ (i 0).val < 512 * ((i 0).val / 512) + 512
  omega

/-! ## The two column halves of the result staging buffer, and the eight row chunks of a half -/

/-- The 512 columns of the result staging buffer that device `o` computes, every row: the indices whose column lies in
    `[512 (o / 2), 512 (o / 2) + 512)`. -/
def outCols (o : Dev nD) : Finset S4096x1024.Idx :=
  Finset.univ.filter fun i => 512 * (o.val / 2) ≤ (i 1).val ∧ (i 1).val < 512 * (o.val / 2) + 512

theorem mem_outCols {o : Dev nD} {i : S4096x1024.Idx} :
    i ∈ outCols o ↔ 512 * (o.val / 2) ≤ (i 1).val ∧ (i 1).val < 512 * (o.val / 2) + 512 := by
  unfold outCols
  exact Finset.mem_filter.trans (and_iff_right (Finset.mem_univ i))

/-- A device's columns and its first-axis partner's are the two halves: the partner's first coordinate is the other one, and
    a column `< 1024` lies in `[0, 512)` or in `[512, 1024)`. -/
theorem outCols_cover (d : Dev nD) : outCols d ∪ outCols (pX d) = Finset.univ := by
  refine Finset.eq_univ_iff_forall.mpr fun i => ?_
  have h1 : ((i 1 : Fin (S4096x1024.size 1)) : ℕ) < 1024 := (i 1).isLt
  have hd : d.val < 4 := d.isLt
  have hp : (pX d).val / 2 = 1 - d.val / 2 := pX_half d
  rw [Finset.mem_union, mem_outCols, mem_outCols]
  omega

theorem outCols_disjoint (d : Dev nD) : Disjoint (outCols d) (outCols (pX d)) := by
  rw [Finset.disjoint_left]
  intro i h1 h2
  rw [mem_outCols] at h1 h2
  have hd : d.val < 4 := d.isLt
  have hp : (pX d).val / 2 = 1 - d.val / 2 := pX_half d
  omega

/-- The eight row chunks in device `o`'s columns are pairwise disjoint: their rows are. -/
theorem out_disjoint (o : Dev nD) :
    ∀ k ∈ (Finset.univ : Finset (Fin 8)), ∀ k' ∈ (Finset.univ : Finset (Fin 8)), k ≠ k' →
      Disjoint ((oS o k).view.set : Finset S4096x1024.Idx) ((oS o k').view.set) := by
  intro k _ k' _ hne
  rw [Finset.disjoint_left]
  intro i h1 h2
  have a := (mem_oS.mp h1).1
  have b := (mem_oS.mp h2).1
  exact hne (Fin.ext (by omega))

/-- The eight row chunks in device `o`'s columns make up those columns: the row `r < 4096` lies in chunk `r / 512`. -/
theorem out_cover (o : Dev nD) :
    (Finset.univ : Finset (Fin 8)).biUnion (fun k => ((oS o k).view.set : Finset S4096x1024.Idx)) = outCols o := by
  ext i
  have hlt : ((i 0 : Fin (S4096x1024.size 0)) : ℕ) < 4096 := (i 0).isLt
  rw [Finset.mem_biUnion, mem_outCols]
  constructor
  · rintro ⟨k, -, hk⟩
    exact (mem_oS.mp hk).2
  · intro hc
    have hk : (i 0).val / 512 < 8 := by omega
    refine ⟨⟨(i 0).val / 512, hk⟩, Finset.mem_univ _, mem_oS.mpr ⟨?_, hc⟩⟩
    show 512 * ((i 0).val / 512) ≤ (i 0).val ∧ (i 0).val < 512 * ((i 0).val / 512) + 512
    omega

/-! ## A set of elements held as eight pieces -/

/-- The points-to on a set of a location's elements that is the union of eight pairwise disjoint sets is the separating
    conjunction of the eight points-to's, in order. -/
theorem pts_eight {ℓ : Loc nD τ sig} (K : Fin 8 → Finset (Idx ℓ)) (R : Finset (Idx ℓ)) (q : PosShare TreeShare)
    (f : Buf (Elt F) ℓ) (hcov : (Finset.univ : Finset (Fin 8)).biUnion K = R)
    (hdis : ∀ k ∈ (Finset.univ : Finset (Fin 8)), ∀ k' ∈ (Finset.univ : Finset (Fin 8)), k ≠ k' → Disjoint (K k) (K k')) :
    ((ℓ ↦[R]{q} f) : sProp 𝕄) = iprop(
      (ℓ ↦[K 0]{q} f)
      ∗ (ℓ ↦[K 1]{q} f)
      ∗ (ℓ ↦[K 2]{q} f)
      ∗ (ℓ ↦[K 3]{q} f)
      ∗ (ℓ ↦[K 4]{q} f)
      ∗ (ℓ ↦[K 5]{q} f)
      ∗ (ℓ ↦[K 6]{q} f)
      ∗ (ℓ ↦[K 7]{q} f)) := by
  subst hcov
  have e2 : ((ℓ ↦[(Finset.univ : Finset (Fin 8)).biUnion K]{q} f) : sProp 𝕄)
      = bigSep (Finset.univ : Finset (Fin 8)) (fun k => ((ℓ ↦[K k]{q} f) : sProp 𝕄)) :=
    pointsTo_biUnion (Finset.univ : Finset (Fin 8)) K hdis
  have e3 : bigSep (Finset.univ : Finset (Fin 8)) (fun k => ((ℓ ↦[K k]{q} f) : sProp 𝕄))
      = bigSepL ([0, 1, 2, 3, 4, 5, 6, 7] : List (Fin 8)) (fun k => ((ℓ ↦[K k]{q} f) : sProp 𝕄)) :=
    bigSep_univ_eq_bigSepL ([0, 1, 2, 3, 4, 5, 6, 7] : List (Fin 8)) (by decide) (by decide) _
  exact e2.trans e3

/-! ## The buffers held whole are held chunk by chunk -/

/-- A whole landing buffer is its eight row chunks. -/
theorem ar_split (d : Dev nD) (f : Buf (Elt F) ((d : Thread nD τ).loc cc0_scratch0)) :
    ((((d : Thread nD τ).loc cc0_scratch0) ↦{fullShare} f) : sProp 𝕄) ⊣⊢ iprop(
      ((arS 0).view.loc (d : Thread nD τ) ↦[(arS 0).view.set]{fullShare} f)
      ∗ ((arS 1).view.loc (d : Thread nD τ) ↦[(arS 1).view.set]{fullShare} f)
      ∗ ((arS 2).view.loc (d : Thread nD τ) ↦[(arS 2).view.set]{fullShare} f)
      ∗ ((arS 3).view.loc (d : Thread nD τ) ↦[(arS 3).view.set]{fullShare} f)
      ∗ ((arS 4).view.loc (d : Thread nD τ) ↦[(arS 4).view.set]{fullShare} f)
      ∗ ((arS 5).view.loc (d : Thread nD τ) ↦[(arS 5).view.set]{fullShare} f)
      ∗ ((arS 6).view.loc (d : Thread nD τ) ↦[(arS 6).view.set]{fullShare} f)
      ∗ ((arS 7).view.loc (d : Thread nD τ) ↦[(arS 7).view.set]{fullShare} f)) :=
  BiEntails.of_eq (pts_eight (ℓ := (d : Thread nD τ).loc cc0_scratch0) (fun k => (arS k).view.set) Finset.univ fullShare f
    (rowChunks_cover (fun k => (arS k).view.set) (fun k i => mem_arS))
    (rowChunks_disjoint (fun k => (arS k).view.set) (fun k i => mem_arS)))

/-- A whole send buffer is its eight row chunks. -/
theorem sb_split (d : Dev nD) (f : Buf (Elt F) ((d : Thread nD τ).loc cc0_scratch1)) :
    ((((d : Thread nD τ).loc cc0_scratch1) ↦{fullShare} f) : sProp 𝕄) ⊣⊢ iprop(
      ((sbS 0).view.loc (d : Thread nD τ) ↦[(sbS 0).view.set]{fullShare} f)
      ∗ ((sbS 1).view.loc (d : Thread nD τ) ↦[(sbS 1).view.set]{fullShare} f)
      ∗ ((sbS 2).view.loc (d : Thread nD τ) ↦[(sbS 2).view.set]{fullShare} f)
      ∗ ((sbS 3).view.loc (d : Thread nD τ) ↦[(sbS 3).view.set]{fullShare} f)
      ∗ ((sbS 4).view.loc (d : Thread nD τ) ↦[(sbS 4).view.set]{fullShare} f)
      ∗ ((sbS 5).view.loc (d : Thread nD τ) ↦[(sbS 5).view.set]{fullShare} f)
      ∗ ((sbS 6).view.loc (d : Thread nD τ) ↦[(sbS 6).view.set]{fullShare} f)
      ∗ ((sbS 7).view.loc (d : Thread nD τ) ↦[(sbS 7).view.set]{fullShare} f)) :=
  BiEntails.of_eq (pts_eight (ℓ := (d : Thread nD τ).loc cc0_scratch1) (fun k => (sbS k).view.set) Finset.univ fullShare f
    (rowChunks_cover (fun k => (sbS k).view.set) (fun k i => mem_sbS))
    (rowChunks_disjoint (fun k => (sbS k).view.set) (fun k i => mem_sbS)))

/-- A whole result staging buffer is the eight chunks in device `d`'s own columns and the eight in its first-axis partner's. -/
theorem out_split (d : Dev nD) (f : Buf (Elt F) ((d : Thread nD τ).loc cc0_stg0_0)) :
    ((((d : Thread nD τ).loc cc0_stg0_0) ↦{fullShare} f) : sProp 𝕄) ⊣⊢ iprop(
      (((oS d 0).view.loc (d : Thread nD τ) ↦[(oS d 0).view.set]{fullShare} f) ∗ ((oS d 1).view.loc (d : Thread nD τ) ↦[(oS d 1).view.set]{fullShare} f) ∗ ((oS d 2).view.loc (d : Thread nD τ) ↦[(oS d 2).view.set]{fullShare} f) ∗ ((oS d 3).view.loc (d : Thread nD τ) ↦[(oS d 3).view.set]{fullShare} f) ∗ ((oS d 4).view.loc (d : Thread nD τ) ↦[(oS d 4).view.set]{fullShare} f) ∗ ((oS d 5).view.loc (d : Thread nD τ) ↦[(oS d 5).view.set]{fullShare} f) ∗ ((oS d 6).view.loc (d : Thread nD τ) ↦[(oS d 6).view.set]{fullShare} f) ∗ ((oS d 7).view.loc (d : Thread nD τ) ↦[(oS d 7).view.set]{fullShare} f))
      ∗ (((oS (pX d) 0).view.loc (d : Thread nD τ) ↦[(oS (pX d) 0).view.set]{fullShare} f) ∗ ((oS (pX d) 1).view.loc (d : Thread nD τ) ↦[(oS (pX d) 1).view.set]{fullShare} f) ∗ ((oS (pX d) 2).view.loc (d : Thread nD τ) ↦[(oS (pX d) 2).view.set]{fullShare} f) ∗ ((oS (pX d) 3).view.loc (d : Thread nD τ) ↦[(oS (pX d) 3).view.set]{fullShare} f) ∗ ((oS (pX d) 4).view.loc (d : Thread nD τ) ↦[(oS (pX d) 4).view.set]{fullShare} f) ∗ ((oS (pX d) 5).view.loc (d : Thread nD τ) ↦[(oS (pX d) 5).view.set]{fullShare} f) ∗ ((oS (pX d) 6).view.loc (d : Thread nD τ) ↦[(oS (pX d) 6).view.set]{fullShare} f) ∗ ((oS (pX d) 7).view.loc (d : Thread nD τ) ↦[(oS (pX d) 7).view.set]{fullShare} f))) := by
  -- the two column halves
  have hu : ((((d : Thread nD τ).loc cc0_stg0_0) ↦[outCols d ∪ outCols (pX d)]{fullShare} f) : sProp 𝕄)
      ⊣⊢ iprop((((d : Thread nD τ).loc cc0_stg0_0) ↦[outCols d]{fullShare} f)
        ∗ (((d : Thread nD τ).loc cc0_stg0_0) ↦[outCols (pX d)]{fullShare} f)) :=
    pointsTo_union (outCols_disjoint d)
  have eU := BI.equiv_iff.mp ⟨hu.1, hu.2⟩
  have e0 : ((((d : Thread nD τ).loc cc0_stg0_0) ↦{fullShare} f) : sProp 𝕄)
      = (((d : Thread nD τ).loc cc0_stg0_0) ↦[outCols d ∪ outCols (pX d)]{fullShare} f) :=
    congrArg (fun I : Finset (Idx ((d : Thread nD τ).loc cc0_stg0_0)) =>
      ((((d : Thread nD τ).loc cc0_stg0_0) ↦[I]{fullShare} f) : sProp 𝕄)) (outCols_cover d).symm
  -- each half in its eight row chunks
  have eA := pts_eight (ℓ := (d : Thread nD τ).loc cc0_stg0_0) (fun k => (oS d k).view.set) (outCols d) fullShare f
    (out_cover d) (out_disjoint d)
  have eB := pts_eight (ℓ := (d : Thread nD τ).loc cc0_stg0_0) (fun k => (oS (pX d) k).view.set) (outCols (pX d)) fullShare f
    (out_cover (pX d)) (out_disjoint (pX d))
  exact BiEntails.of_eq (e0.trans (eU.trans (congrArg₂ (fun P Q : sProp 𝕄 => iprop(P ∗ Q)) eA eB)))

/-- Contents only matter on the chunk. -/
theorem chunk_congr {sp : Space} {e : EltTy} {s : Shape} (M : Memref sig .tc sp s e) (d : Dev nD) (q : PosShare TreeShare)
    (f g : Buf (Elt F) (M.view.loc (d : Thread nD τ))) (h : ∀ i ∈ M.view.set, f i = g i) :
    ((M.view.loc (d : Thread nD τ) ↦[M.view.set]{q} f) : sProp 𝕄) = (M.view.loc (d : Thread nD τ) ↦[M.view.set]{q} g) :=
  pointsTo_congr h

/-! ## What a chunk holds after a chunk is copied onto it -/

/-- Carrying a value to an equal type and back gives the value. -/
theorem cast_cast_self {α β : Type} (h1 : α = β) (h2 : β = α) (x : α) : cast h2 (cast h1 x) = x := by
  subst h1
  exact cast_eq h2 x

/-- Written through a view, what the same view reads off contents `fs` leaves `fs` under every element of the view. -/
theorem write_read_self {Val : EltTy → Type} {κ : Kind} {sp : Space} {s : Shape} {e : EltTy} (v : View sig κ sp s e)
    (fs fd : v.ty.Contents Val) {i : v.ty.Idx} (hi : i ∈ v.set) :
    v.write Val fd (v.read Val fs) Finset.univ i = fs i := by
  have hi' : i ∈ Finset.univ.map v.emb := hi
  obtain ⟨y, -, rfl⟩ := Finset.mem_map.mp hi'
  refine (View.write_emb_of_mem fd (v.read Val fs) (Finset.mem_univ y)).trans ?_
  rw [View.read_apply]
  exact cast_cast_self _ _ _

/-- What lands: after chunk `k` of a send buffer with contents `fs` is copied onto chunk `k` of a landing buffer with
    contents `fd`, the landing buffer agrees on that chunk with any `G` that `fs` agrees with there. The two chunks are the
    same rectangle of two whole buffers of one shape, so the element written under the place of a chunk index `y` in the
    landing buffer is the element read under the place of `y` in the send buffer, and the two places are the same index. -/
theorem landA (k : Fin 8) (fs fd G : (cc0_scratch0 : Ref sig .tc).ty.Contents (Elt F))
    (h : ∀ i ∈ (sbS k).view.set, fs i = G i) :
    ∀ i ∈ (arS k).view.set, ((arS k).view.write (Elt F) fd ((sbS k).view.read (Elt F) fs) Finset.univ) i = G i := by
  intro i hi
  have hi' : i ∈ Finset.univ.map (arS k).view.emb := hi
  obtain ⟨y, -, rfl⟩ := Finset.mem_map.mp hi'
  refine (View.write_emb_of_mem (v := (arS k).view) (Val := Elt F) fd ((sbS k).view.read (Elt F) fs)
    (Finset.mem_univ y)).trans ?_
  rw [View.read_apply]
  refine (cast_cast_self _ _ _).trans ?_
  exact h _ ((sbS k).view.emb_mem_set y)

/-- The same for the result staging buffer: chunk `k` in device `o`'s columns copied onto the same chunk of another device's
    buffer. Source and destination are one view of two buffers' contents. -/
theorem landB (o : Dev nD) (k : Fin 8) (fs fd G : (cc0_stg0_0 : Ref sig .tc).ty.Contents (Elt F))
    (h : ∀ i ∈ (oS o k).view.set, fs i = G i) :
    ∀ i ∈ (oS o k).view.set, ((oS o k).view.write (Elt F) fd ((oS o k).view.read (Elt F) fs) Finset.univ) i = G i :=
  fun i hi => (write_read_self (Val := Elt F) (oS o k).view fs fd hi).trans (h i hi)

end Cert.Kernel.RS

end
-- ==== Proof.KSpec.lean ====
import proofs.«900308_g7700000000000309_dist_rs_v7x_xy2x2_y_m4096_n1024_bf16_1_alg».proof.Proof.KCtx
import Idealize.ShloMosaic.Lib.ValueIdx
import Idealize.ShloMosaic.Lib.ValueLayout
import Idealize.ShloMosaic.Lib.Pipeline.Value
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open ValueIdx

variable {F : FTy → Type} [FloatOps F]

local notation "𝕄" => MT nD τ sig Unit (Elt F) ℕ UU ℕ

variable (m : (ℓ : Loc nD τ sig) → Buf (Elt F) ℓ)

/-! ## Contents that agree under a view's indices agree on the view's element set -/

theorem agree_of_emb {Val : EltTy → Type} {κ : Kind} {sp : Space} {s : Shape} {e : EltTy} (v : View sig κ sp s e)
    (f g : v.ty.Contents Val) (h : ∀ y : s.Idx, f (v.emb y) = g (v.emb y)) : ∀ i ∈ v.set, f i = g i := by
  intro i hi
  have hi' : i ∈ Finset.univ.map v.emb := hi
  obtain ⟨y, -, rfl⟩ := Finset.mem_map.mp hi'
  exact h y

/-! ## The stored values at an index

Every conversion payload is the one function: the block `[1, 512, 512]` read at `(0, p, q)` and converted; every sum
payload is the elementwise sum. -/

theorem conv_apply (v : Vec F S1x512x512 .f32) (p q : Fin 512) :
    k0_pay1 v (ix2 p q) = FloatOps.truncf .bf16 bitsLt_bf16_f32 (v (ix3 (0 : Fin 1) p q)) := by
  have h1 : k0_pay1 v = truncf .bf16 (shapeCast S512x512 v shapeCasts_S1x512x512_S512x512) bitsLt_bf16_f32 := by
    unfold k0_pay1; exact shapeCast_self _ _
  rw [h1]
  show FloatOps.truncf .bf16 bitsLt_bf16_f32 (shapeCast S512x512 v shapeCasts_S1x512x512_S512x512 (ix2 p q)) = _
  rw [shapeCast_1ab_ab_apply]

theorem pay2_eq : (k0_pay2 (F := F)) = k0_pay1 := rfl
theorem pay3_eq : (k0_pay3 (F := F)) = k0_pay1 := rfl
theorem pay4_eq : (k0_pay4 (F := F)) = k0_pay1 := rfl
theorem pay5_eq : (k0_pay5 (F := F)) = k0_pay1 := rfl
theorem pay8_eq : (k0_pay8 (F := F)) = k0_pay1 := rfl
theorem pay9_eq : (k0_pay9 (F := F)) = k0_pay1 := rfl
theorem pay10_eq : (k0_pay10 (F := F)) = k0_pay1 := rfl
theorem pay11_eq : (k0_pay11 (F := F)) = k0_pay1 := rfl
theorem pay12_eq : (k0_pay12 (F := F)) = k0_pay1 := rfl
theorem pay13_eq : (k0_pay13 (F := F)) = k0_pay1 := rfl
theorem pay14_eq : (k0_pay14 (F := F)) = k0_pay1 := rfl
theorem pay15_eq : (k0_pay15 (F := F)) = k0_pay1 := rfl
theorem pay16_eq : (k0_pay16 (F := F)) = k0_pay1 := rfl
theorem pay17_eq : (k0_pay17 (F := F)) = k0_pay1 := rfl
theorem pay7_6_eq (v : Vec F S1x512x512 .f32) : k0_pay7 (k0_pay6 v) = k0_pay1 v := rfl
theorem pay19_eq : (k0_pay19 (F := F)) = k0_pay18 := rfl
theorem pay20_eq : (k0_pay20 (F := F)) = k0_pay18 := rfl
theorem pay21_eq : (k0_pay21 (F := F)) = k0_pay18 := rfl
theorem pay22_eq : (k0_pay22 (F := F)) = k0_pay18 := rfl
theorem pay23_eq : (k0_pay23 (F := F)) = k0_pay18 := rfl
theorem pay24_eq : (k0_pay24 (F := F)) = k0_pay18 := rfl
theorem pay25_eq : (k0_pay25 (F := F)) = k0_pay18 := rfl
theorem sum_apply (a b : Vec F S512x512 .bf16) (y : S512x512.Idx) : k0_pay18 a b y = FloatOps.addf (a y) (b y) := rfl

/-! ## Chunk `k` of a `[4096, 512]` buffer: element `(p, q)` of the chunk is element `(512 k + p, q)` of the buffer -/

theorem rowEmb_ar (k : Fin 8) (p q : Fin 512) :
    ((arM.access (Rect.unit (s := S4096x512) (rowOff k) S512x512.size (rowOff_inb k))).emb (ix2 p q) : S4096x512.Idx) = (ix2 (⟨512 * k.val + p.val, by have := k.isLt; have := p.isLt; omega⟩ : Fin 4096) q) := by
  funext a
  match a with
  | ⟨0, _⟩ => exact Fin.ext (by show 512 * k.val + 1 * p.val = 512 * k.val + p.val; omega)
  | ⟨1, _⟩ => exact Fin.ext (by show 0 + 1 * q.val = q.val; omega)

/-- A store of `w` through chunk `k` puts `w (p, q)` at `(512 k + p, q)`. -/
theorem store_chunk_ar (k : Fin 8) (f : (cc0_scratch0 : Ref sig .tc).ty.Contents (Elt F)) (w : S512x512.Idx → Elt F .bf16) (p q : Fin 512) :
    (arM.access (Rect.unit (s := S4096x512) (rowOff k) S512x512.size (rowOff_inb k))).write (Elt F) f w Finset.univ (ix2 (⟨512 * k.val + p.val, by have := k.isLt; have := p.isLt; omega⟩ : Fin 4096) q) = w (ix2 p q) := by
  have h := View.write_emb_of_mem (v := arM.access (Rect.unit (s := S4096x512) (rowOff k) S512x512.size (rowOff_inb k))) (Val := Elt F) f w (M := Finset.univ) (x := ix2 p q) (Finset.mem_univ _)
  have he : (arM.access (Rect.unit (s := S4096x512) (rowOff k) S512x512.size (rowOff_inb k))).emb (ix2 p q) = (ix2 (⟨512 * k.val + p.val, by have := k.isLt; have := p.isLt; omega⟩ : Fin 4096) q) := rowEmb_ar k p q
  rw [he] at h
  exact h

/-- A load of chunk `k` reads, at `(p, q)`, the buffer at `(512 k + p, q)`. -/
theorem load_chunk_ar (G : (cc0_scratch0 : Ref sig .tc).ty.Contents (Elt F)) (k : Fin 8) (p q : Fin 512) :
    arM.view.readAt (Elt F) (Rect.unit (s := S4096x512) (rowOff k) S512x512.size (rowOff_inb k)).toLoadRect G (ix2 p q) = G (ix2 (⟨512 * k.val + p.val, by have := k.isLt; have := p.isLt; omega⟩ : Fin 4096) q) := by
  have h : (arM.access (Rect.unit (s := S4096x512) (rowOff k) S512x512.size (rowOff_inb k))).read (Elt F) G (ix2 p q) = G ((arM.access (Rect.unit (s := S4096x512) (rowOff k) S512x512.size (rowOff_inb k))).emb (ix2 p q)) := rfl
  exact h.trans (congrArg G (rowEmb_ar k p q))

theorem rowEmb_sb (k : Fin 8) (p q : Fin 512) :
    ((sbM.access (Rect.unit (s := S4096x512) (rowOff k) S512x512.size (rowOff_inb k))).emb (ix2 p q) : S4096x512.Idx) = (ix2 (⟨512 * k.val + p.val, by have := k.isLt; have := p.isLt; omega⟩ : Fin 4096) q) := by
  funext a
  match a with
  | ⟨0, _⟩ => exact Fin.ext (by show 512 * k.val + 1 * p.val = 512 * k.val + p.val; omega)
  | ⟨1, _⟩ => exact Fin.ext (by show 0 + 1 * q.val = q.val; omega)

/-- A store of `w` through chunk `k` puts `w (p, q)` at `(512 k + p, q)`. -/
theorem store_chunk_sb (k : Fin 8) (f : (cc0_scratch1 : Ref sig .tc).ty.Contents (Elt F)) (w : S512x512.Idx → Elt F .bf16) (p q : Fin 512) :
    (sbM.access (Rect.unit (s := S4096x512) (rowOff k) S512x512.size (rowOff_inb k))).write (Elt F) f w Finset.univ (ix2 (⟨512 * k.val + p.val, by have := k.isLt; have := p.isLt; omega⟩ : Fin 4096) q) = w (ix2 p q) := by
  have h := View.write_emb_of_mem (v := sbM.access (Rect.unit (s := S4096x512) (rowOff k) S512x512.size (rowOff_inb k))) (Val := Elt F) f w (M := Finset.univ) (x := ix2 p q) (Finset.mem_univ _)
  have he : (sbM.access (Rect.unit (s := S4096x512) (rowOff k) S512x512.size (rowOff_inb k))).emb (ix2 p q) = (ix2 (⟨512 * k.val + p.val, by have := k.isLt; have := p.isLt; omega⟩ : Fin 4096) q) := rowEmb_sb k p q
  rw [he] at h
  exact h

/-- A load of chunk `k` reads, at `(p, q)`, the buffer at `(512 k + p, q)`. -/
theorem load_chunk_sb (G : (cc0_scratch1 : Ref sig .tc).ty.Contents (Elt F)) (k : Fin 8) (p q : Fin 512) :
    sbM.view.readAt (Elt F) (Rect.unit (s := S4096x512) (rowOff k) S512x512.size (rowOff_inb k)).toLoadRect G (ix2 p q) = G (ix2 (⟨512 * k.val + p.val, by have := k.isLt; have := p.isLt; omega⟩ : Fin 4096) q) := by
  have h : (sbM.access (Rect.unit (s := S4096x512) (rowOff k) S512x512.size (rowOff_inb k))).read (Elt F) G (ix2 p q) = G ((sbM.access (Rect.unit (s := S4096x512) (rowOff k) S512x512.size (rowOff_inb k))).emb (ix2 p q)) := rfl
  exact h.trans (congrArg G (rowEmb_sb k p q))

theorem rowEmb_mb (k : Fin 8) (p q : Fin 512) :
    ((mbM.access (Rect.unit (s := S4096x512) (rowOff k) S512x512.size (rowOff_inb k))).emb (ix2 p q) : S4096x512.Idx) = (ix2 (⟨512 * k.val + p.val, by have := k.isLt; have := p.isLt; omega⟩ : Fin 4096) q) := by
  funext a
  match a with
  | ⟨0, _⟩ => exact Fin.ext (by show 512 * k.val + 1 * p.val = 512 * k.val + p.val; omega)
  | ⟨1, _⟩ => exact Fin.ext (by show 0 + 1 * q.val = q.val; omega)

/-- A store of `w` through chunk `k` puts `w (p, q)` at `(512 k + p, q)`. -/
theorem store_chunk_mb (k : Fin 8) (f : (cc0_scratch2 : Ref sig .tc).ty.Contents (Elt F)) (w : S512x512.Idx → Elt F .bf16) (p q : Fin 512) :
    (mbM.access (Rect.unit (s := S4096x512) (rowOff k) S512x512.size (rowOff_inb k))).write (Elt F) f w Finset.univ (ix2 (⟨512 * k.val + p.val, by have := k.isLt; have := p.isLt; omega⟩ : Fin 4096) q) = w (ix2 p q) := by
  have h := View.write_emb_of_mem (v := mbM.access (Rect.unit (s := S4096x512) (rowOff k) S512x512.size (rowOff_inb k))) (Val := Elt F) f w (M := Finset.univ) (x := ix2 p q) (Finset.mem_univ _)
  have he : (mbM.access (Rect.unit (s := S4096x512) (rowOff k) S512x512.size (rowOff_inb k))).emb (ix2 p q) = (ix2 (⟨512 * k.val + p.val, by have := k.isLt; have := p.isLt; omega⟩ : Fin 4096) q) := rowEmb_mb k p q
  rw [he] at h
  exact h

/-- A load of chunk `k` reads, at `(p, q)`, the buffer at `(512 k + p, q)`. -/
theorem load_chunk_mb (G : (cc0_scratch2 : Ref sig .tc).ty.Contents (Elt F)) (k : Fin 8) (p q : Fin 512) :
    mbM.view.readAt (Elt F) (Rect.unit (s := S4096x512) (rowOff k) S512x512.size (rowOff_inb k)).toLoadRect G (ix2 p q) = G (ix2 (⟨512 * k.val + p.val, by have := k.isLt; have := p.isLt; omega⟩ : Fin 4096) q) := by
  have h : (mbM.access (Rect.unit (s := S4096x512) (rowOff k) S512x512.size (rowOff_inb k))).read (Elt F) G (ix2 p q) = G ((mbM.access (Rect.unit (s := S4096x512) (rowOff k) S512x512.size (rowOff_inb k))).emb (ix2 p q)) := rfl
  exact h.trans (congrArg G (rowEmb_mb k p q))

/-- The transfers' names for the chunks are those rectangles. -/
theorem chunk_emb (k : Fin 8) (p q : Fin 512) : ((sbS k).view.emb (ix2 p q) : S4096x512.Idx) = (ix2 (⟨512 * k.val + p.val, by have := k.isLt; have := p.isLt; omega⟩ : Fin 4096) q) := rowEmb_sb k p q
theorem chunk_emb_ar (k : Fin 8) (p q : Fin 512) : ((arS k).view.emb (ix2 p q) : S4096x512.Idx) = (ix2 (⟨512 * k.val + p.val, by have := k.isLt; have := p.isLt; omega⟩ : Fin 4096) q) := rowEmb_ar k p q

/-! ## The rectangle of the result's staging buffer device `d` computes in chunk `k` -/

theorem out_emb (d : Dev nD) (k : Fin 8) (p q : Fin 512) :
    ((oS d k).view.emb (ix2 p q) : S4096x1024.Idx)
      = ix2 (⟨512 * k.val + p.val, by have := k.isLt; have := p.isLt; omega⟩ : Fin 4096)
          (⟨512 * (d.val / 2) + q.val, by have hd4 : d.val < 4 := d.isLt; have := q.isLt; omega⟩ : Fin 1024) := by
  funext a
  match a with
  | ⟨0, _⟩ => exact Fin.ext (by show outOff d k 0 + 1 * p.val = 512 * k.val + p.val; rw [outOff_eq]; show 512 * k.val + 1 * p.val = _; omega)
  | ⟨1, _⟩ => exact Fin.ext (by show outOff d k 1 + 1 * q.val = 512 * (d.val / 2) + q.val; rw [outOff_eq]; show 512 * (d.val / 2) + 1 * q.val = _; omega)

/-- A store of `w` through that rectangle puts `w (p, q)` at `(512 k + p, 512 (d / 2) + q)`. -/
theorem store_out (d : Dev nD) (k : Fin 8) (f : (cc0_stg0_0 : Ref sig .tc).ty.Contents (Elt F)) (w : S512x512.Idx → Elt F .bf16) (p q : Fin 512) :
    (oM.access (Rect.unit (s := S4096x1024) (outOff d k) S512x512.size (outOff_inb d k))).write (Elt F) f w Finset.univ
      (ix2 (⟨512 * k.val + p.val, by have := k.isLt; have := p.isLt; omega⟩ : Fin 4096)
          (⟨512 * (d.val / 2) + q.val, by have hd4 : d.val < 4 := d.isLt; have := q.isLt; omega⟩ : Fin 1024)) = w (ix2 p q) := by
  have h := View.write_emb_of_mem (v := oM.access (Rect.unit (s := S4096x1024) (outOff d k) S512x512.size (outOff_inb d k))) (Val := Elt F) f w (M := Finset.univ) (x := ix2 p q) (Finset.mem_univ _)
  have he : (oM.access (Rect.unit (s := S4096x1024) (outOff d k) S512x512.size (outOff_inb d k))).emb (ix2 p q)
      = ix2 (⟨512 * k.val + p.val, by have := k.isLt; have := p.isLt; omega⟩ : Fin 4096)
          (⟨512 * (d.val / 2) + q.val, by have hd4 : d.val < 4 := d.isLt; have := q.isLt; omega⟩ : Fin 1024) := out_emb d k p q
  rw [he] at h
  exact h

/-! ## The staging buffers `[2, 512, 512]`: slot `s` seen as a `[512, 512]` window -/

/-- Dropping the unit axis matches `(p, q)` with `(0, p, q)`. -/
theorem sq_idx (h : S512x512.numel = S1x512x512.numel) (p q : Fin 512) :
    Shape.reshapeEquiv h (ix2 p q) = ix3 (0 : Fin 1) p q :=
  Shape.reshapeEquiv_eq_of_rowMajor h (by
    rw [Shape.rowMajor_val_three, Shape.rowMajor_val_two]
    show (0 * 512 + p.val) * 512 + q.val = p.val * 512 + q.val
    omega)

/-- Element `(0, p, q)` of slot 0's block is element `(0, p, q)` of the buffer, -/
theorem slotEmb_ss0 (p q : Fin 512) :
    ((ssM.access (Rect.unit (s := S2x512x512) ![0, 0, 0] S1x512x512.size inb_S2x512x512_S1x512x512_0_0_0)).emb (ix3 (0 : Fin 1) p q) : S2x512x512.Idx) = ix3 (0 : Fin 2) p q := by
  funext a
  match a with
  | ⟨0, _⟩ => exact Fin.ext (by show 0 + 1 * 0 = 0; rfl)
  | ⟨1, _⟩ => exact Fin.ext (by show 0 + 1 * p.val = p.val; omega)
  | ⟨2, _⟩ => exact Fin.ext (by show 0 + 1 * q.val = q.val; omega)
/-- so a load of slot 0's block reads the buffer there, -/
theorem slotRead_ss0 (g : (cc0_scratch3 : Ref sig .tc).ty.Contents (Elt F)) (p q : Fin 512) :
    ssM.view.readAt (Elt F) (Rect.unit (s := S2x512x512) ![0, 0, 0] S1x512x512.size inb_S2x512x512_S1x512x512_0_0_0).toLoadRect g (ix3 (0 : Fin 1) p q) = g (ix3 (0 : Fin 2) p q) := by
  have hr : ssM.view.readAt (Elt F) (Rect.unit (s := S2x512x512) ![0, 0, 0] S1x512x512.size inb_S2x512x512_S1x512x512_0_0_0).toLoadRect g (ix3 (0 : Fin 1) p q)
      = g ((ssM.access (Rect.unit (s := S2x512x512) ![0, 0, 0] S1x512x512.size inb_S2x512x512_S1x512x512_0_0_0)).emb (ix3 (0 : Fin 1) p q)) := rfl
  rw [hr, slotEmb_ss0]
/-- and element `(p, q)` of slot 0's window is that element too. -/
theorem stageEmb_ss0 (p q : Fin 512) :
    (((ssM.slice (Rect.unit (s := S2x512x512) ![0, 0, 0] S1x512x512.size inb_S2x512x512_S1x512x512_0_0_0) (fun _ => rfl)).squeeze S512x512 squeezes_S1x512x512_S512x512).view.emb (ix2 p q) : S2x512x512.Idx) = ix3 (0 : Fin 2) p q := by
  have h1 : (((ssM.slice (Rect.unit (s := S2x512x512) ![0, 0, 0] S1x512x512.size inb_S2x512x512_S1x512x512_0_0_0) (fun _ => rfl)).squeeze S512x512 squeezes_S1x512x512_S512x512).view.emb (ix2 p q) : S2x512x512.Idx)
      = (ssM.access (Rect.unit (s := S2x512x512) ![0, 0, 0] S1x512x512.size inb_S2x512x512_S1x512x512_0_0_0)).emb (Shape.reshapeEquiv squeezes_S1x512x512_S512x512.numel_eq (ix2 p q)) := rfl
  rw [h1, sq_idx]
  exact slotEmb_ss0 p q

/-- Element `(0, p, q)` of slot 1's block is element `(1, p, q)` of the buffer, -/
theorem slotEmb_ss1 (p q : Fin 512) :
    ((ssM.access (Rect.unit (s := S2x512x512) ![1, 0, 0] S1x512x512.size inb_S2x512x512_S1x512x512_1_0_0)).emb (ix3 (0 : Fin 1) p q) : S2x512x512.Idx) = ix3 (1 : Fin 2) p q := by
  funext a
  match a with
  | ⟨0, _⟩ => exact Fin.ext (by show 1 + 1 * 0 = 1; rfl)
  | ⟨1, _⟩ => exact Fin.ext (by show 0 + 1 * p.val = p.val; omega)
  | ⟨2, _⟩ => exact Fin.ext (by show 0 + 1 * q.val = q.val; omega)
/-- so a load of slot 1's block reads the buffer there, -/
theorem slotRead_ss1 (g : (cc0_scratch3 : Ref sig .tc).ty.Contents (Elt F)) (p q : Fin 512) :
    ssM.view.readAt (Elt F) (Rect.unit (s := S2x512x512) ![1, 0, 0] S1x512x512.size inb_S2x512x512_S1x512x512_1_0_0).toLoadRect g (ix3 (0 : Fin 1) p q) = g (ix3 (1 : Fin 2) p q) := by
  have hr : ssM.view.readAt (Elt F) (Rect.unit (s := S2x512x512) ![1, 0, 0] S1x512x512.size inb_S2x512x512_S1x512x512_1_0_0).toLoadRect g (ix3 (0 : Fin 1) p q)
      = g ((ssM.access (Rect.unit (s := S2x512x512) ![1, 0, 0] S1x512x512.size inb_S2x512x512_S1x512x512_1_0_0)).emb (ix3 (0 : Fin 1) p q)) := rfl
  rw [hr, slotEmb_ss1]
/-- and element `(p, q)` of slot 1's window is that element too. -/
theorem stageEmb_ss1 (p q : Fin 512) :
    (((ssM.slice (Rect.unit (s := S2x512x512) ![1, 0, 0] S1x512x512.size inb_S2x512x512_S1x512x512_1_0_0) (fun _ => rfl)).squeeze S512x512 squeezes_S1x512x512_S512x512).view.emb (ix2 p q) : S2x512x512.Idx) = ix3 (1 : Fin 2) p q := by
  have h1 : (((ssM.slice (Rect.unit (s := S2x512x512) ![1, 0, 0] S1x512x512.size inb_S2x512x512_S1x512x512_1_0_0) (fun _ => rfl)).squeeze S512x512 squeezes_S1x512x512_S512x512).view.emb (ix2 p q) : S2x512x512.Idx)
      = (ssM.access (Rect.unit (s := S2x512x512) ![1, 0, 0] S1x512x512.size inb_S2x512x512_S1x512x512_1_0_0)).emb (Shape.reshapeEquiv squeezes_S1x512x512_S512x512.numel_eq (ix2 p q)) := rfl
  rw [h1, sq_idx]
  exact slotEmb_ss1 p q

/-- Slot 0's elements lie outside slot 1's window. -/
theorem miss_ss0 (p q : Fin 512) : (ix3 (0 : Fin 2) p q : S2x512x512.Idx) ∉ ((ssM.slice (Rect.unit (s := S2x512x512) ![1, 0, 0] S1x512x512.size inb_S2x512x512_S1x512x512_1_0_0) (fun _ => rfl)).squeeze S512x512 squeezes_S1x512x512_S512x512).view.setOn Finset.univ := by
  intro hmem
  have hmem' : (ix3 (0 : Fin 2) p q : S2x512x512.Idx) ∈ Finset.univ.map ((ssM.slice (Rect.unit (s := S2x512x512) ![1, 0, 0] S1x512x512.size inb_S2x512x512_S1x512x512_1_0_0) (fun _ => rfl)).squeeze S512x512 squeezes_S1x512x512_S512x512).view.emb := hmem
  obtain ⟨y, -, hy⟩ := Finset.mem_map.mp hmem'
  obtain ⟨p', q', rfl⟩ : ∃ (p' q' : Fin 512), y = ix2 p' q' := ⟨y 0, y 1, eq_ix2 y⟩
  have he : ((ssM.slice (Rect.unit (s := S2x512x512) ![1, 0, 0] S1x512x512.size inb_S2x512x512_S1x512x512_1_0_0) (fun _ => rfl)).squeeze S512x512 squeezes_S1x512x512_S512x512).view.emb (ix2 p' q') = ix3 (1 : Fin 2) p' q' := stageEmb_ss1 p' q'
  rw [he] at hy
  have h0 : ((ix3 (1 : Fin 2) p' q' : S2x512x512.Idx) 0).val = ((ix3 (0 : Fin 2) p q : S2x512x512.Idx) 0).val := by rw [hy]
  exact Nat.one_ne_zero h0

/-- What was written through slot 0's window is read back through slot 0's block. -/
theorem stage_hit_ss0 (f : (cc0_scratch3 : Ref sig .tc).ty.Contents (Elt F)) (w : S512x512.Idx → Elt F .f32) (p q : Fin 512) :
    ssM.view.readAt (Elt F) (Rect.unit (s := S2x512x512) ![0, 0, 0] S1x512x512.size inb_S2x512x512_S1x512x512_0_0_0).toLoadRect (((ssM.slice (Rect.unit (s := S2x512x512) ![0, 0, 0] S1x512x512.size inb_S2x512x512_S1x512x512_0_0_0) (fun _ => rfl)).squeeze S512x512 squeezes_S1x512x512_S512x512).view.write (Elt F) f w Finset.univ) (ix3 (0 : Fin 1) p q) = w (ix2 p q) := by
  have h := View.write_emb_of_mem (v := ((ssM.slice (Rect.unit (s := S2x512x512) ![0, 0, 0] S1x512x512.size inb_S2x512x512_S1x512x512_0_0_0) (fun _ => rfl)).squeeze S512x512 squeezes_S1x512x512_S512x512).view) (Val := Elt F) f w (M := Finset.univ) (x := ix2 p q) (Finset.mem_univ _)
  have he : ((ssM.slice (Rect.unit (s := S2x512x512) ![0, 0, 0] S1x512x512.size inb_S2x512x512_S1x512x512_0_0_0) (fun _ => rfl)).squeeze S512x512 squeezes_S1x512x512_S512x512).view.emb (ix2 p q) = ix3 (0 : Fin 2) p q := stageEmb_ss0 p q
  rw [he] at h
  rw [slotRead_ss0]
  exact h

/-- A write through slot 1's window leaves what slot 0's block reads. -/
theorem stage_skip_ss0 (f : (cc0_scratch3 : Ref sig .tc).ty.Contents (Elt F)) (w : S512x512.Idx → Elt F .f32) (p q : Fin 512) :
    ssM.view.readAt (Elt F) (Rect.unit (s := S2x512x512) ![0, 0, 0] S1x512x512.size inb_S2x512x512_S1x512x512_0_0_0).toLoadRect (((ssM.slice (Rect.unit (s := S2x512x512) ![1, 0, 0] S1x512x512.size inb_S2x512x512_S1x512x512_1_0_0) (fun _ => rfl)).squeeze S512x512 squeezes_S1x512x512_S512x512).view.write (Elt F) f w Finset.univ) (ix3 (0 : Fin 1) p q)
      = ssM.view.readAt (Elt F) (Rect.unit (s := S2x512x512) ![0, 0, 0] S1x512x512.size inb_S2x512x512_S1x512x512_0_0_0).toLoadRect f (ix3 (0 : Fin 1) p q) := by
  rw [slotRead_ss0, slotRead_ss0]
  exact View.write_of_not_mem (v := ((ssM.slice (Rect.unit (s := S2x512x512) ![1, 0, 0] S1x512x512.size inb_S2x512x512_S1x512x512_1_0_0) (fun _ => rfl)).squeeze S512x512 squeezes_S1x512x512_S512x512).view) (Val := Elt F) f w Finset.univ (miss_ss0 p q)

/-- Slot 1's elements lie outside slot 0's window. -/
theorem miss_ss1 (p q : Fin 512) : (ix3 (1 : Fin 2) p q : S2x512x512.Idx) ∉ ((ssM.slice (Rect.unit (s := S2x512x512) ![0, 0, 0] S1x512x512.size inb_S2x512x512_S1x512x512_0_0_0) (fun _ => rfl)).squeeze S512x512 squeezes_S1x512x512_S512x512).view.setOn Finset.univ := by
  intro hmem
  have hmem' : (ix3 (1 : Fin 2) p q : S2x512x512.Idx) ∈ Finset.univ.map ((ssM.slice (Rect.unit (s := S2x512x512) ![0, 0, 0] S1x512x512.size inb_S2x512x512_S1x512x512_0_0_0) (fun _ => rfl)).squeeze S512x512 squeezes_S1x512x512_S512x512).view.emb := hmem
  obtain ⟨y, -, hy⟩ := Finset.mem_map.mp hmem'
  obtain ⟨p', q', rfl⟩ : ∃ (p' q' : Fin 512), y = ix2 p' q' := ⟨y 0, y 1, eq_ix2 y⟩
  have he : ((ssM.slice (Rect.unit (s := S2x512x512) ![0, 0, 0] S1x512x512.size inb_S2x512x512_S1x512x512_0_0_0) (fun _ => rfl)).squeeze S512x512 squeezes_S1x512x512_S512x512).view.emb (ix2 p' q') = ix3 (0 : Fin 2) p' q' := stageEmb_ss0 p' q'
  rw [he] at hy
  have h0 : ((ix3 (0 : Fin 2) p' q' : S2x512x512.Idx) 0).val = ((ix3 (1 : Fin 2) p q : S2x512x512.Idx) 0).val := by rw [hy]
  exact Nat.zero_ne_one h0

/-- What was written through slot 1's window is read back through slot 1's block. -/
theorem stage_hit_ss1 (f : (cc0_scratch3 : Ref sig .tc).ty.Contents (Elt F)) (w : S512x512.Idx → Elt F .f32) (p q : Fin 512) :
    ssM.view.readAt (Elt F) (Rect.unit (s := S2x512x512) ![1, 0, 0] S1x512x512.size inb_S2x512x512_S1x512x512_1_0_0).toLoadRect (((ssM.slice (Rect.unit (s := S2x512x512) ![1, 0, 0] S1x512x512.size inb_S2x512x512_S1x512x512_1_0_0) (fun _ => rfl)).squeeze S512x512 squeezes_S1x512x512_S512x512).view.write (Elt F) f w Finset.univ) (ix3 (0 : Fin 1) p q) = w (ix2 p q) := by
  have h := View.write_emb_of_mem (v := ((ssM.slice (Rect.unit (s := S2x512x512) ![1, 0, 0] S1x512x512.size inb_S2x512x512_S1x512x512_1_0_0) (fun _ => rfl)).squeeze S512x512 squeezes_S1x512x512_S512x512).view) (Val := Elt F) f w (M := Finset.univ) (x := ix2 p q) (Finset.mem_univ _)
  have he : ((ssM.slice (Rect.unit (s := S2x512x512) ![1, 0, 0] S1x512x512.size inb_S2x512x512_S1x512x512_1_0_0) (fun _ => rfl)).squeeze S512x512 squeezes_S1x512x512_S512x512).view.emb (ix2 p q) = ix3 (1 : Fin 2) p q := stageEmb_ss1 p q
  rw [he] at h
  rw [slotRead_ss1]
  exact h

/-- A write through slot 0's window leaves what slot 1's block reads. -/
theorem stage_skip_ss1 (f : (cc0_scratch3 : Ref sig .tc).ty.Contents (Elt F)) (w : S512x512.Idx → Elt F .f32) (p q : Fin 512) :
    ssM.view.readAt (Elt F) (Rect.unit (s := S2x512x512) ![1, 0, 0] S1x512x512.size inb_S2x512x512_S1x512x512_1_0_0).toLoadRect (((ssM.slice (Rect.unit (s := S2x512x512) ![0, 0, 0] S1x512x512.size inb_S2x512x512_S1x512x512_0_0_0) (fun _ => rfl)).squeeze S512x512 squeezes_S1x512x512_S512x512).view.write (Elt F) f w Finset.univ) (ix3 (0 : Fin 1) p q)
      = ssM.view.readAt (Elt F) (Rect.unit (s := S2x512x512) ![1, 0, 0] S1x512x512.size inb_S2x512x512_S1x512x512_1_0_0).toLoadRect f (ix3 (0 : Fin 1) p q) := by
  rw [slotRead_ss1, slotRead_ss1]
  exact View.write_of_not_mem (v := ((ssM.slice (Rect.unit (s := S2x512x512) ![0, 0, 0] S1x512x512.size inb_S2x512x512_S1x512x512_0_0_0) (fun _ => rfl)).squeeze S512x512 squeezes_S1x512x512_S512x512).view) (Val := Elt F) f w Finset.univ (miss_ss1 p q)

/-- Element `(0, p, q)` of slot 0's block is element `(0, p, q)` of the buffer, -/
theorem slotEmb_sm0 (p q : Fin 512) :
    ((smM.access (Rect.unit (s := S2x512x512) ![0, 0, 0] S1x512x512.size inb_S2x512x512_S1x512x512_0_0_0)).emb (ix3 (0 : Fin 1) p q) : S2x512x512.Idx) = ix3 (0 : Fin 2) p q := by
  funext a
  match a with
  | ⟨0, _⟩ => exact Fin.ext (by show 0 + 1 * 0 = 0; rfl)
  | ⟨1, _⟩ => exact Fin.ext (by show 0 + 1 * p.val = p.val; omega)
  | ⟨2, _⟩ => exact Fin.ext (by show 0 + 1 * q.val = q.val; omega)
/-- so a load of slot 0's block reads the buffer there, -/
theorem slotRead_sm0 (g : (cc0_scratch4 : Ref sig .tc).ty.Contents (Elt F)) (p q : Fin 512) :
    smM.view.readAt (Elt F) (Rect.unit (s := S2x512x512) ![0, 0, 0] S1x512x512.size inb_S2x512x512_S1x512x512_0_0_0).toLoadRect g (ix3 (0 : Fin 1) p q) = g (ix3 (0 : Fin 2) p q) := by
  have hr : smM.view.readAt (Elt F) (Rect.unit (s := S2x512x512) ![0, 0, 0] S1x512x512.size inb_S2x512x512_S1x512x512_0_0_0).toLoadRect g (ix3 (0 : Fin 1) p q)
      = g ((smM.access (Rect.unit (s := S2x512x512) ![0, 0, 0] S1x512x512.size inb_S2x512x512_S1x512x512_0_0_0)).emb (ix3 (0 : Fin 1) p q)) := rfl
  rw [hr, slotEmb_sm0]
/-- and element `(p, q)` of slot 0's window is that element too. -/
theorem stageEmb_sm0 (p q : Fin 512) :
    (((smM.slice (Rect.unit (s := S2x512x512) ![0, 0, 0] S1x512x512.size inb_S2x512x512_S1x512x512_0_0_0) (fun _ => rfl)).squeeze S512x512 squeezes_S1x512x512_S512x512).view.emb (ix2 p q) : S2x512x512.Idx) = ix3 (0 : Fin 2) p q := by
  have h1 : (((smM.slice (Rect.unit (s := S2x512x512) ![0, 0, 0] S1x512x512.size inb_S2x512x512_S1x512x512_0_0_0) (fun _ => rfl)).squeeze S512x512 squeezes_S1x512x512_S512x512).view.emb (ix2 p q) : S2x512x512.Idx)
      = (smM.access (Rect.unit (s := S2x512x512) ![0, 0, 0] S1x512x512.size inb_S2x512x512_S1x512x512_0_0_0)).emb (Shape.reshapeEquiv squeezes_S1x512x512_S512x512.numel_eq (ix2 p q)) := rfl
  rw [h1, sq_idx]
  exact slotEmb_sm0 p q

/-- Element `(0, p, q)` of slot 1's block is element `(1, p, q)` of the buffer, -/
theorem slotEmb_sm1 (p q : Fin 512) :
    ((smM.access (Rect.unit (s := S2x512x512) ![1, 0, 0] S1x512x512.size inb_S2x512x512_S1x512x512_1_0_0)).emb (ix3 (0 : Fin 1) p q) : S2x512x512.Idx) = ix3 (1 : Fin 2) p q := by
  funext a
  match a with
  | ⟨0, _⟩ => exact Fin.ext (by show 1 + 1 * 0 = 1; rfl)
  | ⟨1, _⟩ => exact Fin.ext (by show 0 + 1 * p.val = p.val; omega)
  | ⟨2, _⟩ => exact Fin.ext (by show 0 + 1 * q.val = q.val; omega)
/-- so a load of slot 1's block reads the buffer there, -/
theorem slotRead_sm1 (g : (cc0_scratch4 : Ref sig .tc).ty.Contents (Elt F)) (p q : Fin 512) :
    smM.view.readAt (Elt F) (Rect.unit (s := S2x512x512) ![1, 0, 0] S1x512x512.size inb_S2x512x512_S1x512x512_1_0_0).toLoadRect g (ix3 (0 : Fin 1) p q) = g (ix3 (1 : Fin 2) p q) := by
  have hr : smM.view.readAt (Elt F) (Rect.unit (s := S2x512x512) ![1, 0, 0] S1x512x512.size inb_S2x512x512_S1x512x512_1_0_0).toLoadRect g (ix3 (0 : Fin 1) p q)
      = g ((smM.access (Rect.unit (s := S2x512x512) ![1, 0, 0] S1x512x512.size inb_S2x512x512_S1x512x512_1_0_0)).emb (ix3 (0 : Fin 1) p q)) := rfl
  rw [hr, slotEmb_sm1]
/-- and element `(p, q)` of slot 1's window is that element too. -/
theorem stageEmb_sm1 (p q : Fin 512) :
    (((smM.slice (Rect.unit (s := S2x512x512) ![1, 0, 0] S1x512x512.size inb_S2x512x512_S1x512x512_1_0_0) (fun _ => rfl)).squeeze S512x512 squeezes_S1x512x512_S512x512).view.emb (ix2 p q) : S2x512x512.Idx) = ix3 (1 : Fin 2) p q := by
  have h1 : (((smM.slice (Rect.unit (s := S2x512x512) ![1, 0, 0] S1x512x512.size inb_S2x512x512_S1x512x512_1_0_0) (fun _ => rfl)).squeeze S512x512 squeezes_S1x512x512_S512x512).view.emb (ix2 p q) : S2x512x512.Idx)
      = (smM.access (Rect.unit (s := S2x512x512) ![1, 0, 0] S1x512x512.size inb_S2x512x512_S1x512x512_1_0_0)).emb (Shape.reshapeEquiv squeezes_S1x512x512_S512x512.numel_eq (ix2 p q)) := rfl
  rw [h1, sq_idx]
  exact slotEmb_sm1 p q

/-- Slot 0's elements lie outside slot 1's window. -/
theorem miss_sm0 (p q : Fin 512) : (ix3 (0 : Fin 2) p q : S2x512x512.Idx) ∉ ((smM.slice (Rect.unit (s := S2x512x512) ![1, 0, 0] S1x512x512.size inb_S2x512x512_S1x512x512_1_0_0) (fun _ => rfl)).squeeze S512x512 squeezes_S1x512x512_S512x512).view.setOn Finset.univ := by
  intro hmem
  have hmem' : (ix3 (0 : Fin 2) p q : S2x512x512.Idx) ∈ Finset.univ.map ((smM.slice (Rect.unit (s := S2x512x512) ![1, 0, 0] S1x512x512.size inb_S2x512x512_S1x512x512_1_0_0) (fun _ => rfl)).squeeze S512x512 squeezes_S1x512x512_S512x512).view.emb := hmem
  obtain ⟨y, -, hy⟩ := Finset.mem_map.mp hmem'
  obtain ⟨p', q', rfl⟩ : ∃ (p' q' : Fin 512), y = ix2 p' q' := ⟨y 0, y 1, eq_ix2 y⟩
  have he : ((smM.slice (Rect.unit (s := S2x512x512) ![1, 0, 0] S1x512x512.size inb_S2x512x512_S1x512x512_1_0_0) (fun _ => rfl)).squeeze S512x512 squeezes_S1x512x512_S512x512).view.emb (ix2 p' q') = ix3 (1 : Fin 2) p' q' := stageEmb_sm1 p' q'
  rw [he] at hy
  have h0 : ((ix3 (1 : Fin 2) p' q' : S2x512x512.Idx) 0).val = ((ix3 (0 : Fin 2) p q : S2x512x512.Idx) 0).val := by rw [hy]
  exact Nat.one_ne_zero h0

/-- What was written through slot 0's window is read back through slot 0's block. -/
theorem stage_hit_sm0 (f : (cc0_scratch4 : Ref sig .tc).ty.Contents (Elt F)) (w : S512x512.Idx → Elt F .f32) (p q : Fin 512) :
    smM.view.readAt (Elt F) (Rect.unit (s := S2x512x512) ![0, 0, 0] S1x512x512.size inb_S2x512x512_S1x512x512_0_0_0).toLoadRect (((smM.slice (Rect.unit (s := S2x512x512) ![0, 0, 0] S1x512x512.size inb_S2x512x512_S1x512x512_0_0_0) (fun _ => rfl)).squeeze S512x512 squeezes_S1x512x512_S512x512).view.write (Elt F) f w Finset.univ) (ix3 (0 : Fin 1) p q) = w (ix2 p q) := by
  have h := View.write_emb_of_mem (v := ((smM.slice (Rect.unit (s := S2x512x512) ![0, 0, 0] S1x512x512.size inb_S2x512x512_S1x512x512_0_0_0) (fun _ => rfl)).squeeze S512x512 squeezes_S1x512x512_S512x512).view) (Val := Elt F) f w (M := Finset.univ) (x := ix2 p q) (Finset.mem_univ _)
  have he : ((smM.slice (Rect.unit (s := S2x512x512) ![0, 0, 0] S1x512x512.size inb_S2x512x512_S1x512x512_0_0_0) (fun _ => rfl)).squeeze S512x512 squeezes_S1x512x512_S512x512).view.emb (ix2 p q) = ix3 (0 : Fin 2) p q := stageEmb_sm0 p q
  rw [he] at h
  rw [slotRead_sm0]
  exact h

/-- A write through slot 1's window leaves what slot 0's block reads. -/
theorem stage_skip_sm0 (f : (cc0_scratch4 : Ref sig .tc).ty.Contents (Elt F)) (w : S512x512.Idx → Elt F .f32) (p q : Fin 512) :
    smM.view.readAt (Elt F) (Rect.unit (s := S2x512x512) ![0, 0, 0] S1x512x512.size inb_S2x512x512_S1x512x512_0_0_0).toLoadRect (((smM.slice (Rect.unit (s := S2x512x512) ![1, 0, 0] S1x512x512.size inb_S2x512x512_S1x512x512_1_0_0) (fun _ => rfl)).squeeze S512x512 squeezes_S1x512x512_S512x512).view.write (Elt F) f w Finset.univ) (ix3 (0 : Fin 1) p q)
      = smM.view.readAt (Elt F) (Rect.unit (s := S2x512x512) ![0, 0, 0] S1x512x512.size inb_S2x512x512_S1x512x512_0_0_0).toLoadRect f (ix3 (0 : Fin 1) p q) := by
  rw [slotRead_sm0, slotRead_sm0]
  exact View.write_of_not_mem (v := ((smM.slice (Rect.unit (s := S2x512x512) ![1, 0, 0] S1x512x512.size inb_S2x512x512_S1x512x512_1_0_0) (fun _ => rfl)).squeeze S512x512 squeezes_S1x512x512_S512x512).view) (Val := Elt F) f w Finset.univ (miss_sm0 p q)

/-- Slot 1's elements lie outside slot 0's window. -/
theorem miss_sm1 (p q : Fin 512) : (ix3 (1 : Fin 2) p q : S2x512x512.Idx) ∉ ((smM.slice (Rect.unit (s := S2x512x512) ![0, 0, 0] S1x512x512.size inb_S2x512x512_S1x512x512_0_0_0) (fun _ => rfl)).squeeze S512x512 squeezes_S1x512x512_S512x512).view.setOn Finset.univ := by
  intro hmem
  have hmem' : (ix3 (1 : Fin 2) p q : S2x512x512.Idx) ∈ Finset.univ.map ((smM.slice (Rect.unit (s := S2x512x512) ![0, 0, 0] S1x512x512.size inb_S2x512x512_S1x512x512_0_0_0) (fun _ => rfl)).squeeze S512x512 squeezes_S1x512x512_S512x512).view.emb := hmem
  obtain ⟨y, -, hy⟩ := Finset.mem_map.mp hmem'
  obtain ⟨p', q', rfl⟩ : ∃ (p' q' : Fin 512), y = ix2 p' q' := ⟨y 0, y 1, eq_ix2 y⟩
  have he : ((smM.slice (Rect.unit (s := S2x512x512) ![0, 0, 0] S1x512x512.size inb_S2x512x512_S1x512x512_0_0_0) (fun _ => rfl)).squeeze S512x512 squeezes_S1x512x512_S512x512).view.emb (ix2 p' q') = ix3 (0 : Fin 2) p' q' := stageEmb_sm0 p' q'
  rw [he] at hy
  have h0 : ((ix3 (0 : Fin 2) p' q' : S2x512x512.Idx) 0).val = ((ix3 (1 : Fin 2) p q : S2x512x512.Idx) 0).val := by rw [hy]
  exact Nat.zero_ne_one h0

/-- What was written through slot 1's window is read back through slot 1's block. -/
theorem stage_hit_sm1 (f : (cc0_scratch4 : Ref sig .tc).ty.Contents (Elt F)) (w : S512x512.Idx → Elt F .f32) (p q : Fin 512) :
    smM.view.readAt (Elt F) (Rect.unit (s := S2x512x512) ![1, 0, 0] S1x512x512.size inb_S2x512x512_S1x512x512_1_0_0).toLoadRect (((smM.slice (Rect.unit (s := S2x512x512) ![1, 0, 0] S1x512x512.size inb_S2x512x512_S1x512x512_1_0_0) (fun _ => rfl)).squeeze S512x512 squeezes_S1x512x512_S512x512).view.write (Elt F) f w Finset.univ) (ix3 (0 : Fin 1) p q) = w (ix2 p q) := by
  have h := View.write_emb_of_mem (v := ((smM.slice (Rect.unit (s := S2x512x512) ![1, 0, 0] S1x512x512.size inb_S2x512x512_S1x512x512_1_0_0) (fun _ => rfl)).squeeze S512x512 squeezes_S1x512x512_S512x512).view) (Val := Elt F) f w (M := Finset.univ) (x := ix2 p q) (Finset.mem_univ _)
  have he : ((smM.slice (Rect.unit (s := S2x512x512) ![1, 0, 0] S1x512x512.size inb_S2x512x512_S1x512x512_1_0_0) (fun _ => rfl)).squeeze S512x512 squeezes_S1x512x512_S512x512).view.emb (ix2 p q) = ix3 (1 : Fin 2) p q := stageEmb_sm1 p q
  rw [he] at h
  rw [slotRead_sm1]
  exact h

/-- A write through slot 0's window leaves what slot 1's block reads. -/
theorem stage_skip_sm1 (f : (cc0_scratch4 : Ref sig .tc).ty.Contents (Elt F)) (w : S512x512.Idx → Elt F .f32) (p q : Fin 512) :
    smM.view.readAt (Elt F) (Rect.unit (s := S2x512x512) ![1, 0, 0] S1x512x512.size inb_S2x512x512_S1x512x512_1_0_0).toLoadRect (((smM.slice (Rect.unit (s := S2x512x512) ![0, 0, 0] S1x512x512.size inb_S2x512x512_S1x512x512_0_0_0) (fun _ => rfl)).squeeze S512x512 squeezes_S1x512x512_S512x512).view.write (Elt F) f w Finset.univ) (ix3 (0 : Fin 1) p q)
      = smM.view.readAt (Elt F) (Rect.unit (s := S2x512x512) ![1, 0, 0] S1x512x512.size inb_S2x512x512_S1x512x512_1_0_0).toLoadRect f (ix3 (0 : Fin 1) p q) := by
  rw [slotRead_sm1, slotRead_sm1]
  exact View.write_of_not_mem (v := ((smM.slice (Rect.unit (s := S2x512x512) ![0, 0, 0] S1x512x512.size inb_S2x512x512_S1x512x512_0_0_0) (fun _ => rfl)).squeeze S512x512 squeezes_S1x512x512_S512x512).view) (Val := Elt F) f w Finset.univ (miss_sm1 p q)
/-! ## A `[512, 512]` window of the argument block -/

/-- The window at offsets `off` reads, at `(p, q)`, the block at `off + (0, p, q)`. -/
theorem xwin_read (off : Fin 3 → Nat) (inb : ∀ a, off a + S1x512x512.size a ≤ S1x4096x2048.size a)
    (X : (main_arg0 : Ref sig .tc).ty.Contents (Elt F)) (p q : Fin 512) :
    ((xM.slice (Rect.unit (s := S1x4096x2048) off S1x512x512.size inb) (fun _ => rfl)).squeeze S512x512 squeezes_S1x512x512_S512x512).view.read (Elt F) X (ix2 p q)
      = X (fun a => ⟨off a + (ix3 (0 : Fin 1) p q a).val,
          Nat.lt_of_lt_of_le (Nat.add_lt_add_left (ix3 (0 : Fin 1) p q a).isLt _) (inb a)⟩) := by
  have h1 : ((xM.slice (Rect.unit (s := S1x4096x2048) off S1x512x512.size inb) (fun _ => rfl)).squeeze S512x512 squeezes_S1x512x512_S512x512).view.read (Elt F) X (ix2 p q)
      = X ((xM.access (Rect.unit (s := S1x4096x2048) off S1x512x512.size inb)).emb (Shape.reshapeEquiv squeezes_S1x512x512_S512x512.numel_eq (ix2 p q))) := rfl
  rw [h1, sq_idx]
  exact congrArg X (funext fun a => Fin.ext (by
    show off a + 1 * (ix3 (0 : Fin 1) p q a).val = off a + (ix3 (0 : Fin 1) p q a).val
    omega))

/-- The same with the offsets `(0, r, c)` and the index written by coordinates. -/
theorem xwin_read_at (r c : ℕ) (inb : ∀ a, (![0, r, c] : Fin 3 → Nat) a + S1x512x512.size a ≤ S1x4096x2048.size a)
    (X : (main_arg0 : Ref sig .tc).ty.Contents (Elt F)) (p q : Fin 512) (hr : r + p.val < 4096) (hc : c + q.val < 2048) :
    ((xM.slice (Rect.unit (s := S1x4096x2048) ![0, r, c] S1x512x512.size inb) (fun _ => rfl)).squeeze S512x512 squeezes_S1x512x512_S512x512).view.read (Elt F) X (ix2 p q)
      = X (ix3 (0 : Fin 1) (⟨r + p.val, hr⟩ : Fin 4096) (⟨c + q.val, hc⟩ : Fin 2048)) :=
  (xwin_read ![0, r, c] inb X p q).trans (congrArg X (funext fun a =>
    match a with
    | ⟨0, _⟩ => Fin.ext (show 0 + 0 = 0 from rfl)
    | ⟨1, _⟩ => Fin.ext (show r + p.val = r + p.val from rfl)
    | ⟨2, _⟩ => Fin.ext (show c + q.val = c + q.val from rfl)))

/-! ## The target contents at those indices -/

theorem SBf_at (c : Dev nD) (k : Fin 8) (p q : Fin 512) :
    SBf m c (ix2 (⟨512 * k.val + p.val, by have := k.isLt; have := p.isLt; omega⟩ : Fin 4096) q)
      = FloatOps.truncf .bf16 bitsLt_bf16_f32 (Xof m c (ix3 (0 : Fin 1) (⟨512 * k.val + p.val, by have := k.isLt; have := p.isLt; omega⟩ : Fin 4096)
          (⟨colA c + q.val, by have := colA_le c; have := q.isLt; omega⟩ : Fin 2048))) := rfl

theorem MBf_at (c : Dev nD) (k : Fin 8) (p q : Fin 512) :
    MBf m c (ix2 (⟨512 * k.val + p.val, by have := k.isLt; have := p.isLt; omega⟩ : Fin 4096) q)
      = FloatOps.truncf .bf16 bitsLt_bf16_f32 (Xof m c (ix3 (0 : Fin 1) (⟨512 * k.val + p.val, by have := k.isLt; have := p.isLt; omega⟩ : Fin 4096)
          (⟨colM c + q.val, by have := colM_le c; have := q.isLt; omega⟩ : Fin 2048))) := rfl

/-- In its own 512 columns the result is the kept band plus the landed one, -/
theorem OUTf_own (c : Dev nD) (r : Fin 4096) (q : Fin 512) :
    OUTf m c (ix2 r (⟨512 * (c.val / 2) + q.val, by have hc4 : c.val < 4 := c.isLt; have := q.isLt; omega⟩ : Fin 1024)) = FloatOps.addf (MBf m c (ix2 r q)) (SBf m (pY c) (ix2 r q)) := by
  have hdiv : (512 * (c.val / 2) + q.val) / 512 = c.val / 2 := by have := q.isLt; omega
  have hmod : (512 * (c.val / 2) + q.val) % 512 = q.val := by have := q.isLt; omega
  have hj : ((ix2 (⟨r.val, r.isLt⟩ : Fin 4096) (⟨(512 * (c.val / 2) + q.val) % 512, Nat.mod_lt _ (by decide)⟩ : Fin 512)) : S4096x512.Idx) = ix2 r q := by
    funext a
    match a with
    | ⟨0, _⟩ => rfl
    | ⟨1, _⟩ => exact Fin.ext hmod
  have h1 : OUTf m c (ix2 r (⟨512 * (c.val / 2) + q.val, by have hc4 : c.val < 4 := c.isLt; have := q.isLt; omega⟩ : Fin 1024))
      = if (512 * (c.val / 2) + q.val) / 512 = c.val / 2 then ownSum m c (ix2 (⟨r.val, r.isLt⟩ : Fin 4096) (⟨(512 * (c.val / 2) + q.val) % 512, Nat.mod_lt _ (by decide)⟩ : Fin 512)) else ownSum m (pX c) (ix2 (⟨r.val, r.isLt⟩ : Fin 4096) (⟨(512 * (c.val / 2) + q.val) % 512, Nat.mod_lt _ (by decide)⟩ : Fin 512)) := rfl
  rw [h1, if_pos hdiv, hj]
  rfl

/-- and the first-axis partner's result holds there what the device's own does. -/
theorem OUTf_pX (c : Dev nD) (r : Fin 4096) (q : Fin 512) :
    OUTf m (pX c) (ix2 r (⟨512 * (c.val / 2) + q.val, by have hc4 : c.val < 4 := c.isLt; have := q.isLt; omega⟩ : Fin 1024)) = OUTf m c (ix2 r (⟨512 * (c.val / 2) + q.val, by have hc4 : c.val < 4 := c.isLt; have := q.isLt; omega⟩ : Fin 1024)) := by
  have hdiv : (512 * (c.val / 2) + q.val) / 512 = c.val / 2 := by have := q.isLt; omega
  have hne : ¬ ((512 * (c.val / 2) + q.val) / 512 = (pX c).val / 2) := by
    rw [hdiv, pX_half]; have hc4 : c.val < 4 := c.isLt; omega
  have h1 : OUTf m (pX c) (ix2 r (⟨512 * (c.val / 2) + q.val, by have hc4 : c.val < 4 := c.isLt; have := q.isLt; omega⟩ : Fin 1024))
      = if (512 * (c.val / 2) + q.val) / 512 = (pX c).val / 2 then ownSum m (pX c) (ix2 (⟨r.val, r.isLt⟩ : Fin 4096) (⟨(512 * (c.val / 2) + q.val) % 512, Nat.mod_lt _ (by decide)⟩ : Fin 512)) else ownSum m (pX (pX c)) (ix2 (⟨r.val, r.isLt⟩ : Fin 4096) (⟨(512 * (c.val / 2) + q.val) % 512, Nat.mod_lt _ (by decide)⟩ : Fin 512)) := rfl
  have h2 : OUTf m c (ix2 r (⟨512 * (c.val / 2) + q.val, by have hc4 : c.val < 4 := c.isLt; have := q.isLt; omega⟩ : Fin 1024))
      = if (512 * (c.val / 2) + q.val) / 512 = c.val / 2 then ownSum m c (ix2 (⟨r.val, r.isLt⟩ : Fin 4096) (⟨(512 * (c.val / 2) + q.val) % 512, Nat.mod_lt _ (by decide)⟩ : Fin 512)) else ownSum m (pX c) (ix2 (⟨r.val, r.isLt⟩ : Fin 4096) (⟨(512 * (c.val / 2) + q.val) % 512, Nat.mod_lt _ (by decide)⟩ : Fin 512)) := rfl
  rw [h1, h2, if_neg hne, if_pos hdiv, pX_pX]

end Cert.Kernel.RS

end
-- ==== Proof.KVfacts.lean ====
import proofs.«900308_g7700000000000309_dist_rs_v7x_xy2x2_y_m4096_n1024_bf16_1_alg».proof.Proof.KSpec
import Idealize.ShloMosaic.Lib.ValueIdx
import Idealize.ShloMosaic.Lib.ValueLayout
import Idealize.ShloMosaic.Lib.Pipeline.Value
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open ValueIdx

variable {F : FTy → Type} [FloatOps F]

local notation "𝕄" => MT nD τ sig Unit (Elt F) ℕ UU ℕ

variable (m : (ℓ : Loc nD τ sig) → Buf (Elt F) ℓ)

/-! ## The converted chunks are the target contents -/

/-- Chunk `k` of the send buffer after the store of the converted block, when the block read is the argument's rows
    `512 k …` at the sent band's columns. -/
theorem valA (c : Dev nD) (k : Fin 8) (fprev : (cc0_scratch1 : Ref sig .tc).ty.Contents (Elt F)) (V : Vec F S1x512x512 .f32)
    (hV : ∀ p q : Fin 512, V (ix3 (0 : Fin 1) p q) = Xof m c (ix3 (0 : Fin 1) (⟨512 * k.val + p.val, by have := k.isLt; have := p.isLt; omega⟩ : Fin 4096) (⟨colA c + q.val, by have := colA_le c; have := q.isLt; omega⟩ : Fin 2048))) :
    ∀ i ∈ (sbS k).view.set, ((sbM.access (Rect.unit (s := S4096x512) (rowOff k) S512x512.size (rowOff_inb k))).write (Elt F) fprev (k0_pay1 V) Finset.univ) i = SBf m c i := by
  refine agree_of_emb (sbS k).view _ _ fun y => ?_
  obtain ⟨p, q, rfl⟩ : ∃ (p q : Fin 512), y = ix2 p q := ⟨y 0, y 1, eq_ix2 y⟩
  rw [chunk_emb k p q]
  exact (store_chunk_sb k fprev (k0_pay1 V) p q).trans ((conv_apply V p q).trans
    ((congrArg (FloatOps.truncf .bf16 bitsLt_bf16_f32) (hV p q)).trans (SBf_at m c k p q).symm))

/-- The same for the kept band, element by element. -/
theorem valM (c : Dev nD) (k : Fin 8) (fprev : (cc0_scratch2 : Ref sig .tc).ty.Contents (Elt F)) (V : Vec F S1x512x512 .f32)
    (hV : ∀ p q : Fin 512, V (ix3 (0 : Fin 1) p q) = Xof m c (ix3 (0 : Fin 1) (⟨512 * k.val + p.val, by have := k.isLt; have := p.isLt; omega⟩ : Fin 4096) (⟨colM c + q.val, by have := colM_le c; have := q.isLt; omega⟩ : Fin 2048)))
    (p q : Fin 512) :
    ((mbM.access (Rect.unit (s := S4096x512) (rowOff k) S512x512.size (rowOff_inb k))).write (Elt F) fprev (k0_pay1 V) Finset.univ) (ix2 (⟨512 * k.val + p.val, by have := k.isLt; have := p.isLt; omega⟩ : Fin 4096) q) = MBf m c (ix2 (⟨512 * k.val + p.val, by have := k.isLt; have := p.isLt; omega⟩ : Fin 4096) q) :=
  (store_chunk_mb k fprev (k0_pay1 V) p q).trans ((conv_apply V p q).trans
    ((congrArg (FloatOps.truncf .bf16 bitsLt_bf16_f32) (hV p q)).trans (MBf_at m c k p q).symm))

/-! ## What each staged copy reads: the argument's rows `512 k …` at the band's columns -/

/-- A window of the argument block at offsets `(0, r, col)`, read as the copy's source. -/
theorem dma_read (c : Dev nD) (off : Fin 3 → ℕ) (inb : ∀ a, off a + S1x512x512.size a ≤ S1x4096x2048.size a) (r col : ℕ)
    (hoff : off = ![0, r, col]) (p q : Fin 512) (hr : r + p.val < 4096) (hc : col + q.val < 2048) :
    (ReadAs.same : ReadAs (Elt F) S512x512 .f32 S512x512 .f32).apply
        (((xM.slice (Rect.unit (s := S1x4096x2048) off S1x512x512.size inb) (fun _ => rfl)).squeeze S512x512 squeezes_S1x512x512_S512x512).view.read (Elt F) (m ((c : Thread nD τ).loc main_arg0))) (ix2 p q)
      = Xof m c (ix3 (0 : Fin 1) (⟨r + p.val, hr⟩ : Fin 4096) (⟨col + q.val, hc⟩ : Fin 2048)) := by
  subst hoff
  exact xwin_read_at r col inb _ p q hr hc

theorem dmaA_0 (c : Dev nD) (p q : Fin 512) :
    (ReadAs.same : ReadAs (Elt F) S512x512 .f32 S512x512 .f32).apply
        (((xM.slice (Rect.unit (s := S1x4096x2048) (k0_off1 c) S1x512x512.size (k0_off1_inb c)) (fun _ => rfl)).squeeze S512x512 squeezes_S1x512x512_S512x512).view.read (Elt F) (m ((c : Thread nD τ).loc main_arg0))) (ix2 p q)
      = Xof m c (ix3 (0 : Fin 1) (⟨512 * (0 : Fin 8).val + p.val, by have := p.isLt; show 512 * 0 + p.val < 4096; omega⟩ : Fin 4096)
          (⟨colA c + q.val, by have := colA_le c; have := q.isLt; omega⟩ : Fin 2048)) :=
  dma_read m c (k0_off1 c) (k0_off1_inb c) (512 * 0) (colA c) ((k0_off1_eq c).trans rfl) p q
    (by have := p.isLt; omega) (by have := colA_le c; have := q.isLt; omega)

theorem dmaA_1 (c : Dev nD) (p q : Fin 512) :
    (ReadAs.same : ReadAs (Elt F) S512x512 .f32 S512x512 .f32).apply
        (((xM.slice (Rect.unit (s := S1x4096x2048) (k0_off2 c) S1x512x512.size (k0_off2_inb c)) (fun _ => rfl)).squeeze S512x512 squeezes_S1x512x512_S512x512).view.read (Elt F) (m ((c : Thread nD τ).loc main_arg0))) (ix2 p q)
      = Xof m c (ix3 (0 : Fin 1) (⟨512 * (1 : Fin 8).val + p.val, by have := p.isLt; show 512 * 1 + p.val < 4096; omega⟩ : Fin 4096)
          (⟨colA c + q.val, by have := colA_le c; have := q.isLt; omega⟩ : Fin 2048)) :=
  dma_read m c (k0_off2 c) (k0_off2_inb c) (512 * 1) (colA c) ((k0_off2_eq c).trans rfl) p q
    (by have := p.isLt; omega) (by have := colA_le c; have := q.isLt; omega)

theorem dmaA_2 (c : Dev nD) (p q : Fin 512) :
    (ReadAs.same : ReadAs (Elt F) S512x512 .f32 S512x512 .f32).apply
        (((xM.slice (Rect.unit (s := S1x4096x2048) (k0_off5 c) S1x512x512.size (k0_off5_inb c)) (fun _ => rfl)).squeeze S512x512 squeezes_S1x512x512_S512x512).view.read (Elt F) (m ((c : Thread nD τ).loc main_arg0))) (ix2 p q)
      = Xof m c (ix3 (0 : Fin 1) (⟨512 * (2 : Fin 8).val + p.val, by have := p.isLt; show 512 * 2 + p.val < 4096; omega⟩ : Fin 4096)
          (⟨colA c + q.val, by have := colA_le c; have := q.isLt; omega⟩ : Fin 2048)) :=
  dma_read m c (k0_off5 c) (k0_off5_inb c) (512 * 2) (colA c) ((k0_off5_eq c).trans rfl) p q
    (by have := p.isLt; omega) (by have := colA_le c; have := q.isLt; omega)

theorem dmaA_3 (c : Dev nD) (p q : Fin 512) :
    (ReadAs.same : ReadAs (Elt F) S512x512 .f32 S512x512 .f32).apply
        (((xM.slice (Rect.unit (s := S1x4096x2048) (k0_off7 c) S1x512x512.size (k0_off7_inb c)) (fun _ => rfl)).squeeze S512x512 squeezes_S1x512x512_S512x512).view.read (Elt F) (m ((c : Thread nD τ).loc main_arg0))) (ix2 p q)
      = Xof m c (ix3 (0 : Fin 1) (⟨512 * (3 : Fin 8).val + p.val, by have := p.isLt; show 512 * 3 + p.val < 4096; omega⟩ : Fin 4096)
          (⟨colA c + q.val, by have := colA_le c; have := q.isLt; omega⟩ : Fin 2048)) :=
  dma_read m c (k0_off7 c) (k0_off7_inb c) (512 * 3) (colA c) ((k0_off7_eq c).trans rfl) p q
    (by have := p.isLt; omega) (by have := colA_le c; have := q.isLt; omega)

theorem dmaA_4 (c : Dev nD) (p q : Fin 512) :
    (ReadAs.same : ReadAs (Elt F) S512x512 .f32 S512x512 .f32).apply
        (((xM.slice (Rect.unit (s := S1x4096x2048) (k0_off9 c) S1x512x512.size (k0_off9_inb c)) (fun _ => rfl)).squeeze S512x512 squeezes_S1x512x512_S512x512).view.read (Elt F) (m ((c : Thread nD τ).loc main_arg0))) (ix2 p q)
      = Xof m c (ix3 (0 : Fin 1) (⟨512 * (4 : Fin 8).val + p.val, by have := p.isLt; show 512 * 4 + p.val < 4096; omega⟩ : Fin 4096)
          (⟨colA c + q.val, by have := colA_le c; have := q.isLt; omega⟩ : Fin 2048)) :=
  dma_read m c (k0_off9 c) (k0_off9_inb c) (512 * 4) (colA c) ((k0_off9_eq c).trans rfl) p q
    (by have := p.isLt; omega) (by have := colA_le c; have := q.isLt; omega)

theorem dmaA_5 (c : Dev nD) (p q : Fin 512) :
    (ReadAs.same : ReadAs (Elt F) S512x512 .f32 S512x512 .f32).apply
        (((xM.slice (Rect.unit (s := S1x4096x2048) (k0_off11 c) S1x512x512.size (k0_off11_inb c)) (fun _ => rfl)).squeeze S512x512 squeezes_S1x512x512_S512x512).view.read (Elt F) (m ((c : Thread nD τ).loc main_arg0))) (ix2 p q)
      = Xof m c (ix3 (0 : Fin 1) (⟨512 * (5 : Fin 8).val + p.val, by have := p.isLt; show 512 * 5 + p.val < 4096; omega⟩ : Fin 4096)
          (⟨colA c + q.val, by have := colA_le c; have := q.isLt; omega⟩ : Fin 2048)) :=
  dma_read m c (k0_off11 c) (k0_off11_inb c) (512 * 5) (colA c) ((k0_off11_eq c).trans rfl) p q
    (by have := p.isLt; omega) (by have := colA_le c; have := q.isLt; omega)

theorem dmaA_6 (c : Dev nD) (p q : Fin 512) :
    (ReadAs.same : ReadAs (Elt F) S512x512 .f32 S512x512 .f32).apply
        (((xM.slice (Rect.unit (s := S1x4096x2048) (k0_off13 c) S1x512x512.size (k0_off13_inb c)) (fun _ => rfl)).squeeze S512x512 squeezes_S1x512x512_S512x512).view.read (Elt F) (m ((c : Thread nD τ).loc main_arg0))) (ix2 p q)
      = Xof m c (ix3 (0 : Fin 1) (⟨512 * (6 : Fin 8).val + p.val, by have := p.isLt; show 512 * 6 + p.val < 4096; omega⟩ : Fin 4096)
          (⟨colA c + q.val, by have := colA_le c; have := q.isLt; omega⟩ : Fin 2048)) :=
  dma_read m c (k0_off13 c) (k0_off13_inb c) (512 * 6) (colA c) ((k0_off13_eq c).trans rfl) p q
    (by have := p.isLt; omega) (by have := colA_le c; have := q.isLt; omega)

theorem dmaA_7 (c : Dev nD) (p q : Fin 512) :
    (ReadAs.same : ReadAs (Elt F) S512x512 .f32 S512x512 .f32).apply
        (((xM.slice (Rect.unit (s := S1x4096x2048) (k0_off15 c) S1x512x512.size (k0_off15_inb c)) (fun _ => rfl)).squeeze S512x512 squeezes_S1x512x512_S512x512).view.read (Elt F) (m ((c : Thread nD τ).loc main_arg0))) (ix2 p q)
      = Xof m c (ix3 (0 : Fin 1) (⟨512 * (7 : Fin 8).val + p.val, by have := p.isLt; show 512 * 7 + p.val < 4096; omega⟩ : Fin 4096)
          (⟨colA c + q.val, by have := colA_le c; have := q.isLt; omega⟩ : Fin 2048)) :=
  dma_read m c (k0_off15 c) (k0_off15_inb c) (512 * 7) (colA c) ((k0_off15_eq c).trans rfl) p q
    (by have := p.isLt; omega) (by have := colA_le c; have := q.isLt; omega)

theorem dmaM_0 (c : Dev nD) (p q : Fin 512) :
    (ReadAs.same : ReadAs (Elt F) S512x512 .f32 S512x512 .f32).apply
        (((xM.slice (Rect.unit (s := S1x4096x2048) (k0_off3 c) S1x512x512.size (k0_off3_inb c)) (fun _ => rfl)).squeeze S512x512 squeezes_S1x512x512_S512x512).view.read (Elt F) (m ((c : Thread nD τ).loc main_arg0))) (ix2 p q)
      = Xof m c (ix3 (0 : Fin 1) (⟨512 * (0 : Fin 8).val + p.val, by have := p.isLt; show 512 * 0 + p.val < 4096; omega⟩ : Fin 4096)
          (⟨colM c + q.val, by have := colM_le c; have := q.isLt; omega⟩ : Fin 2048)) :=
  dma_read m c (k0_off3 c) (k0_off3_inb c) (512 * 0) (colM c) ((k0_off3_eq c).trans rfl) p q
    (by have := p.isLt; omega) (by have := colM_le c; have := q.isLt; omega)

theorem dmaM_1 (c : Dev nD) (p q : Fin 512) :
    (ReadAs.same : ReadAs (Elt F) S512x512 .f32 S512x512 .f32).apply
        (((xM.slice (Rect.unit (s := S1x4096x2048) (k0_off4 c) S1x512x512.size (k0_off4_inb c)) (fun _ => rfl)).squeeze S512x512 squeezes_S1x512x512_S512x512).view.read (Elt F) (m ((c : Thread nD τ).loc main_arg0))) (ix2 p q)
      = Xof m c (ix3 (0 : Fin 1) (⟨512 * (1 : Fin 8).val + p.val, by have := p.isLt; show 512 * 1 + p.val < 4096; omega⟩ : Fin 4096)
          (⟨colM c + q.val, by have := colM_le c; have := q.isLt; omega⟩ : Fin 2048)) :=
  dma_read m c (k0_off4 c) (k0_off4_inb c) (512 * 1) (colM c) ((k0_off4_eq c).trans rfl) p q
    (by have := p.isLt; omega) (by have := colM_le c; have := q.isLt; omega)

theorem dmaM_2 (c : Dev nD) (p q : Fin 512) :
    (ReadAs.same : ReadAs (Elt F) S512x512 .f32 S512x512 .f32).apply
        (((xM.slice (Rect.unit (s := S1x4096x2048) (k0_off6 c) S1x512x512.size (k0_off6_inb c)) (fun _ => rfl)).squeeze S512x512 squeezes_S1x512x512_S512x512).view.read (Elt F) (m ((c : Thread nD τ).loc main_arg0))) (ix2 p q)
      = Xof m c (ix3 (0 : Fin 1) (⟨512 * (2 : Fin 8).val + p.val, by have := p.isLt; show 512 * 2 + p.val < 4096; omega⟩ : Fin 4096)
          (⟨colM c + q.val, by have := colM_le c; have := q.isLt; omega⟩ : Fin 2048)) :=
  dma_read m c (k0_off6 c) (k0_off6_inb c) (512 * 2) (colM c) ((k0_off6_eq c).trans rfl) p q
    (by have := p.isLt; omega) (by have := colM_le c; have := q.isLt; omega)

theorem dmaM_3 (c : Dev nD) (p q : Fin 512) :
    (ReadAs.same : ReadAs (Elt F) S512x512 .f32 S512x512 .f32).apply
        (((xM.slice (Rect.unit (s := S1x4096x2048) (k0_off8 c) S1x512x512.size (k0_off8_inb c)) (fun _ => rfl)).squeeze S512x512 squeezes_S1x512x512_S512x512).view.read (Elt F) (m ((c : Thread nD τ).loc main_arg0))) (ix2 p q)
      = Xof m c (ix3 (0 : Fin 1) (⟨512 * (3 : Fin 8).val + p.val, by have := p.isLt; show 512 * 3 + p.val < 4096; omega⟩ : Fin 4096)
          (⟨colM c + q.val, by have := colM_le c; have := q.isLt; omega⟩ : Fin 2048)) :=
  dma_read m c (k0_off8 c) (k0_off8_inb c) (512 * 3) (colM c) ((k0_off8_eq c).trans rfl) p q
    (by have := p.isLt; omega) (by have := colM_le c; have := q.isLt; omega)

theorem dmaM_4 (c : Dev nD) (p q : Fin 512) :
    (ReadAs.same : ReadAs (Elt F) S512x512 .f32 S512x512 .f32).apply
        (((xM.slice (Rect.unit (s := S1x4096x2048) (k0_off10 c) S1x512x512.size (k0_off10_inb c)) (fun _ => rfl)).squeeze S512x512 squeezes_S1x512x512_S512x512).view.read (Elt F) (m ((c : Thread nD τ).loc main_arg0))) (ix2 p q)
      = Xof m c (ix3 (0 : Fin 1) (⟨512 * (4 : Fin 8).val + p.val, by have := p.isLt; show 512 * 4 + p.val < 4096; omega⟩ : Fin 4096)
          (⟨colM c + q.val, by have := colM_le c; have := q.isLt; omega⟩ : Fin 2048)) :=
  dma_read m c (k0_off10 c) (k0_off10_inb c) (512 * 4) (colM c) ((k0_off10_eq c).trans rfl) p q
    (by have := p.isLt; omega) (by have := colM_le c; have := q.isLt; omega)

theorem dmaM_5 (c : Dev nD) (p q : Fin 512) :
    (ReadAs.same : ReadAs (Elt F) S512x512 .f32 S512x512 .f32).apply
        (((xM.slice (Rect.unit (s := S1x4096x2048) (k0_off12 c) S1x512x512.size (k0_off12_inb c)) (fun _ => rfl)).squeeze S512x512 squeezes_S1x512x512_S512x512).view.read (Elt F) (m ((c : Thread nD τ).loc main_arg0))) (ix2 p q)
      = Xof m c (ix3 (0 : Fin 1) (⟨512 * (5 : Fin 8).val + p.val, by have := p.isLt; show 512 * 5 + p.val < 4096; omega⟩ : Fin 4096)
          (⟨colM c + q.val, by have := colM_le c; have := q.isLt; omega⟩ : Fin 2048)) :=
  dma_read m c (k0_off12 c) (k0_off12_inb c) (512 * 5) (colM c) ((k0_off12_eq c).trans rfl) p q
    (by have := p.isLt; omega) (by have := colM_le c; have := q.isLt; omega)

theorem dmaM_6 (c : Dev nD) (p q : Fin 512) :
    (ReadAs.same : ReadAs (Elt F) S512x512 .f32 S512x512 .f32).apply
        (((xM.slice (Rect.unit (s := S1x4096x2048) (k0_off14 c) S1x512x512.size (k0_off14_inb c)) (fun _ => rfl)).squeeze S512x512 squeezes_S1x512x512_S512x512).view.read (Elt F) (m ((c : Thread nD τ).loc main_arg0))) (ix2 p q)
      = Xof m c (ix3 (0 : Fin 1) (⟨512 * (6 : Fin 8).val + p.val, by have := p.isLt; show 512 * 6 + p.val < 4096; omega⟩ : Fin 4096)
          (⟨colM c + q.val, by have := colM_le c; have := q.isLt; omega⟩ : Fin 2048)) :=
  dma_read m c (k0_off14 c) (k0_off14_inb c) (512 * 6) (colM c) ((k0_off14_eq c).trans rfl) p q
    (by have := p.isLt; omega) (by have := colM_le c; have := q.isLt; omega)

theorem dmaM_7 (c : Dev nD) (p q : Fin 512) :
    (ReadAs.same : ReadAs (Elt F) S512x512 .f32 S512x512 .f32).apply
        (((xM.slice (Rect.unit (s := S1x4096x2048) (k0_off16 c) S1x512x512.size (k0_off16_inb c)) (fun _ => rfl)).squeeze S512x512 squeezes_S1x512x512_S512x512).view.read (Elt F) (m ((c : Thread nD τ).loc main_arg0))) (ix2 p q)
      = Xof m c (ix3 (0 : Fin 1) (⟨512 * (7 : Fin 8).val + p.val, by have := p.isLt; show 512 * 7 + p.val < 4096; omega⟩ : Fin 4096)
          (⟨colM c + q.val, by have := colM_le c; have := q.isLt; omega⟩ : Fin 2048)) :=
  dma_read m c (k0_off16 c) (k0_off16_inb c) (512 * 7) (colM c) ((k0_off16_eq c).trans rfl) p q
    (by have := p.isLt; omega) (by have := colM_le c; have := q.isLt; omega)

/-! ## A staged block survives one write through the other slot's window -/

theorem stage_sh_ss0 (f : (cc0_scratch3 : Ref sig .tc).ty.Contents (Elt F)) (w w' : S512x512.Idx → Elt F .f32) (p q : Fin 512) :
    ssM.view.readAt (Elt F) (Rect.unit (s := S2x512x512) ![0, 0, 0] S1x512x512.size inb_S2x512x512_S1x512x512_0_0_0).toLoadRect
        (((ssM.slice (Rect.unit (s := S2x512x512) ![1, 0, 0] S1x512x512.size inb_S2x512x512_S1x512x512_1_0_0) (fun _ => rfl)).squeeze S512x512 squeezes_S1x512x512_S512x512).view.write (Elt F) (((ssM.slice (Rect.unit (s := S2x512x512) ![0, 0, 0] S1x512x512.size inb_S2x512x512_S1x512x512_0_0_0) (fun _ => rfl)).squeeze S512x512 squeezes_S1x512x512_S512x512).view.write (Elt F) f w Finset.univ) w' Finset.univ) (ix3 (0 : Fin 1) p q)
      = w (ix2 p q) :=
  (stage_skip_ss0 _ w' p q).trans (stage_hit_ss0 f w p q)

theorem stage_sh_ss1 (f : (cc0_scratch3 : Ref sig .tc).ty.Contents (Elt F)) (w w' : S512x512.Idx → Elt F .f32) (p q : Fin 512) :
    ssM.view.readAt (Elt F) (Rect.unit (s := S2x512x512) ![1, 0, 0] S1x512x512.size inb_S2x512x512_S1x512x512_1_0_0).toLoadRect
        (((ssM.slice (Rect.unit (s := S2x512x512) ![0, 0, 0] S1x512x512.size inb_S2x512x512_S1x512x512_0_0_0) (fun _ => rfl)).squeeze S512x512 squeezes_S1x512x512_S512x512).view.write (Elt F) (((ssM.slice (Rect.unit (s := S2x512x512) ![1, 0, 0] S1x512x512.size inb_S2x512x512_S1x512x512_1_0_0) (fun _ => rfl)).squeeze S512x512 squeezes_S1x512x512_S512x512).view.write (Elt F) f w Finset.univ) w' Finset.univ) (ix3 (0 : Fin 1) p q)
      = w (ix2 p q) :=
  (stage_skip_ss1 _ w' p q).trans (stage_hit_ss1 f w p q)

theorem stage_sh_sm0 (f : (cc0_scratch4 : Ref sig .tc).ty.Contents (Elt F)) (w w' : S512x512.Idx → Elt F .f32) (p q : Fin 512) :
    smM.view.readAt (Elt F) (Rect.unit (s := S2x512x512) ![0, 0, 0] S1x512x512.size inb_S2x512x512_S1x512x512_0_0_0).toLoadRect
        (((smM.slice (Rect.unit (s := S2x512x512) ![1, 0, 0] S1x512x512.size inb_S2x512x512_S1x512x512_1_0_0) (fun _ => rfl)).squeeze S512x512 squeezes_S1x512x512_S512x512).view.write (Elt F) (((smM.slice (Rect.unit (s := S2x512x512) ![0, 0, 0] S1x512x512.size inb_S2x512x512_S1x512x512_0_0_0) (fun _ => rfl)).squeeze S512x512 squeezes_S1x512x512_S512x512).view.write (Elt F) f w Finset.univ) w' Finset.univ) (ix3 (0 : Fin 1) p q)
      = w (ix2 p q) :=
  (stage_skip_sm0 _ w' p q).trans (stage_hit_sm0 f w p q)

theorem stage_sh_sm1 (f : (cc0_scratch4 : Ref sig .tc).ty.Contents (Elt F)) (w w' : S512x512.Idx → Elt F .f32) (p q : Fin 512) :
    smM.view.readAt (Elt F) (Rect.unit (s := S2x512x512) ![1, 0, 0] S1x512x512.size inb_S2x512x512_S1x512x512_1_0_0).toLoadRect
        (((smM.slice (Rect.unit (s := S2x512x512) ![0, 0, 0] S1x512x512.size inb_S2x512x512_S1x512x512_0_0_0) (fun _ => rfl)).squeeze S512x512 squeezes_S1x512x512_S512x512).view.write (Elt F) (((smM.slice (Rect.unit (s := S2x512x512) ![1, 0, 0] S1x512x512.size inb_S2x512x512_S1x512x512_1_0_0) (fun _ => rfl)).squeeze S512x512 squeezes_S1x512x512_S512x512).view.write (Elt F) f w Finset.univ) w' Finset.univ) (ix3 (0 : Fin 1) p q)
      = w (ix2 p q) :=
  (stage_skip_sm1 _ w' p q).trans (stage_hit_sm1 f w p q)

end Cert.Kernel.RS

end
-- ==== Proof.KVsum.lean ====
import proofs.«900308_g7700000000000309_dist_rs_v7x_xy2x2_y_m4096_n1024_bf16_1_alg».proof.Proof.KSpec
import proofs.«900308_g7700000000000309_dist_rs_v7x_xy2x2_y_m4096_n1024_bf16_1_alg».proof.Proof.KChunks
import proofs.«900308_g7700000000000309_dist_rs_v7x_xy2x2_y_m4096_n1024_bf16_1_alg».proof.Proof.KVfacts
import Idealize.ShloMosaic.Lib.ValueIdx
import Idealize.ShloMosaic.Lib.ValueLayout
import Idealize.ShloMosaic.Lib.Pipeline.Value
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open ValueIdx

variable {F : FTy → Type} [FloatOps F]

local notation "𝕄" => MT nD τ sig Unit (Elt F) ℕ UU ℕ

variable (m : (ℓ : Loc nD τ sig) → Buf (Elt F) ℓ)

/-! # The second stage's sums

For chunk `k` the second stage adds, element by element, the chunk of the band the device kept and the chunk that landed from
its second-axis partner, and stores the sum onto chunk `k` of the result staging buffer in the device's own columns; the
stored chunk is then copied onto the same chunk of the first-axis partner's buffer. This file says what those chunks hold. -/

/-! ## The rectangle the store names -/

/-- The offsets of the eight stores: rows of the chunk, the 512 columns from `512 (d / 2)`. -/
def outOffS (d : Dev nD) : Fin 8 → (Fin 2 → Nat)
  | 0 => k0_off17 d | 1 => k0_off19 d | 2 => k0_off21 d | 3 => k0_off23 d
  | 4 => k0_off25 d | 5 => k0_off27 d | 6 => k0_off29 d | 7 => k0_off31 d
/-- They are the offsets of the transfers of the same chunks. -/
theorem outOffS_eq (d : Dev nD) (k : Fin 8) : outOffS d k = outOff d k := by
  revert d k; decide +kernel
theorem outOffS_inb (d : Dev nD) (k : Fin 8) : ∀ a, outOffS d k a + S512x512.size a ≤ S4096x1024.size a := by
  revert d k; decide +kernel

/-! ## What the stored chunk holds -/

/-- After the sum of `a` and `b` is stored through the rectangle of chunk `k` in device `c`'s columns, with `a` the chunk of
    the kept band and `b` the chunk landed from the second-axis partner, the result staging buffer holds on that chunk what
    the device's result holds there: element `(p, q)` of the chunk sits at `(512 k + p, 512 (c / 2) + q)`, where the result
    is the kept band plus the landed one. -/
theorem valB (c : Dev nD) (k : Fin 8) (fprev : (cc0_stg0_0 : Ref sig .tc).ty.Contents (Elt F)) (a b : Vec F S512x512 .bf16)
    (ha : ∀ p q : Fin 512, a (ix2 p q) = MBf m c (ix2 (⟨512 * k.val + p.val, by have := k.isLt; have := p.isLt; omega⟩ : Fin 4096) q))
    (hb : ∀ p q : Fin 512, b (ix2 p q) = SBf m (pY c) (ix2 (⟨512 * k.val + p.val, by have := k.isLt; have := p.isLt; omega⟩ : Fin 4096) q)) :
    ∀ i ∈ (oS c k).view.set,
      ((oM.access (Rect.unit (s := S4096x1024) (outOffS c k) S512x512.size (outOffS_inb c k))).write (Elt F) fprev
        (k0_pay18 a b) Finset.univ) i = OUTf m c i := by
  -- the same for any offsets equal to the chunk's
  have key : ∀ (off : Fin 2 → Nat) (inb : ∀ x, off x + S512x512.size x ≤ S4096x1024.size x), off = outOff c k →
      ∀ i ∈ (oS c k).view.set,
        ((oM.access (Rect.unit (s := S4096x1024) off S512x512.size inb)).write (Elt F) fprev (k0_pay18 a b) Finset.univ) i
          = OUTf m c i := by
    intro off inb he
    subst he
    refine agree_of_emb (oS c k).view _ (OUTf m c) (fun y => ?_)
    obtain ⟨p, q, rfl⟩ : ∃ (p q : Fin 512), y = ix2 p q := ⟨y 0, y 1, eq_ix2 y⟩
    rw [out_emb c k p q]
    refine (store_out c k fprev (k0_pay18 a b) p q).trans ?_
    rw [sum_apply, ha p q, hb p q]
    exact (OUTf_own m c _ q).symm
  exact key _ _ (outOffS_eq c k)

/-- After that chunk, holding the device's result, is copied onto the same chunk of the first-axis partner's buffer, the
    partner's buffer holds there what the partner's result holds: in the device's columns the two results are the same. -/
theorem landB_pX (c : Dev nD) (k : Fin 8) (fs fd : (cc0_stg0_0 : Ref sig .tc).ty.Contents (Elt F))
    (h : ∀ i ∈ (oS c k).view.set, fs i = OUTf m c i) :
    ∀ i ∈ (oS c k).view.set,
      ((oS c k).view.write (Elt F) fd ((oS c k).view.read (Elt F) fs) Finset.univ) i = OUTf m (pX c) i := by
  have hG : ∀ i ∈ (oS c k).view.set, OUTf m c i = OUTf m (pX c) i := by
    refine agree_of_emb (oS c k).view (OUTf m c) (OUTf m (pX c)) (fun y => ?_)
    obtain ⟨p, q, rfl⟩ : ∃ (p q : Fin 512), y = ix2 p q := ⟨y 0, y 1, eq_ix2 y⟩
    rw [out_emb c k p q]
    exact (OUTf_pX m c _ q).symm
  intro i hi
  exact (landB c k fs fd (OUTf m c) h i hi).trans (hG i hi)

/-- The load of chunk `k` of the landing buffer, holding what the second-axis partner sent, reads at `(p, q)` the partner's
    sent band at `(512 k + p, q)`. -/
theorem loadAR (c : Dev nD) (k : Fin 8) (p q : Fin 512) :
    arM.view.readAt (Elt F) (Rect.unit (s := S4096x512) (rowOff k) S512x512.size (rowOff_inb k)).toLoadRect (SBf m (pY c)) (ix2 p q)
      = SBf m (pY c) (ix2 (⟨512 * k.val + p.val, by have := k.isLt; have := p.isLt; omega⟩ : Fin 4096) q) :=
  load_chunk_ar (SBf m (pY c)) k p q

/-! ## The kept band's buffer in chunks -/

/-- Chunk `k` of the buffer of the kept band: rows `512 k … 512 k + 511`, every column. -/
abbrev mbS (k : Fin 8) : Memref sig .tc .vmem S512x512 .bf16 :=
  mbM.slice (Rect.unit (s := S4096x512) (rowOff k) S512x512.size (rowOff_inb k)) (fun _ => rfl)

/-- Chunk `k` of the kept band's buffer holds the indices whose row lies in `[512 k, 512 k + 512)`. -/
theorem mem_mbS {k : Fin 8} {i : S4096x512.Idx} :
    i ∈ (mbS k).view.set ↔ 512 * k.val ≤ (i 0).val ∧ (i 0).val < 512 * k.val + 512 := by
  have hs : (mbS k).view.set = (Rect.unit (s := S4096x512) (rowOff k) S512x512.size (rowOff_inb k)).set :=
    View.set_slice_whole cc0_scratch2 _
  have hm : i ∈ (mbS k).view.set
      ↔ (rowOff k 0 ≤ (i 0).val ∧ (i 0).val < rowOff k 0 + S512x512.size 0)
        ∧ (rowOff k 1 ≤ (i 1).val ∧ (i 1).val < rowOff k 1 + S512x512.size 1) := by
    rw [hs]; exact mem_unit_two
  have e00 : rowOff k 0 = 512 * k.val := rfl
  have e01 : rowOff k 1 = 0 := rfl
  have s0 : S512x512.size 0 = 512 := rfl
  have s1 : S512x512.size 1 = 512 := rfl
  have h1 : ((i 1 : Fin (S4096x512.size 1)) : ℕ) < 512 := (i 1).isLt
  rw [hm]
  omega

/-- A whole buffer of the kept band is its eight row chunks. -/
theorem mb_split (d : Dev nD) (f : Buf (Elt F) ((d : Thread nD τ).loc cc0_scratch2)) :
    ((((d : Thread nD τ).loc cc0_scratch2) ↦{fullShare} f) : sProp 𝕄) ⊣⊢ iprop(
      ((mbS 0).view.loc (d : Thread nD τ) ↦[(mbS 0).view.set]{fullShare} f)
      ∗ ((mbS 1).view.loc (d : Thread nD τ) ↦[(mbS 1).view.set]{fullShare} f)
      ∗ ((mbS 2).view.loc (d : Thread nD τ) ↦[(mbS 2).view.set]{fullShare} f)
      ∗ ((mbS 3).view.loc (d : Thread nD τ) ↦[(mbS 3).view.set]{fullShare} f)
      ∗ ((mbS 4).view.loc (d : Thread nD τ) ↦[(mbS 4).view.set]{fullShare} f)
      ∗ ((mbS 5).view.loc (d : Thread nD τ) ↦[(mbS 5).view.set]{fullShare} f)
      ∗ ((mbS 6).view.loc (d : Thread nD τ) ↦[(mbS 6).view.set]{fullShare} f)
      ∗ ((mbS 7).view.loc (d : Thread nD τ) ↦[(mbS 7).view.set]{fullShare} f)) :=
  BiEntails.of_eq (pts_eight (ℓ := (d : Thread nD τ).loc cc0_scratch2) (fun k => (mbS k).view.set) Finset.univ fullShare f
    (rowChunks_cover (fun k => (mbS k).view.set) (fun k i => mem_mbS))
    (rowChunks_disjoint (fun k => (mbS k).view.set) (fun k i => mem_mbS)))

/-- After the converted block `V`, holding the device's argument at rows `512 k …` and the kept band's columns, is stored
    through chunk `k` of the kept band's buffer, the buffer holds on that chunk what the kept band holds there. -/
theorem valMset (c : Dev nD) (k : Fin 8) (fprev : (cc0_scratch2 : Ref sig .tc).ty.Contents (Elt F)) (V : Vec F S1x512x512 .f32)
    (hV : ∀ p q : Fin 512, V (ix3 (0 : Fin 1) p q) = Xof m c (ix3 (0 : Fin 1) (⟨512 * k.val + p.val, by have := k.isLt; have := p.isLt; omega⟩ : Fin 4096) (⟨colM c + q.val, by have := colM_le c; have := q.isLt; omega⟩ : Fin 2048))) :
    ∀ i ∈ (mbS k).view.set,
      ((mbM.access (Rect.unit (s := S4096x512) (rowOff k) S512x512.size (rowOff_inb k))).write (Elt F) fprev (k0_pay1 V) Finset.univ) i
        = MBf m c i := by
  refine agree_of_emb (mbS k).view _ (MBf m c) (fun y => ?_)
  obtain ⟨p, q, rfl⟩ : ∃ (p q : Fin 512), y = ix2 p q := ⟨y 0, y 1, eq_ix2 y⟩
  have he : ((mbS k).view.emb (ix2 p q) : S4096x512.Idx) = ix2 (⟨512 * k.val + p.val, by have := k.isLt; have := p.isLt; omega⟩ : Fin 4096) q := rowEmb_mb k p q
  rw [he]
  exact valM m c k fprev V hV p q

end Cert.Kernel.RS

end
-- ==== Proof.KSends.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KCtx
import proofs.«900308_g7700000000000309_dist_rs_v7x_xy2x2_y_m4096_n1024_bf16_1_alg».proof.Proof.KChunks
import proofs.«900308_g7700000000000309_dist_rs_v7x_xy2x2_y_m4096_n1024_bf16_1_alg».proof.Proof.KVsum
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two kinds of transfer, as rules at the exchange's cells

A first-stage transfer moves chunk `k` of the device's send buffer onto chunk `k` of its second-axis partner's landing buffer;
a second-stage transfer moves chunk `k` of the device's own half of its result buffer onto the same chunk of its first-axis
partner's result buffer. Each is `Rounds.wp_send_pointsTo` at the two cells it pays, given that what lands is what the
schedule promises the receiver. -/

/-- The first stage's transfer of chunk `k`, addressed to `n = pY c`: the source chunk at contents that agree on it with what
    the send buffer ends with, the partner's landing chunk at any contents. -/
theorem wp_sendA (K : GSem nD τ sig → ℕ) (c n : Dev nD) (hn : n = pY c) (k : Fin 8)
    {hsc : (arS k : Memref sig (Dev.tc n : Thread nD τ).2.kind .vmem S512x512 .bf16).view.ref.isScScratch = false}
    {hsrc : (sbS k : Memref sig .tc .vmem S512x512 .bf16).view.WordExact} {hdst : (arS k : Memref sig .tc .vmem S512x512 .bf16).view.WordExact}
    {hsem : DmaTarget.Typed .vmem (.dma (aRs k)) (.remote (Dev.tc n : Thread nD τ) (arS k : Memref sig .tc .vmem S512x512 .bf16) (.dma (aSs k)) hsc)}
    {α : Type} {Q : α → sProp 𝕄} {kk : PUnit → Prog (TpuEff nD τ sig (Elt F) Λ₀ .tc) α}
    (O : CellTallies nD τ sig Unit) (W : Waits sig Unit) :
    iprop(cellInv ER (Rd (SBf m) (OUTf m)) (K (aSCell c k)) (aSCell c k) ∗ cellInv ER (Rd (SBf m) (OUTf m)) (K (aRCell (pY c) k)) (aRCell (pY c) k)
        ∗ (∃ fs : Buf (Elt F) ((sbS k).view.loc (c : Thread nD τ)), ⌜∀ i ∈ (sbS k).view.set, fs i = SBf m c i⌝
            ∗ ((sbS k).view.loc (c : Thread nD τ) ↦[(sbS k).view.set]{fullShare} fs))
        ∗ (∃ fd : Buf (Elt F) ((arS k).view.loc (pY c : Thread nD τ)), ((arS k).view.loc (pY c : Thread nD τ) ↦[(arS k).view.set]{fullShare} fd))
        ∗ owes (c : Thread nD τ) (O + tallyAt (aRCell (pY c) k) () N) W
        ∗ dutyTok ER (aSCell c k) 0 false ∗ reached ER (aSCell c k) 0
        ∗ dutyTok ER (aRCell (pY c) k) 0 false ∗ reached ER (aRCell (pY c) k) 0)
      ⊢ iprop(((cred (tallyAt (aSCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sbS k) (.remote (Dev.tc n : Thread nD τ) (arS k) (.dma (aSs k)) hsc) (.dma (aRs k)) hsrc hdst hsem) kk) Q) := by
  subst hn
  iintro ⟨#HI1, #HI2, ⟨%fs, %hfs, Hs⟩, ⟨%fd, Hd⟩, HO, T1, #R1, T2, #R2⟩
  iapply (Rounds.wp_send_pointsTo 𝒱₀ ER (Rd (SBf m) (OUTf m)) (c : Thread nD τ) none (κ₁ := K (aSCell c k)) (κ₂ := K (aRCell (pY c) k))
    (r₁ := 0) (r₂ := 0) (d₁ := false) (d₂ := false) (fd := fd)
    (by rw [duties_aS]; exact Finset.mem_singleton_self _) (by rw [duties_aR]; exact Finset.mem_singleton_self _)
    () () N rfl (amount_aS (SBf m) (OUTf m) c k false) (amount_aR (SBf m) (OUTf m) (pY c) k false) O rfl (W := W)
    (by rw [payload_aS]; unfold aSPay; exact Entails.of_eq (pointsTo_congr hfs))
    (by rw [payload_aR]; unfold aRPay; rw [pY_pY]; exact Entails.of_eq (pointsTo_congr (landA k fs fd (SBf m c) hfs)))) $$ [Hs Hd HO T1 T2]
  isplitr; · iexact HI1
  isplitr; · iexact HI2
  isplitl [Hs]; · iexact Hs
  isplitl [Hd]; · iexact Hd
  isplitl [HO]; · iexact HO
  isplitl [T1]; · iexact T1
  isplitr; · iexact R1
  isplitl [T2]; · iexact T2
  iexact R2

/-- The second stage's transfer of chunk `k`, addressed to `n = pX c`: the source chunk at contents that agree on it with the
    result buffer's final contents, the partner's chunk at any contents. -/
theorem wp_sendB (K : GSem nD τ sig → ℕ) (c n : Dev nD) (hn : n = pX c) (k : Fin 8)
    {hsc : (oS c k : Memref sig (Dev.tc n : Thread nD τ).2.kind .vmem S512x512 .bf16).view.ref.isScScratch = false}
    {hsrc : (oS c k : Memref sig .tc .vmem S512x512 .bf16).view.WordExact} {hdst : (oS c k : Memref sig .tc .vmem S512x512 .bf16).view.WordExact}
    {hsem : DmaTarget.Typed .vmem (.dma (bRs k)) (.remote (Dev.tc n : Thread nD τ) (oS c k : Memref sig .tc .vmem S512x512 .bf16) (.dma (bSs k)) hsc)}
    {α : Type} {Q : α → sProp 𝕄} {kk : PUnit → Prog (TpuEff nD τ sig (Elt F) Λ₀ .tc) α}
    (O : CellTallies nD τ sig Unit) (W : Waits sig Unit) :
    iprop(cellInv ER (Rd (SBf m) (OUTf m)) (K (bSCell c k)) (bSCell c k) ∗ cellInv ER (Rd (SBf m) (OUTf m)) (K (bRCell (pX c) k)) (bRCell (pX c) k)
        ∗ (∃ fs : Buf (Elt F) ((oS c k).view.loc (c : Thread nD τ)), ⌜∀ i ∈ (oS c k).view.set, fs i = OUTf m c i⌝
            ∗ ((oS c k).view.loc (c : Thread nD τ) ↦[(oS c k).view.set]{fullShare} fs))
        ∗ (∃ fd : Buf (Elt F) ((oS c k).view.loc (pX c : Thread nD τ)), ((oS c k).view.loc (pX c : Thread nD τ) ↦[(oS c k).view.set]{fullShare} fd))
        ∗ owes (c : Thread nD τ) (O + tallyAt (bRCell (pX c) k) () N) W
        ∗ dutyTok ER (bSCell c k) 0 false ∗ reached ER (bSCell c k) 0
        ∗ dutyTok ER (bRCell (pX c) k) 0 false ∗ reached ER (bRCell (pX c) k) 0)
      ⊢ iprop(((cred (tallyAt (bSCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (oS c k) (.remote (Dev.tc n : Thread nD τ) (oS c k) (.dma (bSs k)) hsc) (.dma (bRs k)) hsrc hdst hsem) kk) Q) := by
  subst hn
  iintro ⟨#HI1, #HI2, ⟨%fs, %hfs, Hs⟩, ⟨%fd, Hd⟩, HO, T1, #R1, T2, #R2⟩
  iapply (Rounds.wp_send_pointsTo 𝒱₀ ER (Rd (SBf m) (OUTf m)) (c : Thread nD τ) none (κ₁ := K (bSCell c k)) (κ₂ := K (bRCell (pX c) k))
    (r₁ := 0) (r₂ := 0) (d₁ := false) (d₂ := false) (fd := fd)
    (by rw [duties_bS]; exact Finset.mem_singleton_self _) (by rw [duties_bR]; exact Finset.mem_singleton_self _)
    () () N rfl (amount_bS (SBf m) (OUTf m) c k false) (amount_bR (SBf m) (OUTf m) (pX c) k false) O rfl (W := W)
    (by rw [payload_bS]; unfold bSPay; exact Entails.of_eq (pointsTo_congr hfs))
    (by rw [payload_bR]; unfold bRPay; rw [pX_pX]; exact Entails.of_eq (pointsTo_congr (landB_pX m c k fs fd hfs)))) $$ [Hs Hd HO T1 T2]
  isplitr; · iexact HI1
  isplitr; · iexact HI2
  isplitl [Hs]; · iexact Hs
  isplitl [Hd]; · iexact Hd
  isplitl [HO]; · iexact HO
  isplitl [T1]; · iexact T1
  isplitr; · iexact R1
  isplitl [T2]; · iexact T2
  iexact R2

/-! ## The two barrier signals -/

/-- The signal to the second-axis partner's barrier: the device hands over its landing buffer, chunk by chunk. -/
theorem wp_signalY (K : GSem nD τ sig → ℕ) (c n : Dev nD) (hn : n = pY c)
    {α : Type} {Q : α → sProp 𝕄} {kk : PUnit → Prog (TpuEff nD τ sig (Elt F) Λ₀ .tc) α}
    (O : CellTallies nD τ sig Unit) (W : Waits sig Unit) (far : Buf (Elt F) ((c : Thread nD τ).loc cc0_scratch0)) :
    iprop(cellInv ER (Rd (SBf m) (OUTf m)) (K (barCell (pY c))) (barCell (pY c))
        ∗ owes (c : Thread nD τ) (O + tallyAt (barCell (pY c)) () 1) W
        ∗ dutyTok ER (barCell (pY c)) 0 false ∗ reached ER (barCell (pY c)) 0
        ∗ ((arS 0).view.loc (c : Thread nD τ) ↦[(arS 0).view.set]{fullShare} far)
        ∗ ((arS 1).view.loc (c : Thread nD τ) ↦[(arS 1).view.set]{fullShare} far)
        ∗ ((arS 2).view.loc (c : Thread nD τ) ↦[(arS 2).view.set]{fullShare} far)
        ∗ ((arS 3).view.loc (c : Thread nD τ) ↦[(arS 3).view.set]{fullShare} far)
        ∗ ((arS 4).view.loc (c : Thread nD τ) ↦[(arS 4).view.set]{fullShare} far)
        ∗ ((arS 5).view.loc (c : Thread nD τ) ↦[(arS 5).view.set]{fullShare} far)
        ∗ ((arS 6).view.loc (c : Thread nD τ) ↦[(arS 6).view.set]{fullShare} far)
        ∗ ((arS 7).view.loc (c : Thread nD τ) ↦[(arS 7).view.set]{fullShare} far))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toNat) kk) Q) := by
  subst hn
  iintro ⟨#HI, HO, Htok, #HR, H0, H1, H2, H3, H4, H5, H6, H7⟩
  iapply (Rounds.wp_signal 𝒱₀ ER (Rd (SBf m) (OUTf m)) (c : Thread nD τ) none (dst := (pY c : Thread nD τ)) (κ := K (barCell (pY c)))
      (d := false) (by rw [duties_bar]; decide) ((amount_bar (SBf m) (OUTf m) (pY c) false).trans (by decide)) () O rfl)
    $$ [HO Htok H0 H1 H2 H3 H4 H5 H6 H7]
  isplitr; · iexact HI
  isplitl [HO]; · iexact HO
  isplitl [Htok]; · iexact Htok
  isplitr [HR]
  · rw [payload_barY_to]
    isplitl [H0]; · iexists far; iexact H0
    isplitl [H1]; · iexists far; iexact H1
    isplitl [H2]; · iexists far; iexact H2
    isplitl [H3]; · iexists far; iexact H3
    isplitl [H4]; · iexists far; iexact H4
    isplitl [H5]; · iexists far; iexact H5
    isplitl [H6]; · iexists far; iexact H6
    iexists far; iexact H7
  · iexact HR

/-- The signal to the first-axis partner's barrier: the device hands over the half of its result buffer that partner fills. -/
theorem wp_signalX (K : GSem nD τ sig → ℕ) (c n : Dev nD) (hn : n = pX c)
    {α : Type} {Q : α → sProp 𝕄} {kk : PUnit → Prog (TpuEff nD τ sig (Elt F) Λ₀ .tc) α}
    (O : CellTallies nD τ sig Unit) (W : Waits sig Unit) (fo : Buf (Elt F) ((c : Thread nD τ).loc cc0_stg0_0)) :
    iprop(cellInv ER (Rd (SBf m) (OUTf m)) (K (barCell (pX c))) (barCell (pX c))
        ∗ owes (c : Thread nD τ) (O + tallyAt (barCell (pX c)) () 1) W
        ∗ dutyTok ER (barCell (pX c)) 0 true ∗ reached ER (barCell (pX c)) 0
        ∗ ((oS (pX c) 0).view.loc (c : Thread nD τ) ↦[(oS (pX c) 0).view.set]{fullShare} fo)
        ∗ ((oS (pX c) 1).view.loc (c : Thread nD τ) ↦[(oS (pX c) 1).view.set]{fullShare} fo)
        ∗ ((oS (pX c) 2).view.loc (c : Thread nD τ) ↦[(oS (pX c) 2).view.set]{fullShare} fo)
        ∗ ((oS (pX c) 3).view.loc (c : Thread nD τ) ↦[(oS (pX c) 3).view.set]{fullShare} fo)
        ∗ ((oS (pX c) 4).view.loc (c : Thread nD τ) ↦[(oS (pX c) 4).view.set]{fullShare} fo)
        ∗ ((oS (pX c) 5).view.loc (c : Thread nD τ) ↦[(oS (pX c) 5).view.set]{fullShare} fo)
        ∗ ((oS (pX c) 6).view.loc (c : Thread nD τ) ↦[(oS (pX c) 6).view.set]{fullShare} fo)
        ∗ ((oS (pX c) 7).view.loc (c : Thread nD τ) ↦[(oS (pX c) 7).view.set]{fullShare} fo))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS (1#32).toNat) kk) Q) := by
  subst hn
  iintro ⟨#HI, HO, Htok, #HR, H0, H1, H2, H3, H4, H5, H6, H7⟩
  iapply (Rounds.wp_signal 𝒱₀ ER (Rd (SBf m) (OUTf m)) (c : Thread nD τ) none (dst := (pX c : Thread nD τ)) (κ := K (barCell (pX c)))
      (d := true) (by rw [duties_bar]; decide) ((amount_bar (SBf m) (OUTf m) (pX c) true).trans (by decide)) () O rfl)
    $$ [HO Htok H0 H1 H2 H3 H4 H5 H6 H7]
  isplitr; · iexact HI
  isplitl [HO]; · iexact HO
  isplitl [Htok]; · iexact Htok
  isplitr [HR]
  · rw [payload_barX_to]
    isplitl [H0]; · iexists fo; iexact H0
    isplitl [H1]; · iexists fo; iexact H1
    isplitl [H2]; · iexists fo; iexact H2
    isplitl [H3]; · iexists fo; iexact H3
    isplitl [H4]; · iexists fo; iexact H4
    isplitl [H5]; · iexists fo; iexact H5
    isplitl [H6]; · iexists fo; iexact H6
    iexists fo; iexact H7
  · iexact HR

/-! ## The partners' cells' invariants, one by one -/

theorem peer_BarY (K : GSem nD τ sig → ℕ) (c : Dev nD) : peerInvs m K c ⊢ cellInv ER (Rd (SBf m) (OUTf m)) (K (barCell (pY c))) (barCell (pY c)) := by
  unfold peerInvs; iintro ⟨#H0, #H1, #H2, #H3, #H4, #H5, #H6, #H7, #H8, #H9, #H10, #H11, #H12, #H13, #H14, #H15, #H16, #H17⟩; iexact H0
theorem peer_BarX (K : GSem nD τ sig → ℕ) (c : Dev nD) : peerInvs m K c ⊢ cellInv ER (Rd (SBf m) (OUTf m)) (K (barCell (pX c))) (barCell (pX c)) := by
  unfold peerInvs; iintro ⟨#H0, #H1, #H2, #H3, #H4, #H5, #H6, #H7, #H8, #H9, #H10, #H11, #H12, #H13, #H14, #H15, #H16, #H17⟩; iexact H1
theorem peer_aRY0 (K : GSem nD τ sig → ℕ) (c : Dev nD) : peerInvs m K c ⊢ cellInv ER (Rd (SBf m) (OUTf m)) (K (aRCell (pY c) 0)) (aRCell (pY c) 0) := by
  unfold peerInvs; iintro ⟨#H0, #H1, #H2, #H3, #H4, #H5, #H6, #H7, #H8, #H9, #H10, #H11, #H12, #H13, #H14, #H15, #H16, #H17⟩; iexact H2
theorem peer_bRX0 (K : GSem nD τ sig → ℕ) (c : Dev nD) : peerInvs m K c ⊢ cellInv ER (Rd (SBf m) (OUTf m)) (K (bRCell (pX c) 0)) (bRCell (pX c) 0) := by
  unfold peerInvs; iintro ⟨#H0, #H1, #H2, #H3, #H4, #H5, #H6, #H7, #H8, #H9, #H10, #H11, #H12, #H13, #H14, #H15, #H16, #H17⟩; iexact H3
theorem peer_aRY1 (K : GSem nD τ sig → ℕ) (c : Dev nD) : peerInvs m K c ⊢ cellInv ER (Rd (SBf m) (OUTf m)) (K (aRCell (pY c) 1)) (aRCell (pY c) 1) := by
  unfold peerInvs; iintro ⟨#H0, #H1, #H2, #H3, #H4, #H5, #H6, #H7, #H8, #H9, #H10, #H11, #H12, #H13, #H14, #H15, #H16, #H17⟩; iexact H4
theorem peer_bRX1 (K : GSem nD τ sig → ℕ) (c : Dev nD) : peerInvs m K c ⊢ cellInv ER (Rd (SBf m) (OUTf m)) (K (bRCell (pX c) 1)) (bRCell (pX c) 1) := by
  unfold peerInvs; iintro ⟨#H0, #H1, #H2, #H3, #H4, #H5, #H6, #H7, #H8, #H9, #H10, #H11, #H12, #H13, #H14, #H15, #H16, #H17⟩; iexact H5
theorem peer_aRY2 (K : GSem nD τ sig → ℕ) (c : Dev nD) : peerInvs m K c ⊢ cellInv ER (Rd (SBf m) (OUTf m)) (K (aRCell (pY c) 2)) (aRCell (pY c) 2) := by
  unfold peerInvs; iintro ⟨#H0, #H1, #H2, #H3, #H4, #H5, #H6, #H7, #H8, #H9, #H10, #H11, #H12, #H13, #H14, #H15, #H16, #H17⟩; iexact H6
theorem peer_bRX2 (K : GSem nD τ sig → ℕ) (c : Dev nD) : peerInvs m K c ⊢ cellInv ER (Rd (SBf m) (OUTf m)) (K (bRCell (pX c) 2)) (bRCell (pX c) 2) := by
  unfold peerInvs; iintro ⟨#H0, #H1, #H2, #H3, #H4, #H5, #H6, #H7, #H8, #H9, #H10, #H11, #H12, #H13, #H14, #H15, #H16, #H17⟩; iexact H7
theorem peer_aRY3 (K : GSem nD τ sig → ℕ) (c : Dev nD) : peerInvs m K c ⊢ cellInv ER (Rd (SBf m) (OUTf m)) (K (aRCell (pY c) 3)) (aRCell (pY c) 3) := by
  unfold peerInvs; iintro ⟨#H0, #H1, #H2, #H3, #H4, #H5, #H6, #H7, #H8, #H9, #H10, #H11, #H12, #H13, #H14, #H15, #H16, #H17⟩; iexact H8
theorem peer_bRX3 (K : GSem nD τ sig → ℕ) (c : Dev nD) : peerInvs m K c ⊢ cellInv ER (Rd (SBf m) (OUTf m)) (K (bRCell (pX c) 3)) (bRCell (pX c) 3) := by
  unfold peerInvs; iintro ⟨#H0, #H1, #H2, #H3, #H4, #H5, #H6, #H7, #H8, #H9, #H10, #H11, #H12, #H13, #H14, #H15, #H16, #H17⟩; iexact H9
theorem peer_aRY4 (K : GSem nD τ sig → ℕ) (c : Dev nD) : peerInvs m K c ⊢ cellInv ER (Rd (SBf m) (OUTf m)) (K (aRCell (pY c) 4)) (aRCell (pY c) 4) := by
  unfold peerInvs; iintro ⟨#H0, #H1, #H2, #H3, #H4, #H5, #H6, #H7, #H8, #H9, #H10, #H11, #H12, #H13, #H14, #H15, #H16, #H17⟩; iexact H10
theorem peer_bRX4 (K : GSem nD τ sig → ℕ) (c : Dev nD) : peerInvs m K c ⊢ cellInv ER (Rd (SBf m) (OUTf m)) (K (bRCell (pX c) 4)) (bRCell (pX c) 4) := by
  unfold peerInvs; iintro ⟨#H0, #H1, #H2, #H3, #H4, #H5, #H6, #H7, #H8, #H9, #H10, #H11, #H12, #H13, #H14, #H15, #H16, #H17⟩; iexact H11
theorem peer_aRY5 (K : GSem nD τ sig → ℕ) (c : Dev nD) : peerInvs m K c ⊢ cellInv ER (Rd (SBf m) (OUTf m)) (K (aRCell (pY c) 5)) (aRCell (pY c) 5) := by
  unfold peerInvs; iintro ⟨#H0, #H1, #H2, #H3, #H4, #H5, #H6, #H7, #H8, #H9, #H10, #H11, #H12, #H13, #H14, #H15, #H16, #H17⟩; iexact H12
theorem peer_bRX5 (K : GSem nD τ sig → ℕ) (c : Dev nD) : peerInvs m K c ⊢ cellInv ER (Rd (SBf m) (OUTf m)) (K (bRCell (pX c) 5)) (bRCell (pX c) 5) := by
  unfold peerInvs; iintro ⟨#H0, #H1, #H2, #H3, #H4, #H5, #H6, #H7, #H8, #H9, #H10, #H11, #H12, #H13, #H14, #H15, #H16, #H17⟩; iexact H13
theorem peer_aRY6 (K : GSem nD τ sig → ℕ) (c : Dev nD) : peerInvs m K c ⊢ cellInv ER (Rd (SBf m) (OUTf m)) (K (aRCell (pY c) 6)) (aRCell (pY c) 6) := by
  unfold peerInvs; iintro ⟨#H0, #H1, #H2, #H3, #H4, #H5, #H6, #H7, #H8, #H9, #H10, #H11, #H12, #H13, #H14, #H15, #H16, #H17⟩; iexact H14
theorem peer_bRX6 (K : GSem nD τ sig → ℕ) (c : Dev nD) : peerInvs m K c ⊢ cellInv ER (Rd (SBf m) (OUTf m)) (K (bRCell (pX c) 6)) (bRCell (pX c) 6) := by
  unfold peerInvs; iintro ⟨#H0, #H1, #H2, #H3, #H4, #H5, #H6, #H7, #H8, #H9, #H10, #H11, #H12, #H13, #H14, #H15, #H16, #H17⟩; iexact H15
theorem peer_aRY7 (K : GSem nD τ sig → ℕ) (c : Dev nD) : peerInvs m K c ⊢ cellInv ER (Rd (SBf m) (OUTf m)) (K (aRCell (pY c) 7)) (aRCell (pY c) 7) := by
  unfold peerInvs; iintro ⟨#H0, #H1, #H2, #H3, #H4, #H5, #H6, #H7, #H8, #H9, #H10, #H11, #H12, #H13, #H14, #H15, #H16, #H17⟩; iexact H16
theorem peer_bRX7 (K : GSem nD τ sig → ℕ) (c : Dev nD) : peerInvs m K c ⊢ cellInv ER (Rd (SBf m) (OUTf m)) (K (bRCell (pX c) 7)) (bRCell (pX c) 7) := by
  unfold peerInvs; iintro ⟨#H0, #H1, #H2, #H3, #H4, #H5, #H6, #H7, #H8, #H9, #H10, #H11, #H12, #H13, #H14, #H15, #H16, #H17⟩; iexact H17

end Cert.Kernel.RS

end
-- ==== Proof.KPrep.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KCtx
import Idealize.ShloMosaic.Lib.Ring
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers as the body's run holds them -/

omit [FloatOps F] in
/-- A whole buffer spelt through its memref's view is the buffer. -/
theorem whole_eq (c : Dev nD) (b : Ref sig .tc) (q : PosShare TreeShare) (f : Buf (Elt F) ((c : Thread nD τ).loc b)) :
    (((Memref.whole b : Memref sig .tc b.space b.ty.shape b.ty.elt).view.loc (c : Thread nD τ)
        ↦[(Memref.whole b : Memref sig .tc b.space b.ty.shape b.ty.elt).view.set]{q} f) : sProp 𝕄)
      = (((c : Thread nD τ).loc b) ↦{q} f) := by
  rw [show (Memref.whole b : Memref sig .tc b.space b.ty.shape b.ty.elt).view.set = Finset.univ from View.set_whole _]

/-- The argument block's read tokens: token `i` serves the local copies completing on DMA semaphore `i`. -/
abbrev xTok (c : Dev nD) (X : Buf (Elt F) ((xM : Memref sig .tc .hbm S1x4096x2048 .f32).view.loc (c : Thread nD τ))) (i : ℕ) : sProp 𝕄 :=
  (xM : Memref sig .tc .hbm S1x4096x2048 .f32).view.loc (c : Thread nD τ) ↦[(xM : Memref sig .tc .hbm S1x4096x2048 .f32).view.set]{Transfers.shareTokN fullShare i} X
/-- What is left of the argument block beside the four tokens in use. -/
def xRest (c : Dev nD) (X : Buf (Elt F) ((xM : Memref sig .tc .hbm S1x4096x2048 .f32).view.loc (c : Thread nD τ))) : sProp 𝕄 :=
  iprop(((xM : Memref sig .tc .hbm S1x4096x2048 .f32).view.loc (c : Thread nD τ) ↦[(xM : Memref sig .tc .hbm S1x4096x2048 .f32).view.set]{Transfers.shareDrop fullShare 37} X)
    ∗ bigSep (Finset.range 33) (fun i => xTok c X i))

omit [FloatOps F] in
/-- The argument block, whole, is the four read tokens of the local copies' semaphores and the rest. -/
theorem x_toks (c : Dev nD) (X : Buf (Elt F) ((xM : Memref sig .tc .hbm S1x4096x2048 .f32).view.loc (c : Thread nD τ))) :
    (((xM : Memref sig .tc .hbm S1x4096x2048 .f32).view.loc (c : Thread nD τ) ↦[(xM : Memref sig .tc .hbm S1x4096x2048 .f32).view.set]{fullShare} X) : sProp 𝕄)
      ⊣⊢ iprop(xRest c X ∗ xTok c X 33 ∗ xTok c X 34 ∗ xTok c X 35 ∗ xTok c X 36) := by
  refine (Transfers.pointsTo_toks_range (q := fullShare) 37).trans ?_
  rw [show (37 : ℕ) = 36 + 1 from rfl, Ring.bigSep_range_succ 36, show (36 : ℕ) = 35 + 1 from rfl, Ring.bigSep_range_succ 35,
    show (35 : ℕ) = 34 + 1 from rfl, Ring.bigSep_range_succ 34, show (34 : ℕ) = 33 + 1 from rfl, Ring.bigSep_range_succ 33]
  unfold xRest
  constructor
  · iintro ⟨Hd, H36, H35, H34, H33, Hr⟩
    isplitl [Hd Hr]
    · isplitl [Hd] <;> iassumption
    isplitl [H33]; · iexact H33
    isplitl [H34]; · iexact H34
    isplitl [H35]; · iexact H35
    iexact H36
  · iintro ⟨⟨Hd, Hr⟩, H33, H34, H35, H36⟩
    isplitl [Hd]; · iexact Hd
    isplitl [H36]; · iexact H36
    isplitl [H35]; · iexact H35
    isplitl [H34]; · iexact H34
    isplitl [H33]; · iexact H33
    iexact Hr

/-! ## Closing a transfer cell -/

/-- A transfer cell whose one round is consumed closes: its counter, at zero, is the device's again. -/
theorem close_cell (K : GSem nD τ sig → ℕ) (g : GSem nD τ sig) :
    iprop(cellInv ER (Rd (SBf m) (OUTf m)) (K g) g ∗ atPos ER g 1 ∅ 0) ⊢ (|={Set.univ}=> semVal g 0 : sProp 𝕄) :=
  Rounds.cell_close ER (Rd (SBf m) (OUTf m)) (Set.mem_univ (K g)) (fun h => h) (R := 0 + 1) (duties_later (SBf m) (OUTf m) g)

end Cert.Kernel.RS

end
-- ==== Proof.KBody.lean ====
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.KSends
import proofs.«900308_g7700000000000309_dist_rs_v7x_xy2x2_y_m4096_n1024_bf16_1_alg».proof.Proof.KPrep
import proofs.«900308_g7700000000000309_dist_rs_v7x_xy2x2_y_m4096_n1024_bf16_1_alg».proof.Proof.KChunks
import proofs.«900308_g7700000000000309_dist_rs_v7x_xy2x2_y_m4096_n1024_bf16_1_alg».proof.Proof.KSpec
import proofs.«900308_g7700000000000309_dist_rs_v7x_xy2x2_y_m4096_n1024_bf16_1_alg».proof.Proof.KVfacts
import proofs.«900308_g7700000000000309_dist_rs_v7x_xy2x2_y_m4096_n1024_bf16_1_alg».proof.Proof.KVsum
import Idealize.ShloMosaic.Lib.Pipeline.Launch
import Idealize.ShloMosaic.Lib.Pipeline.Kit
import Idealize.ShloMosaic.Lib.Tactic

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

attribute [local sl_rounds] duties_bar duties_aS duties_aR duties_bS duties_bR amount_bar amount_aS amount_aR amount_bS amount_bR
  expect_bar expect_aS expect_aR expect_bS expect_bR payload_barY_own payload_barX_own
  payload_aS_pt payload_aR_pt payload_bS_pt payload_bR_pt
attribute [local sl_canon] dev1_eq dev2_eq dev3_eq dev4_eq dev5_eq dev6_eq dev7_eq dev8_eq dev9_eq dev10_eq dev11_eq dev12_eq dev13_eq dev14_eq dev15_eq dev16_eq dev17_eq dev18_eq

omit [FloatOps F] in
theorem bisep_eq (P Q : sProp 𝕄) : BI.sep P Q = iprop(P ∗ Q) := rfl

omit [FloatOps F] in
theorem ret_bind' {E : Type → Type} {α β : Type} (a : α) (k : α → Prog E β) : (Prog.ret a).bind k = k a := rfl

omit [FloatOps F] in
/-- A chunk held at contents that agree on it with `g` is the chunk at `g`. -/
theorem restate_chunk {sp : Space} {s : Shape} {e : EltTy} (M : Memref sig .tc sp s e) (d : Dev nD)
    (g : Buf (Elt F) (M.view.loc (d : Thread nD τ))) :
    iprop(∃ f : Buf (Elt F) (M.view.loc (d : Thread nD τ)), ⌜∀ i ∈ M.view.set, f i = g i⌝ ∗ (M.view.loc (d : Thread nD τ) ↦[M.view.set]{fullShare} f))
      ⊢ ((M.view.loc (d : Thread nD τ) ↦[M.view.set]{fullShare} g) : sProp 𝕄) := by
  iintro ⟨%f, %h, H⟩
  iapply (Entails.of_eq (pointsTo_congr h))
  iexact H

/-- What the body leaves: the invariant after it, nothing owed, the result's staging buffer at its final contents. -/
def bodyPost (c : Dev nD) : sProp 𝕄 :=
  iprop(Φ₁ m c ∗ (dats m 0 c).owesAt () (Gen.t0_0 : Fin cfg0.N).succ ∗ (∃ f : Buf (Elt F) ((c : Thread nD τ).loc cc0_stg0_0), ⌜f = OUTf m c⌝ ∗ (((c : Thread nD τ).loc cc0_stg0_0) ↦{fullShare} f)))

set_option sl_exec.dmaWindow true in
set_option sl_exec.dmaWindowSet true in
set_option maxHeartbeats 64000000 in
set_option maxRecDepth 100000 in
theorem sound_body (K : GSem nD τ sig → ℕ) (c : Dev nD) (W : Waits sig Unit)
    (fo : Buf (Elt F) ((c : Thread nD τ).loc cc0_stg0_0)) (Kt : PUnit → sProp 𝕄) :
    iprop(ghost m K c ∗ creds c ∗ levAts L lv ∗ locals0 c ∗ xPts m c ∗ scratch c
        ∗ owes (c : Thread nD τ) (O₀ c) W ∗ (((c : Thread nD τ).loc cc0_stg0_0) ↦{fullShare} fo)
        ∗ (bodyPost m c -∗ Kt ⟨⟩))
      ⊢ wp frame (wpE (defs₀ (F := F)) 𝒱₀ c none) Set.univ
          (cc0_body xM (Memref.isWhole_whole _) oM (Memref.isWhole_whole _) arM (Memref.isWhole_whole _) sbM (Memref.isWhole_whole _)
            mbM (Memref.isWhole_whole _) ssM (Memref.isWhole_whole _) smM (Memref.isWhole_whole _)
            cc0_scratch5 cc0_scratch6 cc0_scratch7 cc0_scratch8 cc0_scratch9 cc0_scratch10) Kt := by
  unfold ghost ownInvs reacheds positions payToks creds locals0 xPts scratch
  iintro ⟨⟨⟨#IBar, #IaS0, #IaR0, #IbS0, #IbR0, #IaS1, #IaR1, #IbS1, #IbR1, #IaS2, #IaR2, #IbS2, #IbR2, #IaS3, #IaR3, #IbS3, #IbR3, #IaS4, #IaR4, #IbS4, #IbR4, #IaS5, #IaR5, #IbS5, #IbR5, #IaS6, #IaR6, #IbS6, #IbR6, #IaS7, #IaR7, #IbS7, #IbR7⟩, #HP, ⟨#RBar, #RaS0, #RaR0, #RbS0, #RbR0, #RaS1, #RaR1, #RbS1, #RbR1, #RaS2, #RaR2, #RbS2, #RbR2, #RaS3, #RaR3, #RbS3, #RbR3, #RaS4, #RaR4, #RbS4, #RbR4, #RaS5, #RaR5, #RbS5, #RbR5, #RaS6, #RaR6, #RbS6, #RbR6, #RaS7, #RaR7, #RbS7, #RbR7, #RBarY, #RBarX, #RaRY0, #RbRX0, #RaRY1, #RbRX1, #RaRY2, #RbRX2, #RaRY3, #RbRX3, #RaRY4, #RbRX4, #RaRY5, #RbRX5, #RaRY6, #RbRX6, #RaRY7, #RbRX7⟩, ⟨AtBar, AtaS0, AtaR0, AtbS0, AtbR0, AtaS1, AtaR1, AtbS1, AtbR1, AtaS2, AtaR2, AtbS2, AtbR2, AtaS3, AtaR3, AtbS3, AtbR3, AtaS4, AtaR4, AtbS4, AtbR4, AtaS5, AtaR5, AtbS5, AtbR5, AtaS6, AtaR6, AtbS6, AtbR6, AtaS7, AtaR7, AtbS7, AtbR7⟩, ⟨TBarY, TBarX, TaS0, TbS0, TaRY0, TbRX0, TaS1, TbS1, TaRY1, TbRX1, TaS2, TbS2, TaRY2, TbRX2, TaS3, TbS3, TaRY3, TbRX3, TaS4, TbS4, TaRY4, TbRX4, TaS5, TbS5, TaRY5, TbRX5, TaS6, TbS6, TaRY6, TbRX6, TaS7, TbS7, TaRY7, TbRX7⟩⟩, ⟨CBar, CaR0, CbR0, CaR1, CbR1, CaR2, CbR2, CaR3, CbR3, CaR4, CbR4, CaR5, CbR5, CaR6, CbR6, CaR7, CbR7⟩, #Hlev, ⟨Zs0, Zs1, Zm0, Zm1⟩, Hx,
    ⟨⟨%far, Har⟩, ⟨%fsb, Hsb⟩, ⟨%fmb, Hmb⟩, ⟨%fss, Hss⟩, ⟨%fsm, Hsm⟩⟩, HO, Ho, Hk⟩
  -- the whole buffers through their memrefs' views; the exchanged ones by chunks; the argument block by read tokens
  ihave Hmb := (mb_split (F := F) c fmb).1 $$ Hmb
  icases Hmb with ⟨Hmb0, Hmb1, Hmb2, Hmb3, Hmb4, Hmb5, Hmb6, Hmb7⟩
  ihave Hss := (Entails.of_eq (whole_eq (F := F) c cc0_scratch3 fullShare fss).symm) $$ Hss
  ihave Hsm := (Entails.of_eq (whole_eq (F := F) c cc0_scratch4 fullShare fsm).symm) $$ Hsm
  ihave Hx := (Entails.of_eq (whole_eq (F := F) c main_arg0 fullShare (m ((c : Thread nD τ).loc main_arg0))).symm) $$ Hx
  ihave Hx := (x_toks (F := F) c (m ((c : Thread nD τ).loc main_arg0))).1 $$ Hx
  icases Hx with ⟨HxR, Hx33, Hx34, Hx35, Hx36⟩
  ihave Har := (ar_split (F := F) c far).1 $$ Har
  icases Har with ⟨Har0, Har1, Har2, Har3, Har4, Har5, Har6, Har7⟩
  ihave Hsb := (sb_split (F := F) c fsb).1 $$ Hsb
  icases Hsb with ⟨Hsb0, Hsb1, Hsb2, Hsb3, Hsb4, Hsb5, Hsb6, Hsb7⟩
  ihave Ho := (out_split (F := F) c fo).1 $$ Ho
  icases Ho with ⟨⟨Ho0, Ho1, Ho2, Ho3, Ho4, Ho5, Ho6, Ho7⟩, ⟨Hp0, Hp1, Hp2, Hp3, Hp4, Hp5, Hp6, Hp7⟩⟩
  have hsA0 : Sup (fun g => 0 < lv g ()) (OA0 c) := (sup_OA0 c).mono fun g h => by omega
  have hsA1 : Sup (fun g => 0 < lv g ()) (OA1 c) := (sup_OA1 c).mono fun g h => by omega
  have hsA2 : Sup (fun g => 0 < lv g ()) (OA2 c) := (sup_OA2 c).mono fun g h => by omega
  have hsA3 : Sup (fun g => 0 < lv g ()) (OA3 c) := (sup_OA3 c).mono fun g h => by omega
  have hsA4 : Sup (fun g => 0 < lv g ()) (OA4 c) := (sup_OA4 c).mono fun g h => by omega
  have hsA5 : Sup (fun g => 0 < lv g ()) (OA5 c) := (sup_OA5 c).mono fun g h => by omega
  have hsA6 : Sup (fun g => 0 < lv g ()) (OA6 c) := (sup_OA6 c).mono fun g h => by omega
  have hsA7 : Sup (fun g => 0 < lv g ()) (OA7 c) := (sup_OA7 c).mono fun g h => by omega
  have hsA8 : Sup (fun g => 0 < lv g ()) (OA8 c) := (sup_OA8 c).mono fun g h => by omega
  have hsB0 : Sup (fun g => 0 < lv g ()) (OB0 c) := (sup_OB0 c).mono fun g h => by omega
  have hsB1 : Sup (fun g => 0 < lv g ()) (OB1 c) := (sup_OB1 c).mono fun g h => by omega
  have hsB2 : Sup (fun g => 0 < lv g ()) (OB2 c) := (sup_OB2 c).mono fun g h => by omega
  have hsB3 : Sup (fun g => 0 < lv g ()) (OB3 c) := (sup_OB3 c).mono fun g h => by omega
  have hsB4 : Sup (fun g => 0 < lv g ()) (OB4 c) := (sup_OB4 c).mono fun g h => by omega
  have hsB5 : Sup (fun g => 0 < lv g ()) (OB5 c) := (sup_OB5 c).mono fun g h => by omega
  have hsB6 : Sup (fun g => 0 < lv g ()) (OB6 c) := (sup_OB6 c).mono fun g h => by omega
  have hsB7 : Sup (fun g => 0 < lv g ()) (OB7 c) := (sup_OB7 c).mono fun g h => by omega
  have hsB8 : Sup (fun g => 0 < lv g ()) (OB8 c) := (sup_OB8 c).mono fun g h => by omega
  have hMWloc : ∀ (q : DmaSem sig), (q.val = 0 ∨ 33 ≤ q.val) → ∀ O : CellTallies nD τ sig Unit, Sup (fun g => 0 < lv g ()) O →
      ((levAts L lv : sProp 𝕄) ⊢ MayWait (c : Thread nD τ) (.dma q) () O) :=
    fun q hq O hO => mayWait_of_sup (F := F) c (.dma q) 0 (le_of_eq (lv_other c q hq)) O hO
  have hws0 := mayWait_of_sup (F := F) c (.dma ss0) 0 (le_of_eq (lv_other c ss0 (Or.inr (by decide)))) (OA0 c) hsA0
  have hwm0 := mayWait_of_sup (F := F) c (.dma sm0) 0 (le_of_eq (lv_other c sm0 (Or.inr (by decide)))) (OA1 c) hsA1
  have hws1 := mayWait_of_sup (F := F) c (.dma ss1) 0 (le_of_eq (lv_other c ss1 (Or.inr (by decide)))) (OA1 c) hsA1
  have hwm1 := mayWait_of_sup (F := F) c (.dma sm1) 0 (le_of_eq (lv_other c sm1 (Or.inr (by decide)))) (OA2 c) hsA2
  have hws2 := mayWait_of_sup (F := F) c (.dma ss0) 0 (le_of_eq (lv_other c ss0 (Or.inr (by decide)))) (OA2 c) hsA2
  have hwm2 := mayWait_of_sup (F := F) c (.dma sm0) 0 (le_of_eq (lv_other c sm0 (Or.inr (by decide)))) (OA3 c) hsA3
  have hws3 := mayWait_of_sup (F := F) c (.dma ss1) 0 (le_of_eq (lv_other c ss1 (Or.inr (by decide)))) (OA3 c) hsA3
  have hwm3 := mayWait_of_sup (F := F) c (.dma sm1) 0 (le_of_eq (lv_other c sm1 (Or.inr (by decide)))) (OA4 c) hsA4
  have hws4 := mayWait_of_sup (F := F) c (.dma ss0) 0 (le_of_eq (lv_other c ss0 (Or.inr (by decide)))) (OA4 c) hsA4
  have hwm4 := mayWait_of_sup (F := F) c (.dma sm0) 0 (le_of_eq (lv_other c sm0 (Or.inr (by decide)))) (OA5 c) hsA5
  have hws5 := mayWait_of_sup (F := F) c (.dma ss1) 0 (le_of_eq (lv_other c ss1 (Or.inr (by decide)))) (OA5 c) hsA5
  have hwm5 := mayWait_of_sup (F := F) c (.dma sm1) 0 (le_of_eq (lv_other c sm1 (Or.inr (by decide)))) (OA6 c) hsA6
  have hws6 := mayWait_of_sup (F := F) c (.dma ss0) 0 (le_of_eq (lv_other c ss0 (Or.inr (by decide)))) (OA6 c) hsA6
  have hwm6 := mayWait_of_sup (F := F) c (.dma sm0) 0 (le_of_eq (lv_other c sm0 (Or.inr (by decide)))) (OA7 c) hsA7
  have hws7 := mayWait_of_sup (F := F) c (.dma ss1) 0 (le_of_eq (lv_other c ss1 (Or.inr (by decide)))) (OA7 c) hsA7
  have hwm7 := mayWait_of_sup (F := F) c (.dma sm1) 0 (le_of_eq (lv_other c sm1 (Or.inr (by decide)))) (OA8 c) hsA8
  have hMWbar := mayWait_of_sup (F := F) c (.reg barS) 1 (le_of_eq (lv_bar c)) (OA0 c) (sup_OA0 c)
  have hMWaR0 := mayWait_of_sup (F := F) c (.dma (aRs 0)) 2 (le_of_eq (lv_aR c 0)) (OB0 c) (sup_OB0 c)
  have hMWaR1 := mayWait_of_sup (F := F) c (.dma (aRs 1)) 2 (le_of_eq (lv_aR c 1)) (OB1 c) (sup_OB1 c)
  have hMWaR2 := mayWait_of_sup (F := F) c (.dma (aRs 2)) 2 (le_of_eq (lv_aR c 2)) (OB2 c) (sup_OB2 c)
  have hMWaR3 := mayWait_of_sup (F := F) c (.dma (aRs 3)) 2 (le_of_eq (lv_aR c 3)) (OB3 c) (sup_OB3 c)
  have hMWaR4 := mayWait_of_sup (F := F) c (.dma (aRs 4)) 2 (le_of_eq (lv_aR c 4)) (OB4 c) (sup_OB4 c)
  have hMWaR5 := mayWait_of_sup (F := F) c (.dma (aRs 5)) 2 (le_of_eq (lv_aR c 5)) (OB5 c) (sup_OB5 c)
  have hMWaR6 := mayWait_of_sup (F := F) c (.dma (aRs 6)) 2 (le_of_eq (lv_aR c 6)) (OB6 c) (sup_OB6 c)
  have hMWaR7 := mayWait_of_sup (F := F) c (.dma (aRs 7)) 2 (le_of_eq (lv_aR c 7)) (OB7 c) (sup_OB7 c)
  -- the four staging copies start; the run stops at the first signal
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- the two barrier signals, each with what it hands its partner
  try (rw [wp_ret]; imodintro)
  ihave #IBarY := (peer_BarY m K c) $$ HP
  unfold O₀ O₁
  iapply (wp_signalY m K c _ (by first | rfl | exact dev1_eq c) (OA0 c + tallyAt (barCell (pX c)) () 1) W far)
    $$ [HO TBarY Har0 Har1 Har2 Har3 Har4 Har5 Har6 Har7]
  · isplitr; · iexact IBarY
    isplitl [HO]; · iexact HO
    isplitl [TBarY]; · iexact TBarY
    isplitr; · iexact RBarY
    isplitl [Har0]; · iexact Har0
    isplitl [Har1]; · iexact Har1
    isplitl [Har2]; · iexact Har2
    isplitl [Har3]; · iexact Har3
    isplitl [Har4]; · iexact Har4
    isplitl [Har5]; · iexact Har5
    isplitl [Har6]; · iexact Har6
    iexact Har7
  iintro HO
  try rw [ret_bind']
  try (rw [wp_ret]; imodintro)
  ihave #IBarX := (peer_BarX m K c) $$ HP
  iapply (wp_signalX m K c _ (by first | rfl | exact dev2_eq c) (OA0 c) W fo)
    $$ [HO TBarX Hp0 Hp1 Hp2 Hp3 Hp4 Hp5 Hp6 Hp7]
  · isplitr; · iexact IBarX
    isplitl [HO]; · iexact HO
    isplitl [TBarX]; · iexact TBarX
    isplitr; · iexact RBarX
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  iintro HO
  try rw [ret_bind']
  -- the barrier wait, the first staged chunk's wait, its conversion and store; the run stops at the first transfer
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- what the partners handed over at the barrier, chunk by chunk
  ihave AtBar_pay1 := (Entails.of_eq (bisep_eq _ _)) $$ AtBar_pay1
  icases AtBar_pay1 with ⟨⟨⟨%fy0, HarY0⟩, ⟨%fy1, HarY1⟩, ⟨%fy2, HarY2⟩, ⟨%fy3, HarY3⟩, ⟨%fy4, HarY4⟩, ⟨%fy5, HarY5⟩, ⟨%fy6, HarY6⟩, ⟨%fy7, HarY7⟩⟩, ⟨⟨%fx0, HoX0⟩, ⟨%fx1, HoX1⟩, ⟨%fx2, HoX2⟩, ⟨%fx3, HoX3⟩, ⟨%fx4, HoX4⟩, ⟨%fx5, HoX5⟩, ⟨%fx6, HoX6⟩, ⟨%fx7, HoX7⟩⟩⟩
  -- first stage, chunk 0: the converted band goes to the second-axis partner
  ihave #IaRY0 := (peer_aRY0 m K c) $$ HP
  iapply (wp_sendA m K c _ (by first | rfl | exact dev3_eq c) 0 (OA1 c) _) $$ [Hsb0 HarY0 HO TaS0 TaRY0]
  · isplitr; · iexact IaS0
    isplitr; · iexact IaRY0
    isplitl [Hsb0]
    · iexists _
      isplitr
      rotate_left
      · iexact Hsb0
      · ipureintro
        exact valA m c 0 _ _ (fun p q => (stage_sh_ss0 _ _ _ p q).trans (dmaA_0 m c p q))
    isplitl [HarY0]; · iexists fy0; iexact HarY0
    isplitl [HO]; · iexact HO
    isplitl [TaS0]; · iexact TaS0
    isplitr; · iexact RaS0
    isplitl [TaRY0]; · iexact TaRY0
    iexact RaRY0
  iintro ⟨CaS0, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 1: the converted band goes to the second-axis partner
  ihave #IaRY1 := (peer_aRY1 m K c) $$ HP
  iapply (wp_sendA m K c _ (by first | rfl | exact dev4_eq c) 1 (OA2 c) _) $$ [Hsb1 HarY1 HO TaS1 TaRY1]
  · isplitr; · iexact IaS1
    isplitr; · iexact IaRY1
    isplitl [Hsb1]
    · iexists _
      isplitr
      rotate_left
      · iexact Hsb1
      · ipureintro
        exact valA m c 1 _ _ (fun p q => (stage_sh_ss1 _ _ _ p q).trans (dmaA_1 m c p q))
    isplitl [HarY1]; · iexists fy1; iexact HarY1
    isplitl [HO]; · iexact HO
    isplitl [TaS1]; · iexact TaS1
    isplitr; · iexact RaS1
    isplitl [TaRY1]; · iexact TaRY1
    iexact RaRY1
  iintro ⟨CaS1, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 2: the converted band goes to the second-axis partner
  ihave #IaRY2 := (peer_aRY2 m K c) $$ HP
  iapply (wp_sendA m K c _ (by first | rfl | exact dev5_eq c) 2 (OA3 c) _) $$ [Hsb2 HarY2 HO TaS2 TaRY2]
  · isplitr; · iexact IaS2
    isplitr; · iexact IaRY2
    isplitl [Hsb2]
    · iexists _
      isplitr
      rotate_left
      · iexact Hsb2
      · ipureintro
        exact valA m c 2 _ _ (fun p q => (stage_sh_ss0 _ _ _ p q).trans (dmaA_2 m c p q))
    isplitl [HarY2]; · iexists fy2; iexact HarY2
    isplitl [HO]; · iexact HO
    isplitl [TaS2]; · iexact TaS2
    isplitr; · iexact RaS2
    isplitl [TaRY2]; · iexact TaRY2
    iexact RaRY2
  iintro ⟨CaS2, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 3: the converted band goes to the second-axis partner
  ihave #IaRY3 := (peer_aRY3 m K c) $$ HP
  iapply (wp_sendA m K c _ (by first | rfl | exact dev6_eq c) 3 (OA4 c) _) $$ [Hsb3 HarY3 HO TaS3 TaRY3]
  · isplitr; · iexact IaS3
    isplitr; · iexact IaRY3
    isplitl [Hsb3]
    · iexists _
      isplitr
      rotate_left
      · iexact Hsb3
      · ipureintro
        exact valA m c 3 _ _ (fun p q => (stage_sh_ss1 _ _ _ p q).trans (dmaA_3 m c p q))
    isplitl [HarY3]; · iexists fy3; iexact HarY3
    isplitl [HO]; · iexact HO
    isplitl [TaS3]; · iexact TaS3
    isplitr; · iexact RaS3
    isplitl [TaRY3]; · iexact TaRY3
    iexact RaRY3
  iintro ⟨CaS3, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 4: the converted band goes to the second-axis partner
  ihave #IaRY4 := (peer_aRY4 m K c) $$ HP
  iapply (wp_sendA m K c _ (by first | rfl | exact dev7_eq c) 4 (OA5 c) _) $$ [Hsb4 HarY4 HO TaS4 TaRY4]
  · isplitr; · iexact IaS4
    isplitr; · iexact IaRY4
    isplitl [Hsb4]
    · iexists _
      isplitr
      rotate_left
      · iexact Hsb4
      · ipureintro
        exact valA m c 4 _ _ (fun p q => (stage_sh_ss0 _ _ _ p q).trans (dmaA_4 m c p q))
    isplitl [HarY4]; · iexists fy4; iexact HarY4
    isplitl [HO]; · iexact HO
    isplitl [TaS4]; · iexact TaS4
    isplitr; · iexact RaS4
    isplitl [TaRY4]; · iexact TaRY4
    iexact RaRY4
  iintro ⟨CaS4, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 5: the converted band goes to the second-axis partner
  ihave #IaRY5 := (peer_aRY5 m K c) $$ HP
  iapply (wp_sendA m K c _ (by first | rfl | exact dev8_eq c) 5 (OA6 c) _) $$ [Hsb5 HarY5 HO TaS5 TaRY5]
  · isplitr; · iexact IaS5
    isplitr; · iexact IaRY5
    isplitl [Hsb5]
    · iexists _
      isplitr
      rotate_left
      · iexact Hsb5
      · ipureintro
        exact valA m c 5 _ _ (fun p q => (stage_sh_ss1 _ _ _ p q).trans (dmaA_5 m c p q))
    isplitl [HarY5]; · iexists fy5; iexact HarY5
    isplitl [HO]; · iexact HO
    isplitl [TaS5]; · iexact TaS5
    isplitr; · iexact RaS5
    isplitl [TaRY5]; · iexact TaRY5
    iexact RaRY5
  iintro ⟨CaS5, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 6: the converted band goes to the second-axis partner
  ihave #IaRY6 := (peer_aRY6 m K c) $$ HP
  iapply (wp_sendA m K c _ (by first | rfl | exact dev9_eq c) 6 (OA7 c) _) $$ [Hsb6 HarY6 HO TaS6 TaRY6]
  · isplitr; · iexact IaS6
    isplitr; · iexact IaRY6
    isplitl [Hsb6]
    · iexists _
      isplitr
      rotate_left
      · iexact Hsb6
      · ipureintro
        exact valA m c 6 _ _ (fun p q => (stage_sh_ss0 _ _ _ p q).trans (dmaA_6 m c p q))
    isplitl [HarY6]; · iexists fy6; iexact HarY6
    isplitl [HO]; · iexact HO
    isplitl [TaS6]; · iexact TaS6
    isplitr; · iexact RaS6
    isplitl [TaRY6]; · iexact TaRY6
    iexact RaRY6
  iintro ⟨CaS6, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- first stage, chunk 7: the converted band goes to the second-axis partner
  ihave #IaRY7 := (peer_aRY7 m K c) $$ HP
  iapply (wp_sendA m K c _ (by first | rfl | exact dev10_eq c) 7 (OB0 c) _) $$ [Hsb7 HarY7 HO TaS7 TaRY7]
  · isplitr; · iexact IaS7
    isplitr; · iexact IaRY7
    isplitl [Hsb7]
    · iexists _
      isplitr
      rotate_left
      · iexact Hsb7
      · ipureintro
        exact valA m c 7 _ _ (fun p q => (stage_hit_ss1 _ _ p q).trans (dmaA_7 m c p q))
    isplitl [HarY7]; · iexists fy7; iexact HarY7
    isplitl [HO]; · iexact HO
    isplitl [TaS7]; · iexact TaS7
    isplitr; · iexact RaS7
    isplitl [TaRY7]; · iexact TaRY7
    iexact RaRY7
  iintro ⟨CaS7, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 0: the summed half goes to the first-axis partner
  ihave #IbRX0 := (peer_bRX0 m K c) $$ HP
  iapply (wp_sendB m K c _ (by first | rfl | exact dev11_eq c) 0 (OB1 c) _) $$ [Ho0 HoX0 HO TbS0 TbRX0]
  · isplitr; · iexact IbS0
    isplitr; · iexact IbRX0
    isplitl [Ho0]
    · iexists _
      isplitr
      rotate_left
      · iexact Ho0
      · ipureintro
        exact valB m c 0 _ _ _
          (fun p q => by
            first
              | exact (load_chunk_mb _ 0 p q).trans (valM m c 0 _ _ (fun p q => (stage_sh_sm0 _ _ _ p q).trans (dmaM_0 m c p q)) p q)
              | exact (conv_apply _ p q).trans (congrArg _ ((stage_sh_sm0 _ _ _ p q).trans (dmaM_0 m c p q))))
          (fun p q => loadAR m c 0 p q)
    isplitl [HoX0]; · iexists fx0; iexact HoX0
    isplitl [HO]; · iexact HO
    isplitl [TbS0]; · iexact TbS0
    isplitr; · iexact RbS0
    isplitl [TbRX0]; · iexact TbRX0
    iexact RbRX0
  iintro ⟨CbS0, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 1: the summed half goes to the first-axis partner
  ihave #IbRX1 := (peer_bRX1 m K c) $$ HP
  iapply (wp_sendB m K c _ (by first | rfl | exact dev12_eq c) 1 (OB2 c) _) $$ [Ho1 HoX1 HO TbS1 TbRX1]
  · isplitr; · iexact IbS1
    isplitr; · iexact IbRX1
    isplitl [Ho1]
    · iexists _
      isplitr
      rotate_left
      · iexact Ho1
      · ipureintro
        exact valB m c 1 _ _ _
          (fun p q => by
            first
              | exact (load_chunk_mb _ 1 p q).trans (valM m c 1 _ _ (fun p q => (stage_sh_sm1 _ _ _ p q).trans (dmaM_1 m c p q)) p q)
              | exact (conv_apply _ p q).trans (congrArg _ ((stage_sh_sm1 _ _ _ p q).trans (dmaM_1 m c p q))))
          (fun p q => loadAR m c 1 p q)
    isplitl [HoX1]; · iexists fx1; iexact HoX1
    isplitl [HO]; · iexact HO
    isplitl [TbS1]; · iexact TbS1
    isplitr; · iexact RbS1
    isplitl [TbRX1]; · iexact TbRX1
    iexact RbRX1
  iintro ⟨CbS1, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 2: the summed half goes to the first-axis partner
  ihave #IbRX2 := (peer_bRX2 m K c) $$ HP
  iapply (wp_sendB m K c _ (by first | rfl | exact dev13_eq c) 2 (OB3 c) _) $$ [Ho2 HoX2 HO TbS2 TbRX2]
  · isplitr; · iexact IbS2
    isplitr; · iexact IbRX2
    isplitl [Ho2]
    · iexists _
      isplitr
      rotate_left
      · iexact Ho2
      · ipureintro
        exact valB m c 2 _ _ _
          (fun p q => by
            first
              | exact (load_chunk_mb _ 2 p q).trans (valM m c 2 _ _ (fun p q => (stage_sh_sm0 _ _ _ p q).trans (dmaM_2 m c p q)) p q)
              | exact (conv_apply _ p q).trans (congrArg _ ((stage_sh_sm0 _ _ _ p q).trans (dmaM_2 m c p q))))
          (fun p q => loadAR m c 2 p q)
    isplitl [HoX2]; · iexists fx2; iexact HoX2
    isplitl [HO]; · iexact HO
    isplitl [TbS2]; · iexact TbS2
    isplitr; · iexact RbS2
    isplitl [TbRX2]; · iexact TbRX2
    iexact RbRX2
  iintro ⟨CbS2, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 3: the summed half goes to the first-axis partner
  ihave #IbRX3 := (peer_bRX3 m K c) $$ HP
  iapply (wp_sendB m K c _ (by first | rfl | exact dev14_eq c) 3 (OB4 c) _) $$ [Ho3 HoX3 HO TbS3 TbRX3]
  · isplitr; · iexact IbS3
    isplitr; · iexact IbRX3
    isplitl [Ho3]
    · iexists _
      isplitr
      rotate_left
      · iexact Ho3
      · ipureintro
        exact valB m c 3 _ _ _
          (fun p q => by
            first
              | exact (load_chunk_mb _ 3 p q).trans (valM m c 3 _ _ (fun p q => (stage_sh_sm1 _ _ _ p q).trans (dmaM_3 m c p q)) p q)
              | exact (conv_apply _ p q).trans (congrArg _ ((stage_sh_sm1 _ _ _ p q).trans (dmaM_3 m c p q))))
          (fun p q => loadAR m c 3 p q)
    isplitl [HoX3]; · iexists fx3; iexact HoX3
    isplitl [HO]; · iexact HO
    isplitl [TbS3]; · iexact TbS3
    isplitr; · iexact RbS3
    isplitl [TbRX3]; · iexact TbRX3
    iexact RbRX3
  iintro ⟨CbS3, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 4: the summed half goes to the first-axis partner
  ihave #IbRX4 := (peer_bRX4 m K c) $$ HP
  iapply (wp_sendB m K c _ (by first | rfl | exact dev15_eq c) 4 (OB5 c) _) $$ [Ho4 HoX4 HO TbS4 TbRX4]
  · isplitr; · iexact IbS4
    isplitr; · iexact IbRX4
    isplitl [Ho4]
    · iexists _
      isplitr
      rotate_left
      · iexact Ho4
      · ipureintro
        exact valB m c 4 _ _ _
          (fun p q => by
            first
              | exact (load_chunk_mb _ 4 p q).trans (valM m c 4 _ _ (fun p q => (stage_sh_sm0 _ _ _ p q).trans (dmaM_4 m c p q)) p q)
              | exact (conv_apply _ p q).trans (congrArg _ ((stage_sh_sm0 _ _ _ p q).trans (dmaM_4 m c p q))))
          (fun p q => loadAR m c 4 p q)
    isplitl [HoX4]; · iexists fx4; iexact HoX4
    isplitl [HO]; · iexact HO
    isplitl [TbS4]; · iexact TbS4
    isplitr; · iexact RbS4
    isplitl [TbRX4]; · iexact TbRX4
    iexact RbRX4
  iintro ⟨CbS4, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 5: the summed half goes to the first-axis partner
  ihave #IbRX5 := (peer_bRX5 m K c) $$ HP
  iapply (wp_sendB m K c _ (by first | rfl | exact dev16_eq c) 5 (OB6 c) _) $$ [Ho5 HoX5 HO TbS5 TbRX5]
  · isplitr; · iexact IbS5
    isplitr; · iexact IbRX5
    isplitl [Ho5]
    · iexists _
      isplitr
      rotate_left
      · iexact Ho5
      · ipureintro
        exact valB m c 5 _ _ _
          (fun p q => by
            first
              | exact (load_chunk_mb _ 5 p q).trans (valM m c 5 _ _ (fun p q => (stage_sh_sm1 _ _ _ p q).trans (dmaM_5 m c p q)) p q)
              | exact (conv_apply _ p q).trans (congrArg _ ((stage_sh_sm1 _ _ _ p q).trans (dmaM_5 m c p q))))
          (fun p q => loadAR m c 5 p q)
    isplitl [HoX5]; · iexists fx5; iexact HoX5
    isplitl [HO]; · iexact HO
    isplitl [TbS5]; · iexact TbS5
    isplitr; · iexact RbS5
    isplitl [TbRX5]; · iexact TbRX5
    iexact RbRX5
  iintro ⟨CbS5, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 6: the summed half goes to the first-axis partner
  ihave #IbRX6 := (peer_bRX6 m K c) $$ HP
  iapply (wp_sendB m K c _ (by first | rfl | exact dev17_eq c) 6 (OB7 c) _) $$ [Ho6 HoX6 HO TbS6 TbRX6]
  · isplitr; · iexact IbS6
    isplitr; · iexact IbRX6
    isplitl [Ho6]
    · iexists _
      isplitr
      rotate_left
      · iexact Ho6
      · ipureintro
        exact valB m c 6 _ _ _
          (fun p q => by
            first
              | exact (load_chunk_mb _ 6 p q).trans (valM m c 6 _ _ (fun p q => (stage_sh_sm0 _ _ _ p q).trans (dmaM_6 m c p q)) p q)
              | exact (conv_apply _ p q).trans (congrArg _ ((stage_sh_sm0 _ _ _ p q).trans (dmaM_6 m c p q))))
          (fun p q => loadAR m c 6 p q)
    isplitl [HoX6]; · iexists fx6; iexact HoX6
    isplitl [HO]; · iexact HO
    isplitl [TbS6]; · iexact TbS6
    isplitr; · iexact RbS6
    isplitl [TbRX6]; · iexact TbRX6
    iexact RbRX6
  iintro ⟨CbS6, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- second stage, chunk 7: the summed half goes to the first-axis partner
  ihave #IbRX7 := (peer_bRX7 m K c) $$ HP
  iapply (wp_sendB m K c _ (by first | rfl | exact dev18_eq c) 7 (0) _) $$ [Ho7 HoX7 HO TbS7 TbRX7]
  · isplitr; · iexact IbS7
    isplitr; · iexact IbRX7
    isplitl [Ho7]
    · iexists _
      isplitr
      rotate_left
      · iexact Ho7
      · ipureintro
        exact valB m c 7 _ _ _
          (fun p q => by
            first
              | exact (load_chunk_mb _ 7 p q).trans (valM m c 7 _ _ (fun p q => (stage_hit_sm1 _ _ p q).trans (dmaM_7 m c p q)) p q)
              | exact (conv_apply _ p q).trans (congrArg _ ((stage_hit_sm1 _ _ p q).trans (dmaM_7 m c p q))))
          (fun p q => loadAR m c 7 p q)
    isplitl [HoX7]; · iexists fx7; iexact HoX7
    isplitl [HO]; · iexact HO
    isplitl [TbS7]; · iexact TbS7
    isplitr; · iexact RbS7
    isplitl [TbRX7]; · iexact TbRX7
    iexact RbRX7
  iintro ⟨CbS7, HO⟩
  try rw [ret_bind']
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq])
  -- every wait is done: the 32 transfer cells close (their counters, at zero, are the device's again); the kernel returns
  imod (close_cell m K (aSCell c 0)) $$ [AtaS0] with ZaS0
  · isplitr; · iexact IaS0
    iexact AtaS0
  imod (close_cell m K (aRCell c 0)) $$ [AtaR0] with ZaR0
  · isplitr; · iexact IaR0
    iexact AtaR0
  imod (close_cell m K (bSCell c 0)) $$ [AtbS0] with ZbS0
  · isplitr; · iexact IbS0
    iexact AtbS0
  imod (close_cell m K (bRCell c 0)) $$ [AtbR0] with ZbR0
  · isplitr; · iexact IbR0
    iexact AtbR0
  imod (close_cell m K (aSCell c 1)) $$ [AtaS1] with ZaS1
  · isplitr; · iexact IaS1
    iexact AtaS1
  imod (close_cell m K (aRCell c 1)) $$ [AtaR1] with ZaR1
  · isplitr; · iexact IaR1
    iexact AtaR1
  imod (close_cell m K (bSCell c 1)) $$ [AtbS1] with ZbS1
  · isplitr; · iexact IbS1
    iexact AtbS1
  imod (close_cell m K (bRCell c 1)) $$ [AtbR1] with ZbR1
  · isplitr; · iexact IbR1
    iexact AtbR1
  imod (close_cell m K (aSCell c 2)) $$ [AtaS2] with ZaS2
  · isplitr; · iexact IaS2
    iexact AtaS2
  imod (close_cell m K (aRCell c 2)) $$ [AtaR2] with ZaR2
  · isplitr; · iexact IaR2
    iexact AtaR2
  imod (close_cell m K (bSCell c 2)) $$ [AtbS2] with ZbS2
  · isplitr; · iexact IbS2
    iexact AtbS2
  imod (close_cell m K (bRCell c 2)) $$ [AtbR2] with ZbR2
  · isplitr; · iexact IbR2
    iexact AtbR2
  imod (close_cell m K (aSCell c 3)) $$ [AtaS3] with ZaS3
  · isplitr; · iexact IaS3
    iexact AtaS3
  imod (close_cell m K (aRCell c 3)) $$ [AtaR3] with ZaR3
  · isplitr; · iexact IaR3
    iexact AtaR3
  imod (close_cell m K (bSCell c 3)) $$ [AtbS3] with ZbS3
  · isplitr; · iexact IbS3
    iexact AtbS3
  imod (close_cell m K (bRCell c 3)) $$ [AtbR3] with ZbR3
  · isplitr; · iexact IbR3
    iexact AtbR3
  imod (close_cell m K (aSCell c 4)) $$ [AtaS4] with ZaS4
  · isplitr; · iexact IaS4
    iexact AtaS4
  imod (close_cell m K (aRCell c 4)) $$ [AtaR4] with ZaR4
  · isplitr; · iexact IaR4
    iexact AtaR4
  imod (close_cell m K (bSCell c 4)) $$ [AtbS4] with ZbS4
  · isplitr; · iexact IbS4
    iexact AtbS4
  imod (close_cell m K (bRCell c 4)) $$ [AtbR4] with ZbR4
  · isplitr; · iexact IbR4
    iexact AtbR4
  imod (close_cell m K (aSCell c 5)) $$ [AtaS5] with ZaS5
  · isplitr; · iexact IaS5
    iexact AtaS5
  imod (close_cell m K (aRCell c 5)) $$ [AtaR5] with ZaR5
  · isplitr; · iexact IaR5
    iexact AtaR5
  imod (close_cell m K (bSCell c 5)) $$ [AtbS5] with ZbS5
  · isplitr; · iexact IbS5
    iexact AtbS5
  imod (close_cell m K (bRCell c 5)) $$ [AtbR5] with ZbR5
  · isplitr; · iexact IbR5
    iexact AtbR5
  imod (close_cell m K (aSCell c 6)) $$ [AtaS6] with ZaS6
  · isplitr; · iexact IaS6
    iexact AtaS6
  imod (close_cell m K (aRCell c 6)) $$ [AtaR6] with ZaR6
  · isplitr; · iexact IaR6
    iexact AtaR6
  imod (close_cell m K (bSCell c 6)) $$ [AtbS6] with ZbS6
  · isplitr; · iexact IbS6
    iexact AtbS6
  imod (close_cell m K (bRCell c 6)) $$ [AtbR6] with ZbR6
  · isplitr; · iexact IbR6
    iexact AtbR6
  imod (close_cell m K (aSCell c 7)) $$ [AtaS7] with ZaS7
  · isplitr; · iexact IaS7
    iexact AtaS7
  imod (close_cell m K (aRCell c 7)) $$ [AtaR7] with ZaR7
  · isplitr; · iexact IaR7
    iexact AtaR7
  imod (close_cell m K (bSCell c 7)) $$ [AtbS7] with ZbS7
  · isplitr; · iexact IbS7
    iexact AtbS7
  imod (close_cell m K (bRCell c 7)) $$ [AtbR7] with ZbR7
  · isplitr; · iexact IbR7
    iexact AtbR7
  rw [wp_ret]; imodintro
  iapply Hk
  -- the chunks rejoin: the result buffer at its final contents, the landing and the send buffers whole
  ihave Ho := (out_split (F := F) c (OUTf m c)).2 $$ [AtbS0_pay1 AtbS1_pay1 AtbS2_pay1 AtbS3_pay1 AtbS4_pay1 AtbS5_pay1 AtbS6_pay1 AtbS7_pay1 AtbR0_pay1 AtbR1_pay1 AtbR2_pay1 AtbR3_pay1 AtbR4_pay1 AtbR5_pay1 AtbR6_pay1 AtbR7_pay1]
  · isplitl [AtbS0_pay1 AtbS1_pay1 AtbS2_pay1 AtbS3_pay1 AtbS4_pay1 AtbS5_pay1 AtbS6_pay1 AtbS7_pay1]
    · isplitl [AtbS0_pay1]; · iexact AtbS0_pay1
      isplitl [AtbS1_pay1]; · iexact AtbS1_pay1
      isplitl [AtbS2_pay1]; · iexact AtbS2_pay1
      isplitl [AtbS3_pay1]; · iexact AtbS3_pay1
      isplitl [AtbS4_pay1]; · iexact AtbS4_pay1
      isplitl [AtbS5_pay1]; · iexact AtbS5_pay1
      isplitl [AtbS6_pay1]; · iexact AtbS6_pay1
      iexact AtbS7_pay1
    isplitl [AtbR0_pay1]; · iexact AtbR0_pay1
    isplitl [AtbR1_pay1]; · iexact AtbR1_pay1
    isplitl [AtbR2_pay1]; · iexact AtbR2_pay1
    isplitl [AtbR3_pay1]; · iexact AtbR3_pay1
    isplitl [AtbR4_pay1]; · iexact AtbR4_pay1
    isplitl [AtbR5_pay1]; · iexact AtbR5_pay1
    isplitl [AtbR6_pay1]; · iexact AtbR6_pay1
    iexact AtbR7_pay1
  ihave Har := (ar_split (F := F) c (SBf m (pY c))).2 $$ [AtaR0_pay1 AtaR1_pay1 AtaR2_pay1 AtaR3_pay1 AtaR4_pay1 AtaR5_pay1 AtaR6_pay1 AtaR7_pay1]
  · isplitl [AtaR0_pay1]; · iexact AtaR0_pay1
    isplitl [AtaR1_pay1]; · iexact AtaR1_pay1
    isplitl [AtaR2_pay1]; · iexact AtaR2_pay1
    isplitl [AtaR3_pay1]; · iexact AtaR3_pay1
    isplitl [AtaR4_pay1]; · iexact AtaR4_pay1
    isplitl [AtaR5_pay1]; · iexact AtaR5_pay1
    isplitl [AtaR6_pay1]; · iexact AtaR6_pay1
    iexact AtaR7_pay1
  ihave Hsb := (sb_split (F := F) c (SBf m c)).2 $$ [AtaS0_pay1 AtaS1_pay1 AtaS2_pay1 AtaS3_pay1 AtaS4_pay1 AtaS5_pay1 AtaS6_pay1 AtaS7_pay1]
  · isplitl [AtaS0_pay1]; · iexact AtaS0_pay1
    isplitl [AtaS1_pay1]; · iexact AtaS1_pay1
    isplitl [AtaS2_pay1]; · iexact AtaS2_pay1
    isplitl [AtaS3_pay1]; · iexact AtaS3_pay1
    isplitl [AtaS4_pay1]; · iexact AtaS4_pay1
    isplitl [AtaS5_pay1]; · iexact AtaS5_pay1
    isplitl [AtaS6_pay1]; · iexact AtaS6_pay1
    iexact AtaS7_pay1
  ihave Hx := (x_toks (F := F) c (m ((c : Thread nD τ).loc main_arg0))).2 $$ [HxR Hx33 Hx34 Hx35 Hx36]
  · isplitl [HxR]; · iexact HxR
    isplitl [Hx33]; · iexact Hx33
    isplitl [Hx34]; · iexact Hx34
    isplitl [Hx35]; · iexact Hx35
    iexact Hx36
  ihave Hx := (Entails.of_eq (whole_eq (F := F) c main_arg0 fullShare _)) $$ Hx
  ihave Hmb0 := (restate_chunk (F := F) (mbS 0) c (MBf m c)) $$ [Hmb0]
  · iexists _
    isplitr
    rotate_left
    · iexact Hmb0
    · ipureintro
      exact valMset m c 0 _ _ (fun p q => (stage_sh_sm0 _ _ _ p q).trans (dmaM_0 m c p q))
  ihave Hmb1 := (restate_chunk (F := F) (mbS 1) c (MBf m c)) $$ [Hmb1]
  · iexists _
    isplitr
    rotate_left
    · iexact Hmb1
    · ipureintro
      exact valMset m c 1 _ _ (fun p q => (stage_sh_sm1 _ _ _ p q).trans (dmaM_1 m c p q))
  ihave Hmb2 := (restate_chunk (F := F) (mbS 2) c (MBf m c)) $$ [Hmb2]
  · iexists _
    isplitr
    rotate_left
    · iexact Hmb2
    · ipureintro
      exact valMset m c 2 _ _ (fun p q => (stage_sh_sm0 _ _ _ p q).trans (dmaM_2 m c p q))
  ihave Hmb3 := (restate_chunk (F := F) (mbS 3) c (MBf m c)) $$ [Hmb3]
  · iexists _
    isplitr
    rotate_left
    · iexact Hmb3
    · ipureintro
      exact valMset m c 3 _ _ (fun p q => (stage_sh_sm1 _ _ _ p q).trans (dmaM_3 m c p q))
  ihave Hmb4 := (restate_chunk (F := F) (mbS 4) c (MBf m c)) $$ [Hmb4]
  · iexists _
    isplitr
    rotate_left
    · iexact Hmb4
    · ipureintro
      exact valMset m c 4 _ _ (fun p q => (stage_sh_sm0 _ _ _ p q).trans (dmaM_4 m c p q))
  ihave Hmb5 := (restate_chunk (F := F) (mbS 5) c (MBf m c)) $$ [Hmb5]
  · iexists _
    isplitr
    rotate_left
    · iexact Hmb5
    · ipureintro
      exact valMset m c 5 _ _ (fun p q => (stage_sh_sm1 _ _ _ p q).trans (dmaM_5 m c p q))
  ihave Hmb6 := (restate_chunk (F := F) (mbS 6) c (MBf m c)) $$ [Hmb6]
  · iexists _
    isplitr
    rotate_left
    · iexact Hmb6
    · ipureintro
      exact valMset m c 6 _ _ (fun p q => (stage_sh_sm0 _ _ _ p q).trans (dmaM_6 m c p q))
  ihave Hmb7 := (restate_chunk (F := F) (mbS 7) c (MBf m c)) $$ [Hmb7]
  · iexists _
    isplitr
    rotate_left
    · iexact Hmb7
    · ipureintro
      exact valMset m c 7 _ _ (fun p q => (stage_hit_sm1 _ _ p q).trans (dmaM_7 m c p q))
  ihave Hmb := (mb_split (F := F) c (MBf m c)).2 $$ [Hmb0 Hmb1 Hmb2 Hmb3 Hmb4 Hmb5 Hmb6 Hmb7]
  · isplitl [Hmb0]; · iexact Hmb0
    isplitl [Hmb1]; · iexact Hmb1
    isplitl [Hmb2]; · iexact Hmb2
    isplitl [Hmb3]; · iexact Hmb3
    isplitl [Hmb4]; · iexact Hmb4
    isplitl [Hmb5]; · iexact Hmb5
    isplitl [Hmb6]; · iexact Hmb6
    iexact Hmb7
  ihave Hss := (Entails.of_eq (whole_eq (F := F) c cc0_scratch3 fullShare _)) $$ Hss
  ihave Hsm := (Entails.of_eq (whole_eq (F := F) c cc0_scratch4 fullShare _)) $$ Hsm
  unfold bodyPost Φ₁ xPts scratch xferSems0 locals0 Dat.owesAt Pipeline.owesWithin
  isplitl [Hx Har Hsb Hmb Hss Hsm ZaS0 ZaS1 ZaS2 ZaS3 ZaS4 ZaS5 ZaS6 ZaS7 ZaR0 ZaR1 ZaR2 ZaR3 ZaR4 ZaR5 ZaR6 ZaR7 ZbS0 ZbS1 ZbS2 ZbS3 ZbS4 ZbS5 ZbS6 ZbS7 ZbR0 ZbR1 ZbR2 ZbR3 ZbR4 ZbR5 ZbR6 ZbR7 Zs0 Zs1 Zm0 Zm1]
  · isplitl [Hx]; · iexact Hx
    isplitl [Har Hsb Hmb Hss Hsm]
    · isplitl [Har]; · iexists _; iexact Har
      isplitl [Hsb]; · iexists _; iexact Hsb
      isplitl [Hmb]; · iexists _; iexact Hmb
      isplitl [Hss]; · iexists _; iexact Hss
      iexists _; iexact Hsm
    isplitl [ZaS0 ZaS1 ZaS2 ZaS3 ZaS4 ZaS5 ZaS6 ZaS7 ZaR0 ZaR1 ZaR2 ZaR3 ZaR4 ZaR5 ZaR6 ZaR7 ZbS0 ZbS1 ZbS2 ZbS3 ZbS4 ZbS5 ZbS6 ZbS7 ZbR0 ZbR1 ZbR2 ZbR3 ZbR4 ZbR5 ZbR6 ZbR7]
    · isplitl [ZaS0]; · iexact ZaS0
      isplitl [ZaS1]; · iexact ZaS1
      isplitl [ZaS2]; · iexact ZaS2
      isplitl [ZaS3]; · iexact ZaS3
      isplitl [ZaS4]; · iexact ZaS4
      isplitl [ZaS5]; · iexact ZaS5
      isplitl [ZaS6]; · iexact ZaS6
      isplitl [ZaS7]; · iexact ZaS7
      isplitl [ZaR0]; · iexact ZaR0
      isplitl [ZaR1]; · iexact ZaR1
      isplitl [ZaR2]; · iexact ZaR2
      isplitl [ZaR3]; · iexact ZaR3
      isplitl [ZaR4]; · iexact ZaR4
      isplitl [ZaR5]; · iexact ZaR5
      isplitl [ZaR6]; · iexact ZaR6
      isplitl [ZaR7]; · iexact ZaR7
      isplitl [ZbS0]; · iexact ZbS0
      isplitl [ZbS1]; · iexact ZbS1
      isplitl [ZbS2]; · iexact ZbS2
      isplitl [ZbS3]; · iexact ZbS3
      isplitl [ZbS4]; · iexact ZbS4
      isplitl [ZbS5]; · iexact ZbS5
      isplitl [ZbS6]; · iexact ZbS6
      isplitl [ZbS7]; · iexact ZbS7
      isplitl [ZbR0]; · iexact ZbR0
      isplitl [ZbR1]; · iexact ZbR1
      isplitl [ZbR2]; · iexact ZbR2
      isplitl [ZbR3]; · iexact ZbR3
      isplitl [ZbR4]; · iexact ZbR4
      isplitl [ZbR5]; · iexact ZbR5
      isplitl [ZbR6]; · iexact ZbR6
      iexact ZbR7
    isplitl [Zs0]; · iexact Zs0
    isplitl [Zs1]; · iexact Zs1
    isplitl [Zm0]; · iexact Zm0
    iexact Zm1
  isplitl [HO]
  · iexists _
    isplitr
    rotate_left
    · iexact HO
    · ipureintro; exact fun _ _ => Or.inl trivial
  · iexists _
    isplitr; · ipureintro; rfl
    iexact Ho

/-- What the pipeline hands the body: the invariant before it, what the device owes, the result's staging buffer at what it holds. -/
def bodyPre' (c : Dev nD) : sProp 𝕄 :=
  iprop(Φ₀ m c ∗ (dats m 0 c).owesAt () (Gen.t0_0 : Fin cfg0.N).castSucc
    ∗ (∃ d, ∃ f : Buf (Elt F) ((c : Thread nD τ).loc cc0_stg0_0), ⌜f = (dats m 0 c).before (0 : Fin 1) Gen.t0_0 d⌝ ∗ (((c : Thread nD τ).loc cc0_stg0_0) ↦{fullShare} f)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
set_option maxHeartbeats 4000000 in
/-- The library's body obligation on device `c`. -/
theorem body_obligation (c : Dev nD) : BodyObligation (dats (F := F) m 0 c) (defs₀ (F := F)) 𝒱₀ () Set.univ := fun t => by
  rw [Gen.fin_N0 t]
  rw [Gen.bigSep_W0, Gen.bigSep_W0]
  simp only [owns_whole_eq]
  show bodyPre' m c ⊢ wp frame (wpE (defs₀ (F := F)) 𝒱₀ c none) Set.univ
    (cc0_body xM (Memref.isWhole_whole _) oM (Memref.isWhole_whole _) arM (Memref.isWhole_whole _) sbM (Memref.isWhole_whole _)
            mbM (Memref.isWhole_whole _) ssM (Memref.isWhole_whole _) smM (Memref.isWhole_whole _)
            cc0_scratch5 cc0_scratch6 cc0_scratch7 cc0_scratch8 cc0_scratch9 cc0_scratch10) (fun _ => bodyPost m c)
  unfold bodyPre' Φ₀ start
  iintro ⟨⟨⟨⟨%K, Hg⟩, Hcr, Hlv⟩, Hloc, Hx, Hscr⟩, Ho, ⟨%d, %f0, %hf0, Hout⟩⟩
  unfold Dat.owesAt Pipeline.owesWithin
  icases Ho with ⟨%W, %hW, HO⟩
  iapply (sound_body m K c W f0 fun _ => bodyPost m c)
  isplitl [Hg]; · iexact Hg
  isplitl [Hcr]; · iexact Hcr
  isplitl [Hlv]; · iexact Hlv
  isplitl [Hloc]; · iexact Hloc
  isplitl [Hx]; · iexact Hx
  isplitl [Hscr]; · iexact Hscr
  isplitl [HO]; · iexact HO
  isplitl [Hout]; · iexact Hout
  iintro H; iexact H

/-- info: 'Cert.Kernel.RS.body_obligation' depends on axioms: [propext, Classical.choice, Quot.sound] -/
#guard_msgs in #print axioms body_obligation

end Cert.Kernel.RS

end
-- ==== Proof.RefSide.lean ====
import proofs.«900308_g7700000000000309_dist_rs_v7x_xy2x2_y_m4096_n1024_bf16_1_alg».proof.Defs
import proofs.«900308_g7700000000000309_dist_rs_v7x_xy2x2_y_m4096_n1024_bf16_1_alg».proof.Proof.Gen.ReferenceIdeal
import proofs.«900308_g7700000000000309_dist_rs_v7x_xy2x2_y_m4096_n1024_bf16_1_alg».proof.Proof.Gen.ReferenceIdeal.Run
import proofs.«900308_g7700000000000309_dist_rs_v7x_xy2x2_y_m4096_n1024_bf16_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefSide

open Idealize.ShloMosaic Idealize.ShloMosaic.TcCoe Idealize.SL.Sem

open Cert.ReferenceIdeal Cert.ReferenceIdeal.Gen

/-- The reference's result as one function of its argument array: the two slices along the leading axis added. -/
def refVal (A : (⟨3, ![2, 4096, 2048]⟩ : Shape).Idx → EReal) : (⟨2, ![4096, 2048]⟩ : Shape).Idx → EReal :=
  fun i => A (ValueIdx.ix3 (0 : Fin 2) (i 0) (i 1)) + A (ValueIdx.ix3 (1 : Fin 2) (i 0) (i 1))

/-- The index the reduction reads at position `k` of the leading axis is the index with coordinates `k`, `i 0`, `i 1`. -/
theorem idx_eq (i : S4096x2048.Idx) (k : Fin 2) : Read.idx_main_v0 i k = ValueIdx.ix3 k (i 0) (i 1) :=
  funext fun a => Fin.ext (by match a with | ⟨0, _⟩ => rfl | ⟨1, _⟩ => rfl | ⟨2, _⟩ => rfl)

/-- The last stage of the reference, read at an index: the change of format is the identity on the extended reals, the
    reduction's initial value is `0`, and the sum over the leading axis of length two is the sum of the two slices. -/
theorem val_eq (A : (⟨S2x4096x2048, .f32⟩ : BufTy).Contents (Elt Ideal)) :
    Read.val_main_v1 (F := Ideal) A = refVal A := by
  funext i
  rw [Read.val_main_v1_apply, Read.val_main_v0_apply, Read.val_main_cst_apply, Fin.sum_univ_two, idx_eq, idx_eq]
  show Ideal.ofBits .f32 0x00000000#32 + _ = _
  rw [Ideal.ofBits_zero_f32, zero_add]
  rfl

/-- Every weakly fair run of the reference ends with its result holding `refVal` of the argument array, the argument
    array unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
        r.2.mem (((0 : Dev Cert.ReferenceIdeal.nD).tc : Thread Cert.ReferenceIdeal.nD Cert.ReferenceIdeal.τ).loc Cert.ReferenceIdeal.main_v1)
          = refVal (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨((h 0).1.trans (Read.val_main_v1_eq _)).trans (val_eq _), (h 0).2⟩)
    (Cert.ReferenceIdeal.Value.run (F := Ideal) m' g')

/-- The reference runs and its argument array ends unchanged: the run above with the result dropped. -/
theorem frame_ri [hReferenceIdeal : Cert.ReferenceIdeal.Facts] [hPre : Cert.Pre_finite_inputs_ReferenceIdeal.Facts] : Cert.frame_ReferenceIdeal :=
  fun m g _ => (θ_run Cert.ReferenceIdeal.defs _ _).mono (fun _ h c => (h c).2)
    (Cert.ReferenceIdeal.Value.run (F := Ideal) m g)

/-- info: 'Cert.ReferenceIdeal.RefSide.ref_run' depends on axioms: [propext, Classical.choice, Quot.sound] -/
#guard_msgs in #print axioms Cert.ReferenceIdeal.RefSide.ref_run

end Cert.ReferenceIdeal.RefSide

end
-- ==== Proof.ValueId.lean ====
import proofs.«900308_g7700000000000309_dist_rs_v7x_xy2x2_y_m4096_n1024_bf16_1_alg».proof.Proof.Vals
import proofs.«900308_g7700000000000309_dist_rs_v7x_xy2x2_y_m4096_n1024_bf16_1_alg».proof.Proof.RefSide
import Idealize.ShloMosaic.Lib.Layout
import Idealize.ShloMosaic.Lib.ValueIdx
import Idealize.ShloMosaic.PureOps.Ideal

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.ReferenceIdeal.RefSide (refVal)

/-! ## What device `c` ends up holding is its block of the sum of the two slices

The whole argument array `A` has two slices of 4096 rows and 2048 columns; the reference's result is their sum. Device
`d` holds slice `d % 2`. The result is cut along its columns in two blocks of 1024, device `c` holding block `c % 2`.
Every element is named below by natural-number coordinates, so that the arithmetic is on naturals only. -/

/-- The element of the whole argument array at slice `s`, row `r`, column `q`. -/
def Aat (A : (⟨3, ![2, 4096, 2048]⟩ : Shape).Idx → EReal) (s r q : ℕ) (hs : s < 2) (hr : r < 4096) (hq : q < 2048) : EReal :=
  A (ValueIdx.ix3 (⟨s, hs⟩ : Fin 2) (⟨r, hr⟩ : Fin 4096) (⟨q, hq⟩ : Fin 2048))

/-- Equal coordinates name the same element. -/
theorem Aat_congr (A : (⟨3, ![2, 4096, 2048]⟩ : Shape).Idx → EReal) {s s' r r' q q' : ℕ} (es : s = s') (er : r = r') (eq : q = q')
    (hs : s < 2) (hr : r < 4096) (hq : q < 2048) (hs' : s' < 2) (hr' : r' < 4096) (hq' : q' < 2048) :
    Aat A s r q hs hr hq = Aat A s' r' q' hs' hr' hq' := by
  subst es; subst er; subst eq; rfl

/-- On the 2 × 2 mesh a dimension cut along the second mesh axis gives device `n` block `n % 2`. -/
theorem meshLin_second (n : ℕ) : Layout.meshLin [2, 2] n [1] = n % 2 := by
  show n / 1 % 2 * 1 + 0 = n % 2
  omega

/-- A dimension that is not cut is one block. -/
theorem meshLin_none (n : ℕ) : Layout.meshLin [2, 2] n [] = 0 := rfl

section
variable (m : (ℓ : Loc Cert.KernelIdeal.nD Cert.KernelIdeal.τ Cert.KernelIdeal.sig) → Buf (Elt Ideal) ℓ)
  (A : (⟨3, ![2, 4096, 2048]⟩ : Shape).Idx → EReal)
  (hA : ∀ c : Dev Cert.KernelIdeal.nD,
    m ((c.tc : Thread Cert.KernelIdeal.nD Cert.KernelIdeal.τ).loc Cert.KernelIdeal.main_arg0)
      = Layout.blockN ⟨3, ![1, 4096, 2048]⟩ ⟨3, ![2, 4096, 2048]⟩ (Layout.meshBlock [2, 2] ![[1], [], []] c) A)
include hA

/-- Device `d`'s block of the argument is slice `d % 2` of the whole array. -/
theorem Xof_eq (d : Dev nD) (r q : ℕ) (hr : r < 4096) (hq : q < 2048) :
    Xof (F := Ideal) m d (ValueIdx.ix3 (0 : Fin 1) (⟨r, hr⟩ : Fin 4096) (⟨q, hq⟩ : Fin 2048))
      = Aat A (d.val % 2) r q (Nat.mod_lt _ (by decide)) hr hq := by
  have h : Xof (F := Ideal) m d
      = Layout.blockN ⟨3, ![1, 4096, 2048]⟩ ⟨3, ![2, 4096, 2048]⟩ (Layout.meshBlock [2, 2] ![[1], [], []] d) A := hA d
  rw [h, Layout.blockN_apply]
  refine congrArg A (funext fun a => Fin.ext ?_)
  match a with
  | ⟨0, _⟩ =>
    show Layout.meshLin [2, 2] d.val [1] * 1 + 0 = d.val % 2
    rw [meshLin_second]; omega
  | ⟨1, _⟩ =>
    show Layout.meshLin [2, 2] d.val [] * 4096 + r = r
    rw [meshLin_none]; omega
  | ⟨2, _⟩ =>
    show Layout.meshLin [2, 2] d.val [] * 2048 + q = q
    rw [meshLin_none]; omega

/-- The half of the result device `o` computes, at row `r` and column `p` of its band: the two slices' elements at row `r`
    and column `colM o + p`, the kept one first. -/
theorem ownSum_eq (o : Dev nD) (r p : ℕ) (hr : r < 4096) (hp : p < 512) :
    ownSum (F := Ideal) m o (ValueIdx.ix2 (⟨r, hr⟩ : Fin 4096) (⟨p, hp⟩ : Fin 512))
      = Aat A (o.val % 2) r (colM o + p) (Nat.mod_lt _ (by decide)) hr (by have := colM_le o; omega)
        + Aat A (1 - o.val % 2) r (colM o + p) (by omega) hr (by have := colM_le o; omega) := by
  have e1 := Xof_eq m A hA o r (colM o + p) hr (by have := colM_le o; omega)
  have e2 := Xof_eq m A hA (pY o) r (colA (pY o) + p) hr (by have := colA_le (pY o); omega)
  have e3 : Aat A ((pY o).val % 2) r (colA (pY o) + p) (Nat.mod_lt _ (by decide)) hr (by have := colA_le (pY o); omega)
      = Aat A (1 - o.val % 2) r (colM o + p) (by omega) hr (by have := colM_le o; omega) :=
    Aat_congr A (pY_par o) rfl (by rw [colA_pY]) _ _ _ _ _ _
  exact congrArg₂ (fun a b : EReal => a + b) e1 (e2.trans e3)

omit hA in
/-- Device `c`'s block of the reference's result at row `i 0` and column `i 1`: the two slices' elements at that row and
    column `1024 (c % 2) + i 1`. -/
theorem ref_block_eq (c : Dev nD) (i : (⟨2, ![4096, 1024]⟩ : Shape).Idx) :
    (Layout.blockN ⟨2, ![4096, 1024]⟩ ⟨2, ![4096, 2048]⟩ (Layout.meshBlock [2, 2] ![[], [1]] c) (refVal A)) i
      = Aat A 0 (i 0).val (1024 * (c.val % 2) + (i 1).val) (by decide) (ValueIdx.idx2_lt0 i)
          (by have := ValueIdx.idx2_lt1 i; omega)
        + Aat A 1 (i 0).val (1024 * (c.val % 2) + (i 1).val) (by decide) (ValueIdx.idx2_lt0 i)
          (by have := ValueIdx.idx2_lt1 i; omega) := by
  rw [Layout.blockN_apply]
  refine congrArg₂ (fun a b : EReal => a + b) (congrArg A (funext fun a => Fin.ext ?_)) (congrArg A (funext fun a => Fin.ext ?_))
  · match a with
    | ⟨0, _⟩ => rfl
    | ⟨1, _⟩ =>
      show Layout.meshLin [2, 2] c.val [] * 4096 + (i 0).val = (i 0).val
      rw [meshLin_none]; omega
    | ⟨2, _⟩ =>
      show Layout.meshLin [2, 2] c.val [1] * 1024 + (i 1).val = 1024 * (c.val % 2) + (i 1).val
      rw [meshLin_second]; omega
  · match a with
    | ⟨0, _⟩ => rfl
    | ⟨1, _⟩ =>
      show Layout.meshLin [2, 2] c.val [] * 4096 + (i 0).val = (i 0).val
      rw [meshLin_none]; omega
    | ⟨2, _⟩ =>
      show Layout.meshLin [2, 2] c.val [1] * 1024 + (i 1).val = 1024 * (c.val % 2) + (i 1).val
      rw [meshLin_second]; omega

end

/-- The two slices' elements at one place, added in either order: slice `s` first and the other second is slice 0 plus
    slice 1 (addition of extended reals commutes; no finiteness is needed). -/
theorem pair_eq (A : (⟨3, ![2, 4096, 2048]⟩ : Shape).Idx → EReal) (s r q q' : ℕ) (e : q = q')
    (hs : s < 2) (hs' : 1 - s < 2) (hr : r < 4096) (hq : q < 2048) (hq' : q' < 2048) :
    Aat A s r q hs hr hq + Aat A (1 - s) r q hs' hr hq
      = Aat A 0 r q' (by decide) hr hq' + Aat A 1 r q' (by decide) hr hq' := by
  subst e
  have h01 : s = 0 ∨ s = 1 := by omega
  rcases h01 with rfl | rfl
  · rfl
  · exact add_comm (G := EReal) _ _

/-- The column of the whole array behind column `j` of device `c`'s result, when `c` itself computes it … -/
theorem col_own (c : Dev nD) (j : ℕ) (h : j / 512 = c.val / 2) : colM c + j % 512 = 1024 * (c.val % 2) + j := by
  unfold colM; omega

/-- … and when its first-axis partner does. -/
theorem col_other (c : Dev nD) (j : ℕ) (hj : j < 1024) (h : ¬ j / 512 = c.val / 2) :
    colM (pX c) + j % 512 = 1024 * (c.val % 2) + j := by
  have hc : c.val < 4 := c.isLt
  unfold colM; rw [pX_half, pX_par]; omega

/-- What the kernel leaves on device `c` is device `c`'s block of the reference's result. -/
theorem out_is_block
    (m : (ℓ : Loc Cert.KernelIdeal.nD Cert.KernelIdeal.τ Cert.KernelIdeal.sig) → Buf (Elt Ideal) ℓ)
    (A : (⟨3, ![2, 4096, 2048]⟩ : Shape).Idx → EReal)
    (hA : ∀ c : Dev Cert.KernelIdeal.nD,
      m ((c.tc : Thread Cert.KernelIdeal.nD Cert.KernelIdeal.τ).loc Cert.KernelIdeal.main_arg0)
        = Layout.blockN ⟨3, ![1, 4096, 2048]⟩ ⟨3, ![2, 4096, 2048]⟩ (Layout.meshBlock [2, 2] ![[1], [], []] c) A)
    (c : Dev Cert.KernelIdeal.nD) :
    OUTf (F := Ideal) m c
      = Layout.blockN ⟨2, ![4096, 1024]⟩ ⟨2, ![4096, 2048]⟩ (Layout.meshBlock [2, 2] ![[], [1]] c) (Cert.ReferenceIdeal.RefSide.refVal A) := by
  funext i
  refine Eq.trans ?_ (ref_block_eq A c i).symm
  have hj : (i 1).val < 1024 := ValueIdx.idx2_lt1 i
  show (if (i 1).val / 512 = c.val / 2
      then ownSum (F := Ideal) m c (ValueIdx.ix2 (⟨(i 0).val, (i 0).isLt⟩ : Fin 4096) (⟨(i 1).val % 512, Nat.mod_lt _ (by decide)⟩ : Fin 512))
      else ownSum (F := Ideal) m (pX c) (ValueIdx.ix2 (⟨(i 0).val, (i 0).isLt⟩ : Fin 4096) (⟨(i 1).val % 512, Nat.mod_lt _ (by decide)⟩ : Fin 512))) = _
  by_cases hc : (i 1).val / 512 = c.val / 2
  · rw [if_pos hc]
    refine (ownSum_eq m A hA c (i 0).val ((i 1).val % 512) _ _).trans ?_
    exact pair_eq A _ _ _ _ (col_own c _ hc) _ _ _ _ _
  · rw [if_neg hc]
    refine (ownSum_eq m A hA (pX c) (i 0).val ((i 1).val % 512) _ _).trans ?_
    exact pair_eq A _ _ _ _ (col_other c _ hj hc) _ _ _ _ _

/-- info: 'Cert.KernelIdeal.RS.out_is_block' depends on axioms: [propext, Classical.choice, Quot.sound] -/
#guard_msgs in #print axioms out_is_block

end Cert.KernelIdeal.RS

end
-- ==== Proof.lean ====
/- The five claims assembled.

   The kernel is a reduce-scatter on a 2×2 mesh: device (x, y) holds block y of the argument (two blocks of 4096 × 2048 along the
   leading axis) and ends holding columns 1024 y … 1024 y + 1023 of the sum of the two blocks. Each device converts two bands of
   512 columns of its block, sends one to its partner along the second axis, adds the band that lands to the band it kept — the
   512 columns of its result from 512 x — and exchanges that half with its partner along the first axis. At the ideal instance
   the conversions are the identity and the sum is the reference's, by commutativity of addition alone.

   The frames of both printed programs and the kernel's half of the value claim are one run of the launch theorem per program
   (`run_main`): every device's result buffer named, its argument unchanged. The reference's half is its generated run read
   back (`RefSide`). `preserves` is trivial: the ideal pass rewrote nothing. -/
import proofs.«900308_g7700000000000309_dist_rs_v7x_xy2x2_y_m4096_n1024_bf16_1_alg».proof.Defs
import proofs.«900308_g7700000000000309_dist_rs_v7x_xy2x2_y_m4096_n1024_bf16_1_alg».proof.Proof.Gen.Kernel
import proofs.«900308_g7700000000000309_dist_rs_v7x_xy2x2_y_m4096_n1024_bf16_1_alg».proof.Proof.Gen.Kernel.Skeleton
import proofs.«900308_g7700000000000309_dist_rs_v7x_xy2x2_y_m4096_n1024_bf16_1_alg».proof.Proof.Gen.Kernel.Launch
import proofs.«900308_g7700000000000309_dist_rs_v7x_xy2x2_y_m4096_n1024_bf16_1_alg».proof.Proof.Gen.Kernel.Points
import proofs.«900308_g7700000000000309_dist_rs_v7x_xy2x2_y_m4096_n1024_bf16_1_alg».proof.Proof.Gen.Kernel.Frame
import proofs.«900308_g7700000000000309_dist_rs_v7x_xy2x2_y_m4096_n1024_bf16_1_alg».proof.Proof.Gen.KernelIdeal
import proofs.«900308_g7700000000000309_dist_rs_v7x_xy2x2_y_m4096_n1024_bf16_1_alg».proof.Proof.Gen.KernelIdeal.Skeleton
import proofs.«900308_g7700000000000309_dist_rs_v7x_xy2x2_y_m4096_n1024_bf16_1_alg».proof.Proof.Gen.KernelIdeal.Launch
import proofs.«900308_g7700000000000309_dist_rs_v7x_xy2x2_y_m4096_n1024_bf16_1_alg».proof.Proof.Gen.KernelIdeal.Points
import proofs.«900308_g7700000000000309_dist_rs_v7x_xy2x2_y_m4096_n1024_bf16_1_alg».proof.Proof.Gen.KernelIdeal.Frame
import proofs.«900308_g7700000000000309_dist_rs_v7x_xy2x2_y_m4096_n1024_bf16_1_alg».proof.Proof.Gen.ReferenceIdeal
import proofs.«900308_g7700000000000309_dist_rs_v7x_xy2x2_y_m4096_n1024_bf16_1_alg».proof.Proof.Gen.Pre_finite_inputs_Kernel
import proofs.«900308_g7700000000000309_dist_rs_v7x_xy2x2_y_m4096_n1024_bf16_1_alg».proof.Proof.Gen.Pre_finite_inputs_ReferenceIdeal
import proofs.«900308_g7700000000000309_dist_rs_v7x_xy2x2_y_m4096_n1024_bf16_1_alg».proof.Proof.Alloc
import proofs.«900308_g7700000000000309_dist_rs_v7x_xy2x2_y_m4096_n1024_bf16_1_alg».proof.Proof.Launch
import proofs.«900308_g7700000000000309_dist_rs_v7x_xy2x2_y_m4096_n1024_bf16_1_alg».proof.Proof.Body
import proofs.«900308_g7700000000000309_dist_rs_v7x_xy2x2_y_m4096_n1024_bf16_1_alg».proof.Proof.KAlloc
import proofs.«900308_g7700000000000309_dist_rs_v7x_xy2x2_y_m4096_n1024_bf16_1_alg».proof.Proof.KLaunch
import proofs.«900308_g7700000000000309_dist_rs_v7x_xy2x2_y_m4096_n1024_bf16_1_alg».proof.Proof.KBody
import proofs.«900308_g7700000000000309_dist_rs_v7x_xy2x2_y_m4096_n1024_bf16_1_alg».proof.Proof.ValueId
import proofs.«900308_g7700000000000309_dist_rs_v7x_xy2x2_y_m4096_n1024_bf16_1_alg».proof.Proof.RefSide
import Idealize.ShloMosaic.Adequacy
import Idealize.ShloMosaic.Init

noncomputable section

namespace Cert.Proof

open Idealize.ShloMosaic Idealize.SL.Sem

/-- The word-level program runs on all four devices and leaves each device's argument block unchanged. -/
theorem frame_k : Cert.frame_Kernel := fun m ρ _ =>
  (θ_run (Cert.Kernel.defs (F := Bits)) _ _).mono (fun _ h c => (h c).2)
    (Cert.Kernel.RS.run_main (F := Bits) m ρ (Cert.Kernel.RS.G m) (Cert.Kernel.RS.u₀) Cert.Kernel.RS.ownSemFacts
      (Cert.Kernel.RS.fund_u₀ m) (Cert.Kernel.RS.glob m) (Cert.Kernel.RS.creds_of_launch) (Cert.Kernel.RS.body_obligation m))

/-- So does the idealized program. -/
theorem frame_ki : Cert.frame_KernelIdeal := fun m ρ _ =>
  (θ_run (Cert.KernelIdeal.defs (F := Ideal)) _ _).mono (fun _ h c => (h c).2)
    (Cert.KernelIdeal.RS.run_main (F := Ideal) m ρ (Cert.KernelIdeal.RS.G m) (Cert.KernelIdeal.RS.u₀) Cert.KernelIdeal.RS.ownSemFacts
      (Cert.KernelIdeal.RS.fund_u₀ m) (Cert.KernelIdeal.RS.glob m) (Cert.KernelIdeal.RS.creds_of_launch) (Cert.KernelIdeal.RS.body_obligation m))

/-- At the ideal instance each device's result buffer ends as its block of the reference's sum of the two argument blocks. -/
theorem algebraic : Cert.algebraic_KernelIdeal_ReferenceIdeal := by
  intro m g m' g' _ hagree
  refine ⟨Cert.ReferenceIdeal.RefSide.refVal (m' (((0 : Dev Cert.ReferenceIdeal.nD).tc : Thread Cert.ReferenceIdeal.nD Cert.ReferenceIdeal.τ).loc Cert.ReferenceIdeal.main_arg0)), ?_,
    Cert.ReferenceIdeal.RefSide.ref_run m' g'⟩
  refine (θ_run (Cert.KernelIdeal.defs (F := Ideal)) _ _).mono (fun _ h c => ⟨(h c).1.trans ?_, (h c).2⟩)
    (Cert.KernelIdeal.RS.run_main (F := Ideal) m g (Cert.KernelIdeal.RS.G m) (Cert.KernelIdeal.RS.u₀) Cert.KernelIdeal.RS.ownSemFacts
      (Cert.KernelIdeal.RS.fund_u₀ m) (Cert.KernelIdeal.RS.glob m) (Cert.KernelIdeal.RS.creds_of_launch) (Cert.KernelIdeal.RS.body_obligation m))
  exact Cert.KernelIdeal.RS.out_is_block m _ hagree c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.ReferenceIdeal.RefSide.frame_ri, trivial, algebraic⟩

end Cert.Proof

end
